-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v77)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v77) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v149) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x2 : Shape := ⟨2, ![128, 2]⟩
abbrev S2 : Shape := ⟨1, ![2]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg6 : FVec F S128 .f32) (main_arg7 : FVec F S128x2 .f32) (main_arg8 : FVec F S2 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x2 .f32 := Host.absf main_arg7
  let main_cst_8 : FVec F S_ .f32 := constant S_ .f32 0x7F800000#32
  let main_v25 : FVec F S128x2 .f32 := broadcastInDim S128x2 ![] bcast_S_S128x2 main_cst_8
  let main_v26 : IVec S128x2 1 := cmpf .olt main_v24 main_v25
  let main_c_9 : IVec S_ 1 := constantI S_ 1 1#1
  let main_v27 : IVec S_ 1 := (fun x v => Host.reduce IntOp.andi x v reducesTo_S128x2_S_d0_1 h_S_) main_v26 main_c_9
  let main_v28 : IVec S_ 1 := andi main_v23 main_v27
  let main_v29 : FVec F S2 .f32 := Host.absf main_arg8
  let main_cst_10 : FVec F S_ .f32 := constant S_ .f32 0x7F800000#32
  let main_v30 : FVec F S2 .f32 := broadcastInDim S2 ![] bcast_S_S2 main_cst_10
  let main_v31 : IVec S2 1 := cmpf .olt main_v29 main_v30
  let main_c_11 : IVec S_ 1 := constantI S_ 1 1#1
  let main_v32 : IVec S_ 1 := (fun x v => Host.reduce IntOp.andi x v reducesTo_S2_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : IVec S100000 32) (main_arg3 : FVec F S128x128 .f32) (main_arg4 : FVec F S128 .f32) (main_arg5 : FVec F S128x128 .f32) (main_arg6 : FVec F S128 .f32) (main_arg7 : FVec F S128x2 .f32) (main_arg8 : FVec F S2 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x2 : Shape := ⟨2, ![128, 2]⟩
abbrev S2 : Shape := ⟨1, ![2]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S100000x1 : Shape := ⟨2, ![100000, 1]⟩
abbrev S5000x128 : Shape := ⟨2, ![5000, 128]⟩
abbrev S1600000x128 : Shape := ⟨2, ![1600000, 128]⟩
abbrev S1x128 : Shape := ⟨2, ![1, 128]⟩
abbrev S5000x1 : Shape := ⟨2, ![5000, 1]⟩
abbrev S100000x2 : Shape := ⟨2, ![100000, 2]⟩
abbrev S5000x2 : Shape := ⟨2, ![5000, 2]⟩
abbrev S1600000x2 : Shape := ⟨2, ![1600000, 2]⟩
abbrev S1x2 : Shape := ⟨2, ![1, 2]⟩
abbrev S64x2 : Shape := ⟨2, ![64, 2]⟩
abbrev S64x1 : Shape := ⟨2, ![64, 1]⟩
abbrev S5000x64 : Shape := ⟨2, ![5000, 64]⟩

abbrev nBuf : Space → Nat
  | .hbm => 103
  | .vmem => 49
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x2, .f32⟩
  | .hbm, ⟨8, _⟩ => ⟨S2, .f32⟩
  | .hbm, ⟨9, _⟩ => ⟨S1x1600000, .i32⟩
  | .hbm, ⟨10, _⟩ => ⟨S1600000, .i32⟩
  | .hbm, ⟨11, _⟩ => ⟨S1x1600000, .i32⟩
  | .hbm, ⟨12, _⟩ => ⟨S1600000, .i32⟩
  | .hbm, ⟨13, _⟩ => ⟨S_, .f32⟩
  | .hbm, ⟨14, _⟩ => ⟨S1600000, .f32⟩
  | .hbm, ⟨15, _⟩ => ⟨S_, .f32⟩
  | .hbm, ⟨16, _⟩ => ⟨S100000, .f32⟩
  | .hbm, ⟨17, _⟩ => ⟨S1600000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S100000, .f32⟩
  | .hbm, ⟨23, _⟩ => ⟨S_, .i32⟩
  | .hbm, ⟨24, _⟩ => ⟨S1600000, .i32⟩
  | .hbm, ⟨25, _⟩ => ⟨S1600000, .i1⟩
  | .hbm, ⟨26, _⟩ => ⟨S_, .i32⟩
  | .hbm, ⟨27, _⟩ => ⟨S1600000, .i32⟩
  | .hbm, ⟨28, _⟩ => ⟨S1600000, .i32⟩
  | .hbm, ⟨29, _⟩ => ⟨S1600000, .i32⟩
  | .hbm, ⟨30, _⟩ => ⟨S1600000x1, .i32⟩
  | .hbm, ⟨31, _⟩ => ⟨S1600000, .f32⟩
  | .hbm, ⟨32, _⟩ => ⟨S_, .i32⟩
  | .hbm, ⟨33, _⟩ => ⟨S1600000, .i32⟩
  | .hbm, ⟨34, _⟩ => ⟨S1600000, .i1⟩
  | .hbm, ⟨35, _⟩ => ⟨S_, .i32⟩
  | .hbm, ⟨36, _⟩ => ⟨S1600000, .i32⟩
  | .hbm, ⟨37, _⟩ => ⟨S1600000, .i32⟩
  | .hbm, ⟨38, _⟩ => ⟨S1600000, .i32⟩
  | .hbm, ⟨39, _⟩ => ⟨S1600000x1, .i32⟩
  | .hbm, ⟨40, _⟩ => ⟨S1600000, .f32⟩
  | .hbm, ⟨41, _⟩ => ⟨S1600000, .f32⟩
  | .hbm, ⟨42, _⟩ => ⟨S100000, .f32⟩
  | .hbm, ⟨43, _⟩ => ⟨S100000x1, .f32⟩
  | .hbm, ⟨44, _⟩ => ⟨S100000x128, .f32⟩
  | .hbm, ⟨45, _⟩ => ⟨S_, .i32⟩
  | .hbm, ⟨46, _⟩ => ⟨S1600000, .i32⟩
  | .hbm, ⟨47, _⟩ => ⟨S1600000, .i1⟩
  | .hbm, ⟨48, _⟩ => ⟨S_, .i32⟩
  | .hbm, ⟨49, _⟩ => ⟨S1600000, .i32⟩
  | .hbm, ⟨50, _⟩ => ⟨S1600000, .i32⟩
  | .hbm, ⟨51, _⟩ => ⟨S1600000, .i32⟩
  | .hbm, ⟨52, _⟩ => ⟨S1600000x1, .i32⟩
  | .hbm, ⟨53, _⟩ => ⟨S1600000x128, .f32⟩
  | .hbm, ⟨54, _⟩ => ⟨S1600000x1, .f32⟩
  | .hbm, ⟨55, _⟩ => ⟨S1600000x128, .f32⟩
  | .hbm, ⟨56, _⟩ => ⟨S1600000x128, .f32⟩
  | .hbm, ⟨57, _⟩ => ⟨S_, .f32⟩
  | .hbm, ⟨58, _⟩ => ⟨S100000x128, .f32⟩
  | .hbm, ⟨59, _⟩ => ⟨S1600000x1, .i32⟩
  | .hbm, ⟨60, _⟩ => ⟨S100000x128, .f32⟩
  | .hbm, ⟨61, _⟩ => ⟨S1x128, .f32⟩
  | .hbm, ⟨62, _⟩ => ⟨S100000x128, .f32⟩
  | .hbm, ⟨63, _⟩ => ⟨S100000x128, .f32⟩
  | .hbm, ⟨64, _⟩ => ⟨S_, .i32⟩
  | .hbm, ⟨65, _⟩ => ⟨S1600000, .i32⟩
  | .hbm, ⟨66, _⟩ => ⟨S1600000, .i1⟩
  | .hbm, ⟨67, _⟩ => ⟨S_, .i32⟩
  | .hbm, ⟨68, _⟩ => ⟨S1600000, .i32⟩
  | .hbm, ⟨69, _⟩ => ⟨S1600000, .i32⟩
  | .hbm, ⟨70, _⟩ => ⟨S1600000, .i32⟩
  | .hbm, ⟨71, _⟩ => ⟨S1600000x1, .i32⟩
  | .hbm, ⟨72, _⟩ => ⟨S1600000x128, .f32⟩
  | .hbm, ⟨73, _⟩ => ⟨S1600000x1, .f32⟩
  | .hbm, ⟨74, _⟩ => ⟨S1600000x128, .f32⟩
  | .hbm, ⟨75, _⟩ => ⟨S1600000x128, .f32⟩
  | .hbm, ⟨76, _⟩ => ⟨S_, .f32⟩
  | .hbm, ⟨77, _⟩ => ⟨S100000x128, .f32⟩
  | .hbm, ⟨78, _⟩ => ⟨S1600000x1, .i32⟩
  | .hbm, ⟨79, _⟩ => ⟨S100000x128, .f32⟩
  | .hbm, ⟨80, _⟩ => ⟨S1x128, .f32⟩
  | .hbm, ⟨81, _⟩ => ⟨S100000x128, .f32⟩
  | .hbm, ⟨82, _⟩ => ⟨S100000x2, .f32⟩
  | .hbm, ⟨83, _⟩ => ⟨S_, .i32⟩
  | .hbm, ⟨84, _⟩ => ⟨S1600000, .i32⟩
  | .hbm, ⟨85, _⟩ => ⟨S1600000, .i1⟩
  | .hbm, ⟨86, _⟩ => ⟨S_, .i32⟩
  | .hbm, ⟨87, _⟩ => ⟨S1600000, .i32⟩
  | .hbm, ⟨88, _⟩ => ⟨S1600000, .i32⟩
  | .hbm, ⟨89, _⟩ => ⟨S1600000, .i32⟩
  | .hbm, ⟨90, _⟩ => ⟨S1600000x1, .i32⟩
  | .hbm, ⟨91, _⟩ => ⟨S1600000x2, .f32⟩
  | .hbm, ⟨92, _⟩ => ⟨S1600000x1, .f32⟩
  | .hbm, ⟨93, _⟩ => ⟨S1600000x2, .f32⟩
  | .hbm, ⟨94, _⟩ => ⟨S1600000x2, .f32⟩
  | .hbm, ⟨95, _⟩ => ⟨S_, .f32⟩
  | .hbm, ⟨96, _⟩ => ⟨S100000x2, .f32⟩
  | .hbm, ⟨97, _⟩ => ⟨S1600000x1, .i32⟩
  | .hbm, ⟨98, _⟩ => ⟨S100000x2, .f32⟩
  | .hbm, ⟨99, _⟩ => ⟨S1x2, .f32⟩
  | .hbm, ⟨100, _⟩ => ⟨S100000x2, .f32⟩
  | .hbm, ⟨101, _⟩ => ⟨S100000x1, .i32⟩
  | .hbm, ⟨102, _⟩ => ⟨S64x2, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S128x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x1, .f32⟩
  | .local _ .vmem, ⟨24, _⟩ => ⟨S5000x1, .f32⟩
  | .local _ .vmem, ⟨25, _⟩ => ⟨S1x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S128x2, .f32⟩
  | .local _ .vmem, ⟨31, _⟩ => ⟨S5000x2, .f32⟩
  | .local _ .vmem, ⟨32, _⟩ => ⟨S5000x2, .f32⟩
  | .local _ .vmem, ⟨33, _⟩ => ⟨S5000x2, .f32⟩
  | .local _ .vmem, ⟨34, _⟩ => ⟨S5000x2, .f32⟩
  | .local _ .vmem, ⟨35, _⟩ => ⟨S5000x2, .f32⟩
  | .local _ .vmem, ⟨36, _⟩ => ⟨S5000x2, .f32⟩
  | .local _ .vmem, ⟨37, _⟩ => ⟨S5000x1, .f32⟩
  | .local _ .vmem, ⟨38, _⟩ => ⟨S5000x1, .f32⟩
  | .local _ .vmem, ⟨39, _⟩ => ⟨S1x2, .f32⟩
  | .local _ .vmem, ⟨40, _⟩ => ⟨S5000x2, .f32⟩
  | .local _ .vmem, ⟨41, _⟩ => ⟨S5000x2, .f32⟩
  | .local _ .vmem, ⟨42, _⟩ => ⟨S5000x2, .f32⟩
  | .local _ .vmem, ⟨43, _⟩ => ⟨S5000x2, .f32⟩
  | .local _ .vmem, ⟨44, _⟩ => ⟨S5000x1, .i32⟩
  | .local _ .vmem, ⟨45, _⟩ => ⟨S5000x1, .i32⟩
  | .local _ .vmem, ⟨46, _⟩ => ⟨S64x2, .f32⟩
  | .local _ .vmem, ⟨47, _⟩ => ⟨S64x2, .f32⟩
  | .local _ .vmem, ⟨48, _⟩ => ⟨S64x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | _, _ => false

abbrev semScoped : Fin 0 → Bool
  | ⟨_, h⟩ => absurd h (Nat.not_lt_zero _)

abbrev dmaSemScoped : Fin 47 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | _ => false

abbrev sig : RefSig :=
  ofTc nBuf bufTy 0 47 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_c : Ref sig .tc := ⟨.hbm, 23, rfl⟩
abbrev main_v11 : Ref sig .tc := ⟨.hbm, 24, rfl⟩
abbrev main_v12 : Ref sig .tc := ⟨.hbm, 25, rfl⟩
abbrev main_c_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_c_4 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_c_5 : Ref sig .tc := ⟨.hbm, 45, rfl⟩
abbrev main_v29 : Ref sig .tc := ⟨.hbm, 46, rfl⟩
abbrev main_v30 : Ref sig .tc := ⟨.hbm, 47, rfl⟩
abbrev main_c_6 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_7 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_c_8 : Ref sig .tc := ⟨.hbm, 64, rfl⟩
abbrev main_v45 : Ref sig .tc := ⟨.hbm, 65, rfl⟩
abbrev main_v46 : Ref sig .tc := ⟨.hbm, 66, rfl⟩
abbrev main_c_9 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_10 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_c_11 : Ref sig .tc := ⟨.hbm, 83, rfl⟩
abbrev main_v61 : Ref sig .tc := ⟨.hbm, 84, rfl⟩
abbrev main_v62 : Ref sig .tc := ⟨.hbm, 85, rfl⟩
abbrev main_c_12 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_cst_13 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg2_1 : Ref sig .tc := ⟨.vmem, 32, rfl⟩
abbrev cc5_stg0_0 : Ref sig .tc := ⟨.vmem, 33, rfl⟩
abbrev cc5_stg0_1 : Ref sig .tc := ⟨.vmem, 34, rfl⟩
abbrev cc5_stg1_0 : Ref sig .tc := ⟨.vmem, 35, rfl⟩
abbrev cc5_stg1_1 : Ref sig .tc := ⟨.vmem, 36, rfl⟩
abbrev cc5_stg2_0 : Ref sig .tc := ⟨.vmem, 37, rfl⟩
abbrev cc5_stg2_1 : Ref sig .tc := ⟨.vmem, 38, rfl⟩
abbrev cc5_stg3_0 : Ref sig .tc := ⟨.vmem, 39, rfl⟩
abbrev cc5_stg4_0 : Ref sig .tc := ⟨.vmem, 40, rfl⟩
abbrev cc5_stg4_1 : Ref sig .tc := ⟨.vmem, 41, rfl⟩
abbrev cc6_stg0_0 : Ref sig .tc := ⟨.vmem, 42, rfl⟩
abbrev cc6_stg0_1 : Ref sig .tc := ⟨.vmem, 43, rfl⟩
abbrev cc6_stg1_0 : Ref sig .tc := ⟨.vmem, 44, rfl⟩
abbrev cc6_stg1_1 : Ref sig .tc := ⟨.vmem, 45, rfl⟩
abbrev cc6_stg2_0 : Ref sig .tc := ⟨.vmem, 46, rfl⟩
abbrev cc6_scratch0 : Ref sig .tc := ⟨.vmem, 47, rfl⟩
abbrev cc6_scratch1 : Ref sig .tc := ⟨.vmem, 48, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem2_1 : DmaSem sig := 32
abbrev cc5_sem0_0 : DmaSem sig := 33
abbrev cc5_sem0_1 : DmaSem sig := 34
abbrev cc5_sem1_0 : DmaSem sig := 35
abbrev cc5_sem1_1 : DmaSem sig := 36
abbrev cc5_sem2_0 : DmaSem sig := 37
abbrev cc5_sem2_1 : DmaSem sig := 38
abbrev cc5_sem3_0 : DmaSem sig := 39
abbrev cc5_sem4_0 : DmaSem sig := 40
abbrev cc5_sem4_1 : DmaSem sig := 41
abbrev cc6_sem0_0 : DmaSem sig := 42
abbrev cc6_sem0_1 : DmaSem sig := 43
abbrev cc6_sem1_0 : DmaSem sig := 44
abbrev cc6_sem1_1 : DmaSem sig := 45
abbrev cc6_sem2_0 : DmaSem sig := 46

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x2 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x2 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x2 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x2 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S5000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S1x2 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S5000x2 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![20], ![false]⟩

def k6_cond2 (i : grid6.Coords) : BitVec 1 :=
  let arg0 : BitVec 32 := BitVec.ofNat 32 (i 0).val
  let c19_i32 : BitVec 32 := 19#32
  let v25 : BitVec 1 := Scalar.cmpi .eq arg0 c19_i32
  let v26 : BitVec 32 := Scalar.extui v25
  let c0_i32_14 : BitVec 32 := 0#32
  let v27 : BitVec 1 := Scalar.cmpi .ne v26 c0_i32_14
  v27

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S5000x2 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5000x1 .i32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S64x2 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x2_S128x2_0_0 : ∀ a, (![0, 0] : Fin 2 → Nat) a + S128x2.size a ≤ S128x2.size a
  h_S128x2 : 0 < S128x2.numel
  inb_S5000x2_S5000x2_0_0 : ∀ a, (![0, 0] : Fin 2 → Nat) a + S5000x2.size a ≤ S5000x2.size a
  h_S5000x2 : 0 < S5000x2.numel
  bcast_S1600000x1_S1600000x2_0_1 : S1600000x1.BroadcastsInDim S1600000x2 (![0, 1] : Fin 2 → Fin S1600000x2.rank)
  bcast_S_S100000x2 : S_.BroadcastsInDim S100000x2 (![] : Fin 0 → Fin S100000x2.rank)
  shapeCasts_S2_S1x2 : S2.ShapeCasts S1x2
  shapeCasts_S5000x2_S5000x2 : S5000x2.ShapeCasts S5000x2
  broadcasts_S5000x1_S5000x2 : S5000x1.Broadcasts S5000x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S5000x2 : S1x2.Broadcasts S5000x2
  inb_S64x2_S64x2_0_0 : ∀ a, (![0, 0] : Fin 2 → Nat) a + S64x2.size a ≤ S64x2.size a
  h_S64x2 : 0 < S64x2.numel
  shapeCasts_S64x2_S64x2 : S64x2.ShapeCasts S64x2
  inb_S64x1_S64x1_0_0 : ∀ a, (![0, 0] : Fin 2 → Nat) a + S64x1.size a ≤ S64x1.size a
  h_S64x1 : 0 < S64x1.numel
  shapeCasts_S64x1_S64x1 : S64x1.ShapeCasts S64x1
  iota_S5000x64_d1_w32 : S5000x64.Iotas .tc 32 [1]
  broadcasts_S5000x1_S5000x64 : S5000x1.Broadcasts S5000x64
  natLt_1_32 : 1 < 32
  broadcasts_S64x1_S64x2 : S64x1.Broadcasts S64x2
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S5000x128_S128x128_S5000x128_1_0_0_1_n_n_wf : DotDims.WF S5000x128 S128x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x2_S5000x2_1_0_0_1_n_n_wf : DotDims.WF S5000x128 S128x2 S5000x2 [1] [0] [0] [1] [] []
  gather_S100000x2_S1600000x1_S1600000x2_1_0_n_n_0_1_12_wf : GatherDims.WF S100000x2 S1600000x1 S1600000x2 [1] [0] [] [0] [] 1 ![1, 2]
  scatter_S100000x2_S1600000x1_S1600000x2_1_0_0_1_wf : ScatterDims.WF S100000x2 S1600000x1 S1600000x2 [1] [0] [0] 1
  dot_S5000x64_S5000x2_S64x2_0_0_1_1_n_n_wf : DotDims.WF S5000x64 S5000x2 S64x2 [0] [0] [1] [1] [] []
  dot_S5000x64_S5000x1_S64x1_0_0_1_1_n_n_wf : DotDims.WF S5000x64 S5000x1 S64x1 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S100000x128.size a
  hwx1_4 : ∀ i : grid1.Coords, EltTy.bits .f32 = 32 ∨ (Rect.block (s := S100000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S100000x128.size a
  hwx3_1 : ∀ i : grid3.Coords, EltTy.bits .f32 = 32 ∨ (Rect.block (s := S100000x128) S5000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S100000x1.size a
  hwx3_2 : ∀ i : grid3.Coords, EltTy.bits .f32 = 32 ∨ (Rect.block (s := S100000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x128.size a ≤ S100000x128.size a
  hwx3_4 : ∀ i : grid3.Coords, EltTy.bits .f32 = 32 ∨ (Rect.block (s := S100000x128) S5000x128.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x2.size a ≤ S128x2.size a
  hwx4_1 : ∀ i : grid4.Coords, EltTy.bits .f32 = 32 ∨ (Rect.block (s := S128x2) S128x2.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x2.size a ≤ S100000x2.size a
  hwx4_2 : ∀ i : grid4.Coords, EltTy.bits .f32 = 32 ∨ (Rect.block (s := S100000x2) S5000x2.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x2.size a ≤ S100000x2.size a
  hwx5_0 : ∀ i : grid5.Coords, EltTy.bits .f32 = 32 ∨ (Rect.block (s := S100000x2) S5000x2.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x2.size a ≤ S100000x2.size a
  hwx5_1 : ∀ i : grid5.Coords, EltTy.bits .f32 = 32 ∨ (Rect.block (s := S100000x2) S5000x2.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x1.size a ≤ S100000x1.size a
  hwx5_2 : ∀ i : grid5.Coords, EltTy.bits .f32 = 32 ∨ (Rect.block (s := S100000x1) S5000x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x2.size a ≤ S1x2.size a
  hwx5_3 : ∀ i : grid5.Coords, EltTy.bits .f32 = 32 ∨ (Rect.block (s := S1x2) S1x2.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S5000x2.size a ≤ S100000x2.size a
  hwx5_4 : ∀ i : grid5.Coords, EltTy.bits .f32 = 32 ∨ (Rect.block (s := S100000x2) S5000x2.size (cc5_transform_4 i) (hinb5_4 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x2.size a ≤ S100000x2.size a
  hwx6_0 : ∀ i : grid6.Coords, EltTy.bits .f32 = 32 ∨ (Rect.block (s := S100000x2) S5000x2.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x1.size a ≤ S100000x1.size a
  hwx6_1 : ∀ i : grid6.Coords, EltTy.bits .i32 = 32 ∨ (Rect.block (s := S100000x1) S5000x1.size (cc6_transform_1 i) (hinb6_1 i)).WholeWords (EltTy.packing .i32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S64x2.size a ≤ S64x2.size a
  hwx6_2 : ∀ i : grid6.Coords, EltTy.bits .f32 = 32 ∨ (Rect.block (s := S64x2) S64x2.size (cc6_transform_2 i) (hinb6_2 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x2_S5000x2_1_0_0_1_n_n : DotDims S5000x128 S128x2 S5000x2 where
  lhsContracting := [1]
  rhsContracting := [0]
  lhsNonContracting := [0]
  rhsNonContracting := [1]
  lhsBatch := []
  rhsBatch := []
  wf := dot_S5000x128_S128x2_S5000x2_1_0_0_1_n_n_wf
def gather_S100000x2_S1600000x1_S1600000x2_1_0_n_n_0_1_12 : GatherDims S100000x2 S1600000x1 S1600000x2 where
  offsetDims := [1]
  collapsedSliceDims := [0]
  operandBatchingDims := []
  startIndicesBatchingDims := []
  startIndexMap := [0]
  indexVectorDim := 1
  sliceSizes := ![1, 2]
  wf := gather_S100000x2_S1600000x1_S1600000x2_1_0_n_n_0_1_12_wf
def scatter_S100000x2_S1600000x1_S1600000x2_1_0_0_1 : ScatterDims S100000x2 S1600000x1 S1600000x2 where
  updateWindowDims := [1]
  insertedWindowDims := [0]
  scatterDimsToOperandDims := [0]
  indexVectorDim := 1
  wf := scatter_S100000x2_S1600000x1_S1600000x2_1_0_0_1_wf
def dot_S5000x64_S5000x2_S64x2_0_0_1_1_n_n : DotDims S5000x64 S5000x2 S64x2 where
  lhsContracting := [0]
  rhsContracting := [0]
  lhsNonContracting := [1]
  rhsNonContracting := [1]
  lhsBatch := []
  rhsBatch := []
  wf := dot_S5000x64_S5000x2_S64x2_0_0_1_1_n_n_wf
def dot_S5000x64_S5000x1_S64x1_0_0_1_1_n_n : DotDims S5000x64 S5000x1 S64x1 where
  lhsContracting := [0]
  rhsContracting := [0]
  lhsNonContracting := [1]
  rhsNonContracting := [1]
  lhsBatch := []
  rhsBatch := []
  wf := dot_S5000x64_S5000x1_S64x1_0_0_1_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v28) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v41) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v42) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v43) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v44) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v57) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v44) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v27) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v58) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v59) S5000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v59) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S128x2.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v60) S5000x2.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v73) S5000x2.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v60) S5000x2.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v27) S5000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v74) S1x2.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v75) S5000x2.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v75) S5000x2.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v76) S5000x1.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v77) S64x2.size cc6_transform_2 reads6_2 true true 1 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev idle6 : Fin 3 → grid6.Coords → Bool := fun | 0 => fun _ => false | 1 => fun _ => false | 2 => fun i => !(k6_cond2 i == 1#1) | ⟨_ + 3, h⟩ => absurd h (Nat.not_lt.2 (Nat.le_add_left _ _))

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x2 : Shape := ⟨2, ![128, 2]⟩
abbrev S2 : Shape := ⟨1, ![2]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S100000x2 : Shape := ⟨2, ![100000, 2]⟩
abbrev S1600000x2 : Shape := ⟨2, ![1600000, 2]⟩
abbrev S1x2 : Shape := ⟨2, ![1, 2]⟩
abbrev S64x2 : Shape := ⟨2, ![64, 2]⟩
abbrev S64 : Shape := ⟨1, ![64]⟩
abbrev S64x1 : Shape := ⟨2, ![64, 1]⟩

abbrev nBuf : Space → Nat
  | .hbm => 197
  | .vmem => 0
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S128x128, .f32⟩
  | 4 => ⟨S128, .f32⟩
  | 5 => ⟨S128x128, .f32⟩
  | 6 => ⟨S128, .f32⟩
  | 7 => ⟨S128x2, .f32⟩
  | 8 => ⟨S2, .f32⟩
  | 9 => ⟨S1x1600000, .i32⟩
  | 10 => ⟨S1600000, .i32⟩
  | 11 => ⟨S1x1600000, .i32⟩
  | 12 => ⟨S1600000, .i32⟩
  | 13 => ⟨S100000x128, .f32⟩
  | 14 => ⟨S_, .f32⟩
  | 15 => ⟨S1600000, .f32⟩
  | 16 => ⟨S_, .f32⟩
  | 17 => ⟨S100000, .f32⟩
  | 18 => ⟨S1600000x1, .i32⟩
  | 19 => ⟨S100000, .f32⟩
  | 20 => ⟨S_, .f32⟩
  | 21 => ⟨S100000, .f32⟩
  | 22 => ⟨S100000, .f32⟩
  | 23 => ⟨S100000, .f32⟩
  | 24 => ⟨S_, .i32⟩
  | 25 => ⟨S1600000, .i32⟩
  | 26 => ⟨S1600000, .i1⟩
  | 27 => ⟨S_, .i32⟩
  | 28 => ⟨S1600000, .i32⟩
  | 29 => ⟨S1600000, .i32⟩
  | 30 => ⟨S1600000, .i32⟩
  | 31 => ⟨S1600000x1, .i32⟩
  | 32 => ⟨S1600000, .f32⟩
  | 33 => ⟨S_, .i32⟩
  | 34 => ⟨S1600000, .i32⟩
  | 35 => ⟨S1600000, .i1⟩
  | 36 => ⟨S_, .i32⟩
  | 37 => ⟨S1600000, .i32⟩
  | 38 => ⟨S1600000, .i32⟩
  | 39 => ⟨S1600000, .i32⟩
  | 40 => ⟨S1600000x1, .i32⟩
  | 41 => ⟨S1600000, .f32⟩
  | 42 => ⟨S1600000, .f32⟩
  | 43 => ⟨S_, .i32⟩
  | 44 => ⟨S1600000, .i32⟩
  | 45 => ⟨S1600000, .i1⟩
  | 46 => ⟨S_, .i32⟩
  | 47 => ⟨S1600000, .i32⟩
  | 48 => ⟨S1600000, .i32⟩
  | 49 => ⟨S1600000, .i32⟩
  | 50 => ⟨S1600000x1, .i32⟩
  | 51 => ⟨S1600000x128, .f32⟩
  | 52 => ⟨S1600000x1, .f32⟩
  | 53 => ⟨S1600000x128, .f32⟩
  | 54 => ⟨S1600000x128, .f32⟩
  | 55 => ⟨S_, .f32⟩
  | 56 => ⟨S100000x128, .f32⟩
  | 57 => ⟨S1600000x1, .i32⟩
  | 58 => ⟨S100000x128, .f32⟩
  | 59 => ⟨S100000, .f32⟩
  | 60 => ⟨S100000x1, .f32⟩
  | 61 => ⟨S100000x128, .f32⟩
  | 62 => ⟨S100000x128, .f32⟩
  | 63 => ⟨S100000x128, .f32⟩
  | 64 => ⟨S1x128, .f32⟩
  | 65 => ⟨S100000x128, .f32⟩
  | 66 => ⟨S100000x128, .f32⟩
  | 67 => ⟨S_, .f32⟩
  | 68 => ⟨S100000x128, .f32⟩
  | 69 => ⟨S100000x128, .f32⟩
  | 70 => ⟨S100000x128, .f32⟩
  | 71 => ⟨S_, .f32⟩
  | 72 => ⟨S1600000, .f32⟩
  | 73 => ⟨S_, .f32⟩
  | 74 => ⟨S100000, .f32⟩
  | 75 => ⟨S1600000x1, .i32⟩
  | 76 => ⟨S100000, .f32⟩
  | 77 => ⟨S_, .f32⟩
  | 78 => ⟨S100000, .f32⟩
  | 79 => ⟨S100000, .f32⟩
  | 80 => ⟨S100000, .f32⟩
  | 81 => ⟨S_, .i32⟩
  | 82 => ⟨S1600000, .i32⟩
  | 83 => ⟨S1600000, .i1⟩
  | 84 => ⟨S_, .i32⟩
  | 85 => ⟨S1600000, .i32⟩
  | 86 => ⟨S1600000, .i32⟩
  | 87 => ⟨S1600000, .i32⟩
  | 88 => ⟨S1600000x1, .i32⟩
  | 89 => ⟨S1600000, .f32⟩
  | 90 => ⟨S_, .i32⟩
  | 91 => ⟨S1600000, .i32⟩
  | 92 => ⟨S1600000, .i1⟩
  | 93 => ⟨S_, .i32⟩
  | 94 => ⟨S1600000, .i32⟩
  | 95 => ⟨S1600000, .i32⟩
  | 96 => ⟨S1600000, .i32⟩
  | 97 => ⟨S1600000x1, .i32⟩
  | 98 => ⟨S1600000, .f32⟩
  | 99 => ⟨S1600000, .f32⟩
  | 100 => ⟨S_, .i32⟩
  | 101 => ⟨S1600000, .i32⟩
  | 102 => ⟨S1600000, .i1⟩
  | 103 => ⟨S_, .i32⟩
  | 104 => ⟨S1600000, .i32⟩
  | 105 => ⟨S1600000, .i32⟩
  | 106 => ⟨S1600000, .i32⟩
  | 107 => ⟨S1600000x1, .i32⟩
  | 108 => ⟨S1600000x128, .f32⟩
  | 109 => ⟨S1600000x1, .f32⟩
  | 110 => ⟨S1600000x128, .f32⟩
  | 111 => ⟨S1600000x128, .f32⟩
  | 112 => ⟨S_, .f32⟩
  | 113 => ⟨S100000x128, .f32⟩
  | 114 => ⟨S1600000x1, .i32⟩
  | 115 => ⟨S100000x128, .f32⟩
  | 116 => ⟨S100000, .f32⟩
  | 117 => ⟨S100000x1, .f32⟩
  | 118 => ⟨S100000x128, .f32⟩
  | 119 => ⟨S100000x128, .f32⟩
  | 120 => ⟨S100000x128, .f32⟩
  | 121 => ⟨S1x128, .f32⟩
  | 122 => ⟨S100000x128, .f32⟩
  | 123 => ⟨S100000x128, .f32⟩
  | 124 => ⟨S_, .f32⟩
  | 125 => ⟨S100000x128, .f32⟩
  | 126 => ⟨S100000x128, .f32⟩
  | 127 => ⟨S100000x2, .f32⟩
  | _ => ⟨S100000x128, .f32⟩

abbrev hbmTy0_1 (i : Nat) : BufTy := match i % 128 with
  | 0 => ⟨S_, .f32⟩
  | 1 => ⟨S1600000, .f32⟩
  | 2 => ⟨S_, .f32⟩
  | 3 => ⟨S100000, .f32⟩
  | 4 => ⟨S1600000x1, .i32⟩
  | 5 => ⟨S100000, .f32⟩
  | 6 => ⟨S_, .f32⟩
  | 7 => ⟨S100000, .f32⟩
  | 8 => ⟨S100000, .f32⟩
  | 9 => ⟨S100000, .f32⟩
  | 10 => ⟨S_, .i32⟩
  | 11 => ⟨S1600000, .i32⟩
  | 12 => ⟨S1600000, .i1⟩
  | 13 => ⟨S_, .i32⟩
  | 14 => ⟨S1600000, .i32⟩
  | 15 => ⟨S1600000, .i32⟩
  | 16 => ⟨S1600000, .i32⟩
  | 17 => ⟨S1600000x1, .i32⟩
  | 18 => ⟨S1600000, .f32⟩
  | 19 => ⟨S_, .i32⟩
  | 20 => ⟨S1600000, .i32⟩
  | 21 => ⟨S1600000, .i1⟩
  | 22 => ⟨S_, .i32⟩
  | 23 => ⟨S1600000, .i32⟩
  | 24 => ⟨S1600000, .i32⟩
  | 25 => ⟨S1600000, .i32⟩
  | 26 => ⟨S1600000x1, .i32⟩
  | 27 => ⟨S1600000, .f32⟩
  | 28 => ⟨S1600000, .f32⟩
  | 29 => ⟨S_, .i32⟩
  | 30 => ⟨S1600000, .i32⟩
  | 31 => ⟨S1600000, .i1⟩
  | 32 => ⟨S_, .i32⟩
  | 33 => ⟨S1600000, .i32⟩
  | 34 => ⟨S1600000, .i32⟩
  | 35 => ⟨S1600000, .i32⟩
  | 36 => ⟨S1600000x1, .i32⟩
  | 37 => ⟨S1600000x2, .f32⟩
  | 38 => ⟨S1600000x1, .f32⟩
  | 39 => ⟨S1600000x2, .f32⟩
  | 40 => ⟨S1600000x2, .f32⟩
  | 41 => ⟨S_, .f32⟩
  | 42 => ⟨S100000x2, .f32⟩
  | 43 => ⟨S1600000x1, .i32⟩
  | 44 => ⟨S100000x2, .f32⟩
  | 45 => ⟨S100000, .f32⟩
  | 46 => ⟨S100000x1, .f32⟩
  | 47 => ⟨S100000x2, .f32⟩
  | 48 => ⟨S100000x2, .f32⟩
  | 49 => ⟨S100000x2, .f32⟩
  | 50 => ⟨S1x2, .f32⟩
  | 51 => ⟨S100000x2, .f32⟩
  | 52 => ⟨S100000x2, .f32⟩
  | 53 => ⟨S_, .f32⟩
  | 54 => ⟨S64x2, .f32⟩
  | 55 => ⟨S100000x1, .i32⟩
  | 56 => ⟨S64x2, .f32⟩
  | 57 => ⟨S_, .f32⟩
  | 58 => ⟨S100000, .f32⟩
  | 59 => ⟨S_, .f32⟩
  | 60 => ⟨S64, .f32⟩
  | 61 => ⟨S100000x1, .i32⟩
  | 62 => ⟨S64, .f32⟩
  | 63 => ⟨S_, .f32⟩
  | 64 => ⟨S64, .f32⟩
  | 65 => ⟨S64, .f32⟩
  | 66 => ⟨S64x1, .f32⟩
  | 67 => ⟨S64x2, .f32⟩
  | 68 => ⟨S64x2, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c : Ref sig .tc := ⟨.hbm, 24, rfl⟩
abbrev main_v12 : Ref sig .tc := ⟨.hbm, 25, rfl⟩
abbrev main_v13 : Ref sig .tc := ⟨.hbm, 26, rfl⟩
abbrev main_c_2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c_3 : Ref sig .tc := ⟨.hbm, 33, rfl⟩
abbrev main_v19 : Ref sig .tc := ⟨.hbm, 34, rfl⟩
abbrev main_v20 : Ref sig .tc := ⟨.hbm, 35, rfl⟩
abbrev main_c_4 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_c_5 : Ref sig .tc := ⟨.hbm, 43, rfl⟩
abbrev main_v27 : Ref sig .tc := ⟨.hbm, 44, rfl⟩
abbrev main_v28 : Ref sig .tc := ⟨.hbm, 45, rfl⟩
abbrev main_c_6 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_7 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_call0_cst : Ref sig .tc := ⟨.hbm, 67, rfl⟩
abbrev main_call0_v0 : Ref sig .tc := ⟨.hbm, 68, rfl⟩
abbrev main_v48 : Ref sig .tc := ⟨.hbm, 69, rfl⟩
abbrev main_v49 : Ref sig .tc := ⟨.hbm, 70, rfl⟩
abbrev main_cst_8 : Ref sig .tc := ⟨.hbm, 71, rfl⟩
abbrev main_v50 : Ref sig .tc := ⟨.hbm, 72, rfl⟩
abbrev main_cst_9 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_cst_10 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_c_11 : Ref sig .tc := ⟨.hbm, 81, rfl⟩
abbrev main_v57 : Ref sig .tc := ⟨.hbm, 82, rfl⟩
abbrev main_v58 : Ref sig .tc := ⟨.hbm, 83, rfl⟩
abbrev main_c_12 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_c_13 : Ref sig .tc := ⟨.hbm, 90, rfl⟩
abbrev main_v64 : Ref sig .tc := ⟨.hbm, 91, rfl⟩
abbrev main_v65 : Ref sig .tc := ⟨.hbm, 92, rfl⟩
abbrev main_c_14 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_c_15 : Ref sig .tc := ⟨.hbm, 100, rfl⟩
abbrev main_v72 : Ref sig .tc := ⟨.hbm, 101, rfl⟩
abbrev main_v73 : Ref sig .tc := ⟨.hbm, 102, rfl⟩
abbrev main_c_16 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_cst_17 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_call1_cst : Ref sig .tc := ⟨.hbm, 124, rfl⟩
abbrev main_call1_v0 : Ref sig .tc := ⟨.hbm, 125, rfl⟩
abbrev main_v93 : Ref sig .tc := ⟨.hbm, 126, rfl⟩
abbrev main_v94 : Ref sig .tc := ⟨.hbm, 127, rfl⟩
abbrev main_cst_18 : Ref sig .tc := ⟨.hbm, 128, rfl⟩
abbrev main_v95 : Ref sig .tc := ⟨.hbm, 129, rfl⟩
abbrev main_cst_19 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_cst_20 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_c_21 : Ref sig .tc := ⟨.hbm, 138, rfl⟩
abbrev main_v102 : Ref sig .tc := ⟨.hbm, 139, rfl⟩
abbrev main_v103 : Ref sig .tc := ⟨.hbm, 140, rfl⟩
abbrev main_c_22 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_c_23 : Ref sig .tc := ⟨.hbm, 147, rfl⟩
abbrev main_v109 : Ref sig .tc := ⟨.hbm, 148, rfl⟩
abbrev main_v110 : Ref sig .tc := ⟨.hbm, 149, rfl⟩
abbrev main_c_24 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_c_25 : Ref sig .tc := ⟨.hbm, 157, rfl⟩
abbrev main_v117 : Ref sig .tc := ⟨.hbm, 158, rfl⟩
abbrev main_v118 : Ref sig .tc := ⟨.hbm, 159, rfl⟩
abbrev main_c_26 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev main_v125 : Ref sig .tc := ⟨.hbm, 167, rfl⟩
abbrev main_v126 : Ref sig .tc := ⟨.hbm, 168, rfl⟩
abbrev main_cst_27 : Ref sig .tc := ⟨.hbm, 169, rfl⟩
abbrev main_v127 : Ref sig .tc := ⟨.hbm, 170, rfl⟩
abbrev main_v128 : Ref sig .tc := ⟨.hbm, 171, rfl⟩
abbrev main_v129 : Ref sig .tc := ⟨.hbm, 172, rfl⟩
abbrev main_v130 : Ref sig .tc := ⟨.hbm, 173, rfl⟩
abbrev main_v131 : Ref sig .tc := ⟨.hbm, 174, rfl⟩
abbrev main_v132 : Ref sig .tc := ⟨.hbm, 175, rfl⟩
abbrev main_v133 : Ref sig .tc := ⟨.hbm, 176, rfl⟩
abbrev main_v134 : Ref sig .tc := ⟨.hbm, 177, rfl⟩
abbrev main_v135 : Ref sig .tc := ⟨.hbm, 178, rfl⟩
abbrev main_v136 : Ref sig .tc := ⟨.hbm, 179, rfl⟩
abbrev main_v137 : Ref sig .tc := ⟨.hbm, 180, rfl⟩
abbrev main_cst_28 : Ref sig .tc := ⟨.hbm, 181, rfl⟩
abbrev main_v138 : Ref sig .tc := ⟨.hbm, 182, rfl⟩
abbrev main_v139 : Ref sig .tc := ⟨.hbm, 183, rfl⟩
abbrev main_v140 : Ref sig .tc := ⟨.hbm, 184, rfl⟩
abbrev main_cst_29 : Ref sig .tc := ⟨.hbm, 185, rfl⟩
abbrev main_v141 : Ref sig .tc := ⟨.hbm, 186, rfl⟩
abbrev main_cst_30 : Ref sig .tc := ⟨.hbm, 187, rfl⟩
abbrev main_v142 : Ref sig .tc := ⟨.hbm, 188, rfl⟩
abbrev main_v143 : Ref sig .tc := ⟨.hbm, 189, rfl⟩
abbrev main_v144 : Ref sig .tc := ⟨.hbm, 190, rfl⟩
abbrev main_cst_31 : Ref sig .tc := ⟨.hbm, 191, rfl⟩
abbrev main_v145 : Ref sig .tc := ⟨.hbm, 192, rfl⟩
abbrev main_v146 : Ref sig .tc := ⟨.hbm, 193, rfl⟩
abbrev main_v147 : Ref sig .tc := ⟨.hbm, 194, rfl⟩
abbrev main_v148 : Ref sig .tc := ⟨.hbm, 195, rfl⟩
abbrev main_v149 : Ref sig .tc := ⟨.hbm, 196, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1600000x1_S1600000x2_0_1 : S1600000x1.BroadcastsInDim S1600000x2 (![0, 1] : Fin 2 → Fin S1600000x2.rank)
  bcast_S_S100000x2 : S_.BroadcastsInDim S100000x2 (![] : Fin 0 → Fin S100000x2.rank)
  bcast_S100000x1_S100000x2_0_1 : S100000x1.BroadcastsInDim S100000x2 (![0, 1] : Fin 2 → Fin S100000x2.rank)
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  bcast_S_S64x2 : S_.BroadcastsInDim S64x2 (![] : Fin 0 → Fin S64x2.rank)
  bcast_S_S64 : S_.BroadcastsInDim S64 (![] : Fin 0 → Fin S64.rank)
  bcast_S64_S64x1_0 : S64.BroadcastsInDim S64x1 (![0] : Fin 1 → Fin S64x1.rank)
  bcast_S64x1_S64x2_0_1 : S64x1.BroadcastsInDim S64x2 (![0, 1] : Fin 2 → Fin S64x2.rank)
  dot_S100000x128_S128x128_S100000x128_1_0_0_1_n_n_wf : DotDims.WF S100000x128 S128x128 S100000x128 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x2_S100000x2_1_0_0_1_n_n_wf : DotDims.WF S100000x128 S128x2 S100000x2 [1] [0] [0] [1] [] []
  gather_S100000x2_S1600000x1_S1600000x2_1_0_n_n_0_1_12_wf : GatherDims.WF S100000x2 S1600000x1 S1600000x2 [1] [0] [] [0] [] 1 ![1, 2]
  scatter_S100000x2_S1600000x1_S1600000x2_1_0_0_1_wf : ScatterDims.WF S100000x2 S1600000x1 S1600000x2 [1] [0] [0] 1
  scatter_S64x2_S100000x1_S100000x2_1_0_0_1_wf : ScatterDims.WF S64x2 S100000x1 S100000x2 [1] [0] [0] 1
  scatter_S64_S100000x1_S100000_n_0_0_1_wf : ScatterDims.WF S64 S100000x1 S100000 [] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x2_S100000x2_1_0_0_1_n_n : DotDims S100000x128 S128x2 S100000x2 where
  lhsContracting := [1]
  rhsContracting := [0]
  lhsNonContracting := [0]
  rhsNonContracting := [1]
  lhsBatch := []
  rhsBatch := []
  wf := dot_S100000x128_S128x2_S100000x2_1_0_0_1_n_n_wf
def gather_S100000x2_S1600000x1_S1600000x2_1_0_n_n_0_1_12 : GatherDims S100000x2 S1600000x1 S1600000x2 where
  offsetDims := [1]
  collapsedSliceDims := [0]
  operandBatchingDims := []
  startIndicesBatchingDims := []
  startIndexMap := [0]
  indexVectorDim := 1
  sliceSizes := ![1, 2]
  wf := gather_S100000x2_S1600000x1_S1600000x2_1_0_n_n_0_1_12_wf
def scatter_S100000x2_S1600000x1_S1600000x2_1_0_0_1 : ScatterDims S100000x2 S1600000x1 S1600000x2 where
  updateWindowDims := [1]
  insertedWindowDims := [0]
  scatterDimsToOperandDims := [0]
  indexVectorDim := 1
  wf := scatter_S100000x2_S1600000x1_S1600000x2_1_0_0_1_wf
def scatter_S64x2_S100000x1_S100000x2_1_0_0_1 : ScatterDims S64x2 S100000x1 S100000x2 where
  updateWindowDims := [1]
  insertedWindowDims := [0]
  scatterDimsToOperandDims := [0]
  indexVectorDim := 1
  wf := scatter_S64x2_S100000x1_S100000x2_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf

class Facts : Prop extends Facts₀ where

variable [Facts]
-- ==== Proof.K.Reg0.lean ====
/-
  Region 0 of the program: the first feature transform, one row block of 5000 nodes per grid point.
  At any contents `V` of the core's buffers on entry: what each window's staging buffer holds at a grid point,
  what the body leaves in the output's buffer (the product of the row block with the whole weight matrix, into a zero
  accumulator), the body's triple, the region's proof data, and the obligation that the body meets them at every point.
  Stated for any float instance.
-/
import proofs.«405960_j60713657696826_2_alg».proof.Proof.Gen.Kernel.Launch
import proofs.«405960_j60713657696826_2_alg».proof.Proof.Gen.Kernel.Skeleton
import proofs.«405960_j60713657696826_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row block's staging buffer holds the block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight matrix's staging buffer holds the whole matrix at every point: fetched once, its index never moves. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_x : Rect S5000x128 := Rect.unit (s := S5000x128) ![0, 0] S5000x128.size inb_S5000x128_S5000x128_0_0
abbrev r0_w : Rect S128x128 := Rect.unit (s := S128x128) ![0, 0] S128x128.size inb_S128x128_S128x128_0_0
abbrev r0_o : Rect S5000x128 := Rect.unit (s := S5000x128) ![0, 0] S5000x128.size inb_S5000x128_S5000x128_0_0

/-! ## What the body leaves in the output window's buffer -/

/-- The output's staging buffer after the body: its one store, of the product of the loaded row block and weights. -/
def out0_2 (x0 : Vec F S5000x128 .f32) (x1 : Vec F S128x128 .f32) : Vec F S5000x128 .f32 :=
  View.canon [⟨r0_o, k0_pay1 (View.ld x0 r0_x) (View.ld x1 r0_w)⟩]

/-- The store covers the buffer. -/
theorem cover0_2 (p0 : Vec F S5000x128 .f32) (y : S5000x128.Idx) :
    ∃ pc ∈ ([⟨r0_o, p0⟩] : List (View.Piece (Elt F) S5000x128 .f32)), y ∈ pc.1.set :=
  View.cover_of_tiled [⟨r0_o, p0⟩] S5000x128.size (by rfl) y

/-! ## The body's triple -/

set_option maxHeartbeats 1000000 in
/-- On whole staging memrefs, the inputs' at `x0`, `x1` and the output's at anything, the body runs to the continuation
    with the inputs' as they were and the output's at `out0_2 x0 x1`. -/
theorem sound_kernel0 (c : Dev nD) (E : Set ℕ) (i : grid0.Coords) (arg1 : Memref sig .tc .vmem S5000x128 .f32) (harg1 : arg1.IsWhole) (arg2 : Memref sig .tc .vmem S128x128 .f32) (harg2 : arg2.IsWhole) (arg3 : Memref sig .tc .vmem S5000x128 .f32) (harg3 : arg3.IsWhole)
    (x0 : Vec F S5000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The region's proof data -/

/-- The arrays as the region finds them; after the body at point `t` each input's buffer at its block and the output's at
    `out0_2` of the input blocks; the invariant the scoped rest and the generator register, untouched; nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.K.Reg1.lean ====
/-
  Region 1 of the program: the elementwise combine of one layer, one row block of 5000 nodes per grid point:
  aggregated neighbours + own features scaled per row + bias, then the positive part.
  At any contents `V` of the core's buffers on entry: what each window's staging buffer holds at a grid point,
  what the body leaves in the output's buffer, the body's triple, the region's proof data, and the obligation that the
  body meets them at every point. Stated for any float instance.
-/
import proofs.«405960_j60713657696826_2_alg».proof.Proof.Gen.Kernel.Launch
import proofs.«405960_j60713657696826_2_alg».proof.Proof.Gen.Kernel.Skeleton
import proofs.«405960_j60713657696826_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_blk : Rect S5000x128 := Rect.unit (s := S5000x128) ![0, 0] S5000x128.size inb_S5000x128_S5000x128_0_0
abbrev r1_col : Rect S5000x1 := Rect.unit (s := S5000x1) ![0, 0] S5000x1.size inb_S5000x1_S5000x1_0_0
abbrev r1_row : Rect S1x128 := Rect.unit (s := S1x128) ![0, 0] S1x128.size inb_S1x128_S1x128_0_0

/-! ## What the body leaves in the output window's buffer -/

/-- The output's staging buffer after the body: its one store, of the combine of the four loaded blocks. -/
def out1_4 (x0 x1 : Vec F S5000x128 .f32) (x2 : Vec F S5000x1 .f32) (x3 : Vec F S1x128 .f32) : Vec F S5000x128 .f32 :=
  View.canon [⟨r1_blk, k1_pay1 (View.ld x0 r1_blk) (View.ld x1 r1_blk) (View.ld x2 r1_col) (View.ld x3 r1_row)⟩]

/-- The store covers the buffer. -/
theorem cover1_4 (p0 : Vec F S5000x128 .f32) (y : S5000x128.Idx) :
    ∃ pc ∈ ([⟨r1_blk, p0⟩] : List (View.Piece (Elt F) S5000x128 .f32)), y ∈ pc.1.set :=
  View.cover_of_tiled [⟨r1_blk, p0⟩] S5000x128.size (by rfl) y

/-! ## The body's triple -/

set_option maxHeartbeats 1000000 in
/-- On whole staging memrefs, the inputs' at `x0 … x3` and the output's at anything, the body runs to the continuation
    with the inputs' as they were and the output's at `out1_4 x0 x1 x2 x3`. -/
theorem sound_kernel1 (c : Dev nD) (E : Set ℕ) (i : grid1.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S1x128 .f32) (harg4 : arg4.IsWhole) (arg5 : Memref sig .tc .vmem S5000x128 .f32) (harg5 : arg5.IsWhole)
    (x0 x1 : Vec F S5000x128 .f32) (x2 : Vec F S5000x1 .f32) (x3 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out1_4 x0 x1 x2 x3)) -∗ K ⟨⟩))
      ⊢ wp frame (wpE (defs₀ (F := F)) Variants.none c none) E (cc1__combine_kernel i arg1 harg1 arg2 harg2 arg3 harg3 arg4 harg4 arg5 harg5) K := by
  simp only [cc1__combine_kernel_eq_skeleton]; unfold cc1__combine_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-! ## The region's proof data -/

/-- The arrays as the region finds them; after the body at point `t` each input's buffer at its block and the output's at
    `out1_4` of the input blocks; the invariant the scoped rest and the generator register, untouched; nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1_4 (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Fr

end
-- ==== Proof.K.Reg2.lean ====
/-
  Region 2 of the program: the first feature transform, one row block of 5000 nodes per grid point.
  At any contents `V` of the core's buffers on entry: what each window's staging buffer holds at a grid point,
  what the body leaves in the output's buffer (the product of the row block with the whole weight matrix, into a zero
  accumulator), the body's triple, the region's proof data, and the obligation that the body meets them at every point.
  Stated for any float instance.
-/
import proofs.«405960_j60713657696826_2_alg».proof.Proof.Gen.Kernel.Launch
import proofs.«405960_j60713657696826_2_alg».proof.Proof.Gen.Kernel.Skeleton
import proofs.«405960_j60713657696826_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The row block's staging buffer holds the block at every point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The weight matrix's staging buffer holds the whole matrix at every point: fetched once, its index never moves. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

abbrev r2_x : Rect S5000x128 := Rect.unit (s := S5000x128) ![0, 0] S5000x128.size inb_S5000x128_S5000x128_0_0
abbrev r2_w : Rect S128x128 := Rect.unit (s := S128x128) ![0, 0] S128x128.size inb_S128x128_S128x128_0_0
abbrev r2_o : Rect S5000x128 := Rect.unit (s := S5000x128) ![0, 0] S5000x128.size inb_S5000x128_S5000x128_0_0

/-! ## What the body leaves in the output window's buffer -/

/-- The output's staging buffer after the body: its one store, of the product of the loaded row block and weights. -/
def out2_2 (x0 : Vec F S5000x128 .f32) (x1 : Vec F S128x128 .f32) : Vec F S5000x128 .f32 :=
  View.canon [⟨r2_o, k2_pay1 (View.ld x0 r2_x) (View.ld x1 r2_w)⟩]

/-- The store covers the buffer. -/
theorem cover2_2 (p0 : Vec F S5000x128 .f32) (y : S5000x128.Idx) :
    ∃ pc ∈ ([⟨r2_o, p0⟩] : List (View.Piece (Elt F) S5000x128 .f32)), y ∈ pc.1.set :=
  View.cover_of_tiled [⟨r2_o, p0⟩] S5000x128.size (by rfl) y

/-! ## The body's triple -/

set_option maxHeartbeats 1000000 in
/-- On whole staging memrefs, the inputs' at `x0`, `x1` and the output's at anything, the body runs to the continuation
    with the inputs' as they were and the output's at `out2_2 x0 x1`. -/
theorem sound_kernel2 (c : Dev nD) (E : Set ℕ) (i : grid2.Coords) (arg1 : Memref sig .tc .vmem S5000x128 .f32) (harg1 : arg1.IsWhole) (arg2 : Memref sig .tc .vmem S128x128 .f32) (harg2 : arg2.IsWhole) (arg3 : Memref sig .tc .vmem S5000x128 .f32) (harg3 : arg3.IsWhole)
    (x0 : Vec F S5000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__matmul_kernel i arg1 harg1 arg2 harg2 arg3 harg3) K := by
  simp only [cc2__matmul_kernel_eq_skeleton]; unfold cc2__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The region's proof data -/

/-- The arrays as the region finds them; after the body at point `t` each input's buffer at its block and the output's at
    `out2_2` of the input blocks; the invariant the scoped rest and the generator register, untouched; nothing owed;
    full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Fr

end
-- ==== Proof.K.Reg3.lean ====
/-
  Region 3 of the program: the elementwise combine of one layer, one row block of 5000 nodes per grid point:
  aggregated neighbours + own features scaled per row + bias, then the positive part.
  At any contents `V` of the core's buffers on entry: what each window's staging buffer holds at a grid point,
  what the body leaves in the output's buffer, the body's triple, the region's proof data, and the obligation that the
  body meets them at every point. Stated for any float instance.
-/
import proofs.«405960_j60713657696826_2_alg».proof.Proof.Gen.Kernel.Launch
import proofs.«405960_j60713657696826_2_alg».proof.Proof.Gen.Kernel.Skeleton
import proofs.«405960_j60713657696826_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's staging buffer holds its block at every point, fetched there or not. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's staging buffer holds its block at every point, fetched there or not. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's staging buffer holds its block at every point, fetched there or not. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's staging buffer holds its block at every point, fetched there or not. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses -/

abbrev r3_blk : Rect S5000x128 := Rect.unit (s := S5000x128) ![0, 0] S5000x128.size inb_S5000x128_S5000x128_0_0
abbrev r3_col : Rect S5000x1 := Rect.unit (s := S5000x1) ![0, 0] S5000x1.size inb_S5000x1_S5000x1_0_0
abbrev r3_row : Rect S1x128 := Rect.unit (s := S1x128) ![0, 0] S1x128.size inb_S1x128_S1x128_0_0

/-! ## What the body leaves in the output window's buffer -/

/-- The output's staging buffer after the body: its one store, of the combine of the four loaded blocks. -/
def out3_4 (x0 x1 : Vec F S5000x128 .f32) (x2 : Vec F S5000x1 .f32) (x3 : Vec F S1x128 .f32) : Vec F S5000x128 .f32 :=
  View.canon [⟨r3_blk, k3_pay1 (View.ld x0 r3_blk) (View.ld x1 r3_blk) (View.ld x2 r3_col) (View.ld x3 r3_row)⟩]

/-- The store covers the buffer. -/
theorem cover3_4 (p0 : Vec F S5000x128 .f32) (y : S5000x128.Idx) :
    ∃ pc ∈ ([⟨r3_blk, p0⟩] : List (View.Piece (Elt F) S5000x128 .f32)), y ∈ pc.1.set :=
  View.cover_of_tiled [⟨r3_blk, p0⟩] S5000x128.size (by rfl) y

/-! ## The body's triple -/

set_option maxHeartbeats 1000000 in
/-- On whole staging memrefs, the inputs' at `x0 … x3` and the output's at anything, the body runs to the continuation
    with the inputs' as they were and the output's at `out3_4 x0 x1 x2 x3`. -/
theorem sound_kernel3 (c : Dev nD) (E : Set ℕ) (i : grid3.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S1x128 .f32) (harg4 : arg4.IsWhole) (arg5 : Memref sig .tc .vmem S5000x128 .f32) (harg5 : arg5.IsWhole)
    (x0 x1 : Vec F S5000x128 .f32) (x2 : Vec F S5000x1 .f32) (x3 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out3_4 x0 x1 x2 x3)) -∗ K ⟨⟩))
      ⊢ wp frame (wpE (defs₀ (F := F)) Variants.none c none) E (cc3__combine_kernel i arg1 harg1 arg2 harg2 arg3 harg3 arg4 harg4 arg5 harg5) K := by
  simp only [cc3__combine_kernel_eq_skeleton]; unfold cc3__combine_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover3_4 _)

/-! ## The region's proof data -/

/-- The arrays as the region finds them; after the body at point `t` each input's buffer at its block and the output's at
    `out3_4` of the input blocks; the invariant the scoped rest and the generator register, untouched; nothing owed;
    full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3_4 (iblk3 V c 0 t) (iblk3 V c 1 t) (iblk3 V c 2 t) (iblk3 V c 3 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = out3_4 (iblk3 V c 0 t) (iblk3 V c 1 t) (iblk3 V c 2 t) (iblk3 V c 3 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d

/-! ## The body obligation, at a generic point -/

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).Φ t.succ = (dat3 V c).Φ t.castSucc from rfl,
    show (dat3 V c).owesAt () t.succ = (dat3 V c).owesAt () t.castSucc from rfl,
    after3_0, after3_1, after3_2, after3_3, after3_4]
  iintro ⟨HΦ, Ho, ⟨%d0, H0⟩, ⟨%d1, H1⟩, ⟨%d2, H2⟩, ⟨%d3, H3⟩, ⟨%d4, H4⟩⟩
  iapply (sound_kernel3 c Set.univ _ _ _ _ _ _ _ _ _ _ _ (iblk3 V c 0 t) (iblk3 V c 1 t) (iblk3 V c 2 t) (iblk3 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Fr

end
-- ==== Proof.K.Reg4.lean ====
/-
  Region 4 of the program: the third feature transform (128 features to 2), one row block of 5000 nodes per grid point.
  At any contents `V` of the core's buffers on entry: what each window's staging buffer holds at a grid point,
  what the body leaves in the output's buffer (the product of the row block with the whole weight matrix, into a zero
  accumulator), the body's triple, the region's proof data, and the obligation that the body meets them at every point.
  Stated for any float instance.
-/
import proofs.«405960_j60713657696826_2_alg».proof.Proof.Gen.Kernel.Launch
import proofs.«405960_j60713657696826_2_alg».proof.Proof.Gen.Kernel.Skeleton
import proofs.«405960_j60713657696826_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The row block's staging buffer holds the block at every point. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- The weight matrix's staging buffer holds the whole matrix at every point: fetched once, its index never moves. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses -/

abbrev r4_x : Rect S5000x128 := Rect.unit (s := S5000x128) ![0, 0] S5000x128.size inb_S5000x128_S5000x128_0_0
abbrev r4_w : Rect S128x2 := Rect.unit (s := S128x2) ![0, 0] S128x2.size inb_S128x2_S128x2_0_0
abbrev r4_o : Rect S5000x2 := Rect.unit (s := S5000x2) ![0, 0] S5000x2.size inb_S5000x2_S5000x2_0_0

/-! ## What the body leaves in the output window's buffer -/

/-- The output's staging buffer after the body: its one store, of the product of the loaded row block and weights. -/
def out4_2 (x0 : Vec F S5000x128 .f32) (x1 : Vec F S128x2 .f32) : Vec F S5000x2 .f32 :=
  View.canon [⟨r4_o, k4_pay1 (View.ld x0 r4_x) (View.ld x1 r4_w)⟩]

/-- The store covers the buffer. -/
theorem cover4_2 (p0 : Vec F S5000x2 .f32) (y : S5000x2.Idx) :
    ∃ pc ∈ ([⟨r4_o, p0⟩] : List (View.Piece (Elt F) S5000x2 .f32)), y ∈ pc.1.set :=
  View.cover_of_tiled [⟨r4_o, p0⟩] S5000x2.size (by rfl) y

/-! ## The body's triple -/

set_option maxHeartbeats 1000000 in
/-- On whole staging memrefs, the inputs' at `x0`, `x1` and the output's at anything, the body runs to the continuation
    with the inputs' as they were and the output's at `out4_2 x0 x1`. -/
theorem sound_kernel4 (c : Dev nD) (E : Set ℕ) (i : grid4.Coords) (arg1 : Memref sig .tc .vmem S5000x128 .f32) (harg1 : arg1.IsWhole) (arg2 : Memref sig .tc .vmem S128x2 .f32) (harg2 : arg2.IsWhole) (arg3 : Memref sig .tc .vmem S5000x2 .f32) (harg3 : arg3.IsWhole)
    (x0 : Vec F S5000x128 .f32) (x1 : Vec F S128x2 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out4_2 x0 x1)) -∗ K ⟨⟩))
      ⊢ wp frame (wpE (defs₀ (F := F)) Variants.none c none) E (cc4__matmul_kernel i arg1 harg1 arg2 harg2 arg3 harg3) K := by
  simp only [cc4__matmul_kernel_eq_skeleton]; unfold cc4__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover4_2 _)

/-! ## The region's proof data -/

/-- The arrays as the region finds them; after the body at point `t` each input's buffer at its block and the output's at
    `out4_2` of the input blocks; the invariant the scoped rest and the generator register, untouched; nothing owed;
    full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = out4_2 (iblk4 V c 0 t) (iblk4 V c 1 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-! ## The body obligation, at a generic point -/

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t))

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).Φ t.succ = (dat4 V c).Φ t.castSucc from rfl,
    show (dat4 V c).owesAt () t.succ = (dat4 V c).owesAt () t.castSucc from rfl,
    after4_0, after4_1, after4_2]
  iintro ⟨HΦ, Ho, ⟨%d0, H0⟩, ⟨%d1, H1⟩, ⟨%d2, H2⟩⟩
  iapply (sound_kernel4 c Set.univ _ _ _ _ _ _ _ (iblk4 V c 0 t) (iblk4 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.Kernel.Fr

end
-- ==== Proof.K.Reg5.lean ====
/-
  Region 5 of the program: the elementwise combine of one layer, one row block of 5000 nodes per grid point:
  aggregated neighbours + own features scaled per row + bias.
  At any contents `V` of the core's buffers on entry: what each window's staging buffer holds at a grid point,
  what the body leaves in the output's buffer, the body's triple, the region's proof data, and the obligation that the
  body meets them at every point. Stated for any float instance.
-/
import proofs.«405960_j60713657696826_2_alg».proof.Proof.Gen.Kernel.Launch
import proofs.«405960_j60713657696826_2_alg».proof.Proof.Gen.Kernel.Skeleton
import proofs.«405960_j60713657696826_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's staging buffer holds its block at every point, fetched there or not. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's staging buffer holds its block at every point, fetched there or not. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's staging buffer holds its block at every point, fetched there or not. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- Input window 3's staging buffer holds its block at every point, fetched there or not. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses -/

abbrev r5_blk : Rect S5000x2 := Rect.unit (s := S5000x2) ![0, 0] S5000x2.size inb_S5000x2_S5000x2_0_0
abbrev r5_col : Rect S5000x1 := Rect.unit (s := S5000x1) ![0, 0] S5000x1.size inb_S5000x1_S5000x1_0_0
abbrev r5_row : Rect S1x2 := Rect.unit (s := S1x2) ![0, 0] S1x2.size inb_S1x2_S1x2_0_0

/-! ## What the body leaves in the output window's buffer -/

/-- The output's staging buffer after the body: its one store, of the combine of the four loaded blocks. -/
def out5_4 (x0 x1 : Vec F S5000x2 .f32) (x2 : Vec F S5000x1 .f32) (x3 : Vec F S1x2 .f32) : Vec F S5000x2 .f32 :=
  View.canon [⟨r5_blk, k5_pay1 (View.ld x0 r5_blk) (View.ld x1 r5_blk) (View.ld x2 r5_col) (View.ld x3 r5_row)⟩]

/-- The store covers the buffer. -/
theorem cover5_4 (p0 : Vec F S5000x2 .f32) (y : S5000x2.Idx) :
    ∃ pc ∈ ([⟨r5_blk, p0⟩] : List (View.Piece (Elt F) S5000x2 .f32)), y ∈ pc.1.set :=
  View.cover_of_tiled [⟨r5_blk, p0⟩] S5000x2.size (by rfl) y

/-! ## The body's triple -/

set_option maxHeartbeats 1000000 in
/-- On whole staging memrefs, the inputs' at `x0 … x3` and the output's at anything, the body runs to the continuation
    with the inputs' as they were and the output's at `out5_4 x0 x1 x2 x3`. -/
theorem sound_kernel5 (c : Dev nD) (E : Set ℕ) (i : grid5.Coords) (arg1 : Memref sig .tc .vmem S5000x2 .f32) (harg1 : arg1.IsWhole) (arg2 : Memref sig .tc .vmem S5000x2 .f32) (harg2 : arg2.IsWhole) (arg3 : Memref sig .tc .vmem S5000x1 .f32) (harg3 : arg3.IsWhole) (arg4 : Memref sig .tc .vmem S1x2 .f32) (harg4 : arg4.IsWhole) (arg5 : Memref sig .tc .vmem S5000x2 .f32) (harg5 : arg5.IsWhole)
    (x0 x1 : Vec F S5000x2 .f32) (x2 : Vec F S5000x1 .f32) (x3 : Vec F S1x2 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out5_4 x0 x1 x2 x3)) -∗ K ⟨⟩))
      ⊢ wp frame (wpE (defs₀ (F := F)) Variants.none c none) E (cc5__combine_kernel i arg1 harg1 arg2 harg2 arg3 harg3 arg4 harg4 arg5 harg5) K := by
  simp only [cc5__combine_kernel_eq_skeleton]; unfold cc5__combine_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover5_4 _)

/-! ## The region's proof data -/

/-- The arrays as the region finds them; after the body at point `t` each input's buffer at its block and the output's at
    `out5_4` of the input blocks; the invariant the scoped rest and the generator register, untouched; nothing owed;
    full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => out5_4 (iblk5 V c 0 t) (iblk5 V c 1 t) (iblk5 V c 2 t) (iblk5 V c 3 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = out5_4 (iblk5 V c 0 t) (iblk5 V c 1 t) (iblk5 V c 2 t) (iblk5 V c 3 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d

/-! ## The body obligation, at a generic point -/

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d)))

def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t))

theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3]
  rw [show (dat5 V c).Φ t.succ = (dat5 V c).Φ t.castSucc from rfl,
    show (dat5 V c).owesAt () t.succ = (dat5 V c).owesAt () t.castSucc from rfl,
    after5_0, after5_1, after5_2, after5_3, after5_4]
  iintro ⟨HΦ, Ho, ⟨%d0, H0⟩, ⟨%d1, H1⟩, ⟨%d2, H2⟩, ⟨%d3, H3⟩, ⟨%d4, H4⟩⟩
  iapply (sound_kernel5 c Set.univ _ _ _ _ _ _ _ _ _ _ _ (iblk5 V c 0 t) (iblk5 V c 1 t) (iblk5 V c 2 t) (iblk5 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.Kernel.Fr

end
-- ==== Proof.K.Reg6Defs.lean ====
/-
  Region 6 of the program: the mean pool. Its grid walks the 20 row blocks of the node features in order; two scratch
  buffers carry the per-graph sums and counts from point to point (reset at the first point), and the output block is
  stored at the last point only. Here: the windows' blocks at a point, the scratch buffers' contents after each point as
  a recursion over the points, the region's invariant and its proof data. Stated for any float instance.
-/
import proofs.«405960_j60713657696826_2_alg».proof.Proof.Gen.Kernel.Launch
import proofs.«405960_j60713657696826_2_alg».proof.Proof.Gen.Kernel.Skeleton
import proofs.«405960_j60713657696826_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- The two scratch operands, whole. -/
abbrev scM6_0 : Memref sig .tc .vmem S64x2 .f32 := Memref.whole cc6_scratch0
abbrev scM6_1 : Memref sig .tc .vmem S64x1 .f32 := Memref.whole cc6_scratch1

/-! ## The carried sums and counts -/

/-- What the two scratch buffers hold after the body at position `n`: at the first point the accumulation of that
    point's block onto the reset (zero) buffers, afterwards the accumulation onto what the point before left. The first
    component is the per-graph sums (64 × 2), the second the per-graph counts (64 × 1). -/
def acc6 (c : Dev nD) : (n : ℕ) → n < cfg6.N → Vec F S64x2 .f32 × Vec F S64x1 .f32
  | 0, hn => (k6_pay4 (iblk6 V c 1 ⟨0, hn⟩) (iblk6 V c 0 ⟨0, hn⟩) (k6_pay1 (F := F)), k6_pay5 (iblk6 V c 1 ⟨0, hn⟩) (k6_pay2 (F := F)))
  | n + 1, hn => (k6_pay4 (iblk6 V c 1 ⟨n + 1, hn⟩) (iblk6 V c 0 ⟨n + 1, hn⟩) (acc6 c n (Nat.lt_of_succ_lt hn)).1,
      k6_pay5 (iblk6 V c 1 ⟨n + 1, hn⟩) (acc6 c n (Nat.lt_of_succ_lt hn)).2)

theorem acc6_zero (c : Dev nD) (hn : 0 < cfg6.N) :
    acc6 V c 0 hn = (k6_pay4 (iblk6 V c 1 ⟨0, hn⟩) (iblk6 V c 0 ⟨0, hn⟩) (k6_pay1 (F := F)), k6_pay5 (iblk6 V c 1 ⟨0, hn⟩) (k6_pay2 (F := F))) := rfl

theorem acc6_succ (c : Dev nD) (n : ℕ) (hn : n + 1 < cfg6.N) :
    acc6 V c (n + 1) hn = (k6_pay4 (iblk6 V c 1 ⟨n + 1, hn⟩) (iblk6 V c 0 ⟨n + 1, hn⟩) (acc6 V c n (Nat.lt_of_succ_lt hn)).1,
      k6_pay5 (iblk6 V c 1 ⟨n + 1, hn⟩) (acc6 V c n (Nat.lt_of_succ_lt hn)).2) := rfl

/-- What the output's staging buffer holds after the body at point `t` where the body stores it (the last point): the
    sums divided by the counts raised to at least one. At the other points the window is idle and this value is not
    consulted. -/
def out6_2 (c : Dev nD) (t : Fin cfg6.N) : Vec F S64x2 .f32 :=
  k6_pay6 (acc6 V c t.val t.isLt).1 (acc6 V c t.val t.isLt).2

/-! ## The region's invariant -/

/-- Before position `n`: at the first point the scoped rest with every scratch at anything and the generator register;
    afterwards the two scratch buffers at what the point before left, the remaining scoped buffers unopened, and the
    generator register at some state. -/
def PhiS6 (c : Dev nD) : (n : ℕ) → n ≤ cfg6.N → sProp 𝕄
  | 0, _ => Pipeline.ΦA spec6 c
  | n + 1, hn => iprop(owns (c : Thread nD τ) scM6_0 fullShare ((acc6 V c n hn).1) ∗ owns (c : Thread nD τ) scM6_1 fullShare ((acc6 V c n hn).2)
      ∗ Pipeline.scopedRestBut (Ix := Unit) (Name := ℕ) (U := UR sig nD τ) (Lvl := ℕ) (Val := Elt F) spec6 c [cc6_scratch0, cc6_scratch1] ∗ (∃ r, prngReg c r))

theorem PhiS6_zero (c : Dev nD) (n : ℕ) (h : n ≤ cfg6.N) (hz : n = 0) : PhiS6 V c n h = Pipeline.ΦA spec6 c := by
  subst hz; rfl

theorem PhiS6_succ (c : Dev nD) (n : ℕ) (hn : n < cfg6.N) :
    PhiS6 V c (n + 1) hn = iprop(owns (c : Thread nD τ) scM6_0 fullShare ((acc6 V c n hn).1) ∗ owns (c : Thread nD τ) scM6_1 fullShare ((acc6 V c n hn).2)
      ∗ Pipeline.scopedRestBut (Ix := Unit) (Name := ℕ) (U := UR sig nD τ) (Lvl := ℕ) (Val := Elt F) spec6 c [cc6_scratch0, cc6_scratch1] ∗ (∃ r, prngReg c r)) := rfl

theorem PhiS6_pos (c : Dev nD) (n : ℕ) (h : n ≤ cfg6.N) (hz : n ≠ 0) :
    PhiS6 V c n h = iprop(owns (c : Thread nD τ) scM6_0 fullShare ((acc6 V c (n - 1) (by omega)).1) ∗ owns (c : Thread nD τ) scM6_1 fullShare ((acc6 V c (n - 1) (by omega)).2)
      ∗ Pipeline.scopedRestBut (Ix := Unit) (Name := ℕ) (U := UR sig nD τ) (Lvl := ℕ) (Val := Elt F) spec6 c [cc6_scratch0, cc6_scratch1] ∗ (∃ r, prngReg c r)) := by
  cases n with
  | zero => exact absurd rfl hz
  | succ n => rfl

/-! ## The region's proof data -/

/-- The arrays as the region finds them; after the body at point `t` each input's buffer at its block and the output's
    at `out6_2`; the invariant `PhiS6`; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => out6_2 V c t
  Φ t := PhiS6 V c t.val (Nat.le_of_lt_succ t.isLt)
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = out6_2 V c t := by dsimp only [dat6]

theorem PhiS6_castSucc (c : Dev nD) (t : Fin cfg6.N) :
    (dat6 V c).Φ t.castSucc = PhiS6 V c t.val (Nat.le_of_lt t.isLt) := by
  dsimp only [dat6]; simp only [Fin.coe_castSucc]

end Cert.Kernel.Fr

end
-- ==== Proof.K.Reg6.lean ====
/-
  Region 6 of the program, the mean pool: the frame half. For the proof data of the region (the blocks of the two input
  windows, the sums and counts carried in the two scratch buffers from point to point, the output stored at the last
  point): the input windows' staging buffers hold their blocks at every point; the body's triple in each of its three
  control cases (first point: reset then accumulate; middle points: accumulate; last point: accumulate then store the
  quotient), every access being of a whole buffer; the body obligation at every point; and the invariant's two ends.
  Stated for any float instance.
-/
import proofs.«405960_j60713657696826_2_alg».proof.Proof.K.Reg6Defs
import proofs.«405960_j60713657696826_2_alg».proof.Proof.Gen.Kernel.Launch
import proofs.«405960_j60713657696826_2_alg».proof.Proof.Gen.Kernel.Skeleton
import proofs.«405960_j60713657696826_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Whole-buffer accesses

Every load and store of the body is of a whole buffer: the unit rectangle at zero offsets of the buffer's own sizes. -/

/-- The printed zero offsets of a rank-2 access are zero. -/
theorem zeros6 : (![0, 0] : Fin 2 → Nat) = fun _ => 0 := by
  funext a; fin_cases a <;> rfl

section Whole

variable {κ : Kind} {sp : Space} {S : Shape} {e : EltTy}

/-- A load of the whole buffer reads its contents. -/
theorem readAt_whole6 (v : View sig κ sp S e) (f : v.ty.Contents (Elt F)) {off : Fin S.rank → Nat} (h : off = fun _ => 0)
    (inb : ∀ a, off a + S.size a ≤ S.size a) :
    v.readAt (Elt F) (Rect.unit off S.size inb).toLoadRect f = v.read (Elt F) f :=
  (View.readAt_eq_ld v f _).trans (View.ld_unit_zero h inb _)

/-- After a store of the whole buffer, whatever was stored before it, the buffer reads that store's payload. -/
theorem read_writes_whole6 (v : View sig κ sp S e) (f : v.ty.Contents (Elt F)) {off : Fin S.rank → Nat} (h : off = fun _ => 0)
    (inb : ∀ a, off a + S.size a ≤ S.size a) (w : S.Idx → Elt F e) (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons_self, View.mem_set_unit_zero h inb y⟩)).trans
    (View.canon_cons_unit_zero h inb w L)

end Whole

/-! ## The body's two conditions -/

/-- The first conditional (the reset of the two scratch buffers) is taken where the grid coordinate is 0. -/
abbrev cond6_0 (i : grid6.Coords) : Prop :=
  Scalar.cmpi .ne (Scalar.extui (Scalar.cmpi .eq (BitVec.ofNat 32 (i 0).val) 0#32)) 0#32 = 1#1
/-- The second conditional (the store of the output) is taken where the grid coordinate is 19. -/
abbrev cond6_1 (i : grid6.Coords) : Prop := k6_cond2 i = 1#1

theorem hcond6_0 : ∀ t : Fin cfg6.N, cond6_0 (grid6.coords t) ↔ t.val = 0 :=
  (by decide +kernel : ∀ t : Fin grid6.N, cond6_0 (grid6.coords t) ↔ t.val = 0)
theorem hcond6_1 : ∀ t : Fin cfg6.N, cond6_1 (grid6.coords t) ↔ t.val = 19 :=
  (by decide +kernel : ∀ t : Fin grid6.N, cond6_1 (grid6.coords t) ↔ t.val = 19)

/-- The two input windows are live at every point. -/
theorem liveAt6_0 : ∀ t : Fin cfg6.N, cfg6.idle 0 (grid6.coords t) = false := by decide +kernel
theorem liveAt6_1 : ∀ t : Fin cfg6.N, cfg6.idle 1 (grid6.coords t) = false := by decide +kernel
/-- The output window is idle, and not written back, at every point but the last; at the last it is live. -/
theorem idleAt6_2 : ∀ t : Fin cfg6.N, ¬cond6_1 (grid6.coords t) → cfg6.idle 2 (grid6.coords t) = true := by decide +kernel
theorem noFlush6_2 : ∀ t : Fin cfg6.N, ¬cond6_1 (grid6.coords t) → (cfg6.win 2).flush t = false := by decide +kernel
theorem liveAt6_2 : ∀ t : Fin cfg6.N, cond6_1 (grid6.coords t) → cfg6.idle 2 (grid6.coords t) = false := by decide +kernel

/-! ## The input windows' staging buffers hold their blocks -/

theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- The feature block's staging buffer holds the block at every point. -/
theorem before6_0 (c : Dev nD) (t : Fin cfg6.N) (d) : (dat6 V c).before 0 t d = iblk6 V c 0 t :=
  before6_0_of V (dat6 V c) (A_eq6 V c 0) (after6_0 V c) t d
/-- The graph ids' staging buffer holds the block at every point. -/
theorem before6_1 (c : Dev nD) (t : Fin cfg6.N) (d) : (dat6 V c).before 1 t d = iblk6 V c 1 t :=
  before6_1_of V (dat6 V c) (A_eq6 V c 1) (after6_1 V c) t d

/-! ## The body's triple, one per control case

On whole memrefs: `arg1` the feature block, `arg2` the graph ids, `arg3` the output's buffer, `arg4` the sums,
`arg5` the counts. Each store is of a whole buffer, so each buffer ends at the payload of its last store, and each load
after a store reads that store's payload. -/

set_option maxHeartbeats 1000000 in
/-- The first point: the sums and counts, found at anything, are reset to zero and this block accumulated onto them; the
    output's buffer is handed back as found. -/
theorem sound_kernel6_A (c : Dev nD) (E : Set ℕ) (i : grid6.Coords)
    (arg1 : Memref sig .tc .vmem S5000x2 .f32) (harg1 : arg1.IsWhole) (arg2 : Memref sig .tc .vmem S5000x1 .i32) (harg2 : arg2.IsWhole)
    (arg3 : Memref sig .tc .vmem S64x2 .f32) (harg3 : arg3.IsWhole) (arg4 : Memref sig .tc .vmem S64x2 .f32) (harg4 : arg4.IsWhole)
    (arg5 : Memref sig .tc .vmem S64x1 .f32) (harg5 : arg5.IsWhole) (hc0 : cond6_0 i) (hc1 : ¬cond6_1 i)
    (x0 : Vec F S5000x2 .f32) (x1 : Vec F S5000x1 .i32) (xo : Vec F S64x2 .f32) (K : PUnit → sProp 𝕄) :
    iprop(owns (c : Thread nD τ) arg1 fullShare x0 ∗ owns (c : Thread nD τ) arg2 fullShare x1 ∗ owns (c : Thread nD τ) arg3 fullShare xo
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare xo
            ∗ owns (c : Thread nD τ) arg4 fullShare (k6_pay4 x1 x0 (k6_pay1 (F := F))) ∗ owns (c : Thread nD τ) arg5 fullShare (k6_pay5 x1 (k6_pay2 (F := F)))) -∗ K ⟨⟩))
      ⊢ wp frame (wpE (defs₀ (F := F)) Variants.none c none) E (cc6__pool_kernel i arg1 harg1 arg2 harg2 arg3 harg3 arg4 harg4 arg5 harg5) K := by
  simp only [cc6__pool_kernel_eq_skeleton]; unfold cc6__pool_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    refine (read_writes_whole6 _ _ zeros6 _ _ _).trans ?_
    unfold sound_kernel6_A.sl.v15 sound_kernel6_A.sl.H3_1
    rw [readAt_whole6 arg2.view f1 zeros6, readAt_whole6 arg1.view f0 zeros6, View.readCov_unit_zero arg4.view zeros6]
  iexists _; isplitr
  swap; · iexact H4
  ipureintro
  refine (read_writes_whole6 _ _ zeros6 _ _ _).trans ?_
  unfold sound_kernel6_A.sl.v20 sound_kernel6_A.sl.H4_1
  rw [readAt_whole6 arg2.view f1 zeros6, View.readCov_unit_zero arg5.view zeros6]

set_option maxHeartbeats 1000000 in
/-- A middle point: this block is accumulated onto the sums and counts as found; the output's buffer is handed back as
    found. -/
theorem sound_kernel6_B (c : Dev nD) (E : Set ℕ) (i : grid6.Coords)
    (arg1 : Memref sig .tc .vmem S5000x2 .f32) (harg1 : arg1.IsWhole) (arg2 : Memref sig .tc .vmem S5000x1 .i32) (harg2 : arg2.IsWhole)
    (arg3 : Memref sig .tc .vmem S64x2 .f32) (harg3 : arg3.IsWhole) (arg4 : Memref sig .tc .vmem S64x2 .f32) (harg4 : arg4.IsWhole)
    (arg5 : Memref sig .tc .vmem S64x1 .f32) (harg5 : arg5.IsWhole) (hc0 : ¬cond6_0 i) (hc1 : ¬cond6_1 i)
    (x0 : Vec F S5000x2 .f32) (x1 : Vec F S5000x1 .i32) (xo : Vec F S64x2 .f32) (s0 : Vec F S64x2 .f32) (s1 : Vec F S64x1 .f32)
    (K : PUnit → sProp 𝕄) :
    iprop(owns (c : Thread nD τ) arg1 fullShare x0 ∗ owns (c : Thread nD τ) arg2 fullShare x1 ∗ owns (c : Thread nD τ) arg3 fullShare xo
        ∗ owns (c : Thread nD τ) arg4 fullShare s0 ∗ owns (c : Thread nD τ) arg5 fullShare s1
        ∗ (iprop(owns (c : Thread nD τ) arg1 fullShare x0 ∗ owns (c : Thread nD τ) arg2 fullShare x1 ∗ owns (c : Thread nD τ) arg3 fullShare xo
            ∗ owns (c : Thread nD τ) arg4 fullShare (k6_pay4 x1 x0 s0) ∗ owns (c : Thread nD τ) arg5 fullShare (k6_pay5 x1 s1)) -∗ K ⟨⟩))
      ⊢ wp frame (wpE (defs₀ (F := F)) Variants.none c none) E (cc6__pool_kernel i arg1 harg1 arg2 harg2 arg3 harg3 arg4 harg4 arg5 harg5) K := by
  simp only [cc6__pool_kernel_eq_skeleton]; unfold cc6__pool_kernel_skel
  unfold owns
  iintro ⟨⟨%f0, %hf0, H0⟩, ⟨%f1, %hf1, H1⟩, ⟨%f2, %hf2, H2⟩, ⟨%f3, %hf3, H3⟩, ⟨%f4, %hf4, H4⟩, Hk⟩
  subst hf0 hf1 hf2 hf3 hf4
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    refine (read_writes_whole6 _ _ zeros6 _ _ _).trans ?_
    rw [readAt_whole6 arg2.view f1 zeros6, readAt_whole6 arg1.view f0 zeros6, readAt_whole6 arg4.view f3 zeros6]
  iexists _; isplitr
  swap; · iexact H4
  ipureintro
  refine (read_writes_whole6 _ _ zeros6 _ _ _).trans ?_
  rw [readAt_whole6 arg2.view f1 zeros6, readAt_whole6 arg5.view f4 zeros6]

set_option maxHeartbeats 1000000 in
/-- The last point: this block is accumulated onto the sums and counts as found, and the output's buffer, found at
    anything, is stored with the sums divided by the counts raised to at least one. -/
theorem sound_kernel6_C (c : Dev nD) (E : Set ℕ) (i : grid6.Coords)
    (arg1 : Memref sig .tc .vmem S5000x2 .f32) (harg1 : arg1.IsWhole) (arg2 : Memref sig .tc .vmem S5000x1 .i32) (harg2 : arg2.IsWhole)
    (arg3 : Memref sig .tc .vmem S64x2 .f32) (harg3 : arg3.IsWhole) (arg4 : Memref sig .tc .vmem S64x2 .f32) (harg4 : arg4.IsWhole)
    (arg5 : Memref sig .tc .vmem S64x1 .f32) (harg5 : arg5.IsWhole) (hc0 : ¬cond6_0 i) (hc1 : cond6_1 i)
    (x0 : Vec F S5000x2 .f32) (x1 : Vec F S5000x1 .i32) (s0 : Vec F S64x2 .f32) (s1 : Vec F S64x1 .f32)
    (K : PUnit → sProp 𝕄) :
    iprop(owns (c : Thread nD τ) arg1 fullShare x0 ∗ owns (c : Thread nD τ) arg2 fullShare x1 ∗ (∃ d, owns (c : Thread nD τ) arg3 fullShare d)
        ∗ owns (c : Thread nD τ) arg4 fullShare s0 ∗ owns (c : Thread nD τ) arg5 fullShare s1
        ∗ (iprop(owns (c : Thread nD τ) arg1 fullShare x0 ∗ owns (c : Thread nD τ) arg2 fullShare x1
            ∗ owns (c : Thread nD τ) arg3 fullShare (k6_pay6 (k6_pay4 x1 x0 s0) (k6_pay5 x1 s1))
            ∗ owns (c : Thread nD τ) arg4 fullShare (k6_pay4 x1 x0 s0) ∗ owns (c : Thread nD τ) arg5 fullShare (k6_pay5 x1 s1)) -∗ K ⟨⟩))
      ⊢ wp frame (wpE (defs₀ (F := F)) Variants.none c none) E (cc6__pool_kernel i arg1 harg1 arg2 harg2 arg3 harg3 arg4 harg4 arg5 harg5) K := by
  simp only [cc6__pool_kernel_eq_skeleton]; unfold cc6__pool_kernel_skel
  unfold owns
  iintro ⟨⟨%f0, %hf0, H0⟩, ⟨%f1, %hf1, H1⟩, ⟨%d2, %f2, -, H2⟩, ⟨%f3, %hf3, H3⟩, ⟨%f4, %hf4, H4⟩, Hk⟩
  subst hf0 hf1 hf3 hf4
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    refine (read_writes_whole6 _ _ zeros6 _ _ _).trans ?_
    unfold sound_kernel6_C.sl.v28 sound_kernel6_C.sl.v29 sound_kernel6_C.sl.H3_1 sound_kernel6_C.sl.H4_1
    rw [View.readCov_unit_zero arg4.view zeros6, View.readCov_unit_zero arg5.view zeros6,
      readAt_whole6 arg2.view f1 zeros6, readAt_whole6 arg1.view f0 zeros6, readAt_whole6 arg4.view f3 zeros6,
      readAt_whole6 arg5.view f4 zeros6]
  isplitl [H3]
  · iexists _; isplitr
    swap; · iexact H3
    ipureintro
    unfold sound_kernel6_C.sl.H3_1
    refine (read_writes_whole6 _ _ zeros6 _ _ _).trans ?_
    rw [readAt_whole6 arg2.view f1 zeros6, readAt_whole6 arg1.view f0 zeros6, readAt_whole6 arg4.view f3 zeros6]
  iexists _; isplitr
  swap; · iexact H4
  ipureintro
  unfold sound_kernel6_C.sl.H4_1
  refine (read_writes_whole6 _ _ zeros6 _ _ _).trans ?_
  rw [readAt_whole6 arg2.view f1 zeros6, readAt_whole6 arg5.view f4 zeros6]

/-! ## The carried contents at a point -/

/-- At the first point the sums are this block's accumulation onto zero, -/
theorem acc6_first_1 (c : Dev nD) (t : Fin cfg6.N) (h0 : t.val = 0) :
    (acc6 V c t.val t.isLt).1 = k6_pay4 (iblk6 V c 1 t) (iblk6 V c 0 t) (k6_pay1 (F := F)) := by
  obtain ⟨n, hn⟩ := t
  cases n with
  | zero => rfl
  | succ n => exact absurd h0 (Nat.succ_ne_zero n)
/-- and so are the counts. -/
theorem acc6_first_2 (c : Dev nD) (t : Fin cfg6.N) (h0 : t.val = 0) :
    (acc6 V c t.val t.isLt).2 = k6_pay5 (iblk6 V c 1 t) (k6_pay2 (F := F)) := by
  obtain ⟨n, hn⟩ := t
  cases n with
  | zero => rfl
  | succ n => exact absurd h0 (Nat.succ_ne_zero n)
/-- At a later point the sums are this block's accumulation onto what the point before left, -/
theorem acc6_pos_1 (c : Dev nD) (t : Fin cfg6.N) (h0 : ¬t.val = 0) :
    (acc6 V c t.val t.isLt).1
      = k6_pay4 (iblk6 V c 1 t) (iblk6 V c 0 t) (acc6 V c (t.val - 1) (Nat.lt_of_le_of_lt (Nat.sub_le _ _) t.isLt)).1 := by
  obtain ⟨n, hn⟩ := t
  cases n with
  | zero => exact absurd rfl h0
  | succ n => rfl
/-- and so are the counts. -/
theorem acc6_pos_2 (c : Dev nD) (t : Fin cfg6.N) (h0 : ¬t.val = 0) :
    (acc6 V c t.val t.isLt).2
      = k6_pay5 (iblk6 V c 1 t) (acc6 V c (t.val - 1) (Nat.lt_of_le_of_lt (Nat.sub_le _ _) t.isLt)).2 := by
  obtain ⟨n, hn⟩ := t
  cases n with
  | zero => exact absurd rfl h0
  | succ n => rfl

/-! ## The invariant before the first point, opened at the two scratch buffers -/

theorem PhiA6_eq (c : Dev nD) :
    (Pipeline.ΦA spec6 c : sProp 𝕄)
      = iprop((((∃ d, owns (c : Thread nD τ) scM6_0 fullShare d) ∗ (∃ d, owns (c : Thread nD τ) scM6_1 fullShare d))
          ∗ Pipeline.scopedRestBut (Ix := Unit) (Name := ℕ) (U := UR sig nD τ) (Lvl := ℕ) (Val := Elt F) spec6 c [cc6_scratch0, cc6_scratch1])
          ∗ (∃ r, prngReg c r)) := by
  unfold Pipeline.ΦA; rw [scopedRest6_split]; simp only [scM6_0, scM6_1, owns_whole]; try rfl

/-! ## The body obligation, at a generic point -/

def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d)))

def bodyPost6 (c : Dev nD) (t : Fin cfg6.N) : sProp 𝕄 :=
  iprop((dat6 V c).Φ t.succ ∗ (dat6 V c).owesAt () t.succ
    ∗ (dat6 V c).leavesExact 0 t
    ∗ (dat6 V c).leavesExact 1 t
    ∗ (dat6 V c).leavesExact 2 t)

set_option maxHeartbeats 4000000 in
/-- The body at any point. The inputs' buffers hold their blocks; the point's position says which control case it is in.
    At the first point the invariant hands the two scratch buffers at anything; at a later one at what the point before
    left; either way it takes them back at this point's sums and counts. The output's buffer is handed back as found
    except at the last point, where it is left at the quotient. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1]
  rw [show (dat6 V c).owesAt () t.succ = (dat6 V c).owesAt () t.castSucc from rfl]
  rw [show (dat6 V c).Φ t.succ = PhiS6 V c (t.val + 1) t.isLt from rfl, PhiS6_succ]
  rw [show (dat6 V c).leavesExact 0 t = owns (c : Thread nD τ) (st6_0 t) fullShare ((dat6 V c).after 0 t) from by
    unfold Dat.leavesExact; rw [liveAt6_0 t], after6_0]
  rw [show (dat6 V c).leavesExact 1 t = owns (c : Thread nD τ) (st6_1 t) fullShare ((dat6 V c).after 1 t) from by
    unfold Dat.leavesExact; rw [liveAt6_1 t], after6_1]
  rw [PhiS6_castSucc V c t]
  have hN : t.val < 20 := lt_of_lt_of_eq t.isLt (show cfg6.N = 20 from N_6)
  by_cases h1 : t.val = 19
  · have h0 : ¬t.val = 0 := by omega
    rw [show (dat6 V c).leavesExact 2 t = owns (c : Thread nD τ) (st6_2 t) fullShare ((dat6 V c).after 2 t) from by
      unfold Dat.leavesExact; rw [liveAt6_2 t ((hcond6_1 t).mpr h1)], after6_2]
    unfold out6_2
    rw [acc6_pos_1 V c t h0, acc6_pos_2 V c t h0, PhiS6_pos V c _ _ h0]
    iintro ⟨⟨HS0, HS1, HR, Hg⟩, Ho, ⟨%d0, H0⟩, ⟨%d1, H1⟩, ⟨%d2, H2⟩⟩
    iapply (sound_kernel6_C c Set.univ _ _ _ _ _ _ _ _ _ _ _ (fun h => h0 ((hcond6_0 t).mp h)) ((hcond6_1 t).mpr h1)
      (iblk6 V c 0 t) (iblk6 V c 1 t) (acc6 V c (t.val - 1) (Nat.lt_of_le_of_lt (Nat.sub_le _ _) t.isLt)).1
      (acc6 V c (t.val - 1) (Nat.lt_of_le_of_lt (Nat.sub_le _ _) t.isLt)).2 _)
    isplitl [H0]; · iexact H0
    isplitl [H1]; · iexact H1
    isplitl [H2]; · iexists _; iexact H2
    isplitl [HS0]; · iexact HS0
    isplitl [HS1]; · iexact HS1
    iintro ⟨H0, H1, H2, HS0, HS1⟩
    isplitl [HS0 HS1 HR Hg]
    · isplitl [HS0]; · iexact HS0
      isplitl [HS1]; · iexact HS1
      isplitl [HR]; · iexact HR
      iexact Hg
    isplitl [Ho]; · iexact Ho
    isplitl [H0]; · iexact H0
    isplitl [H1]; · iexact H1
    iexact H2
  · rw [Dat.leavesExact_idle (dat6 V c) 2 t (idleAt6_2 t (fun h => h1 ((hcond6_1 t).mp h))) (noFlush6_2 t (fun h => h1 ((hcond6_1 t).mp h)))]
    by_cases h0 : t.val = 0
    · rw [acc6_first_1 V c t h0, acc6_first_2 V c t h0, PhiS6_zero V c _ _ h0, PhiA6_eq]
      iintro ⟨⟨⟨⟨HS0, HS1⟩, HR⟩, Hg⟩, Ho, ⟨%d0, H0⟩, ⟨%d1, H1⟩, ⟨%d2, H2⟩⟩
      iapply (sound_kernel6_A c Set.univ _ _ _ _ _ _ _ _ _ _ _ ((hcond6_0 t).mpr h0) (fun h => h1 ((hcond6_1 t).mp h))
        (iblk6 V c 0 t) (iblk6 V c 1 t) ((dat6 V c).before 2 t d2) _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [HS0 HS1 HR Hg]
      · isplitl [HS0]; · iexact HS0
        isplitl [HS1]; · iexact HS1
        isplitl [HR]; · iexact HR
        iexact Hg
      isplitl [Ho]; · iexact Ho
      isplitl [H0]; · iexact H0
      isplitl [H1]; · iexact H1
      iexists d2; iexact H2
    · rw [acc6_pos_1 V c t h0, acc6_pos_2 V c t h0, PhiS6_pos V c _ _ h0]
      iintro ⟨⟨HS0, HS1, HR, Hg⟩, Ho, ⟨%d0, H0⟩, ⟨%d1, H1⟩, ⟨%d2, H2⟩⟩
      iapply (sound_kernel6_B c Set.univ _ _ _ _ _ _ _ _ _ _ _ (fun h => h0 ((hcond6_0 t).mp h)) (fun h => h1 ((hcond6_1 t).mp h))
        (iblk6 V c 0 t) (iblk6 V c 1 t) ((dat6 V c).before 2 t d2) (acc6 V c (t.val - 1) (Nat.lt_of_le_of_lt (Nat.sub_le _ _) t.isLt)).1
        (acc6 V c (t.val - 1) (Nat.lt_of_le_of_lt (Nat.sub_le _ _) t.isLt)).2 _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [HS0 HS1 HR Hg]
      · isplitl [HS0]; · iexact HS0
        isplitl [HS1]; · iexact HS1
        isplitl [HR]; · iexact HR
        iexact Hg
      isplitl [Ho]; · iexact Ho
      isplitl [H0]; · iexact H0
      isplitl [H1]; · iexact H1
      iexists d2; iexact H2

/-- The library's body obligation, at every point. -/
theorem body_obligation6 (c : Dev nD) : BodyObligation (dat6 (F := F) V c) (defs₀ (F := F)) Variants.none () Set.univ := fun t => by
  rw [bigSep_W6, bigSep_W6]
  exact sound_body6 V c t

/-- What the region is entered with is the invariant before the first point. -/
theorem hin6 (c : Dev nD) : Pipeline.ΦA spec6 c ⊢ (dat6 V c).Φ 0 := by
  rw [show (dat6 V c).Φ 0 = PhiS6 V c 0 (Nat.zero_le _) from rfl, PhiS6_zero V c 0 _ rfl]
  try exact Idealize.SL.BI.Entails.refl _

/-- After the last point the invariant gives the entry invariant back: the scratch buffers' named contents are forgotten. -/
theorem hout6 (c : Dev nD) : (dat6 V c).Φ (Fin.last cfg6.N) ⊢ Pipeline.ΦA spec6 c := by
  rw [show (dat6 V c).Φ (Fin.last cfg6.N) = PhiS6 V c (Fin.last cfg6.N).val (Nat.le_of_lt_succ (Fin.last cfg6.N).isLt) from rfl,
    PhiS6_pos V c _ _ (by rw [Fin.val_last]; have : cfg6.N = 20 := N_6; omega), PhiA6_eq]
  iintro ⟨HS0, HS1, HR, Hg⟩
  isplitl [HS0 HS1 HR]
  · isplitl [HS0 HS1]
    · isplitl [HS0]
      · iexists _; iexact HS0
      · iexists _; iexact HS1
    · iexact HR
  · iexact Hg

end Cert.Kernel.Fr

end
-- ==== Proof.K.Run.lean ====
/-
  The whole run of the program on a TensorCore: its 12 items in order — five stretches of host operations and seven
  kernel regions — from the launch memory to the return. The buffers' contents at each boundary are a fold: a host
  stretch applies its operations, a region leaves its windows' arrays at what its write-backs produce and every other
  buffer untouched. Each region is entered with every unscoped buffer at the boundary's contents, the generator
  register at some state and nothing owed, and leaves the same way at the next boundary's contents. The conclusion:
  every weakly fair execution terminates, and every unscoped buffer ends at the last boundary's contents.
  Stated for any float instance.
-/
import proofs.«405960_j60713657696826_2_alg».proof.Proof.K.Reg0
import proofs.«405960_j60713657696826_2_alg».proof.Proof.K.Reg1
import proofs.«405960_j60713657696826_2_alg».proof.Proof.K.Reg2
import proofs.«405960_j60713657696826_2_alg».proof.Proof.K.Reg3
import proofs.«405960_j60713657696826_2_alg».proof.Proof.K.Reg4
import proofs.«405960_j60713657696826_2_alg».proof.Proof.K.Reg5
import proofs.«405960_j60713657696826_2_alg».proof.Proof.K.Reg6
import proofs.«405960_j60713657696826_2_alg».proof.Proof.Gen.Kernel.Regions

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents at each boundary -/

/-- Core `c`'s buffers at launch. -/
abbrev W0 : Dev nD → Valuation τ sig (Elt F) := fun c b => m ((c : Dev nD), b)
/-- After the host stretch `hostOps0`. -/
abbrev W1 : Dev nD → Valuation τ sig (Elt F) := fun c => StableHlo.after hostOps0 (W0 m c)
/-- The same read at the TensorCore's references. -/
abbrev E1 : (c : Dev nD) → (b : Ref sig .tc) → Buf (Elt F) ((c : Thread nD τ).loc b) := fun c b => W1 m c b
/-- After region 0: its windows' arrays at what the region leaves, every other buffer as entered. -/
def W2 (c : Dev nD) : Valuation τ sig (Elt F) :=
  Pipeline.withArrays spec0 c (W1 m c) fun w => (dat0 (E1 m) c).arrAt w cfg0.N
theorem W2_arr (c : Dev nD) (w : Fin cfg0.W) :
    W2 m c (Proc.devRef .tc (Pipeline.arrRef spec0 w)) = (dat0 (E1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- The same read at the TensorCore's references. -/
abbrev E2 : (c : Dev nD) → (b : Ref sig .tc) → Buf (Elt F) ((c : Thread nD τ).loc b) := fun c b => W2 m c b
theorem hF0 (c : Dev nD) (w : Fin cfg0.W) : (dat0 (E1 m) c).arrAt w cfg0.N = E2 m c (Pipeline.arrRef spec0 w) :=
  (W2_arr m c w).symm
theorem hrest0 (c : Dev nD) : ∀ b, b ∉ Finset.univ.image (Pipeline.arrRef spec0) → E2 m c b = E1 m c b :=
  fun b hb => W2_of_ne m c b fun w e => hb (Finset.mem_image.mpr ⟨w, Finset.mem_univ _, e⟩)
/-- After the host stretch `hostOps1`. -/
abbrev W3 : Dev nD → Valuation τ sig (Elt F) := fun c => StableHlo.after hostOps1 (W2 m c)
/-- The same read at the TensorCore's references. -/
abbrev E3 : (c : Dev nD) → (b : Ref sig .tc) → Buf (Elt F) ((c : Thread nD τ).loc b) := fun c b => W3 m c b
/-- After region 1: its windows' arrays at what the region leaves, every other buffer as entered. -/
def W4 (c : Dev nD) : Valuation τ sig (Elt F) :=
  Pipeline.withArrays spec1 c (W3 m c) fun w => (dat1 (E3 m) c).arrAt w cfg1.N
theorem W4_arr (c : Dev nD) (w : Fin cfg1.W) :
    W4 m c (Proc.devRef .tc (Pipeline.arrRef spec1 w)) = (dat1 (E3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
/-- The same read at the TensorCore's references. -/
abbrev E4 : (c : Dev nD) → (b : Ref sig .tc) → Buf (Elt F) ((c : Thread nD τ).loc b) := fun c b => W4 m c b
theorem hF1 (c : Dev nD) (w : Fin cfg1.W) : (dat1 (E3 m) c).arrAt w cfg1.N = E4 m c (Pipeline.arrRef spec1 w) :=
  (W4_arr m c w).symm
theorem hrest1 (c : Dev nD) : ∀ b, b ∉ Finset.univ.image (Pipeline.arrRef spec1) → E4 m c b = E3 m c b :=
  fun b hb => W4_of_ne m c b fun w e => hb (Finset.mem_image.mpr ⟨w, Finset.mem_univ _, e⟩)
/-- After region 2: its windows' arrays at what the region leaves, every other buffer as entered. -/
def W5 (c : Dev nD) : Valuation τ sig (Elt F) :=
  Pipeline.withArrays spec2 c (W4 m c) fun w => (dat2 (E4 m) c).arrAt w cfg2.N
theorem W5_arr (c : Dev nD) (w : Fin cfg2.W) :
    W5 m c (Proc.devRef .tc (Pipeline.arrRef spec2 w)) = (dat2 (E4 m) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m c (Proc.devRef .tc b) = W4 m c (Proc.devRef .tc b) := by
  unfold W5; exact Pipeline.withArrays_of_ne spec2 c _ _ b hb
/-- The same read at the TensorCore's references. -/
abbrev E5 : (c : Dev nD) → (b : Ref sig .tc) → Buf (Elt F) ((c : Thread nD τ).loc b) := fun c b => W5 m c b
theorem hF2 (c : Dev nD) (w : Fin cfg2.W) : (dat2 (E4 m) c).arrAt w cfg2.N = E5 m c (Pipeline.arrRef spec2 w) :=
  (W5_arr m c w).symm
theorem hrest2 (c : Dev nD) : ∀ b, b ∉ Finset.univ.image (Pipeline.arrRef spec2) → E5 m c b = E4 m c b :=
  fun b hb => W5_of_ne m c b fun w e => hb (Finset.mem_image.mpr ⟨w, Finset.mem_univ _, e⟩)
/-- After the host stretch `hostOps3`. -/
abbrev W6 : Dev nD → Valuation τ sig (Elt F) := fun c => StableHlo.after hostOps3 (W5 m c)
/-- The same read at the TensorCore's references. -/
abbrev E6 : (c : Dev nD) → (b : Ref sig .tc) → Buf (Elt F) ((c : Thread nD τ).loc b) := fun c b => W6 m c b
/-- After region 3: its windows' arrays at what the region leaves, every other buffer as entered. -/
def W7 (c : Dev nD) : Valuation τ sig (Elt F) :=
  Pipeline.withArrays spec3 c (W6 m c) fun w => (dat3 (E6 m) c).arrAt w cfg3.N
theorem W7_arr (c : Dev nD) (w : Fin cfg3.W) :
    W7 m c (Proc.devRef .tc (Pipeline.arrRef spec3 w)) = (dat3 (E6 m) c).arrAt w cfg3.N := by
  unfold W7; exact Pipeline.withArrays_arr spec3 launch3.win.arr_inj c _ _ w
theorem W7_of_ne (c : Dev nD) (b : Ref sig .tc) (hb : ∀ w, Pipeline.arrRef spec3 w ≠ b) :
    W7 m c (Proc.devRef .tc b) = W6 m c (Proc.devRef .tc b) := by
  unfold W7; exact Pipeline.withArrays_of_ne spec3 c _ _ b hb
/-- The same read at the TensorCore's references. -/
abbrev E7 : (c : Dev nD) → (b : Ref sig .tc) → Buf (Elt F) ((c : Thread nD τ).loc b) := fun c b => W7 m c b
theorem hF3 (c : Dev nD) (w : Fin cfg3.W) : (dat3 (E6 m) c).arrAt w cfg3.N = E7 m c (Pipeline.arrRef spec3 w) :=
  (W7_arr m c w).symm
theorem hrest3 (c : Dev nD) : ∀ b, b ∉ Finset.univ.image (Pipeline.arrRef spec3) → E7 m c b = E6 m c b :=
  fun b hb => W7_of_ne m c b fun w e => hb (Finset.mem_image.mpr ⟨w, Finset.mem_univ _, e⟩)
/-- After region 4: its windows' arrays at what the region leaves, every other buffer as entered. -/
def W8 (c : Dev nD) : Valuation τ sig (Elt F) :=
  Pipeline.withArrays spec4 c (W7 m c) fun w => (dat4 (E7 m) c).arrAt w cfg4.N
theorem W8_arr (c : Dev nD) (w : Fin cfg4.W) :
    W8 m c (Proc.devRef .tc (Pipeline.arrRef spec4 w)) = (dat4 (E7 m) c).arrAt w cfg4.N := by
  unfold W8; exact Pipeline.withArrays_arr spec4 launch4.win.arr_inj c _ _ w
theorem W8_of_ne (c : Dev nD) (b : Ref sig .tc) (hb : ∀ w, Pipeline.arrRef spec4 w ≠ b) :
    W8 m c (Proc.devRef .tc b) = W7 m c (Proc.devRef .tc b) := by
  unfold W8; exact Pipeline.withArrays_of_ne spec4 c _ _ b hb
/-- The same read at the TensorCore's references. -/
abbrev E8 : (c : Dev nD) → (b : Ref sig .tc) → Buf (Elt F) ((c : Thread nD τ).loc b) := fun c b => W8 m c b
theorem hF4 (c : Dev nD) (w : Fin cfg4.W) : (dat4 (E7 m) c).arrAt w cfg4.N = E8 m c (Pipeline.arrRef spec4 w) :=
  (W8_arr m c w).symm
theorem hrest4 (c : Dev nD) : ∀ b, b ∉ Finset.univ.image (Pipeline.arrRef spec4) → E8 m c b = E7 m c b :=
  fun b hb => W8_of_ne m c b fun w e => hb (Finset.mem_image.mpr ⟨w, Finset.mem_univ _, e⟩)
/-- After the host stretch `hostOps5`. -/
abbrev W9 : Dev nD → Valuation τ sig (Elt F) := fun c => StableHlo.after hostOps5 (W8 m c)
/-- The same read at the TensorCore's references. -/
abbrev E9 : (c : Dev nD) → (b : Ref sig .tc) → Buf (Elt F) ((c : Thread nD τ).loc b) := fun c b => W9 m c b
/-- After region 5: its windows' arrays at what the region leaves, every other buffer as entered. -/
def W10 (c : Dev nD) : Valuation τ sig (Elt F) :=
  Pipeline.withArrays spec5 c (W9 m c) fun w => (dat5 (E9 m) c).arrAt w cfg5.N
theorem W10_arr (c : Dev nD) (w : Fin cfg5.W) :
    W10 m c (Proc.devRef .tc (Pipeline.arrRef spec5 w)) = (dat5 (E9 m) c).arrAt w cfg5.N := by
  unfold W10; exact Pipeline.withArrays_arr spec5 launch5.win.arr_inj c _ _ w
theorem W10_of_ne (c : Dev nD) (b : Ref sig .tc) (hb : ∀ w, Pipeline.arrRef spec5 w ≠ b) :
    W10 m c (Proc.devRef .tc b) = W9 m c (Proc.devRef .tc b) := by
  unfold W10; exact Pipeline.withArrays_of_ne spec5 c _ _ b hb
/-- The same read at the TensorCore's references. -/
abbrev E10 : (c : Dev nD) → (b : Ref sig .tc) → Buf (Elt F) ((c : Thread nD τ).loc b) := fun c b => W10 m c b
theorem hF5 (c : Dev nD) (w : Fin cfg5.W) : (dat5 (E9 m) c).arrAt w cfg5.N = E10 m c (Pipeline.arrRef spec5 w) :=
  (W10_arr m c w).symm
theorem hrest5 (c : Dev nD) : ∀ b, b ∉ Finset.univ.image (Pipeline.arrRef spec5) → E10 m c b = E9 m c b :=
  fun b hb => W10_of_ne m c b fun w e => hb (Finset.mem_image.mpr ⟨w, Finset.mem_univ _, e⟩)
/-- After the host stretch `hostOps6`. -/
abbrev W11 : Dev nD → Valuation τ sig (Elt F) := fun c => StableHlo.after hostOps6 (W10 m c)
/-- The same read at the TensorCore's references. -/
abbrev E11 : (c : Dev nD) → (b : Ref sig .tc) → Buf (Elt F) ((c : Thread nD τ).loc b) := fun c b => W11 m c b
/-- After region 6: its windows' arrays at what the region leaves, every other buffer as entered. -/
def W12 (c : Dev nD) : Valuation τ sig (Elt F) :=
  Pipeline.withArrays spec6 c (W11 m c) fun w => (dat6 (E11 m) c).arrAt w cfg6.N
theorem W12_arr (c : Dev nD) (w : Fin cfg6.W) :
    W12 m c (Proc.devRef .tc (Pipeline.arrRef spec6 w)) = (dat6 (E11 m) c).arrAt w cfg6.N := by
  unfold W12; exact Pipeline.withArrays_arr spec6 launch6.win.arr_inj c _ _ w
theorem W12_of_ne (c : Dev nD) (b : Ref sig .tc) (hb : ∀ w, Pipeline.arrRef spec6 w ≠ b) :
    W12 m c (Proc.devRef .tc b) = W11 m c (Proc.devRef .tc b) := by
  unfold W12; exact Pipeline.withArrays_of_ne spec6 c _ _ b hb
/-- The same read at the TensorCore's references. -/
abbrev E12 : (c : Dev nD) → (b : Ref sig .tc) → Buf (Elt F) ((c : Thread nD τ).loc b) := fun c b => W12 m c b
theorem hF6 (c : Dev nD) (w : Fin cfg6.W) : (dat6 (E11 m) c).arrAt w cfg6.N = E12 m c (Pipeline.arrRef spec6 w) :=
  (W12_arr m c w).symm
theorem hrest6 (c : Dev nD) : ∀ b, b ∉ Finset.univ.image (Pipeline.arrRef spec6) → E12 m c b = E11 m c b :=
  fun b hb => W12_of_ne m c b fun w e => hb (Finset.mem_image.mpr ⟨w, Finset.mem_univ _, e⟩)

/-! ## The proof data family and the thread state -/

/-- Every region's proof data, each at its entry contents. -/
def pdat : (p : Fin 7) → (c : Dev nD) → Dat τ (Elt F) Unit ℕ (UR sig nD τ) ℕ (Pipeline.pin (pcfgs (F := F)) adm p) c
  | ⟨0, _⟩ => fun c => dat0 (E1 m) c
  | ⟨1, _⟩ => fun c => dat1 (E3 m) c
  | ⟨2, _⟩ => fun c => dat2 (E4 m) c
  | ⟨3, _⟩ => fun c => dat3 (E6 m) c
  | ⟨4, _⟩ => fun c => dat4 (E7 m) c
  | ⟨5, _⟩ => fun c => dat5 (E9 m) c
  | ⟨6, _⟩ => fun c => dat6 (E11 m) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state and nothing owed. -/
abbrev RR (c : Dev nD) : sProp 𝕄 := iprop((∃ r, prngReg c r) ∗ ∃ W, owes (c : Thread nD τ) (0 : CellTallies nD τ sig Unit) W)
/-- A host stretch as an item, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RR

/-- The last thread state without the `owes`: every unscoped buffer at the last boundary's contents, the generator
    register at some state. -/
abbrev Tend (c : Dev nD) : sProp 𝕄 := iprop(StableHlo.held (c : Thread nD τ) (Pipeline.ucRefs τ sig) (W12 m c) ∗ ∃ r, prngReg c r)

/-! ## The regions as items -/

set_option backward.isDefEq.respectTransparency.types false in
/-- Region 0: entered with every unscoped buffer at `W1`, left at `W2`. Its arrays are split out of the unscoped
    buffers and put back at the exit contents; the generator register goes into the region's invariant and comes back;
    nothing is owed; the kernel has no semaphore of its own. -/
def reg0 : Pipeline.RegionSeg (pcfgs (F := F)) adm (pdat m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (W1 m c) ∗ RR c)
  post c := iprop(StableHlo.held (c : Thread nD τ) (Pipeline.ucRefs τ sig) (W2 m c) ∗ RR c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdat m) launch0.win launch0.arr_whole c
      ((pdat m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdat m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdat m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdat m) ((pdat m 0 c).share_full fun _ => rfl)
      (E1 m c) (E2 m c) ((pdat m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered with every unscoped buffer at `W3`, left at `W4`. Its arrays are split out of the unscoped
    buffers and put back at the exit contents; the generator register goes into the region's invariant and comes back;
    nothing is owed; the kernel has no semaphore of its own. -/
def reg1 : Pipeline.RegionSeg (pcfgs (F := F)) adm (pdat m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E3 m) c).loose
  hwaits := Pipeline.hwaits_of_owed_zero _ _ _ _ L lv 1 fun _ _ => rfl
  pre c := iprop(StableHlo.held (c : Thread nD τ) (Pipeline.ucRefs τ sig) (W3 m c) ∗ RR c)
  post c := iprop(StableHlo.held (c : Thread nD τ) (Pipeline.ucRefs τ sig) (W4 m c) ∗ RR c)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none]
    have hsplit := Pipeline.arrays_of_unscopedBufs (p := 1) (pcfgs (F := F)) adm (pdat m) launch1.win launch1.arr_whole c
      ((pdat m 1 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdat m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdat m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdat m) ((pdat m 1 c).share_full fun _ => rfl)
      (E3 m c) (E4 m c) ((pdat m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2: entered with every unscoped buffer at `W4`, left at `W5`. Its arrays are split out of the unscoped
    buffers and put back at the exit contents; the generator register goes into the region's invariant and comes back;
    nothing is owed; the kernel has no semaphore of its own. -/
def reg2 : Pipeline.RegionSeg (pcfgs (F := F)) adm (pdat m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (E4 m) c).loose
  hwaits := Pipeline.hwaits_of_owed_zero _ _ _ _ L lv 2 fun _ _ => rfl
  pre c := iprop(StableHlo.held (c : Thread nD τ) (Pipeline.ucRefs τ sig) (W4 m c) ∗ RR c)
  post c := iprop(StableHlo.held (c : Thread nD τ) (Pipeline.ucRefs τ sig) (W5 m c) ∗ RR c)
  X c := iprop(∃ r, prngReg c r)
  Y c := iprop(∃ r, prngReg c r)
  Z c := Pipeline.unscopedRest (Ix := Unit) (Name := ℕ) (U := UR sig nD τ) (Lvl := ℕ) spec2 c (E4 m c)
  hentry c := by
    rw [Pipeline.ownSems0_none]
    have hsplit := Pipeline.arrays_of_unscopedBufs (p := 2) (pcfgs (F := F)) adm (pdat m) launch2.win launch2.arr_whole c
      ((pdat m 2 c).share_full fun _ => rfl) (E4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdat m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdat m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdat m) ((pdat m 2 c).share_full fun _ => rfl)
      (E4 m c) (E5 m c) ((pdat m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3: entered with every unscoped buffer at `W6`, left at `W7`. Its arrays are split out of the unscoped
    buffers and put back at the exit contents; the generator register goes into the region's invariant and comes back;
    nothing is owed; the kernel has no semaphore of its own. -/
def reg3 : Pipeline.RegionSeg (pcfgs (F := F)) adm (pdat m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (E6 m) c).loose
  hwaits := Pipeline.hwaits_of_owed_zero _ _ _ _ L lv 3 fun _ _ => rfl
  pre c := iprop(StableHlo.held (c : Thread nD τ) (Pipeline.ucRefs τ sig) (W6 m c) ∗ RR c)
  post c := iprop(StableHlo.held (c : Thread nD τ) (Pipeline.ucRefs τ sig) (W7 m c) ∗ RR c)
  X c := iprop(∃ r, prngReg c r)
  Y c := iprop(∃ r, prngReg c r)
  Z c := Pipeline.unscopedRest (Ix := Unit) (Name := ℕ) (U := UR sig nD τ) (Lvl := ℕ) spec3 c (E6 m c)
  hentry c := by
    rw [Pipeline.ownSems0_none]
    have hsplit := Pipeline.arrays_of_unscopedBufs (p := 3) (pcfgs (F := F)) adm (pdat m) launch3.win launch3.arr_whole c
      ((pdat m 3 c).share_full fun _ => rfl) (E6 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdat m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdat m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdat m) ((pdat m 3 c).share_full fun _ => rfl)
      (E6 m c) (E7 m c) ((pdat m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4: entered with every unscoped buffer at `W7`, left at `W8`. Its arrays are split out of the unscoped
    buffers and put back at the exit contents; the generator register goes into the region's invariant and comes back;
    nothing is owed; the kernel has no semaphore of its own. -/
def reg4 : Pipeline.RegionSeg (pcfgs (F := F)) adm (pdat m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (E7 m) c).loose
  hwaits := Pipeline.hwaits_of_owed_zero _ _ _ _ L lv 4 fun _ _ => rfl
  pre c := iprop(StableHlo.held (c : Thread nD τ) (Pipeline.ucRefs τ sig) (W7 m c) ∗ RR c)
  post c := iprop(StableHlo.held (c : Thread nD τ) (Pipeline.ucRefs τ sig) (W8 m c) ∗ RR c)
  X c := iprop(∃ r, prngReg c r)
  Y c := iprop(∃ r, prngReg c r)
  Z c := Pipeline.unscopedRest (Ix := Unit) (Name := ℕ) (U := UR sig nD τ) (Lvl := ℕ) spec4 c (E7 m c)
  hentry c := by
    rw [Pipeline.ownSems0_none]
    have hsplit := Pipeline.arrays_of_unscopedBufs (p := 4) (pcfgs (F := F)) adm (pdat m) launch4.win launch4.arr_whole c
      ((pdat m 4 c).share_full fun _ => rfl) (E7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdat m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdat m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdat m) ((pdat m 4 c).share_full fun _ => rfl)
      (E7 m c) (E8 m c) ((pdat m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5: entered with every unscoped buffer at `W9`, left at `W10`. Its arrays are split out of the unscoped
    buffers and put back at the exit contents; the generator register goes into the region's invariant and comes back;
    nothing is owed; the kernel has no semaphore of its own. -/
def reg5 : Pipeline.RegionSeg (pcfgs (F := F)) adm (pdat m) () defs₀ 𝒱₀ L lv 5 where
  win := launch5.win.to₀
  block_pos := launch5.block_pos
  stage_whole := launch5.stage_whole
  K := PEmpty
  osem k := k.elim
  ho := Pipeline.OwnSemFacts.none _
  hbody c := (body_obligation5 (E9 m) c).loose
  hwaits := Pipeline.hwaits_of_owed_zero _ _ _ _ L lv 5 fun _ _ => rfl
  pre c := iprop(StableHlo.held (c : Thread nD τ) (Pipeline.ucRefs τ sig) (W9 m c) ∗ RR c)
  post c := iprop(StableHlo.held (c : Thread nD τ) (Pipeline.ucRefs τ sig) (W10 m c) ∗ RR c)
  X c := iprop(∃ r, prngReg c r)
  Y c := iprop(∃ r, prngReg c r)
  Z c := Pipeline.unscopedRest (Ix := Unit) (Name := ℕ) (U := UR sig nD τ) (Lvl := ℕ) spec5 c (E9 m c)
  hentry c := by
    rw [Pipeline.ownSems0_none]
    have hsplit := Pipeline.arrays_of_unscopedBufs (p := 5) (pcfgs (F := F)) adm (pdat m) launch5.win launch5.arr_whole c
      ((pdat m 5 c).share_full fun _ => rfl) (E9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdat m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdat m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdat m) ((pdat m 5 c).share_full fun _ => rfl)
      (E9 m c) (E10 m c) ((pdat m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 6: entered with every unscoped buffer at `W11`, left at `W12`. Its arrays are split out of the unscoped
    buffers and put back at the exit contents; the generator register goes into the region's invariant and comes back;
    nothing is owed; the kernel has no semaphore of its own. -/
def reg6 : Pipeline.RegionSeg (pcfgs (F := F)) adm (pdat m) () defs₀ 𝒱₀ L lv 6 where
  win := launch6.win.to₀
  block_pos := launch6.block_pos
  stage_whole := launch6.stage_whole
  K := PEmpty
  osem k := k.elim
  ho := Pipeline.OwnSemFacts.none _
  hbody c := (body_obligation6 (E11 m) c).loose
  hwaits := Pipeline.hwaits_of_owed_zero _ _ _ _ L lv 6 fun _ _ => rfl
  pre c := iprop(StableHlo.held (c : Thread nD τ) (Pipeline.ucRefs τ sig) (W11 m c) ∗ RR c)
  post c := iprop(Tend m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec6 c (E11 m c)
  hentry c := by
    rw [Pipeline.ownSems0_none]
    have hsplit := Pipeline.arrays_of_unscopedBufs (p := 6) (pcfgs (F := F)) adm (pdat m) launch6.win launch6.arr_whole c
      ((pdat m 6 c).share_full fun _ => rfl) (E11 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h6 : (iprop(Pipeline.scopedRest (Ix := Unit) (Name := ℕ) (U := UR sig nD τ) (Lvl := ℕ) (Val := Elt F) spec6 c ∗ ∃ r, prngReg c r) : sProp 𝕄) ⊢ (dat6 (E11 m) c).Φ 0 := hin6 (E11 m) c
    show _ ⊢ (dat6 (E11 m) c).Φ 0
    iintro ⟨Hp, -, Hr⟩
    iapply h6
    isplitl [Hr]; · iexact Hr
    iexact Hp
  hout c := by
    rw [Pipeline.ownSems0_none]
    have h6 : (dat6 (E11 m) c).Φ (Fin.last cfg6.N) ⊢ (iprop(Pipeline.scopedRest (Ix := Unit) (Name := ℕ) (U := UR sig nD τ) (Lvl := ℕ) (Val := Elt F) spec6 c ∗ ∃ r, prngReg c r) : sProp 𝕄) := hout6 (E11 m) c
    have h2 : (iprop(Pipeline.scopedRest (Ix := Unit) (Name := ℕ) (U := UR sig nD τ) (Lvl := ℕ) (Val := Elt F) spec6 c ∗ ∃ r, prngReg c r) : sProp 𝕄) ⊢ (iprop((∃ r, prngReg c r) ∗ emp ∗ Pipeline.scopedRest (Ix := Unit) (Name := ℕ) (U := UR sig nD τ) (Lvl := ℕ) (Val := Elt F) spec6 c) : sProp 𝕄) := by
      iintro ⟨Hr, Hp⟩
      isplitl [Hp]; · iexact Hp
      isplitr; · iempintro
      iexact Hr
    exact h6.trans h2
  hexit c := by
    have hjoin := Pipeline.unscopedBufs_of_arrays (p := 6) (pcfgs (F := F)) adm (Ix := Unit) (Name := ℕ) (U := UR sig nD τ) (Lvl := ℕ)
      launch6.win launch6.arr_whole c (pdat m) ((pdat m 6 c).share_full fun _ => rfl)
      (E11 m c) (E12 m c) ((pdat m 6 c).arrAt · cfg6.N) (hF6 m c) (hrest6 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as its items, and the launch -/

/-- The program's 12 items in order. -/
abbrev items : List (Pipeline.Seg (pcfgs (F := F)) adm (pdat m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .region (reg2 m),
    .host (hseg hostOps3 hostOps3_sub hostOps3_fresh (W5 m)),
    .region (reg3 m),
    .region (reg4 m),
    .host (hseg hostOps5 hostOps5_sub hostOps5_fresh (W8 m)),
    .region (reg5 m),
    .host (hseg hostOps6 hostOps6_sub hostOps6_fresh (W10 m)),
    .region (reg6 m) ]

/-- The program IS the run of its items. -/
theorem main_run (c : Dev nD) : main (F := F) c = Pipeline.Seg.run (items m) := (main_chain c).trans (by chain_rfl)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- From any memory with zero counters every weakly fair execution of the program terminates, nothing faulting, and
    every unscoped buffer of every core ends at the last boundary's contents `W12`. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W12 m c b) :=
  Pipeline.θ_run_regions_kit (pcfgs (F := F)) adm (pdat m) () cellOf_inj emb₁ defs₀ 𝒱₀ L lv m ρ main (items m)
    (fun c Q => by rw [main_run m c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ RR c)) (Tₙ := Tend m)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m c b)
    (hfin := fun c s' => by
      iintro ⟨⟨Hh, -⟩, HSI⟩
      unfold StableHlo.held
      imodintro
      iapply (pointsTo_read_all (Pipeline.ucRefs τ sig) (fun b => (((c : Thread nD τ)).1, b)) (W12 m c) s')
      isplitl [Hh] <;> iassumption)
    (hQ := fun s h => h)

end Cert.Kernel.Fr

end
-- ==== Proof.K.Keep.lean ====
/-
  What each item of the run leaves alone. A host stretch changes only the buffers its operations write; a region changes
  only its output windows' arrays (an input window's array ends as it was entered). Walking the twelve boundaries back,
  every argument array of the program ends holding its launch contents: the frame claim. Stated for any float instance.
-/
import proofs.«405960_j60713657696826_2_alg».proof.Proof.K.Run

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.Sem
open Idealize.ShloMosaic.Pipeline (Dat Cfg Window)

variable {F : FTy → Type} [FloatOps F]

variable (m : (ℓ : Loc nD τ sig) → Buf (Elt F) ℓ)

/-! ## A host stretch keeps what it does not write -/

theorem W1_keep (c : Dev nD) (r : Ref sig .tc) (h : r ∉ hostOps0_W) : W1 m c (Proc.devRef .tc r) = W0 m c (Proc.devRef .tc r) :=
  StableHlo.after_of_writes_sub hostOps0 _ hostOps0_writes h
theorem W3_keep (c : Dev nD) (r : Ref sig .tc) (h : r ∉ hostOps1_W) : W3 m c (Proc.devRef .tc r) = W2 m c (Proc.devRef .tc r) :=
  StableHlo.after_of_writes_sub hostOps1 _ hostOps1_writes h
theorem W6_keep (c : Dev nD) (r : Ref sig .tc) (h : r ∉ hostOps3_W) : W6 m c (Proc.devRef .tc r) = W5 m c (Proc.devRef .tc r) :=
  StableHlo.after_of_writes_sub hostOps3 _ hostOps3_writes h
theorem W9_keep (c : Dev nD) (r : Ref sig .tc) (h : r ∉ hostOps5_W) : W9 m c (Proc.devRef .tc r) = W8 m c (Proc.devRef .tc r) :=
  StableHlo.after_of_writes_sub hostOps5 _ hostOps5_writes h
theorem W11_keep (c : Dev nD) (r : Ref sig .tc) (h : r ∉ hostOps6_W) : W11 m c (Proc.devRef .tc r) = W10 m c (Proc.devRef .tc r) :=
  StableHlo.after_of_writes_sub hostOps6 _ hostOps6_writes h

/-! ## A region keeps its input windows' arrays -/

theorem W2_in (c : Dev nD) (w : Fin cfg0.W) (hw : (cfg0.win w).isOut = false) :
    W2 m c (Proc.devRef .tc (Pipeline.arrRef spec0 w)) = W1 m c (Proc.devRef .tc (Pipeline.arrRef spec0 w)) :=
  (W2_arr m c w).trans (((dat0 (E1 m) c).arrAt_in w hw _).trans (A_eq0 (E1 m) c w))
theorem W4_in (c : Dev nD) (w : Fin cfg1.W) (hw : (cfg1.win w).isOut = false) :
    W4 m c (Proc.devRef .tc (Pipeline.arrRef spec1 w)) = W3 m c (Proc.devRef .tc (Pipeline.arrRef spec1 w)) :=
  (W4_arr m c w).trans (((dat1 (E3 m) c).arrAt_in w hw _).trans (A_eq1 (E3 m) c w))
theorem W5_in (c : Dev nD) (w : Fin cfg2.W) (hw : (cfg2.win w).isOut = false) :
    W5 m c (Proc.devRef .tc (Pipeline.arrRef spec2 w)) = W4 m c (Proc.devRef .tc (Pipeline.arrRef spec2 w)) :=
  (W5_arr m c w).trans (((dat2 (E4 m) c).arrAt_in w hw _).trans (A_eq2 (E4 m) c w))
theorem W7_in (c : Dev nD) (w : Fin cfg3.W) (hw : (cfg3.win w).isOut = false) :
    W7 m c (Proc.devRef .tc (Pipeline.arrRef spec3 w)) = W6 m c (Proc.devRef .tc (Pipeline.arrRef spec3 w)) :=
  (W7_arr m c w).trans (((dat3 (E6 m) c).arrAt_in w hw _).trans (A_eq3 (E6 m) c w))
theorem W8_in (c : Dev nD) (w : Fin cfg4.W) (hw : (cfg4.win w).isOut = false) :
    W8 m c (Proc.devRef .tc (Pipeline.arrRef spec4 w)) = W7 m c (Proc.devRef .tc (Pipeline.arrRef spec4 w)) :=
  (W8_arr m c w).trans (((dat4 (E7 m) c).arrAt_in w hw _).trans (A_eq4 (E7 m) c w))
theorem W10_in (c : Dev nD) (w : Fin cfg5.W) (hw : (cfg5.win w).isOut = false) :
    W10 m c (Proc.devRef .tc (Pipeline.arrRef spec5 w)) = W9 m c (Proc.devRef .tc (Pipeline.arrRef spec5 w)) :=
  (W10_arr m c w).trans (((dat5 (E9 m) c).arrAt_in w hw _).trans (A_eq5 (E9 m) c w))
theorem W12_in (c : Dev nD) (w : Fin cfg6.W) (hw : (cfg6.win w).isOut = false) :
    W12 m c (Proc.devRef .tc (Pipeline.arrRef spec6 w)) = W11 m c (Proc.devRef .tc (Pipeline.arrRef spec6 w)) :=
  (W12_arr m c w).trans (((dat6 (E11 m) c).arrAt_in w hw _).trans (A_eq6 (E11 m) c w))

/-! ## The arguments end as launched -/

theorem W12_main_arg0 (c : Dev nD) : W12 m c (Proc.devRef .tc main_arg0) = m ((c : Thread nD τ).loc main_arg0) :=
  (W12_of_ne m c main_arg0 (by decide)).trans <|
  (W11_keep m c main_arg0 (by decide)).trans <|
  (W10_of_ne m c main_arg0 (by decide)).trans <|
  (W9_keep m c main_arg0 (by decide)).trans <|
  (W8_of_ne m c main_arg0 (by decide)).trans <|
  (W7_of_ne m c main_arg0 (by decide)).trans <|
  (W6_keep m c main_arg0 (by decide)).trans <|
  (W5_of_ne m c main_arg0 (by decide)).trans <|
  (W4_of_ne m c main_arg0 (by decide)).trans <|
  (W3_keep m c main_arg0 (by decide)).trans <|
  (W2_in m c 0 rfl).trans <|
  (W1_keep m c main_arg0 (by decide)).trans <| rfl
theorem W12_main_arg1 (c : Dev nD) : W12 m c (Proc.devRef .tc main_arg1) = m ((c : Thread nD τ).loc main_arg1) :=
  (W12_of_ne m c main_arg1 (by decide)).trans <|
  (W11_keep m c main_arg1 (by decide)).trans <|
  (W10_of_ne m c main_arg1 (by decide)).trans <|
  (W9_keep m c main_arg1 (by decide)).trans <|
  (W8_of_ne m c main_arg1 (by decide)).trans <|
  (W7_of_ne m c main_arg1 (by decide)).trans <|
  (W6_keep m c main_arg1 (by decide)).trans <|
  (W5_of_ne m c main_arg1 (by decide)).trans <|
  (W4_of_ne m c main_arg1 (by decide)).trans <|
  (W3_keep m c main_arg1 (by decide)).trans <|
  (W2_of_ne m c main_arg1 (by decide)).trans <|
  (W1_keep m c main_arg1 (by decide)).trans <| rfl
theorem W12_main_arg2 (c : Dev nD) : W12 m c (Proc.devRef .tc main_arg2) = m ((c : Thread nD τ).loc main_arg2) :=
  (W12_of_ne m c main_arg2 (by decide)).trans <|
  (W11_keep m c main_arg2 (by decide)).trans <|
  (W10_of_ne m c main_arg2 (by decide)).trans <|
  (W9_keep m c main_arg2 (by decide)).trans <|
  (W8_of_ne m c main_arg2 (by decide)).trans <|
  (W7_of_ne m c main_arg2 (by decide)).trans <|
  (W6_keep m c main_arg2 (by decide)).trans <|
  (W5_of_ne m c main_arg2 (by decide)).trans <|
  (W4_of_ne m c main_arg2 (by decide)).trans <|
  (W3_keep m c main_arg2 (by decide)).trans <|
  (W2_of_ne m c main_arg2 (by decide)).trans <|
  (W1_keep m c main_arg2 (by decide)).trans <| rfl
theorem W12_main_arg3 (c : Dev nD) : W12 m c (Proc.devRef .tc main_arg3) = m ((c : Thread nD τ).loc main_arg3) :=
  (W12_of_ne m c main_arg3 (by decide)).trans <|
  (W11_keep m c main_arg3 (by decide)).trans <|
  (W10_of_ne m c main_arg3 (by decide)).trans <|
  (W9_keep m c main_arg3 (by decide)).trans <|
  (W8_of_ne m c main_arg3 (by decide)).trans <|
  (W7_of_ne m c main_arg3 (by decide)).trans <|
  (W6_keep m c main_arg3 (by decide)).trans <|
  (W5_of_ne m c main_arg3 (by decide)).trans <|
  (W4_of_ne m c main_arg3 (by decide)).trans <|
  (W3_keep m c main_arg3 (by decide)).trans <|
  (W2_in m c 1 rfl).trans <|
  (W1_keep m c main_arg3 (by decide)).trans <| rfl
theorem W12_main_arg4 (c : Dev nD) : W12 m c (Proc.devRef .tc main_arg4) = m ((c : Thread nD τ).loc main_arg4) :=
  (W12_of_ne m c main_arg4 (by decide)).trans <|
  (W11_keep m c main_arg4 (by decide)).trans <|
  (W10_of_ne m c main_arg4 (by decide)).trans <|
  (W9_keep m c main_arg4 (by decide)).trans <|
  (W8_of_ne m c main_arg4 (by decide)).trans <|
  (W7_of_ne m c main_arg4 (by decide)).trans <|
  (W6_keep m c main_arg4 (by decide)).trans <|
  (W5_of_ne m c main_arg4 (by decide)).trans <|
  (W4_of_ne m c main_arg4 (by decide)).trans <|
  (W3_keep m c main_arg4 (by decide)).trans <|
  (W2_of_ne m c main_arg4 (by decide)).trans <|
  (W1_keep m c main_arg4 (by decide)).trans <| rfl
theorem W12_main_arg5 (c : Dev nD) : W12 m c (Proc.devRef .tc main_arg5) = m ((c : Thread nD τ).loc main_arg5) :=
  (W12_of_ne m c main_arg5 (by decide)).trans <|
  (W11_keep m c main_arg5 (by decide)).trans <|
  (W10_of_ne m c main_arg5 (by decide)).trans <|
  (W9_keep m c main_arg5 (by decide)).trans <|
  (W8_of_ne m c main_arg5 (by decide)).trans <|
  (W7_of_ne m c main_arg5 (by decide)).trans <|
  (W6_keep m c main_arg5 (by decide)).trans <|
  (W5_in m c 1 rfl).trans <|
  (W4_of_ne m c main_arg5 (by decide)).trans <|
  (W3_keep m c main_arg5 (by decide)).trans <|
  (W2_of_ne m c main_arg5 (by decide)).trans <|
  (W1_keep m c main_arg5 (by decide)).trans <| rfl
theorem W12_main_arg6 (c : Dev nD) : W12 m c (Proc.devRef .tc main_arg6) = m ((c : Thread nD τ).loc main_arg6) :=
  (W12_of_ne m c main_arg6 (by decide)).trans <|
  (W11_keep m c main_arg6 (by decide)).trans <|
  (W10_of_ne m c main_arg6 (by decide)).trans <|
  (W9_keep m c main_arg6 (by decide)).trans <|
  (W8_of_ne m c main_arg6 (by decide)).trans <|
  (W7_of_ne m c main_arg6 (by decide)).trans <|
  (W6_keep m c main_arg6 (by decide)).trans <|
  (W5_of_ne m c main_arg6 (by decide)).trans <|
  (W4_of_ne m c main_arg6 (by decide)).trans <|
  (W3_keep m c main_arg6 (by decide)).trans <|
  (W2_of_ne m c main_arg6 (by decide)).trans <|
  (W1_keep m c main_arg6 (by decide)).trans <| rfl
theorem W12_main_arg7 (c : Dev nD) : W12 m c (Proc.devRef .tc main_arg7) = m ((c : Thread nD τ).loc main_arg7) :=
  (W12_of_ne m c main_arg7 (by decide)).trans <|
  (W11_keep m c main_arg7 (by decide)).trans <|
  (W10_of_ne m c main_arg7 (by decide)).trans <|
  (W9_keep m c main_arg7 (by decide)).trans <|
  (W8_in m c 1 rfl).trans <|
  (W7_of_ne m c main_arg7 (by decide)).trans <|
  (W6_keep m c main_arg7 (by decide)).trans <|
  (W5_of_ne m c main_arg7 (by decide)).trans <|
  (W4_of_ne m c main_arg7 (by decide)).trans <|
  (W3_keep m c main_arg7 (by decide)).trans <|
  (W2_of_ne m c main_arg7 (by decide)).trans <|
  (W1_keep m c main_arg7 (by decide)).trans <| rfl
theorem W12_main_arg8 (c : Dev nD) : W12 m c (Proc.devRef .tc main_arg8) = m ((c : Thread nD τ).loc main_arg8) :=
  (W12_of_ne m c main_arg8 (by decide)).trans <|
  (W11_keep m c main_arg8 (by decide)).trans <|
  (W10_of_ne m c main_arg8 (by decide)).trans <|
  (W9_keep m c main_arg8 (by decide)).trans <|
  (W8_of_ne m c main_arg8 (by decide)).trans <|
  (W7_of_ne m c main_arg8 (by decide)).trans <|
  (W6_keep m c main_arg8 (by decide)).trans <|
  (W5_of_ne m c main_arg8 (by decide)).trans <|
  (W4_of_ne m c main_arg8 (by decide)).trans <|
  (W3_keep m c main_arg8 (by decide)).trans <|
  (W2_of_ne m c main_arg8 (by decide)).trans <|
  (W1_keep m c main_arg8 (by decide)).trans <| rfl

/-- The result's buffer ends at what the last region leaves in its output window's array. -/
theorem W12_result (c : Dev nD) : W12 m c (Proc.devRef .tc main_v77) = (dat6 (E11 m) c).arrAt 2 cfg6.N := W12_arr m c 2

/-- The frame claim: the program runs to the end from any memory with zero counters, nothing faults, and every argument
    array ends holding its launch contents. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c _ (mem_uc main_arg0 (by decide))).trans (W12_main_arg0 m c),
    (h c _ (mem_uc main_arg1 (by decide))).trans (W12_main_arg1 m c),
    (h c _ (mem_uc main_arg2 (by decide))).trans (W12_main_arg2 m c),
    (h c _ (mem_uc main_arg3 (by decide))).trans (W12_main_arg3 m c),
    (h c _ (mem_uc main_arg4 (by decide))).trans (W12_main_arg4 m c),
    (h c _ (mem_uc main_arg5 (by decide))).trans (W12_main_arg5 m c),
    (h c _ (mem_uc main_arg6 (by decide))).trans (W12_main_arg6 m c),
    (h c _ (mem_uc main_arg7 (by decide))).trans (W12_main_arg7 m c),
    (h c _ (mem_uc main_arg8 (by decide))).trans (W12_main_arg8 m c)⟩) (run_all m ρ)

end Cert.Kernel.Fr

end
-- ==== Proof.KI.Reg0.lean ====
/-
  Region 0 of the program: the first feature transform, one row block of 5000 nodes per grid point.
  At any contents `V` of the core's buffers on entry: what each window's staging buffer holds at a grid point,
  what the body leaves in the output's buffer (the product of the row block with the whole weight matrix, into a zero
  accumulator), the body's triple, the region's proof data, and the obligation that the body meets them at every point.
  Stated for any float instance.
-/
import proofs.«405960_j60713657696826_2_alg».proof.Proof.Gen.KernelIdeal.Launch
import proofs.«405960_j60713657696826_2_alg».proof.Proof.Gen.KernelIdeal.Skeleton
import proofs.«405960_j60713657696826_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row block's staging buffer holds the block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight matrix's staging buffer holds the whole matrix at every point: fetched once, its index never moves. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_x : Rect S5000x128 := Rect.unit (s := S5000x128) ![0, 0] S5000x128.size inb_S5000x128_S5000x128_0_0
abbrev r0_w : Rect S128x128 := Rect.unit (s := S128x128) ![0, 0] S128x128.size inb_S128x128_S128x128_0_0
abbrev r0_o : Rect S5000x128 := Rect.unit (s := S5000x128) ![0, 0] S5000x128.size inb_S5000x128_S5000x128_0_0

/-! ## What the body leaves in the output window's buffer -/

/-- The output's staging buffer after the body: its one store, of the product of the loaded row block and weights. -/
def out0_2 (x0 : Vec F S5000x128 .f32) (x1 : Vec F S128x128 .f32) : Vec F S5000x128 .f32 :=
  View.canon [⟨r0_o, k0_pay1 (View.ld x0 r0_x) (View.ld x1 r0_w)⟩]

/-- The store covers the buffer. -/
theorem cover0_2 (p0 : Vec F S5000x128 .f32) (y : S5000x128.Idx) :
    ∃ pc ∈ ([⟨r0_o, p0⟩] : List (View.Piece (Elt F) S5000x128 .f32)), y ∈ pc.1.set :=
  View.cover_of_tiled [⟨r0_o, p0⟩] S5000x128.size (by rfl) y

/-! ## The body's triple -/

set_option maxHeartbeats 1000000 in
/-- On whole staging memrefs, the inputs' at `x0`, `x1` and the output's at anything, the body runs to the continuation
    with the inputs' as they were and the output's at `out0_2 x0 x1`. -/
theorem sound_kernel0 (c : Dev nD) (E : Set ℕ) (i : grid0.Coords) (arg1 : Memref sig .tc .vmem S5000x128 .f32) (harg1 : arg1.IsWhole) (arg2 : Memref sig .tc .vmem S128x128 .f32) (harg2 : arg2.IsWhole) (arg3 : Memref sig .tc .vmem S5000x128 .f32) (harg3 : arg3.IsWhole)
    (x0 : Vec F S5000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The region's proof data -/

/-- The arrays as the region finds them; after the body at point `t` each input's buffer at its block and the output's at
    `out0_2` of the input blocks; the invariant the scoped rest and the generator register, untouched; nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.KI.Reg1.lean ====
/-
  Region 1 of the program: the elementwise combine of one layer, one row block of 5000 nodes per grid point:
  aggregated neighbours + own features scaled per row + bias, then the positive part.
  At any contents `V` of the core's buffers on entry: what each window's staging buffer holds at a grid point,
  what the body leaves in the output's buffer, the body's triple, the region's proof data, and the obligation that the
  body meets them at every point. Stated for any float instance.
-/
import proofs.«405960_j60713657696826_2_alg».proof.Proof.Gen.KernelIdeal.Launch
import proofs.«405960_j60713657696826_2_alg».proof.Proof.Gen.KernelIdeal.Skeleton
import proofs.«405960_j60713657696826_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_blk : Rect S5000x128 := Rect.unit (s := S5000x128) ![0, 0] S5000x128.size inb_S5000x128_S5000x128_0_0
abbrev r1_col : Rect S5000x1 := Rect.unit (s := S5000x1) ![0, 0] S5000x1.size inb_S5000x1_S5000x1_0_0
abbrev r1_row : Rect S1x128 := Rect.unit (s := S1x128) ![0, 0] S1x128.size inb_S1x128_S1x128_0_0

/-! ## What the body leaves in the output window's buffer -/

/-- The output's staging buffer after the body: its one store, of the combine of the four loaded blocks. -/
def out1_4 (x0 x1 : Vec F S5000x128 .f32) (x2 : Vec F S5000x1 .f32) (x3 : Vec F S1x128 .f32) : Vec F S5000x128 .f32 :=
  View.canon [⟨r1_blk, k1_pay1 (View.ld x0 r1_blk) (View.ld x1 r1_blk) (View.ld x2 r1_col) (View.ld x3 r1_row)⟩]

/-- The store covers the buffer. -/
theorem cover1_4 (p0 : Vec F S5000x128 .f32) (y : S5000x128.Idx) :
    ∃ pc ∈ ([⟨r1_blk, p0⟩] : List (View.Piece (Elt F) S5000x128 .f32)), y ∈ pc.1.set :=
  View.cover_of_tiled [⟨r1_blk, p0⟩] S5000x128.size (by rfl) y

/-! ## The body's triple -/

set_option maxHeartbeats 1000000 in
/-- On whole staging memrefs, the inputs' at `x0 … x3` and the output's at anything, the body runs to the continuation
    with the inputs' as they were and the output's at `out1_4 x0 x1 x2 x3`. -/
theorem sound_kernel1 (c : Dev nD) (E : Set ℕ) (i : grid1.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S1x128 .f32) (harg4 : arg4.IsWhole) (arg5 : Memref sig .tc .vmem S5000x128 .f32) (harg5 : arg5.IsWhole)
    (x0 x1 : Vec F S5000x128 .f32) (x2 : Vec F S5000x1 .f32) (x3 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out1_4 x0 x1 x2 x3)) -∗ K ⟨⟩))
      ⊢ wp frame (wpE (defs₀ (F := F)) Variants.none c none) E (cc1__combine_kernel i arg1 harg1 arg2 harg2 arg3 harg3 arg4 harg4 arg5 harg5) K := by
  simp only [cc1__combine_kernel_eq_skeleton]; unfold cc1__combine_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-! ## The region's proof data -/

/-- The arrays as the region finds them; after the body at point `t` each input's buffer at its block and the output's at
    `out1_4` of the input blocks; the invariant the scoped rest and the generator register, untouched; nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1_4 (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Fr

end
-- ==== Proof.KI.Reg2.lean ====
/-
  Region 2 of the program: the first feature transform, one row block of 5000 nodes per grid point.
  At any contents `V` of the core's buffers on entry: what each window's staging buffer holds at a grid point,
  what the body leaves in the output's buffer (the product of the row block with the whole weight matrix, into a zero
  accumulator), the body's triple, the region's proof data, and the obligation that the body meets them at every point.
  Stated for any float instance.
-/
import proofs.«405960_j60713657696826_2_alg».proof.Proof.Gen.KernelIdeal.Launch
import proofs.«405960_j60713657696826_2_alg».proof.Proof.Gen.KernelIdeal.Skeleton
import proofs.«405960_j60713657696826_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The row block's staging buffer holds the block at every point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The weight matrix's staging buffer holds the whole matrix at every point: fetched once, its index never moves. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

abbrev r2_x : Rect S5000x128 := Rect.unit (s := S5000x128) ![0, 0] S5000x128.size inb_S5000x128_S5000x128_0_0
abbrev r2_w : Rect S128x128 := Rect.unit (s := S128x128) ![0, 0] S128x128.size inb_S128x128_S128x128_0_0
abbrev r2_o : Rect S5000x128 := Rect.unit (s := S5000x128) ![0, 0] S5000x128.size inb_S5000x128_S5000x128_0_0

/-! ## What the body leaves in the output window's buffer -/

/-- The output's staging buffer after the body: its one store, of the product of the loaded row block and weights. -/
def out2_2 (x0 : Vec F S5000x128 .f32) (x1 : Vec F S128x128 .f32) : Vec F S5000x128 .f32 :=
  View.canon [⟨r2_o, k2_pay1 (View.ld x0 r2_x) (View.ld x1 r2_w)⟩]

/-- The store covers the buffer. -/
theorem cover2_2 (p0 : Vec F S5000x128 .f32) (y : S5000x128.Idx) :
    ∃ pc ∈ ([⟨r2_o, p0⟩] : List (View.Piece (Elt F) S5000x128 .f32)), y ∈ pc.1.set :=
  View.cover_of_tiled [⟨r2_o, p0⟩] S5000x128.size (by rfl) y

/-! ## The body's triple -/

set_option maxHeartbeats 1000000 in
/-- On whole staging memrefs, the inputs' at `x0`, `x1` and the output's at anything, the body runs to the continuation
    with the inputs' as they were and the output's at `out2_2 x0 x1`. -/
theorem sound_kernel2 (c : Dev nD) (E : Set ℕ) (i : grid2.Coords) (arg1 : Memref sig .tc .vmem S5000x128 .f32) (harg1 : arg1.IsWhole) (arg2 : Memref sig .tc .vmem S128x128 .f32) (harg2 : arg2.IsWhole) (arg3 : Memref sig .tc .vmem S5000x128 .f32) (harg3 : arg3.IsWhole)
    (x0 : Vec F S5000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__matmul_kernel i arg1 harg1 arg2 harg2 arg3 harg3) K := by
  simp only [cc2__matmul_kernel_eq_skeleton]; unfold cc2__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The region's proof data -/

/-- The arrays as the region finds them; after the body at point `t` each input's buffer at its block and the output's at
    `out2_2` of the input blocks; the invariant the scoped rest and the generator register, untouched; nothing owed;
    full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Fr

end
-- ==== Proof.KI.Reg3.lean ====
/-
  Region 3 of the program: the elementwise combine of one layer, one row block of 5000 nodes per grid point:
  aggregated neighbours + own features scaled per row + bias, then the positive part.
  At any contents `V` of the core's buffers on entry: what each window's staging buffer holds at a grid point,
  what the body leaves in the output's buffer, the body's triple, the region's proof data, and the obligation that the
  body meets them at every point. Stated for any float instance.
-/
import proofs.«405960_j60713657696826_2_alg».proof.Proof.Gen.KernelIdeal.Launch
import proofs.«405960_j60713657696826_2_alg».proof.Proof.Gen.KernelIdeal.Skeleton
import proofs.«405960_j60713657696826_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's staging buffer holds its block at every point, fetched there or not. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's staging buffer holds its block at every point, fetched there or not. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's staging buffer holds its block at every point, fetched there or not. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's staging buffer holds its block at every point, fetched there or not. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses -/

abbrev r3_blk : Rect S5000x128 := Rect.unit (s := S5000x128) ![0, 0] S5000x128.size inb_S5000x128_S5000x128_0_0
abbrev r3_col : Rect S5000x1 := Rect.unit (s := S5000x1) ![0, 0] S5000x1.size inb_S5000x1_S5000x1_0_0
abbrev r3_row : Rect S1x128 := Rect.unit (s := S1x128) ![0, 0] S1x128.size inb_S1x128_S1x128_0_0

/-! ## What the body leaves in the output window's buffer -/

/-- The output's staging buffer after the body: its one store, of the combine of the four loaded blocks. -/
def out3_4 (x0 x1 : Vec F S5000x128 .f32) (x2 : Vec F S5000x1 .f32) (x3 : Vec F S1x128 .f32) : Vec F S5000x128 .f32 :=
  View.canon [⟨r3_blk, k3_pay1 (View.ld x0 r3_blk) (View.ld x1 r3_blk) (View.ld x2 r3_col) (View.ld x3 r3_row)⟩]

/-- The store covers the buffer. -/
theorem cover3_4 (p0 : Vec F S5000x128 .f32) (y : S5000x128.Idx) :
    ∃ pc ∈ ([⟨r3_blk, p0⟩] : List (View.Piece (Elt F) S5000x128 .f32)), y ∈ pc.1.set :=
  View.cover_of_tiled [⟨r3_blk, p0⟩] S5000x128.size (by rfl) y

/-! ## The body's triple -/

set_option maxHeartbeats 1000000 in
/-- On whole staging memrefs, the inputs' at `x0 … x3` and the output's at anything, the body runs to the continuation
    with the inputs' as they were and the output's at `out3_4 x0 x1 x2 x3`. -/
theorem sound_kernel3 (c : Dev nD) (E : Set ℕ) (i : grid3.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S1x128 .f32) (harg4 : arg4.IsWhole) (arg5 : Memref sig .tc .vmem S5000x128 .f32) (harg5 : arg5.IsWhole)
    (x0 x1 : Vec F S5000x128 .f32) (x2 : Vec F S5000x1 .f32) (x3 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out3_4 x0 x1 x2 x3)) -∗ K ⟨⟩))
      ⊢ wp frame (wpE (defs₀ (F := F)) Variants.none c none) E (cc3__combine_kernel i arg1 harg1 arg2 harg2 arg3 harg3 arg4 harg4 arg5 harg5) K := by
  simp only [cc3__combine_kernel_eq_skeleton]; unfold cc3__combine_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover3_4 _)

/-! ## The region's proof data -/

/-- The arrays as the region finds them; after the body at point `t` each input's buffer at its block and the output's at
    `out3_4` of the input blocks; the invariant the scoped rest and the generator register, untouched; nothing owed;
    full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3_4 (iblk3 V c 0 t) (iblk3 V c 1 t) (iblk3 V c 2 t) (iblk3 V c 3 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = out3_4 (iblk3 V c 0 t) (iblk3 V c 1 t) (iblk3 V c 2 t) (iblk3 V c 3 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d

/-! ## The body obligation, at a generic point -/

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).Φ t.succ = (dat3 V c).Φ t.castSucc from rfl,
    show (dat3 V c).owesAt () t.succ = (dat3 V c).owesAt () t.castSucc from rfl,
    after3_0, after3_1, after3_2, after3_3, after3_4]
  iintro ⟨HΦ, Ho, ⟨%d0, H0⟩, ⟨%d1, H1⟩, ⟨%d2, H2⟩, ⟨%d3, H3⟩, ⟨%d4, H4⟩⟩
  iapply (sound_kernel3 c Set.univ _ _ _ _ _ _ _ _ _ _ _ (iblk3 V c 0 t) (iblk3 V c 1 t) (iblk3 V c 2 t) (iblk3 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Fr

end
-- ==== Proof.KI.Reg4.lean ====
/-
  Region 4 of the program: the third feature transform (128 features to 2), one row block of 5000 nodes per grid point.
  At any contents `V` of the core's buffers on entry: what each window's staging buffer holds at a grid point,
  what the body leaves in the output's buffer (the product of the row block with the whole weight matrix, into a zero
  accumulator), the body's triple, the region's proof data, and the obligation that the body meets them at every point.
  Stated for any float instance.
-/
import proofs.«405960_j60713657696826_2_alg».proof.Proof.Gen.KernelIdeal.Launch
import proofs.«405960_j60713657696826_2_alg».proof.Proof.Gen.KernelIdeal.Skeleton
import proofs.«405960_j60713657696826_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The row block's staging buffer holds the block at every point. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- The weight matrix's staging buffer holds the whole matrix at every point: fetched once, its index never moves. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses -/

abbrev r4_x : Rect S5000x128 := Rect.unit (s := S5000x128) ![0, 0] S5000x128.size inb_S5000x128_S5000x128_0_0
abbrev r4_w : Rect S128x2 := Rect.unit (s := S128x2) ![0, 0] S128x2.size inb_S128x2_S128x2_0_0
abbrev r4_o : Rect S5000x2 := Rect.unit (s := S5000x2) ![0, 0] S5000x2.size inb_S5000x2_S5000x2_0_0

/-! ## What the body leaves in the output window's buffer -/

/-- The output's staging buffer after the body: its one store, of the product of the loaded row block and weights. -/
def out4_2 (x0 : Vec F S5000x128 .f32) (x1 : Vec F S128x2 .f32) : Vec F S5000x2 .f32 :=
  View.canon [⟨r4_o, k4_pay1 (View.ld x0 r4_x) (View.ld x1 r4_w)⟩]

/-- The store covers the buffer. -/
theorem cover4_2 (p0 : Vec F S5000x2 .f32) (y : S5000x2.Idx) :
    ∃ pc ∈ ([⟨r4_o, p0⟩] : List (View.Piece (Elt F) S5000x2 .f32)), y ∈ pc.1.set :=
  View.cover_of_tiled [⟨r4_o, p0⟩] S5000x2.size (by rfl) y

/-! ## The body's triple -/

set_option maxHeartbeats 1000000 in
/-- On whole staging memrefs, the inputs' at `x0`, `x1` and the output's at anything, the body runs to the continuation
    with the inputs' as they were and the output's at `out4_2 x0 x1`. -/
theorem sound_kernel4 (c : Dev nD) (E : Set ℕ) (i : grid4.Coords) (arg1 : Memref sig .tc .vmem S5000x128 .f32) (harg1 : arg1.IsWhole) (arg2 : Memref sig .tc .vmem S128x2 .f32) (harg2 : arg2.IsWhole) (arg3 : Memref sig .tc .vmem S5000x2 .f32) (harg3 : arg3.IsWhole)
    (x0 : Vec F S5000x128 .f32) (x1 : Vec F S128x2 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out4_2 x0 x1)) -∗ K ⟨⟩))
      ⊢ wp frame (wpE (defs₀ (F := F)) Variants.none c none) E (cc4__matmul_kernel i arg1 harg1 arg2 harg2 arg3 harg3) K := by
  simp only [cc4__matmul_kernel_eq_skeleton]; unfold cc4__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover4_2 _)

/-! ## The region's proof data -/

/-- The arrays as the region finds them; after the body at point `t` each input's buffer at its block and the output's at
    `out4_2` of the input blocks; the invariant the scoped rest and the generator register, untouched; nothing owed;
    full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = out4_2 (iblk4 V c 0 t) (iblk4 V c 1 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-! ## The body obligation, at a generic point -/

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t))

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).Φ t.succ = (dat4 V c).Φ t.castSucc from rfl,
    show (dat4 V c).owesAt () t.succ = (dat4 V c).owesAt () t.castSucc from rfl,
    after4_0, after4_1, after4_2]
  iintro ⟨HΦ, Ho, ⟨%d0, H0⟩, ⟨%d1, H1⟩, ⟨%d2, H2⟩⟩
  iapply (sound_kernel4 c Set.univ _ _ _ _ _ _ _ (iblk4 V c 0 t) (iblk4 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Fr

end
-- ==== Proof.KI.Reg5.lean ====
/-
  Region 5 of the program: the elementwise combine of one layer, one row block of 5000 nodes per grid point:
  aggregated neighbours + own features scaled per row + bias.
  At any contents `V` of the core's buffers on entry: what each window's staging buffer holds at a grid point,
  what the body leaves in the output's buffer, the body's triple, the region's proof data, and the obligation that the
  body meets them at every point. Stated for any float instance.
-/
import proofs.«405960_j60713657696826_2_alg».proof.Proof.Gen.KernelIdeal.Launch
import proofs.«405960_j60713657696826_2_alg».proof.Proof.Gen.KernelIdeal.Skeleton
import proofs.«405960_j60713657696826_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's staging buffer holds its block at every point, fetched there or not. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's staging buffer holds its block at every point, fetched there or not. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's staging buffer holds its block at every point, fetched there or not. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- Input window 3's staging buffer holds its block at every point, fetched there or not. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses -/

abbrev r5_blk : Rect S5000x2 := Rect.unit (s := S5000x2) ![0, 0] S5000x2.size inb_S5000x2_S5000x2_0_0
abbrev r5_col : Rect S5000x1 := Rect.unit (s := S5000x1) ![0, 0] S5000x1.size inb_S5000x1_S5000x1_0_0
abbrev r5_row : Rect S1x2 := Rect.unit (s := S1x2) ![0, 0] S1x2.size inb_S1x2_S1x2_0_0

/-! ## What the body leaves in the output window's buffer -/

/-- The output's staging buffer after the body: its one store, of the combine of the four loaded blocks. -/
def out5_4 (x0 x1 : Vec F S5000x2 .f32) (x2 : Vec F S5000x1 .f32) (x3 : Vec F S1x2 .f32) : Vec F S5000x2 .f32 :=
  View.canon [⟨r5_blk, k5_pay1 (View.ld x0 r5_blk) (View.ld x1 r5_blk) (View.ld x2 r5_col) (View.ld x3 r5_row)⟩]

/-- The store covers the buffer. -/
theorem cover5_4 (p0 : Vec F S5000x2 .f32) (y : S5000x2.Idx) :
    ∃ pc ∈ ([⟨r5_blk, p0⟩] : List (View.Piece (Elt F) S5000x2 .f32)), y ∈ pc.1.set :=
  View.cover_of_tiled [⟨r5_blk, p0⟩] S5000x2.size (by rfl) y

/-! ## The body's triple -/

set_option maxHeartbeats 1000000 in
/-- On whole staging memrefs, the inputs' at `x0 … x3` and the output's at anything, the body runs to the continuation
    with the inputs' as they were and the output's at `out5_4 x0 x1 x2 x3`. -/
theorem sound_kernel5 (c : Dev nD) (E : Set ℕ) (i : grid5.Coords) (arg1 : Memref sig .tc .vmem S5000x2 .f32) (harg1 : arg1.IsWhole) (arg2 : Memref sig .tc .vmem S5000x2 .f32) (harg2 : arg2.IsWhole) (arg3 : Memref sig .tc .vmem S5000x1 .f32) (harg3 : arg3.IsWhole) (arg4 : Memref sig .tc .vmem S1x2 .f32) (harg4 : arg4.IsWhole) (arg5 : Memref sig .tc .vmem S5000x2 .f32) (harg5 : arg5.IsWhole)
    (x0 x1 : Vec F S5000x2 .f32) (x2 : Vec F S5000x1 .f32) (x3 : Vec F S1x2 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out5_4 x0 x1 x2 x3)) -∗ K ⟨⟩))
      ⊢ wp frame (wpE (defs₀ (F := F)) Variants.none c none) E (cc5__combine_kernel i arg1 harg1 arg2 harg2 arg3 harg3 arg4 harg4 arg5 harg5) K := by
  simp only [cc5__combine_kernel_eq_skeleton]; unfold cc5__combine_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover5_4 _)

/-! ## The region's proof data -/

/-- The arrays as the region finds them; after the body at point `t` each input's buffer at its block and the output's at
    `out5_4` of the input blocks; the invariant the scoped rest and the generator register, untouched; nothing owed;
    full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => out5_4 (iblk5 V c 0 t) (iblk5 V c 1 t) (iblk5 V c 2 t) (iblk5 V c 3 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = out5_4 (iblk5 V c 0 t) (iblk5 V c 1 t) (iblk5 V c 2 t) (iblk5 V c 3 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d

/-! ## The body obligation, at a generic point -/

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d)))

def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t))

theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3]
  rw [show (dat5 V c).Φ t.succ = (dat5 V c).Φ t.castSucc from rfl,
    show (dat5 V c).owesAt () t.succ = (dat5 V c).owesAt () t.castSucc from rfl,
    after5_0, after5_1, after5_2, after5_3, after5_4]
  iintro ⟨HΦ, Ho, ⟨%d0, H0⟩, ⟨%d1, H1⟩, ⟨%d2, H2⟩, ⟨%d3, H3⟩, ⟨%d4, H4⟩⟩
  iapply (sound_kernel5 c Set.univ _ _ _ _ _ _ _ _ _ _ _ (iblk5 V c 0 t) (iblk5 V c 1 t) (iblk5 V c 2 t) (iblk5 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.KernelIdeal.Fr

end
-- ==== Proof.KI.Reg6Defs.lean ====
/-
  Region 6 of the program: the mean pool. Its grid walks the 20 row blocks of the node features in order; two scratch
  buffers carry the per-graph sums and counts from point to point (reset at the first point), and the output block is
  stored at the last point only. Here: the windows' blocks at a point, the scratch buffers' contents after each point as
  a recursion over the points, the region's invariant and its proof data. Stated for any float instance.
-/
import proofs.«405960_j60713657696826_2_alg».proof.Proof.Gen.KernelIdeal.Launch
import proofs.«405960_j60713657696826_2_alg».proof.Proof.Gen.KernelIdeal.Skeleton
import proofs.«405960_j60713657696826_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- The two scratch operands, whole. -/
abbrev scM6_0 : Memref sig .tc .vmem S64x2 .f32 := Memref.whole cc6_scratch0
abbrev scM6_1 : Memref sig .tc .vmem S64x1 .f32 := Memref.whole cc6_scratch1

/-! ## The carried sums and counts -/

/-- What the two scratch buffers hold after the body at position `n`: at the first point the accumulation of that
    point's block onto the reset (zero) buffers, afterwards the accumulation onto what the point before left. The first
    component is the per-graph sums (64 × 2), the second the per-graph counts (64 × 1). -/
def acc6 (c : Dev nD) : (n : ℕ) → n < cfg6.N → Vec F S64x2 .f32 × Vec F S64x1 .f32
  | 0, hn => (k6_pay4 (iblk6 V c 1 ⟨0, hn⟩) (iblk6 V c 0 ⟨0, hn⟩) (k6_pay1 (F := F)), k6_pay5 (iblk6 V c 1 ⟨0, hn⟩) (k6_pay2 (F := F)))
  | n + 1, hn => (k6_pay4 (iblk6 V c 1 ⟨n + 1, hn⟩) (iblk6 V c 0 ⟨n + 1, hn⟩) (acc6 c n (Nat.lt_of_succ_lt hn)).1,
      k6_pay5 (iblk6 V c 1 ⟨n + 1, hn⟩) (acc6 c n (Nat.lt_of_succ_lt hn)).2)

theorem acc6_zero (c : Dev nD) (hn : 0 < cfg6.N) :
    acc6 V c 0 hn = (k6_pay4 (iblk6 V c 1 ⟨0, hn⟩) (iblk6 V c 0 ⟨0, hn⟩) (k6_pay1 (F := F)), k6_pay5 (iblk6 V c 1 ⟨0, hn⟩) (k6_pay2 (F := F))) := rfl

theorem acc6_succ (c : Dev nD) (n : ℕ) (hn : n + 1 < cfg6.N) :
    acc6 V c (n + 1) hn = (k6_pay4 (iblk6 V c 1 ⟨n + 1, hn⟩) (iblk6 V c 0 ⟨n + 1, hn⟩) (acc6 V c n (Nat.lt_of_succ_lt hn)).1,
      k6_pay5 (iblk6 V c 1 ⟨n + 1, hn⟩) (acc6 V c n (Nat.lt_of_succ_lt hn)).2) := rfl

/-- What the output's staging buffer holds after the body at point `t` where the body stores it (the last point): the
    sums divided by the counts raised to at least one. At the other points the window is idle and this value is not
    consulted. -/
def out6_2 (c : Dev nD) (t : Fin cfg6.N) : Vec F S64x2 .f32 :=
  k6_pay6 (acc6 V c t.val t.isLt).1 (acc6 V c t.val t.isLt).2

/-! ## The region's invariant -/

/-- Before position `n`: at the first point the scoped rest with every scratch at anything and the generator register;
    afterwards the two scratch buffers at what the point before left, the remaining scoped buffers unopened, and the
    generator register at some state. -/
def PhiS6 (c : Dev nD) : (n : ℕ) → n ≤ cfg6.N → sProp 𝕄
  | 0, _ => Pipeline.ΦA spec6 c
  | n + 1, hn => iprop(owns (c : Thread nD τ) scM6_0 fullShare ((acc6 V c n hn).1) ∗ owns (c : Thread nD τ) scM6_1 fullShare ((acc6 V c n hn).2)
      ∗ Pipeline.scopedRestBut (Ix := Unit) (Name := ℕ) (U := UR sig nD τ) (Lvl := ℕ) (Val := Elt F) spec6 c [cc6_scratch0, cc6_scratch1] ∗ (∃ r, prngReg c r))

theorem PhiS6_zero (c : Dev nD) (n : ℕ) (h : n ≤ cfg6.N) (hz : n = 0) : PhiS6 V c n h = Pipeline.ΦA spec6 c := by
  subst hz; rfl

theorem PhiS6_succ (c : Dev nD) (n : ℕ) (hn : n < cfg6.N) :
    PhiS6 V c (n + 1) hn = iprop(owns (c : Thread nD τ) scM6_0 fullShare ((acc6 V c n hn).1) ∗ owns (c : Thread nD τ) scM6_1 fullShare ((acc6 V c n hn).2)
      ∗ Pipeline.scopedRestBut (Ix := Unit) (Name := ℕ) (U := UR sig nD τ) (Lvl := ℕ) (Val := Elt F) spec6 c [cc6_scratch0, cc6_scratch1] ∗ (∃ r, prngReg c r)) := rfl

theorem PhiS6_pos (c : Dev nD) (n : ℕ) (h : n ≤ cfg6.N) (hz : n ≠ 0) :
    PhiS6 V c n h = iprop(owns (c : Thread nD τ) scM6_0 fullShare ((acc6 V c (n - 1) (by omega)).1) ∗ owns (c : Thread nD τ) scM6_1 fullShare ((acc6 V c (n - 1) (by omega)).2)
      ∗ Pipeline.scopedRestBut (Ix := Unit) (Name := ℕ) (U := UR sig nD τ) (Lvl := ℕ) (Val := Elt F) spec6 c [cc6_scratch0, cc6_scratch1] ∗ (∃ r, prngReg c r)) := by
  cases n with
  | zero => exact absurd rfl hz
  | succ n => rfl

/-! ## The region's proof data -/

/-- The arrays as the region finds them; after the body at point `t` each input's buffer at its block and the output's
    at `out6_2`; the invariant `PhiS6`; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => out6_2 V c t
  Φ t := PhiS6 V c t.val (Nat.le_of_lt_succ t.isLt)
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = out6_2 V c t := by dsimp only [dat6]

theorem PhiS6_castSucc (c : Dev nD) (t : Fin cfg6.N) :
    (dat6 V c).Φ t.castSucc = PhiS6 V c t.val (Nat.le_of_lt t.isLt) := by
  dsimp only [dat6]; simp only [Fin.coe_castSucc]

end Cert.KernelIdeal.Fr

end
-- ==== Proof.KI.Reg6.lean ====
/-
  Region 6 of the program, the mean pool: the frame half. For the proof data of the region (the blocks of the two input
  windows, the sums and counts carried in the two scratch buffers from point to point, the output stored at the last
  point): the input windows' staging buffers hold their blocks at every point; the body's triple in each of its three
  control cases (first point: reset then accumulate; middle points: accumulate; last point: accumulate then store the
  quotient), every access being of a whole buffer; the body obligation at every point; and the invariant's two ends.
  Stated for any float instance.
-/
import proofs.«405960_j60713657696826_2_alg».proof.Proof.KI.Reg6Defs
import proofs.«405960_j60713657696826_2_alg».proof.Proof.Gen.KernelIdeal.Launch
import proofs.«405960_j60713657696826_2_alg».proof.Proof.Gen.KernelIdeal.Skeleton
import proofs.«405960_j60713657696826_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Whole-buffer accesses

Every load and store of the body is of a whole buffer: the unit rectangle at zero offsets of the buffer's own sizes. -/

/-- The printed zero offsets of a rank-2 access are zero. -/
theorem zeros6 : (![0, 0] : Fin 2 → Nat) = fun _ => 0 := by
  funext a; fin_cases a <;> rfl

section Whole

variable {κ : Kind} {sp : Space} {S : Shape} {e : EltTy}

/-- A load of the whole buffer reads its contents. -/
theorem readAt_whole6 (v : View sig κ sp S e) (f : v.ty.Contents (Elt F)) {off : Fin S.rank → Nat} (h : off = fun _ => 0)
    (inb : ∀ a, off a + S.size a ≤ S.size a) :
    v.readAt (Elt F) (Rect.unit off S.size inb).toLoadRect f = v.read (Elt F) f :=
  (View.readAt_eq_ld v f _).trans (View.ld_unit_zero h inb _)

/-- After a store of the whole buffer, whatever was stored before it, the buffer reads that store's payload. -/
theorem read_writes_whole6 (v : View sig κ sp S e) (f : v.ty.Contents (Elt F)) {off : Fin S.rank → Nat} (h : off = fun _ => 0)
    (inb : ∀ a, off a + S.size a ≤ S.size a) (w : S.Idx → Elt F e) (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons_self, View.mem_set_unit_zero h inb y⟩)).trans
    (View.canon_cons_unit_zero h inb w L)

end Whole

/-! ## The body's two conditions -/

/-- The first conditional (the reset of the two scratch buffers) is taken where the grid coordinate is 0. -/
abbrev cond6_0 (i : grid6.Coords) : Prop :=
  Scalar.cmpi .ne (Scalar.extui (Scalar.cmpi .eq (BitVec.ofNat 32 (i 0).val) 0#32)) 0#32 = 1#1
/-- The second conditional (the store of the output) is taken where the grid coordinate is 19. -/
abbrev cond6_1 (i : grid6.Coords) : Prop := k6_cond2 i = 1#1

theorem hcond6_0 : ∀ t : Fin cfg6.N, cond6_0 (grid6.coords t) ↔ t.val = 0 :=
  (by decide +kernel : ∀ t : Fin grid6.N, cond6_0 (grid6.coords t) ↔ t.val = 0)
theorem hcond6_1 : ∀ t : Fin cfg6.N, cond6_1 (grid6.coords t) ↔ t.val = 19 :=
  (by decide +kernel : ∀ t : Fin grid6.N, cond6_1 (grid6.coords t) ↔ t.val = 19)

/-- The two input windows are live at every point. -/
theorem liveAt6_0 : ∀ t : Fin cfg6.N, cfg6.idle 0 (grid6.coords t) = false := by decide +kernel
theorem liveAt6_1 : ∀ t : Fin cfg6.N, cfg6.idle 1 (grid6.coords t) = false := by decide +kernel
/-- The output window is idle, and not written back, at every point but the last; at the last it is live. -/
theorem idleAt6_2 : ∀ t : Fin cfg6.N, ¬cond6_1 (grid6.coords t) → cfg6.idle 2 (grid6.coords t) = true := by decide +kernel
theorem noFlush6_2 : ∀ t : Fin cfg6.N, ¬cond6_1 (grid6.coords t) → (cfg6.win 2).flush t = false := by decide +kernel
theorem liveAt6_2 : ∀ t : Fin cfg6.N, cond6_1 (grid6.coords t) → cfg6.idle 2 (grid6.coords t) = false := by decide +kernel

/-! ## The input windows' staging buffers hold their blocks -/

theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- The feature block's staging buffer holds the block at every point. -/
theorem before6_0 (c : Dev nD) (t : Fin cfg6.N) (d) : (dat6 V c).before 0 t d = iblk6 V c 0 t :=
  before6_0_of V (dat6 V c) (A_eq6 V c 0) (after6_0 V c) t d
/-- The graph ids' staging buffer holds the block at every point. -/
theorem before6_1 (c : Dev nD) (t : Fin cfg6.N) (d) : (dat6 V c).before 1 t d = iblk6 V c 1 t :=
  before6_1_of V (dat6 V c) (A_eq6 V c 1) (after6_1 V c) t d

/-! ## The body's triple, one per control case

On whole memrefs: `arg1` the feature block, `arg2` the graph ids, `arg3` the output's buffer, `arg4` the sums,
`arg5` the counts. Each store is of a whole buffer, so each buffer ends at the payload of its last store, and each load
after a store reads that store's payload. -/

set_option maxHeartbeats 1000000 in
/-- The first point: the sums and counts, found at anything, are reset to zero and this block accumulated onto them; the
    output's buffer is handed back as found. -/
theorem sound_kernel6_A (c : Dev nD) (E : Set ℕ) (i : grid6.Coords)
    (arg1 : Memref sig .tc .vmem S5000x2 .f32) (harg1 : arg1.IsWhole) (arg2 : Memref sig .tc .vmem S5000x1 .i32) (harg2 : arg2.IsWhole)
    (arg3 : Memref sig .tc .vmem S64x2 .f32) (harg3 : arg3.IsWhole) (arg4 : Memref sig .tc .vmem S64x2 .f32) (harg4 : arg4.IsWhole)
    (arg5 : Memref sig .tc .vmem S64x1 .f32) (harg5 : arg5.IsWhole) (hc0 : cond6_0 i) (hc1 : ¬cond6_1 i)
    (x0 : Vec F S5000x2 .f32) (x1 : Vec F S5000x1 .i32) (xo : Vec F S64x2 .f32) (K : PUnit → sProp 𝕄) :
    iprop(owns (c : Thread nD τ) arg1 fullShare x0 ∗ owns (c : Thread nD τ) arg2 fullShare x1 ∗ owns (c : Thread nD τ) arg3 fullShare xo
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare xo
            ∗ owns (c : Thread nD τ) arg4 fullShare (k6_pay4 x1 x0 (k6_pay1 (F := F))) ∗ owns (c : Thread nD τ) arg5 fullShare (k6_pay5 x1 (k6_pay2 (F := F)))) -∗ K ⟨⟩))
      ⊢ wp frame (wpE (defs₀ (F := F)) Variants.none c none) E (cc6__pool_kernel i arg1 harg1 arg2 harg2 arg3 harg3 arg4 harg4 arg5 harg5) K := by
  simp only [cc6__pool_kernel_eq_skeleton]; unfold cc6__pool_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    refine (read_writes_whole6 _ _ zeros6 _ _ _).trans ?_
    unfold sound_kernel6_A.sl.v15 sound_kernel6_A.sl.H3_1
    rw [readAt_whole6 arg2.view f1 zeros6, readAt_whole6 arg1.view f0 zeros6, View.readCov_unit_zero arg4.view zeros6]
  iexists _; isplitr
  swap; · iexact H4
  ipureintro
  refine (read_writes_whole6 _ _ zeros6 _ _ _).trans ?_
  unfold sound_kernel6_A.sl.v20 sound_kernel6_A.sl.H4_1
  rw [readAt_whole6 arg2.view f1 zeros6, View.readCov_unit_zero arg5.view zeros6]

set_option maxHeartbeats 1000000 in
/-- A middle point: this block is accumulated onto the sums and counts as found; the output's buffer is handed back as
    found. -/
theorem sound_kernel6_B (c : Dev nD) (E : Set ℕ) (i : grid6.Coords)
    (arg1 : Memref sig .tc .vmem S5000x2 .f32) (harg1 : arg1.IsWhole) (arg2 : Memref sig .tc .vmem S5000x1 .i32) (harg2 : arg2.IsWhole)
    (arg3 : Memref sig .tc .vmem S64x2 .f32) (harg3 : arg3.IsWhole) (arg4 : Memref sig .tc .vmem S64x2 .f32) (harg4 : arg4.IsWhole)
    (arg5 : Memref sig .tc .vmem S64x1 .f32) (harg5 : arg5.IsWhole) (hc0 : ¬cond6_0 i) (hc1 : ¬cond6_1 i)
    (x0 : Vec F S5000x2 .f32) (x1 : Vec F S5000x1 .i32) (xo : Vec F S64x2 .f32) (s0 : Vec F S64x2 .f32) (s1 : Vec F S64x1 .f32)
    (K : PUnit → sProp 𝕄) :
    iprop(owns (c : Thread nD τ) arg1 fullShare x0 ∗ owns (c : Thread nD τ) arg2 fullShare x1 ∗ owns (c : Thread nD τ) arg3 fullShare xo
        ∗ owns (c : Thread nD τ) arg4 fullShare s0 ∗ owns (c : Thread nD τ) arg5 fullShare s1
        ∗ (iprop(owns (c : Thread nD τ) arg1 fullShare x0 ∗ owns (c : Thread nD τ) arg2 fullShare x1 ∗ owns (c : Thread nD τ) arg3 fullShare xo
            ∗ owns (c : Thread nD τ) arg4 fullShare (k6_pay4 x1 x0 s0) ∗ owns (c : Thread nD τ) arg5 fullShare (k6_pay5 x1 s1)) -∗ K ⟨⟩))
      ⊢ wp frame (wpE (defs₀ (F := F)) Variants.none c none) E (cc6__pool_kernel i arg1 harg1 arg2 harg2 arg3 harg3 arg4 harg4 arg5 harg5) K := by
  simp only [cc6__pool_kernel_eq_skeleton]; unfold cc6__pool_kernel_skel
  unfold owns
  iintro ⟨⟨%f0, %hf0, H0⟩, ⟨%f1, %hf1, H1⟩, ⟨%f2, %hf2, H2⟩, ⟨%f3, %hf3, H3⟩, ⟨%f4, %hf4, H4⟩, Hk⟩
  subst hf0 hf1 hf2 hf3 hf4
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    refine (read_writes_whole6 _ _ zeros6 _ _ _).trans ?_
    rw [readAt_whole6 arg2.view f1 zeros6, readAt_whole6 arg1.view f0 zeros6, readAt_whole6 arg4.view f3 zeros6]
  iexists _; isplitr
  swap; · iexact H4
  ipureintro
  refine (read_writes_whole6 _ _ zeros6 _ _ _).trans ?_
  rw [readAt_whole6 arg2.view f1 zeros6, readAt_whole6 arg5.view f4 zeros6]

set_option maxHeartbeats 1000000 in
/-- The last point: this block is accumulated onto the sums and counts as found, and the output's buffer, found at
    anything, is stored with the sums divided by the counts raised to at least one. -/
theorem sound_kernel6_C (c : Dev nD) (E : Set ℕ) (i : grid6.Coords)
    (arg1 : Memref sig .tc .vmem S5000x2 .f32) (harg1 : arg1.IsWhole) (arg2 : Memref sig .tc .vmem S5000x1 .i32) (harg2 : arg2.IsWhole)
    (arg3 : Memref sig .tc .vmem S64x2 .f32) (harg3 : arg3.IsWhole) (arg4 : Memref sig .tc .vmem S64x2 .f32) (harg4 : arg4.IsWhole)
    (arg5 : Memref sig .tc .vmem S64x1 .f32) (harg5 : arg5.IsWhole) (hc0 : ¬cond6_0 i) (hc1 : cond6_1 i)
    (x0 : Vec F S5000x2 .f32) (x1 : Vec F S5000x1 .i32) (s0 : Vec F S64x2 .f32) (s1 : Vec F S64x1 .f32)
    (K : PUnit → sProp 𝕄) :
    iprop(owns (c : Thread nD τ) arg1 fullShare x0 ∗ owns (c : Thread nD τ) arg2 fullShare x1 ∗ (∃ d, owns (c : Thread nD τ) arg3 fullShare d)
        ∗ owns (c : Thread nD τ) arg4 fullShare s0 ∗ owns (c : Thread nD τ) arg5 fullShare s1
        ∗ (iprop(owns (c : Thread nD τ) arg1 fullShare x0 ∗ owns (c : Thread nD τ) arg2 fullShare x1
            ∗ owns (c : Thread nD τ) arg3 fullShare (k6_pay6 (k6_pay4 x1 x0 s0) (k6_pay5 x1 s1))
            ∗ owns (c : Thread nD τ) arg4 fullShare (k6_pay4 x1 x0 s0) ∗ owns (c : Thread nD τ) arg5 fullShare (k6_pay5 x1 s1)) -∗ K ⟨⟩))
      ⊢ wp frame (wpE (defs₀ (F := F)) Variants.none c none) E (cc6__pool_kernel i arg1 harg1 arg2 harg2 arg3 harg3 arg4 harg4 arg5 harg5) K := by
  simp only [cc6__pool_kernel_eq_skeleton]; unfold cc6__pool_kernel_skel
  unfold owns
  iintro ⟨⟨%f0, %hf0, H0⟩, ⟨%f1, %hf1, H1⟩, ⟨%d2, %f2, -, H2⟩, ⟨%f3, %hf3, H3⟩, ⟨%f4, %hf4, H4⟩, Hk⟩
  subst hf0 hf1 hf3 hf4
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    refine (read_writes_whole6 _ _ zeros6 _ _ _).trans ?_
    unfold sound_kernel6_C.sl.v28 sound_kernel6_C.sl.v29 sound_kernel6_C.sl.H3_1 sound_kernel6_C.sl.H4_1
    rw [View.readCov_unit_zero arg4.view zeros6, View.readCov_unit_zero arg5.view zeros6,
      readAt_whole6 arg2.view f1 zeros6, readAt_whole6 arg1.view f0 zeros6, readAt_whole6 arg4.view f3 zeros6,
      readAt_whole6 arg5.view f4 zeros6]
  isplitl [H3]
  · iexists _; isplitr
    swap; · iexact H3
    ipureintro
    unfold sound_kernel6_C.sl.H3_1
    refine (read_writes_whole6 _ _ zeros6 _ _ _).trans ?_
    rw [readAt_whole6 arg2.view f1 zeros6, readAt_whole6 arg1.view f0 zeros6, readAt_whole6 arg4.view f3 zeros6]
  iexists _; isplitr
  swap; · iexact H4
  ipureintro
  unfold sound_kernel6_C.sl.H4_1
  refine (read_writes_whole6 _ _ zeros6 _ _ _).trans ?_
  rw [readAt_whole6 arg2.view f1 zeros6, readAt_whole6 arg5.view f4 zeros6]

/-! ## The carried contents at a point -/

/-- At the first point the sums are this block's accumulation onto zero, -/
theorem acc6_first_1 (c : Dev nD) (t : Fin cfg6.N) (h0 : t.val = 0) :
    (acc6 V c t.val t.isLt).1 = k6_pay4 (iblk6 V c 1 t) (iblk6 V c 0 t) (k6_pay1 (F := F)) := by
  obtain ⟨n, hn⟩ := t
  cases n with
  | zero => rfl
  | succ n => exact absurd h0 (Nat.succ_ne_zero n)
/-- and so are the counts. -/
theorem acc6_first_2 (c : Dev nD) (t : Fin cfg6.N) (h0 : t.val = 0) :
    (acc6 V c t.val t.isLt).2 = k6_pay5 (iblk6 V c 1 t) (k6_pay2 (F := F)) := by
  obtain ⟨n, hn⟩ := t
  cases n with
  | zero => rfl
  | succ n => exact absurd h0 (Nat.succ_ne_zero n)
/-- At a later point the sums are this block's accumulation onto what the point before left, -/
theorem acc6_pos_1 (c : Dev nD) (t : Fin cfg6.N) (h0 : ¬t.val = 0) :
    (acc6 V c t.val t.isLt).1
      = k6_pay4 (iblk6 V c 1 t) (iblk6 V c 0 t) (acc6 V c (t.val - 1) (Nat.lt_of_le_of_lt (Nat.sub_le _ _) t.isLt)).1 := by
  obtain ⟨n, hn⟩ := t
  cases n with
  | zero => exact absurd rfl h0
  | succ n => rfl
/-- and so are the counts. -/
theorem acc6_pos_2 (c : Dev nD) (t : Fin cfg6.N) (h0 : ¬t.val = 0) :
    (acc6 V c t.val t.isLt).2
      = k6_pay5 (iblk6 V c 1 t) (acc6 V c (t.val - 1) (Nat.lt_of_le_of_lt (Nat.sub_le _ _) t.isLt)).2 := by
  obtain ⟨n, hn⟩ := t
  cases n with
  | zero => exact absurd rfl h0
  | succ n => rfl

/-! ## The invariant before the first point, opened at the two scratch buffers -/

theorem PhiA6_eq (c : Dev nD) :
    (Pipeline.ΦA spec6 c : sProp 𝕄)
      = iprop((((∃ d, owns (c : Thread nD τ) scM6_0 fullShare d) ∗ (∃ d, owns (c : Thread nD τ) scM6_1 fullShare d))
          ∗ Pipeline.scopedRestBut (Ix := Unit) (Name := ℕ) (U := UR sig nD τ) (Lvl := ℕ) (Val := Elt F) spec6 c [cc6_scratch0, cc6_scratch1])
          ∗ (∃ r, prngReg c r)) := by
  unfold Pipeline.ΦA; rw [scopedRest6_split]; simp only [scM6_0, scM6_1, owns_whole]; try rfl

/-! ## The body obligation, at a generic point -/

def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d)))

def bodyPost6 (c : Dev nD) (t : Fin cfg6.N) : sProp 𝕄 :=
  iprop((dat6 V c).Φ t.succ ∗ (dat6 V c).owesAt () t.succ
    ∗ (dat6 V c).leavesExact 0 t
    ∗ (dat6 V c).leavesExact 1 t
    ∗ (dat6 V c).leavesExact 2 t)

set_option maxHeartbeats 4000000 in
/-- The body at any point. The inputs' buffers hold their blocks; the point's position says which control case it is in.
    At the first point the invariant hands the two scratch buffers at anything; at a later one at what the point before
    left; either way it takes them back at this point's sums and counts. The output's buffer is handed back as found
    except at the last point, where it is left at the quotient. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1]
  rw [show (dat6 V c).owesAt () t.succ = (dat6 V c).owesAt () t.castSucc from rfl]
  rw [show (dat6 V c).Φ t.succ = PhiS6 V c (t.val + 1) t.isLt from rfl, PhiS6_succ]
  rw [show (dat6 V c).leavesExact 0 t = owns (c : Thread nD τ) (st6_0 t) fullShare ((dat6 V c).after 0 t) from by
    unfold Dat.leavesExact; rw [liveAt6_0 t], after6_0]
  rw [show (dat6 V c).leavesExact 1 t = owns (c : Thread nD τ) (st6_1 t) fullShare ((dat6 V c).after 1 t) from by
    unfold Dat.leavesExact; rw [liveAt6_1 t], after6_1]
  rw [PhiS6_castSucc V c t]
  have hN : t.val < 20 := lt_of_lt_of_eq t.isLt (show cfg6.N = 20 from N_6)
  by_cases h1 : t.val = 19
  · have h0 : ¬t.val = 0 := by omega
    rw [show (dat6 V c).leavesExact 2 t = owns (c : Thread nD τ) (st6_2 t) fullShare ((dat6 V c).after 2 t) from by
      unfold Dat.leavesExact; rw [liveAt6_2 t ((hcond6_1 t).mpr h1)], after6_2]
    unfold out6_2
    rw [acc6_pos_1 V c t h0, acc6_pos_2 V c t h0, PhiS6_pos V c _ _ h0]
    iintro ⟨⟨HS0, HS1, HR, Hg⟩, Ho, ⟨%d0, H0⟩, ⟨%d1, H1⟩, ⟨%d2, H2⟩⟩
    iapply (sound_kernel6_C c Set.univ _ _ _ _ _ _ _ _ _ _ _ (fun h => h0 ((hcond6_0 t).mp h)) ((hcond6_1 t).mpr h1)
      (iblk6 V c 0 t) (iblk6 V c 1 t) (acc6 V c (t.val - 1) (Nat.lt_of_le_of_lt (Nat.sub_le _ _) t.isLt)).1
      (acc6 V c (t.val - 1) (Nat.lt_of_le_of_lt (Nat.sub_le _ _) t.isLt)).2 _)
    isplitl [H0]; · iexact H0
    isplitl [H1]; · iexact H1
    isplitl [H2]; · iexists _; iexact H2
    isplitl [HS0]; · iexact HS0
    isplitl [HS1]; · iexact HS1
    iintro ⟨H0, H1, H2, HS0, HS1⟩
    isplitl [HS0 HS1 HR Hg]
    · isplitl [HS0]; · iexact HS0
      isplitl [HS1]; · iexact HS1
      isplitl [HR]; · iexact HR
      iexact Hg
    isplitl [Ho]; · iexact Ho
    isplitl [H0]; · iexact H0
    isplitl [H1]; · iexact H1
    iexact H2
  · rw [Dat.leavesExact_idle (dat6 V c) 2 t (idleAt6_2 t (fun h => h1 ((hcond6_1 t).mp h))) (noFlush6_2 t (fun h => h1 ((hcond6_1 t).mp h)))]
    by_cases h0 : t.val = 0
    · rw [acc6_first_1 V c t h0, acc6_first_2 V c t h0, PhiS6_zero V c _ _ h0, PhiA6_eq]
      iintro ⟨⟨⟨⟨HS0, HS1⟩, HR⟩, Hg⟩, Ho, ⟨%d0, H0⟩, ⟨%d1, H1⟩, ⟨%d2, H2⟩⟩
      iapply (sound_kernel6_A c Set.univ _ _ _ _ _ _ _ _ _ _ _ ((hcond6_0 t).mpr h0) (fun h => h1 ((hcond6_1 t).mp h))
        (iblk6 V c 0 t) (iblk6 V c 1 t) ((dat6 V c).before 2 t d2) _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [HS0 HS1 HR Hg]
      · isplitl [HS0]; · iexact HS0
        isplitl [HS1]; · iexact HS1
        isplitl [HR]; · iexact HR
        iexact Hg
      isplitl [Ho]; · iexact Ho
      isplitl [H0]; · iexact H0
      isplitl [H1]; · iexact H1
      iexists d2; iexact H2
    · rw [acc6_pos_1 V c t h0, acc6_pos_2 V c t h0, PhiS6_pos V c _ _ h0]
      iintro ⟨⟨HS0, HS1, HR, Hg⟩, Ho, ⟨%d0, H0⟩, ⟨%d1, H1⟩, ⟨%d2, H2⟩⟩
      iapply (sound_kernel6_B c Set.univ _ _ _ _ _ _ _ _ _ _ _ (fun h => h0 ((hcond6_0 t).mp h)) (fun h => h1 ((hcond6_1 t).mp h))
        (iblk6 V c 0 t) (iblk6 V c 1 t) ((dat6 V c).before 2 t d2) (acc6 V c (t.val - 1) (Nat.lt_of_le_of_lt (Nat.sub_le _ _) t.isLt)).1
        (acc6 V c (t.val - 1) (Nat.lt_of_le_of_lt (Nat.sub_le _ _) t.isLt)).2 _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [HS0 HS1 HR Hg]
      · isplitl [HS0]; · iexact HS0
        isplitl [HS1]; · iexact HS1
        isplitl [HR]; · iexact HR
        iexact Hg
      isplitl [Ho]; · iexact Ho
      isplitl [H0]; · iexact H0
      isplitl [H1]; · iexact H1
      iexists d2; iexact H2

/-- The library's body obligation, at every point. -/
theorem body_obligation6 (c : Dev nD) : BodyObligation (dat6 (F := F) V c) (defs₀ (F := F)) Variants.none () Set.univ := fun t => by
  rw [bigSep_W6, bigSep_W6]
  exact sound_body6 V c t

/-- What the region is entered with is the invariant before the first point. -/
theorem hin6 (c : Dev nD) : Pipeline.ΦA spec6 c ⊢ (dat6 V c).Φ 0 := by
  rw [show (dat6 V c).Φ 0 = PhiS6 V c 0 (Nat.zero_le _) from rfl, PhiS6_zero V c 0 _ rfl]
  try exact Idealize.SL.BI.Entails.refl _

/-- After the last point the invariant gives the entry invariant back: the scratch buffers' named contents are forgotten. -/
theorem hout6 (c : Dev nD) : (dat6 V c).Φ (Fin.last cfg6.N) ⊢ Pipeline.ΦA spec6 c := by
  rw [show (dat6 V c).Φ (Fin.last cfg6.N) = PhiS6 V c (Fin.last cfg6.N).val (Nat.le_of_lt_succ (Fin.last cfg6.N).isLt) from rfl,
    PhiS6_pos V c _ _ (by rw [Fin.val_last]; have : cfg6.N = 20 := N_6; omega), PhiA6_eq]
  iintro ⟨HS0, HS1, HR, Hg⟩
  isplitl [HS0 HS1 HR]
  · isplitl [HS0 HS1]
    · isplitl [HS0]
      · iexists _; iexact HS0
      · iexists _; iexact HS1
    · iexact HR
  · iexact Hg

end Cert.KernelIdeal.Fr

end
-- ==== Proof.KI.Run.lean ====
/-
  The whole run of the program on a TensorCore: its 12 items in order — five stretches of host operations and seven
  kernel regions — from the launch memory to the return. The buffers' contents at each boundary are a fold: a host
  stretch applies its operations, a region leaves its windows' arrays at what its write-backs produce and every other
  buffer untouched. Each region is entered with every unscoped buffer at the boundary's contents, the generator
  register at some state and nothing owed, and leaves the same way at the next boundary's contents. The conclusion:
  every weakly fair execution terminates, and every unscoped buffer ends at the last boundary's contents.
  Stated for any float instance.
-/
import proofs.«405960_j60713657696826_2_alg».proof.Proof.KI.Reg0
import proofs.«405960_j60713657696826_2_alg».proof.Proof.KI.Reg1
import proofs.«405960_j60713657696826_2_alg».proof.Proof.KI.Reg2
import proofs.«405960_j60713657696826_2_alg».proof.Proof.KI.Reg3
import proofs.«405960_j60713657696826_2_alg».proof.Proof.KI.Reg4
import proofs.«405960_j60713657696826_2_alg».proof.Proof.KI.Reg5
import proofs.«405960_j60713657696826_2_alg».proof.Proof.KI.Reg6
import proofs.«405960_j60713657696826_2_alg».proof.Proof.Gen.KernelIdeal.Regions

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents at each boundary -/

/-- Core `c`'s buffers at launch. -/
abbrev W0 : Dev nD → Valuation τ sig (Elt F) := fun c b => m ((c : Dev nD), b)
/-- After the host stretch `hostOps0`. -/
abbrev W1 : Dev nD → Valuation τ sig (Elt F) := fun c => StableHlo.after hostOps0 (W0 m c)
/-- The same read at the TensorCore's references. -/
abbrev E1 : (c : Dev nD) → (b : Ref sig .tc) → Buf (Elt F) ((c : Thread nD τ).loc b) := fun c b => W1 m c b
/-- After region 0: its windows' arrays at what the region leaves, every other buffer as entered. -/
def W2 (c : Dev nD) : Valuation τ sig (Elt F) :=
  Pipeline.withArrays spec0 c (W1 m c) fun w => (dat0 (E1 m) c).arrAt w cfg0.N
theorem W2_arr (c : Dev nD) (w : Fin cfg0.W) :
    W2 m c (Proc.devRef .tc (Pipeline.arrRef spec0 w)) = (dat0 (E1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- The same read at the TensorCore's references. -/
abbrev E2 : (c : Dev nD) → (b : Ref sig .tc) → Buf (Elt F) ((c : Thread nD τ).loc b) := fun c b => W2 m c b
theorem hF0 (c : Dev nD) (w : Fin cfg0.W) : (dat0 (E1 m) c).arrAt w cfg0.N = E2 m c (Pipeline.arrRef spec0 w) :=
  (W2_arr m c w).symm
theorem hrest0 (c : Dev nD) : ∀ b, b ∉ Finset.univ.image (Pipeline.arrRef spec0) → E2 m c b = E1 m c b :=
  fun b hb => W2_of_ne m c b fun w e => hb (Finset.mem_image.mpr ⟨w, Finset.mem_univ _, e⟩)
/-- After the host stretch `hostOps1`. -/
abbrev W3 : Dev nD → Valuation τ sig (Elt F) := fun c => StableHlo.after hostOps1 (W2 m c)
/-- The same read at the TensorCore's references. -/
abbrev E3 : (c : Dev nD) → (b : Ref sig .tc) → Buf (Elt F) ((c : Thread nD τ).loc b) := fun c b => W3 m c b
/-- After region 1: its windows' arrays at what the region leaves, every other buffer as entered. -/
def W4 (c : Dev nD) : Valuation τ sig (Elt F) :=
  Pipeline.withArrays spec1 c (W3 m c) fun w => (dat1 (E3 m) c).arrAt w cfg1.N
theorem W4_arr (c : Dev nD) (w : Fin cfg1.W) :
    W4 m c (Proc.devRef .tc (Pipeline.arrRef spec1 w)) = (dat1 (E3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
/-- The same read at the TensorCore's references. -/
abbrev E4 : (c : Dev nD) → (b : Ref sig .tc) → Buf (Elt F) ((c : Thread nD τ).loc b) := fun c b => W4 m c b
theorem hF1 (c : Dev nD) (w : Fin cfg1.W) : (dat1 (E3 m) c).arrAt w cfg1.N = E4 m c (Pipeline.arrRef spec1 w) :=
  (W4_arr m c w).symm
theorem hrest1 (c : Dev nD) : ∀ b, b ∉ Finset.univ.image (Pipeline.arrRef spec1) → E4 m c b = E3 m c b :=
  fun b hb => W4_of_ne m c b fun w e => hb (Finset.mem_image.mpr ⟨w, Finset.mem_univ _, e⟩)
/-- After region 2: its windows' arrays at what the region leaves, every other buffer as entered. -/
def W5 (c : Dev nD) : Valuation τ sig (Elt F) :=
  Pipeline.withArrays spec2 c (W4 m c) fun w => (dat2 (E4 m) c).arrAt w cfg2.N
theorem W5_arr (c : Dev nD) (w : Fin cfg2.W) :
    W5 m c (Proc.devRef .tc (Pipeline.arrRef spec2 w)) = (dat2 (E4 m) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m c (Proc.devRef .tc b) = W4 m c (Proc.devRef .tc b) := by
  unfold W5; exact Pipeline.withArrays_of_ne spec2 c _ _ b hb
/-- The same read at the TensorCore's references. -/
abbrev E5 : (c : Dev nD) → (b : Ref sig .tc) → Buf (Elt F) ((c : Thread nD τ).loc b) := fun c b => W5 m c b
theorem hF2 (c : Dev nD) (w : Fin cfg2.W) : (dat2 (E4 m) c).arrAt w cfg2.N = E5 m c (Pipeline.arrRef spec2 w) :=
  (W5_arr m c w).symm
theorem hrest2 (c : Dev nD) : ∀ b, b ∉ Finset.univ.image (Pipeline.arrRef spec2) → E5 m c b = E4 m c b :=
  fun b hb => W5_of_ne m c b fun w e => hb (Finset.mem_image.mpr ⟨w, Finset.mem_univ _, e⟩)
/-- After the host stretch `hostOps3`. -/
abbrev W6 : Dev nD → Valuation τ sig (Elt F) := fun c => StableHlo.after hostOps3 (W5 m c)
/-- The same read at the TensorCore's references. -/
abbrev E6 : (c : Dev nD) → (b : Ref sig .tc) → Buf (Elt F) ((c : Thread nD τ).loc b) := fun c b => W6 m c b
/-- After region 3: its windows' arrays at what the region leaves, every other buffer as entered. -/
def W7 (c : Dev nD) : Valuation τ sig (Elt F) :=
  Pipeline.withArrays spec3 c (W6 m c) fun w => (dat3 (E6 m) c).arrAt w cfg3.N
theorem W7_arr (c : Dev nD) (w : Fin cfg3.W) :
    W7 m c (Proc.devRef .tc (Pipeline.arrRef spec3 w)) = (dat3 (E6 m) c).arrAt w cfg3.N := by
  unfold W7; exact Pipeline.withArrays_arr spec3 launch3.win.arr_inj c _ _ w
theorem W7_of_ne (c : Dev nD) (b : Ref sig .tc) (hb : ∀ w, Pipeline.arrRef spec3 w ≠ b) :
    W7 m c (Proc.devRef .tc b) = W6 m c (Proc.devRef .tc b) := by
  unfold W7; exact Pipeline.withArrays_of_ne spec3 c _ _ b hb
/-- The same read at the TensorCore's references. -/
abbrev E7 : (c : Dev nD) → (b : Ref sig .tc) → Buf (Elt F) ((c : Thread nD τ).loc b) := fun c b => W7 m c b
theorem hF3 (c : Dev nD) (w : Fin cfg3.W) : (dat3 (E6 m) c).arrAt w cfg3.N = E7 m c (Pipeline.arrRef spec3 w) :=
  (W7_arr m c w).symm
theorem hrest3 (c : Dev nD) : ∀ b, b ∉ Finset.univ.image (Pipeline.arrRef spec3) → E7 m c b = E6 m c b :=
  fun b hb => W7_of_ne m c b fun w e => hb (Finset.mem_image.mpr ⟨w, Finset.mem_univ _, e⟩)
/-- After region 4: its windows' arrays at what the region leaves, every other buffer as entered. -/
def W8 (c : Dev nD) : Valuation τ sig (Elt F) :=
  Pipeline.withArrays spec4 c (W7 m c) fun w => (dat4 (E7 m) c).arrAt w cfg4.N
theorem W8_arr (c : Dev nD) (w : Fin cfg4.W) :
    W8 m c (Proc.devRef .tc (Pipeline.arrRef spec4 w)) = (dat4 (E7 m) c).arrAt w cfg4.N := by
  unfold W8; exact Pipeline.withArrays_arr spec4 launch4.win.arr_inj c _ _ w
theorem W8_of_ne (c : Dev nD) (b : Ref sig .tc) (hb : ∀ w, Pipeline.arrRef spec4 w ≠ b) :
    W8 m c (Proc.devRef .tc b) = W7 m c (Proc.devRef .tc b) := by
  unfold W8; exact Pipeline.withArrays_of_ne spec4 c _ _ b hb
/-- The same read at the TensorCore's references. -/
abbrev E8 : (c : Dev nD) → (b : Ref sig .tc) → Buf (Elt F) ((c : Thread nD τ).loc b) := fun c b => W8 m c b
theorem hF4 (c : Dev nD) (w : Fin cfg4.W) : (dat4 (E7 m) c).arrAt w cfg4.N = E8 m c (Pipeline.arrRef spec4 w) :=
  (W8_arr m c w).symm
theorem hrest4 (c : Dev nD) : ∀ b, b ∉ Finset.univ.image (Pipeline.arrRef spec4) → E8 m c b = E7 m c b :=
  fun b hb => W8_of_ne m c b fun w e => hb (Finset.mem_image.mpr ⟨w, Finset.mem_univ _, e⟩)
/-- After the host stretch `hostOps5`. -/
abbrev W9 : Dev nD → Valuation τ sig (Elt F) := fun c => StableHlo.after hostOps5 (W8 m c)
/-- The same read at the TensorCore's references. -/
abbrev E9 : (c : Dev nD) → (b : Ref sig .tc) → Buf (Elt F) ((c : Thread nD τ).loc b) := fun c b => W9 m c b
/-- After region 5: its windows' arrays at what the region leaves, every other buffer as entered. -/
def W10 (c : Dev nD) : Valuation τ sig (Elt F) :=
  Pipeline.withArrays spec5 c (W9 m c) fun w => (dat5 (E9 m) c).arrAt w cfg5.N
theorem W10_arr (c : Dev nD) (w : Fin cfg5.W) :
    W10 m c (Proc.devRef .tc (Pipeline.arrRef spec5 w)) = (dat5 (E9 m) c).arrAt w cfg5.N := by
  unfold W10; exact Pipeline.withArrays_arr spec5 launch5.win.arr_inj c _ _ w
theorem W10_of_ne (c : Dev nD) (b : Ref sig .tc) (hb : ∀ w, Pipeline.arrRef spec5 w ≠ b) :
    W10 m c (Proc.devRef .tc b) = W9 m c (Proc.devRef .tc b) := by
  unfold W10; exact Pipeline.withArrays_of_ne spec5 c _ _ b hb
/-- The same read at the TensorCore's references. -/
abbrev E10 : (c : Dev nD) → (b : Ref sig .tc) → Buf (Elt F) ((c : Thread nD τ).loc b) := fun c b => W10 m c b
theorem hF5 (c : Dev nD) (w : Fin cfg5.W) : (dat5 (E9 m) c).arrAt w cfg5.N = E10 m c (Pipeline.arrRef spec5 w) :=
  (W10_arr m c w).symm
theorem hrest5 (c : Dev nD) : ∀ b, b ∉ Finset.univ.image (Pipeline.arrRef spec5) → E10 m c b = E9 m c b :=
  fun b hb => W10_of_ne m c b fun w e => hb (Finset.mem_image.mpr ⟨w, Finset.mem_univ _, e⟩)
/-- After the host stretch `hostOps6`. -/
abbrev W11 : Dev nD → Valuation τ sig (Elt F) := fun c => StableHlo.after hostOps6 (W10 m c)
/-- The same read at the TensorCore's references. -/
abbrev E11 : (c : Dev nD) → (b : Ref sig .tc) → Buf (Elt F) ((c : Thread nD τ).loc b) := fun c b => W11 m c b
/-- After region 6: its windows' arrays at what the region leaves, every other buffer as entered. -/
def W12 (c : Dev nD) : Valuation τ sig (Elt F) :=
  Pipeline.withArrays spec6 c (W11 m c) fun w => (dat6 (E11 m) c).arrAt w cfg6.N
theorem W12_arr (c : Dev nD) (w : Fin cfg6.W) :
    W12 m c (Proc.devRef .tc (Pipeline.arrRef spec6 w)) = (dat6 (E11 m) c).arrAt w cfg6.N := by
  unfold W12; exact Pipeline.withArrays_arr spec6 launch6.win.arr_inj c _ _ w
theorem W12_of_ne (c : Dev nD) (b : Ref sig .tc) (hb : ∀ w, Pipeline.arrRef spec6 w ≠ b) :
    W12 m c (Proc.devRef .tc b) = W11 m c (Proc.devRef .tc b) := by
  unfold W12; exact Pipeline.withArrays_of_ne spec6 c _ _ b hb
/-- The same read at the TensorCore's references. -/
abbrev E12 : (c : Dev nD) → (b : Ref sig .tc) → Buf (Elt F) ((c : Thread nD τ).loc b) := fun c b => W12 m c b
theorem hF6 (c : Dev nD) (w : Fin cfg6.W) : (dat6 (E11 m) c).arrAt w cfg6.N = E12 m c (Pipeline.arrRef spec6 w) :=
  (W12_arr m c w).symm
theorem hrest6 (c : Dev nD) : ∀ b, b ∉ Finset.univ.image (Pipeline.arrRef spec6) → E12 m c b = E11 m c b :=
  fun b hb => W12_of_ne m c b fun w e => hb (Finset.mem_image.mpr ⟨w, Finset.mem_univ _, e⟩)

/-! ## The proof data family and the thread state -/

/-- Every region's proof data, each at its entry contents. -/
def pdat : (p : Fin 7) → (c : Dev nD) → Dat τ (Elt F) Unit ℕ (UR sig nD τ) ℕ (Pipeline.pin (pcfgs (F := F)) adm p) c
  | ⟨0, _⟩ => fun c => dat0 (E1 m) c
  | ⟨1, _⟩ => fun c => dat1 (E3 m) c
  | ⟨2, _⟩ => fun c => dat2 (E4 m) c
  | ⟨3, _⟩ => fun c => dat3 (E6 m) c
  | ⟨4, _⟩ => fun c => dat4 (E7 m) c
  | ⟨5, _⟩ => fun c => dat5 (E9 m) c
  | ⟨6, _⟩ => fun c => dat6 (E11 m) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state and nothing owed. -/
abbrev RR (c : Dev nD) : sProp 𝕄 := iprop((∃ r, prngReg c r) ∗ ∃ W, owes (c : Thread nD τ) (0 : CellTallies nD τ sig Unit) W)
/-- A host stretch as an item, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RR

/-- The last thread state without the `owes`: every unscoped buffer at the last boundary's contents, the generator
    register at some state. -/
abbrev Tend (c : Dev nD) : sProp 𝕄 := iprop(StableHlo.held (c : Thread nD τ) (Pipeline.ucRefs τ sig) (W12 m c) ∗ ∃ r, prngReg c r)

/-! ## The regions as items -/

set_option backward.isDefEq.respectTransparency.types false in
/-- Region 0: entered with every unscoped buffer at `W1`, left at `W2`. Its arrays are split out of the unscoped
    buffers and put back at the exit contents; the generator register goes into the region's invariant and comes back;
    nothing is owed; the kernel has no semaphore of its own. -/
def reg0 : Pipeline.RegionSeg (pcfgs (F := F)) adm (pdat m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (W1 m c) ∗ RR c)
  post c := iprop(StableHlo.held (c : Thread nD τ) (Pipeline.ucRefs τ sig) (W2 m c) ∗ RR c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdat m) launch0.win launch0.arr_whole c
      ((pdat m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdat m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdat m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdat m) ((pdat m 0 c).share_full fun _ => rfl)
      (E1 m c) (E2 m c) ((pdat m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered with every unscoped buffer at `W3`, left at `W4`. Its arrays are split out of the unscoped
    buffers and put back at the exit contents; the generator register goes into the region's invariant and comes back;
    nothing is owed; the kernel has no semaphore of its own. -/
def reg1 : Pipeline.RegionSeg (pcfgs (F := F)) adm (pdat m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E3 m) c).loose
  hwaits := Pipeline.hwaits_of_owed_zero _ _ _ _ L lv 1 fun _ _ => rfl
  pre c := iprop(StableHlo.held (c : Thread nD τ) (Pipeline.ucRefs τ sig) (W3 m c) ∗ RR c)
  post c := iprop(StableHlo.held (c : Thread nD τ) (Pipeline.ucRefs τ sig) (W4 m c) ∗ RR c)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none]
    have hsplit := Pipeline.arrays_of_unscopedBufs (p := 1) (pcfgs (F := F)) adm (pdat m) launch1.win launch1.arr_whole c
      ((pdat m 1 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdat m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdat m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdat m) ((pdat m 1 c).share_full fun _ => rfl)
      (E3 m c) (E4 m c) ((pdat m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2: entered with every unscoped buffer at `W4`, left at `W5`. Its arrays are split out of the unscoped
    buffers and put back at the exit contents; the generator register goes into the region's invariant and comes back;
    nothing is owed; the kernel has no semaphore of its own. -/
def reg2 : Pipeline.RegionSeg (pcfgs (F := F)) adm (pdat m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (E4 m) c).loose
  hwaits := Pipeline.hwaits_of_owed_zero _ _ _ _ L lv 2 fun _ _ => rfl
  pre c := iprop(StableHlo.held (c : Thread nD τ) (Pipeline.ucRefs τ sig) (W4 m c) ∗ RR c)
  post c := iprop(StableHlo.held (c : Thread nD τ) (Pipeline.ucRefs τ sig) (W5 m c) ∗ RR c)
  X c := iprop(∃ r, prngReg c r)
  Y c := iprop(∃ r, prngReg c r)
  Z c := Pipeline.unscopedRest (Ix := Unit) (Name := ℕ) (U := UR sig nD τ) (Lvl := ℕ) spec2 c (E4 m c)
  hentry c := by
    rw [Pipeline.ownSems0_none]
    have hsplit := Pipeline.arrays_of_unscopedBufs (p := 2) (pcfgs (F := F)) adm (pdat m) launch2.win launch2.arr_whole c
      ((pdat m 2 c).share_full fun _ => rfl) (E4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdat m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdat m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdat m) ((pdat m 2 c).share_full fun _ => rfl)
      (E4 m c) (E5 m c) ((pdat m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3: entered with every unscoped buffer at `W6`, left at `W7`. Its arrays are split out of the unscoped
    buffers and put back at the exit contents; the generator register goes into the region's invariant and comes back;
    nothing is owed; the kernel has no semaphore of its own. -/
def reg3 : Pipeline.RegionSeg (pcfgs (F := F)) adm (pdat m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (E6 m) c).loose
  hwaits := Pipeline.hwaits_of_owed_zero _ _ _ _ L lv 3 fun _ _ => rfl
  pre c := iprop(StableHlo.held (c : Thread nD τ) (Pipeline.ucRefs τ sig) (W6 m c) ∗ RR c)
  post c := iprop(StableHlo.held (c : Thread nD τ) (Pipeline.ucRefs τ sig) (W7 m c) ∗ RR c)
  X c := iprop(∃ r, prngReg c r)
  Y c := iprop(∃ r, prngReg c r)
  Z c := Pipeline.unscopedRest (Ix := Unit) (Name := ℕ) (U := UR sig nD τ) (Lvl := ℕ) spec3 c (E6 m c)
  hentry c := by
    rw [Pipeline.ownSems0_none]
    have hsplit := Pipeline.arrays_of_unscopedBufs (p := 3) (pcfgs (F := F)) adm (pdat m) launch3.win launch3.arr_whole c
      ((pdat m 3 c).share_full fun _ => rfl) (E6 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdat m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdat m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdat m) ((pdat m 3 c).share_full fun _ => rfl)
      (E6 m c) (E7 m c) ((pdat m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4: entered with every unscoped buffer at `W7`, left at `W8`. Its arrays are split out of the unscoped
    buffers and put back at the exit contents; the generator register goes into the region's invariant and comes back;
    nothing is owed; the kernel has no semaphore of its own. -/
def reg4 : Pipeline.RegionSeg (pcfgs (F := F)) adm (pdat m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (E7 m) c).loose
  hwaits := Pipeline.hwaits_of_owed_zero _ _ _ _ L lv 4 fun _ _ => rfl
  pre c := iprop(StableHlo.held (c : Thread nD τ) (Pipeline.ucRefs τ sig) (W7 m c) ∗ RR c)
  post c := iprop(StableHlo.held (c : Thread nD τ) (Pipeline.ucRefs τ sig) (W8 m c) ∗ RR c)
  X c := iprop(∃ r, prngReg c r)
  Y c := iprop(∃ r, prngReg c r)
  Z c := Pipeline.unscopedRest (Ix := Unit) (Name := ℕ) (U := UR sig nD τ) (Lvl := ℕ) spec4 c (E7 m c)
  hentry c := by
    rw [Pipeline.ownSems0_none]
    have hsplit := Pipeline.arrays_of_unscopedBufs (p := 4) (pcfgs (F := F)) adm (pdat m) launch4.win launch4.arr_whole c
      ((pdat m 4 c).share_full fun _ => rfl) (E7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdat m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdat m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdat m) ((pdat m 4 c).share_full fun _ => rfl)
      (E7 m c) (E8 m c) ((pdat m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5: entered with every unscoped buffer at `W9`, left at `W10`. Its arrays are split out of the unscoped
    buffers and put back at the exit contents; the generator register goes into the region's invariant and comes back;
    nothing is owed; the kernel has no semaphore of its own. -/
def reg5 : Pipeline.RegionSeg (pcfgs (F := F)) adm (pdat m) () defs₀ 𝒱₀ L lv 5 where
  win := launch5.win.to₀
  block_pos := launch5.block_pos
  stage_whole := launch5.stage_whole
  K := PEmpty
  osem k := k.elim
  ho := Pipeline.OwnSemFacts.none _
  hbody c := (body_obligation5 (E9 m) c).loose
  hwaits := Pipeline.hwaits_of_owed_zero _ _ _ _ L lv 5 fun _ _ => rfl
  pre c := iprop(StableHlo.held (c : Thread nD τ) (Pipeline.ucRefs τ sig) (W9 m c) ∗ RR c)
  post c := iprop(StableHlo.held (c : Thread nD τ) (Pipeline.ucRefs τ sig) (W10 m c) ∗ RR c)
  X c := iprop(∃ r, prngReg c r)
  Y c := iprop(∃ r, prngReg c r)
  Z c := Pipeline.unscopedRest (Ix := Unit) (Name := ℕ) (U := UR sig nD τ) (Lvl := ℕ) spec5 c (E9 m c)
  hentry c := by
    rw [Pipeline.ownSems0_none]
    have hsplit := Pipeline.arrays_of_unscopedBufs (p := 5) (pcfgs (F := F)) adm (pdat m) launch5.win launch5.arr_whole c
      ((pdat m 5 c).share_full fun _ => rfl) (E9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdat m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdat m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdat m) ((pdat m 5 c).share_full fun _ => rfl)
      (E9 m c) (E10 m c) ((pdat m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 6: entered with every unscoped buffer at `W11`, left at `W12`. Its arrays are split out of the unscoped
    buffers and put back at the exit contents; the generator register goes into the region's invariant and comes back;
    nothing is owed; the kernel has no semaphore of its own. -/
def reg6 : Pipeline.RegionSeg (pcfgs (F := F)) adm (pdat m) () defs₀ 𝒱₀ L lv 6 where
  win := launch6.win.to₀
  block_pos := launch6.block_pos
  stage_whole := launch6.stage_whole
  K := PEmpty
  osem k := k.elim
  ho := Pipeline.OwnSemFacts.none _
  hbody c := (body_obligation6 (E11 m) c).loose
  hwaits := Pipeline.hwaits_of_owed_zero _ _ _ _ L lv 6 fun _ _ => rfl
  pre c := iprop(StableHlo.held (c : Thread nD τ) (Pipeline.ucRefs τ sig) (W11 m c) ∗ RR c)
  post c := iprop(Tend m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec6 c (E11 m c)
  hentry c := by
    rw [Pipeline.ownSems0_none]
    have hsplit := Pipeline.arrays_of_unscopedBufs (p := 6) (pcfgs (F := F)) adm (pdat m) launch6.win launch6.arr_whole c
      ((pdat m 6 c).share_full fun _ => rfl) (E11 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h6 : (iprop(Pipeline.scopedRest (Ix := Unit) (Name := ℕ) (U := UR sig nD τ) (Lvl := ℕ) (Val := Elt F) spec6 c ∗ ∃ r, prngReg c r) : sProp 𝕄) ⊢ (dat6 (E11 m) c).Φ 0 := hin6 (E11 m) c
    show _ ⊢ (dat6 (E11 m) c).Φ 0
    iintro ⟨Hp, -, Hr⟩
    iapply h6
    isplitl [Hr]; · iexact Hr
    iexact Hp
  hout c := by
    rw [Pipeline.ownSems0_none]
    have h6 : (dat6 (E11 m) c).Φ (Fin.last cfg6.N) ⊢ (iprop(Pipeline.scopedRest (Ix := Unit) (Name := ℕ) (U := UR sig nD τ) (Lvl := ℕ) (Val := Elt F) spec6 c ∗ ∃ r, prngReg c r) : sProp 𝕄) := hout6 (E11 m) c
    have h2 : (iprop(Pipeline.scopedRest (Ix := Unit) (Name := ℕ) (U := UR sig nD τ) (Lvl := ℕ) (Val := Elt F) spec6 c ∗ ∃ r, prngReg c r) : sProp 𝕄) ⊢ (iprop((∃ r, prngReg c r) ∗ emp ∗ Pipeline.scopedRest (Ix := Unit) (Name := ℕ) (U := UR sig nD τ) (Lvl := ℕ) (Val := Elt F) spec6 c) : sProp 𝕄) := by
      iintro ⟨Hr, Hp⟩
      isplitl [Hp]; · iexact Hp
      isplitr; · iempintro
      iexact Hr
    exact h6.trans h2
  hexit c := by
    have hjoin := Pipeline.unscopedBufs_of_arrays (p := 6) (pcfgs (F := F)) adm (Ix := Unit) (Name := ℕ) (U := UR sig nD τ) (Lvl := ℕ)
      launch6.win launch6.arr_whole c (pdat m) ((pdat m 6 c).share_full fun _ => rfl)
      (E11 m c) (E12 m c) ((pdat m 6 c).arrAt · cfg6.N) (hF6 m c) (hrest6 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as its items, and the launch -/

/-- The program's 12 items in order. -/
abbrev items : List (Pipeline.Seg (pcfgs (F := F)) adm (pdat m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .region (reg2 m),
    .host (hseg hostOps3 hostOps3_sub hostOps3_fresh (W5 m)),
    .region (reg3 m),
    .region (reg4 m),
    .host (hseg hostOps5 hostOps5_sub hostOps5_fresh (W8 m)),
    .region (reg5 m),
    .host (hseg hostOps6 hostOps6_sub hostOps6_fresh (W10 m)),
    .region (reg6 m) ]

/-- The program IS the run of its items. -/
theorem main_run (c : Dev nD) : main (F := F) c = Pipeline.Seg.run (items m) := (main_chain c).trans (by chain_rfl)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- From any memory with zero counters every weakly fair execution of the program terminates, nothing faulting, and
    every unscoped buffer of every core ends at the last boundary's contents `W12`. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W12 m c b) :=
  Pipeline.θ_run_regions_kit (pcfgs (F := F)) adm (pdat m) () cellOf_inj emb₁ defs₀ 𝒱₀ L lv m ρ main (items m)
    (fun c Q => by rw [main_run m c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ RR c)) (Tₙ := Tend m)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m c b)
    (hfin := fun c s' => by
      iintro ⟨⟨Hh, -⟩, HSI⟩
      unfold StableHlo.held
      imodintro
      iapply (pointsTo_read_all (Pipeline.ucRefs τ sig) (fun b => (((c : Thread nD τ)).1, b)) (W12 m c) s')
      isplitl [Hh] <;> iassumption)
    (hQ := fun s h => h)

end Cert.KernelIdeal.Fr

end
-- ==== Proof.KI.Keep.lean ====
/-
  What each item of the run leaves alone. A host stretch changes only the buffers its operations write; a region changes
  only its output windows' arrays (an input window's array ends as it was entered). Walking the twelve boundaries back,
  every argument array of the program ends holding its launch contents: the frame claim. Stated for any float instance.
-/
import proofs.«405960_j60713657696826_2_alg».proof.Proof.KI.Run

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)

variable {F : FTy → Type} [FloatOps F]

variable (m : (ℓ : Loc nD τ sig) → Buf (Elt F) ℓ)

/-! ## A host stretch keeps what it does not write -/

theorem W1_keep (c : Dev nD) (r : Ref sig .tc) (h : r ∉ hostOps0_W) : W1 m c (Proc.devRef .tc r) = W0 m c (Proc.devRef .tc r) :=
  StableHlo.after_of_writes_sub hostOps0 _ hostOps0_writes h
theorem W3_keep (c : Dev nD) (r : Ref sig .tc) (h : r ∉ hostOps1_W) : W3 m c (Proc.devRef .tc r) = W2 m c (Proc.devRef .tc r) :=
  StableHlo.after_of_writes_sub hostOps1 _ hostOps1_writes h
theorem W6_keep (c : Dev nD) (r : Ref sig .tc) (h : r ∉ hostOps3_W) : W6 m c (Proc.devRef .tc r) = W5 m c (Proc.devRef .tc r) :=
  StableHlo.after_of_writes_sub hostOps3 _ hostOps3_writes h
theorem W9_keep (c : Dev nD) (r : Ref sig .tc) (h : r ∉ hostOps5_W) : W9 m c (Proc.devRef .tc r) = W8 m c (Proc.devRef .tc r) :=
  StableHlo.after_of_writes_sub hostOps5 _ hostOps5_writes h
theorem W11_keep (c : Dev nD) (r : Ref sig .tc) (h : r ∉ hostOps6_W) : W11 m c (Proc.devRef .tc r) = W10 m c (Proc.devRef .tc r) :=
  StableHlo.after_of_writes_sub hostOps6 _ hostOps6_writes h

/-! ## A region keeps its input windows' arrays -/

theorem W2_in (c : Dev nD) (w : Fin cfg0.W) (hw : (cfg0.win w).isOut = false) :
    W2 m c (Proc.devRef .tc (Pipeline.arrRef spec0 w)) = W1 m c (Proc.devRef .tc (Pipeline.arrRef spec0 w)) :=
  (W2_arr m c w).trans (((dat0 (E1 m) c).arrAt_in w hw _).trans (A_eq0 (E1 m) c w))
theorem W4_in (c : Dev nD) (w : Fin cfg1.W) (hw : (cfg1.win w).isOut = false) :
    W4 m c (Proc.devRef .tc (Pipeline.arrRef spec1 w)) = W3 m c (Proc.devRef .tc (Pipeline.arrRef spec1 w)) :=
  (W4_arr m c w).trans (((dat1 (E3 m) c).arrAt_in w hw _).trans (A_eq1 (E3 m) c w))
theorem W5_in (c : Dev nD) (w : Fin cfg2.W) (hw : (cfg2.win w).isOut = false) :
    W5 m c (Proc.devRef .tc (Pipeline.arrRef spec2 w)) = W4 m c (Proc.devRef .tc (Pipeline.arrRef spec2 w)) :=
  (W5_arr m c w).trans (((dat2 (E4 m) c).arrAt_in w hw _).trans (A_eq2 (E4 m) c w))
theorem W7_in (c : Dev nD) (w : Fin cfg3.W) (hw : (cfg3.win w).isOut = false) :
    W7 m c (Proc.devRef .tc (Pipeline.arrRef spec3 w)) = W6 m c (Proc.devRef .tc (Pipeline.arrRef spec3 w)) :=
  (W7_arr m c w).trans (((dat3 (E6 m) c).arrAt_in w hw _).trans (A_eq3 (E6 m) c w))
theorem W8_in (c : Dev nD) (w : Fin cfg4.W) (hw : (cfg4.win w).isOut = false) :
    W8 m c (Proc.devRef .tc (Pipeline.arrRef spec4 w)) = W7 m c (Proc.devRef .tc (Pipeline.arrRef spec4 w)) :=
  (W8_arr m c w).trans (((dat4 (E7 m) c).arrAt_in w hw _).trans (A_eq4 (E7 m) c w))
theorem W10_in (c : Dev nD) (w : Fin cfg5.W) (hw : (cfg5.win w).isOut = false) :
    W10 m c (Proc.devRef .tc (Pipeline.arrRef spec5 w)) = W9 m c (Proc.devRef .tc (Pipeline.arrRef spec5 w)) :=
  (W10_arr m c w).trans (((dat5 (E9 m) c).arrAt_in w hw _).trans (A_eq5 (E9 m) c w))
theorem W12_in (c : Dev nD) (w : Fin cfg6.W) (hw : (cfg6.win w).isOut = false) :
    W12 m c (Proc.devRef .tc (Pipeline.arrRef spec6 w)) = W11 m c (Proc.devRef .tc (Pipeline.arrRef spec6 w)) :=
  (W12_arr m c w).trans (((dat6 (E11 m) c).arrAt_in w hw _).trans (A_eq6 (E11 m) c w))

/-! ## The arguments end as launched -/

theorem W12_main_arg0 (c : Dev nD) : W12 m c (Proc.devRef .tc main_arg0) = m ((c : Thread nD τ).loc main_arg0) :=
  (W12_of_ne m c main_arg0 (by decide)).trans <|
  (W11_keep m c main_arg0 (by decide)).trans <|
  (W10_of_ne m c main_arg0 (by decide)).trans <|
  (W9_keep m c main_arg0 (by decide)).trans <|
  (W8_of_ne m c main_arg0 (by decide)).trans <|
  (W7_of_ne m c main_arg0 (by decide)).trans <|
  (W6_keep m c main_arg0 (by decide)).trans <|
  (W5_of_ne m c main_arg0 (by decide)).trans <|
  (W4_of_ne m c main_arg0 (by decide)).trans <|
  (W3_keep m c main_arg0 (by decide)).trans <|
  (W2_in m c 0 rfl).trans <|
  (W1_keep m c main_arg0 (by decide)).trans <| rfl
theorem W12_main_arg1 (c : Dev nD) : W12 m c (Proc.devRef .tc main_arg1) = m ((c : Thread nD τ).loc main_arg1) :=
  (W12_of_ne m c main_arg1 (by decide)).trans <|
  (W11_keep m c main_arg1 (by decide)).trans <|
  (W10_of_ne m c main_arg1 (by decide)).trans <|
  (W9_keep m c main_arg1 (by decide)).trans <|
  (W8_of_ne m c main_arg1 (by decide)).trans <|
  (W7_of_ne m c main_arg1 (by decide)).trans <|
  (W6_keep m c main_arg1 (by decide)).trans <|
  (W5_of_ne m c main_arg1 (by decide)).trans <|
  (W4_of_ne m c main_arg1 (by decide)).trans <|
  (W3_keep m c main_arg1 (by decide)).trans <|
  (W2_of_ne m c main_arg1 (by decide)).trans <|
  (W1_keep m c main_arg1 (by decide)).trans <| rfl
theorem W12_main_arg2 (c : Dev nD) : W12 m c (Proc.devRef .tc main_arg2) = m ((c : Thread nD τ).loc main_arg2) :=
  (W12_of_ne m c main_arg2 (by decide)).trans <|
  (W11_keep m c main_arg2 (by decide)).trans <|
  (W10_of_ne m c main_arg2 (by decide)).trans <|
  (W9_keep m c main_arg2 (by decide)).trans <|
  (W8_of_ne m c main_arg2 (by decide)).trans <|
  (W7_of_ne m c main_arg2 (by decide)).trans <|
  (W6_keep m c main_arg2 (by decide)).trans <|
  (W5_of_ne m c main_arg2 (by decide)).trans <|
  (W4_of_ne m c main_arg2 (by decide)).trans <|
  (W3_keep m c main_arg2 (by decide)).trans <|
  (W2_of_ne m c main_arg2 (by decide)).trans <|
  (W1_keep m c main_arg2 (by decide)).trans <| rfl
theorem W12_main_arg3 (c : Dev nD) : W12 m c (Proc.devRef .tc main_arg3) = m ((c : Thread nD τ).loc main_arg3) :=
  (W12_of_ne m c main_arg3 (by decide)).trans <|
  (W11_keep m c main_arg3 (by decide)).trans <|
  (W10_of_ne m c main_arg3 (by decide)).trans <|
  (W9_keep m c main_arg3 (by decide)).trans <|
  (W8_of_ne m c main_arg3 (by decide)).trans <|
  (W7_of_ne m c main_arg3 (by decide)).trans <|
  (W6_keep m c main_arg3 (by decide)).trans <|
  (W5_of_ne m c main_arg3 (by decide)).trans <|
  (W4_of_ne m c main_arg3 (by decide)).trans <|
  (W3_keep m c main_arg3 (by decide)).trans <|
  (W2_in m c 1 rfl).trans <|
  (W1_keep m c main_arg3 (by decide)).trans <| rfl
theorem W12_main_arg4 (c : Dev nD) : W12 m c (Proc.devRef .tc main_arg4) = m ((c : Thread nD τ).loc main_arg4) :=
  (W12_of_ne m c main_arg4 (by decide)).trans <|
  (W11_keep m c main_arg4 (by decide)).trans <|
  (W10_of_ne m c main_arg4 (by decide)).trans <|
  (W9_keep m c main_arg4 (by decide)).trans <|
  (W8_of_ne m c main_arg4 (by decide)).trans <|
  (W7_of_ne m c main_arg4 (by decide)).trans <|
  (W6_keep m c main_arg4 (by decide)).trans <|
  (W5_of_ne m c main_arg4 (by decide)).trans <|
  (W4_of_ne m c main_arg4 (by decide)).trans <|
  (W3_keep m c main_arg4 (by decide)).trans <|
  (W2_of_ne m c main_arg4 (by decide)).trans <|
  (W1_keep m c main_arg4 (by decide)).trans <| rfl
theorem W12_main_arg5 (c : Dev nD) : W12 m c (Proc.devRef .tc main_arg5) = m ((c : Thread nD τ).loc main_arg5) :=
  (W12_of_ne m c main_arg5 (by decide)).trans <|
  (W11_keep m c main_arg5 (by decide)).trans <|
  (W10_of_ne m c main_arg5 (by decide)).trans <|
  (W9_keep m c main_arg5 (by decide)).trans <|
  (W8_of_ne m c main_arg5 (by decide)).trans <|
  (W7_of_ne m c main_arg5 (by decide)).trans <|
  (W6_keep m c main_arg5 (by decide)).trans <|
  (W5_in m c 1 rfl).trans <|
  (W4_of_ne m c main_arg5 (by decide)).trans <|
  (W3_keep m c main_arg5 (by decide)).trans <|
  (W2_of_ne m c main_arg5 (by decide)).trans <|
  (W1_keep m c main_arg5 (by decide)).trans <| rfl
theorem W12_main_arg6 (c : Dev nD) : W12 m c (Proc.devRef .tc main_arg6) = m ((c : Thread nD τ).loc main_arg6) :=
  (W12_of_ne m c main_arg6 (by decide)).trans <|
  (W11_keep m c main_arg6 (by decide)).trans <|
  (W10_of_ne m c main_arg6 (by decide)).trans <|
  (W9_keep m c main_arg6 (by decide)).trans <|
  (W8_of_ne m c main_arg6 (by decide)).trans <|
  (W7_of_ne m c main_arg6 (by decide)).trans <|
  (W6_keep m c main_arg6 (by decide)).trans <|
  (W5_of_ne m c main_arg6 (by decide)).trans <|
  (W4_of_ne m c main_arg6 (by decide)).trans <|
  (W3_keep m c main_arg6 (by decide)).trans <|
  (W2_of_ne m c main_arg6 (by decide)).trans <|
  (W1_keep m c main_arg6 (by decide)).trans <| rfl
theorem W12_main_arg7 (c : Dev nD) : W12 m c (Proc.devRef .tc main_arg7) = m ((c : Thread nD τ).loc main_arg7) :=
  (W12_of_ne m c main_arg7 (by decide)).trans <|
  (W11_keep m c main_arg7 (by decide)).trans <|
  (W10_of_ne m c main_arg7 (by decide)).trans <|
  (W9_keep m c main_arg7 (by decide)).trans <|
  (W8_in m c 1 rfl).trans <|
  (W7_of_ne m c main_arg7 (by decide)).trans <|
  (W6_keep m c main_arg7 (by decide)).trans <|
  (W5_of_ne m c main_arg7 (by decide)).trans <|
  (W4_of_ne m c main_arg7 (by decide)).trans <|
  (W3_keep m c main_arg7 (by decide)).trans <|
  (W2_of_ne m c main_arg7 (by decide)).trans <|
  (W1_keep m c main_arg7 (by decide)).trans <| rfl
theorem W12_main_arg8 (c : Dev nD) : W12 m c (Proc.devRef .tc main_arg8) = m ((c : Thread nD τ).loc main_arg8) :=
  (W12_of_ne m c main_arg8 (by decide)).trans <|
  (W11_keep m c main_arg8 (by decide)).trans <|
  (W10_of_ne m c main_arg8 (by decide)).trans <|
  (W9_keep m c main_arg8 (by decide)).trans <|
  (W8_of_ne m c main_arg8 (by decide)).trans <|
  (W7_of_ne m c main_arg8 (by decide)).trans <|
  (W6_keep m c main_arg8 (by decide)).trans <|
  (W5_of_ne m c main_arg8 (by decide)).trans <|
  (W4_of_ne m c main_arg8 (by decide)).trans <|
  (W3_keep m c main_arg8 (by decide)).trans <|
  (W2_of_ne m c main_arg8 (by decide)).trans <|
  (W1_keep m c main_arg8 (by decide)).trans <| rfl

/-- The result's buffer ends at what the last region leaves in its output window's array. -/
theorem W12_result (c : Dev nD) : W12 m c (Proc.devRef .tc main_v77) = (dat6 (E11 m) c).arrAt 2 cfg6.N := W12_arr m c 2

/-- The frame claim: the program runs to the end from any memory with zero counters, nothing faults, and every argument
    array ends holding its launch contents. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c _ (mem_uc main_arg0 (by decide))).trans (W12_main_arg0 m c),
    (h c _ (mem_uc main_arg1 (by decide))).trans (W12_main_arg1 m c),
    (h c _ (mem_uc main_arg2 (by decide))).trans (W12_main_arg2 m c),
    (h c _ (mem_uc main_arg3 (by decide))).trans (W12_main_arg3 m c),
    (h c _ (mem_uc main_arg4 (by decide))).trans (W12_main_arg4 m c),
    (h c _ (mem_uc main_arg5 (by decide))).trans (W12_main_arg5 m c),
    (h c _ (mem_uc main_arg6 (by decide))).trans (W12_main_arg6 m c),
    (h c _ (mem_uc main_arg7 (by decide))).trans (W12_main_arg7 m c),
    (h c _ (mem_uc main_arg8 (by decide))).trans (W12_main_arg8 m c)⟩) (run_all m ρ)

end Cert.KernelIdeal.Fr

end
-- ==== Proof.Ref.Imports.lean ====
/-
  The reference program's run and its read-at-an-index lemmas, brought in for the value side of the certificate.
-/
import proofs.«405960_j60713657696826_2_alg».proof.Proof.Gen.ReferenceIdeal.Run
import proofs.«405960_j60713657696826_2_alg».proof.Proof.Gen.ReferenceIdeal.Read
-- ==== Proof.Val.Edge.lean ====
/-
  The first host stretch, read at the ideal instance. From the edge list (a 2 × 1600000 integer array) it computes the
  edge sources and targets (the two rows, flattened), the in-degree plus one of every node, dinv = 1/√(that), the
  per-edge factor dinv[source] · dinv[target] (a negative index wraps once by the node count before the gather), and
  dinv² as a 100000 × 1 column. The reference computes the same four arrays by the same operations on the same
  operands; only the last differs in spelling: the kernel's program reshapes dinv² to a column where the reference
  broadcasts it along a new unit axis, and the two read the same element at every index.
-/
import proofs.«405960_j60713657696826_2_alg».proof.Proof.KI.Run
import proofs.«405960_j60713657696826_2_alg».proof.Proof.Gen.ReferenceIdeal.Read
import Idealize.ShloMosaic.Lib.StableHlo.Run
import Idealize.ShloMosaic.Lib.Pipeline.Value

set_option maxRecDepth 16384

noncomputable section

namespace Cert.KernelIdeal.Val

open Cert.KernelIdeal Cert.KernelIdeal.Gen Cert.KernelIdeal.Fr
open Idealize.ShloMosaic Idealize.ShloMosaic.TcCoe Idealize.SL.Sem

variable (m : (ℓ : Loc nD τ sig) → Buf (Elt Ideal) ℓ) (c : Dev nD)

set_option quotPrecheck false in
local notation "x1" => m ((c.tc : Thread nD τ).loc main_arg1)

/-- The edge sources: row 0 of the edge list, flattened. -/
theorem edge_src : W1 (F := Ideal) m c (Proc.devRef .tc main_v1) = Cert.ReferenceIdeal.Read.val_main_v1 x1 := by
  show StableHlo.after hostOps0 (W0 m c) (Proc.devRef .tc main_v1) = _
  after_results_simp
  rfl

/-- The edge targets: row 1 of the edge list, flattened. -/
theorem edge_dst : W1 (F := Ideal) m c (Proc.devRef .tc main_v3) = Cert.ReferenceIdeal.Read.val_main_v3 x1 := by
  show StableHlo.after hostOps0 (W0 m c) (Proc.devRef .tc main_v3) = _
  after_results_simp
  rfl

set_option maxHeartbeats 4000000 in
/-- The per-edge factor dinv[source] · dinv[target]. -/
theorem edge_norm : W1 (F := Ideal) m c (Proc.devRef .tc main_v25) = Cert.ReferenceIdeal.Read.val_main_v26 x1 := by
  show StableHlo.after hostOps0 (W0 m c) (Proc.devRef .tc main_v25) = _
  after_results_simp
  rfl

set_option maxHeartbeats 4000000 in
/-- dinv² as a column: the reshape of the 100000-vector to 100000 × 1 reads, at row `r` and column 0, the vector at `r`,
    as the broadcast along a new unit axis does. -/
theorem edge_d2 : W1 (F := Ideal) m c (Proc.devRef .tc main_v27) = Cert.ReferenceIdeal.Read.val_main_v41 x1 := by
  show StableHlo.after hostOps0 (W0 m c) (Proc.devRef .tc main_v27) = _
  after_results_simp
  refine Eq.trans (b := fun i => shapeCast S100000x1 (Cert.ReferenceIdeal.Read.val_main_v40 x1) shapeCasts_S100000_S100000x1 i) rfl ?_
  funext i
  rw [Cert.ReferenceIdeal.Read.val_main_v41_apply]
  exact shapeCast_apply _ shapeCasts_S100000_S100000x1 i (Cert.ReferenceIdeal.Read.idx_main_v41 i) (by
    rewrite [Shape.rowMajor_val_one, Shape.rowMajor_val_two]
    have h1 : (i 1).val < 1 := (i 1).isLt
    show (i 0).val = (i 0).val * 1 + (i 1).val
    omega)

end Cert.KernelIdeal.Val

end
-- ==== Proof.Val.Spec.lean ====
/-
  The mathematics each kernel region computes, stated over whole arrays at the ideal instance (floats are extended
  reals, every operation exact) in the vocabulary of the reference program's host operations:
  the feature transform X·W as the host's contraction, the combine agg + h·d + b (with or without the positive part),
  and the mean pool: per-graph sums of the rows whose graph id names the graph, divided by the per-graph counts raised
  to at least one.
-/
import proofs.«405960_j60713657696826_2_alg».proof.ReferenceIdeal
import proofs.«405960_j60713657696826_2_alg».proof.Proof.Gen.ReferenceIdeal
import Idealize.ShloMosaic.PureOps.Ideal

noncomputable section

namespace Cert.Spec

open Cert.ReferenceIdeal Cert.ReferenceIdeal.Facts₀ Cert.ReferenceIdeal.Facts
open Idealize.ShloMosaic

/-- X·W for a 100000 × 128 feature matrix and a 128 × 128 weight matrix. -/
def mm128 (x : FVec Ideal S100000x128 .f32) (w : FVec Ideal S128x128 .f32) : FVec Ideal S100000x128 .f32 :=
  Host.dotGeneral dot_S100000x128_S128x128_S100000x128_1_0_0_1_n_n none x w

/-- X·W for a 100000 × 128 feature matrix and a 128 × 2 weight matrix. -/
def mm2 (x : FVec Ideal S100000x128 .f32) (w : FVec Ideal S128x2 .f32) : FVec Ideal S100000x2 .f32 :=
  Host.dotGeneral dot_S100000x128_S128x2_S100000x2_1_0_0_1_n_n none x w

/-- agg + h·d + b over 100000 × 128: `d` one factor per row, `b` one summand per column. -/
def comb128 (agg h : FVec Ideal S100000x128 .f32) (d : FVec Ideal S100000x1 .f32) (b : FVec Ideal S1x128 .f32) : FVec Ideal S100000x128 .f32 :=
  addf (addf agg (mulf h (broadcastInDim S100000x128 ![0, 1] bcast_S100000x1_S100000x128_0_1 d)))
    (broadcastInDim S100000x128 ![0, 1] bcast_S1x128_S100000x128_0_1 b)

/-- The positive part, element by element, over 100000 × 128. -/
def relu128 (x : FVec Ideal S100000x128 .f32) : FVec Ideal S100000x128 .f32 :=
  maximumf x (broadcastInDim S100000x128 ![] bcast_S_S100000x128 (constant (F := Ideal) S_ .f32 0x00000000#32))

/-- agg + h·d + b over 100000 × 2. -/
def comb2 (agg h : FVec Ideal S100000x2 .f32) (d : FVec Ideal S100000x1 .f32) (b : FVec Ideal S1x2 .f32) : FVec Ideal S100000x2 .f32 :=
  addf (addf agg (mulf h (broadcastInDim S100000x2 ![0, 1] bcast_S100000x1_S100000x2_0_1 d)))
    (broadcastInDim S100000x2 ![0, 1] bcast_S1x2_S100000x2_0_1 b)

/-- Per-graph sums of the rows of `h`: row `n` is added to graph `g` when its id `ids n` (read signed) is `g`; ids outside
    `0 … 63` contribute nothing. -/
def poolSums (h : FVec Ideal S100000x2 .f32) (ids : IVec S100000x1 32) : FVec Ideal S64x2 .f32 :=
  Host.scatterAdd scatter_S64x2_S100000x1_S100000x2_1_0_0_1
    (broadcastInDim S64x2 ![] bcast_S_S64x2 (constant (F := Ideal) S_ .f32 0x00000000#32)) ids h

/-- Per-graph counts of the rows. -/
def poolCounts (ids : IVec S100000x1 32) : FVec Ideal S64 .f32 :=
  Host.scatterAdd scatter_S64_S100000x1_S100000_n_0_0_1
    (broadcastInDim S64 ![] bcast_S_S64 (constant (F := Ideal) S_ .f32 0x00000000#32)) ids
    (broadcastInDim S100000 ![] bcast_S_S100000 (constant (F := Ideal) S_ .f32 0x3F800000#32))

/-- The mean pool: the sums over the counts raised to at least one. -/
def pool (h : FVec Ideal S100000x2 .f32) (ids : IVec S100000x1 32) : FVec Ideal S64x2 .f32 :=
  Host.divf (poolSums h ids)
    (broadcastInDim S64x2 ![0, 1] bcast_S64x1_S64x2_0_1 (broadcastInDim S64x1 ![0] bcast_S64_S64x1_0
      (maximumf (poolCounts ids) (broadcastInDim S64 ![] bcast_S_S64 (constant (F := Ideal) S_ .f32 0x3F800000#32)))))

end Cert.Spec

end
-- ==== Proof.Val.Mm0.lean ====
/-
  The value of region 0, the first feature transform, at the ideal instance (floats are extended reals, every operation
  exact): after its twenty grid points the output array holds X·W, the 100000 × 128 feature matrix times the 128 × 128
  weight matrix, in the reference's own contraction. Element (i, j) is ∑ k, X (i, k) · W (k, j) on both sides: point t
  computes rows 5000·t … 5000·t + 4999 from the row block it was given and the whole weight matrix (narrowing the operands
  to the short float format is the identity on extended reals, and the accumulator starts at zero), and the twenty row
  blocks tile the rows.
-/
import proofs.«405960_j60713657696826_2_alg».proof.Proof.KI.Reg0
import proofs.«405960_j60713657696826_2_alg».proof.Proof.Val.Spec
import proofs.«405960_j60713657696826_2_alg».proof.Proof.Gen.ReferenceIdeal.Read
import Idealize.ShloMosaic.Lib.Pipeline.Value
import Idealize.ShloMosaic.Lib.ValueIdx
import Idealize.ShloMosaic.PureOps.Ideal.Laws

set_option maxRecDepth 16384

noncomputable section

namespace Cert.KernelIdeal.Val

open Cert.KernelIdeal Cert.KernelIdeal.Gen Cert.KernelIdeal.Fr
open Idealize.ShloMosaic Idealize.ShloMosaic.TcCoe Idealize.SL.Sem
open Idealize.ShloMosaic.Pipeline (Dat)
open Idealize.ShloMosaic.ValueIdx (ix2 eq_ix2)

/-! ## The block product read at an index -/

/-- The block contraction's left operand index at output index `i` and contraction index `q`: row of `i`. -/
theorem kl0_row (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl
/-- … and its column is the contraction index. -/
theorem kl0_col (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- The right operand's row is the contraction index … -/
theorem kr0_row (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- … and its column is the column of `i`. -/
theorem kr0_col (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- The body's payload at row `p`, column `q`: the sum over `k` of the row block at `(p, k)` times the weights at
    `(k, q)`. Narrowing to the short float format is the identity on extended reals, and the accumulator is zero. -/
theorem pay0_apply (x : Vec Ideal S5000x128 .f32) (w : Vec Ideal S128x128 .f32) (p : Fin 5000) (q : Fin 128) :
    k0_pay1 x w (ix2 p q) = ∑ k : Fin 128, x (ix2 p k) * w (ix2 k q) := by
  unfold k0_pay1
  refine (Ideal.matmul_constant_zero_apply dot_S5000x128_S128x128_S5000x128_1_0_0_1_n_n none _ _ (ix2 p q)).trans ?_
  rw [← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact kl0_row _ _
    | ⟨1, _⟩ => exact (kl0_col _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (kr0_row _ _).trans hk
    | ⟨1, _⟩ => exact kr0_col _ _)
  show x _ * w _ = _
  rw [el, er]

/-! ## The whole product read at an index -/

/-- X·W at row `i 0`, column `i 1`: the sum over `k` of X at `(i 0, k)` times W at `(k, i 1)`. -/
theorem mm128_apply (X : FVec Ideal Cert.ReferenceIdeal.S100000x128 .f32) (W : FVec Ideal Cert.ReferenceIdeal.S128x128 .f32)
    (i : Cert.ReferenceIdeal.S100000x128.Idx) :
    Cert.Spec.mm128 X W i = ∑ k : Fin 128, X (Cert.ReferenceIdeal.Read.lidx_main_v4 i k) * W (Cert.ReferenceIdeal.Read.ridx_main_v4 i k) :=
  Cert.ReferenceIdeal.Read.val_main_v4_apply X W i

/-! ## From blocks to the array -/

/-- A product of two array reads moves along equal indices. -/
theorem mul_congr_idx (X : Vec Ideal S100000x128 .f32) (W : Vec Ideal S128x128 .f32) {a a' : S100000x128.Idx} {b b' : S128x128.Idx}
    (ha : a = a') (hb : b = b') : X a * W b = X a' * W b' := by rw [ha, hb]

variable (V : (c : Dev nD) → (b : Ref sig .tc) → Buf (Elt Ideal) ((c : Thread nD τ).loc b))

theorem zeros2 : (![0, 0] : Fin 2 → Nat) = fun _ => 0 := funext fun a => by fin_cases a <;> rfl

/-- The index maps over the grid: the row block and the output move together along the rows, one block per point; the
    weights' block and every column block index stay at zero. -/
theorem idx_facts0 : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- What point `t` writes back is block `t` of X·W. -/
theorem flushed0_eq (c : Dev nD) (t : Fin cfg0.N) :
    (dat0 (F := Ideal) V c).flushed 2 t
      = ((cfg0.win 2).blk t).view.read (Elt Ideal) (Cert.Spec.mm128 (V c main_arg0) (V c main_arg3)) := by
  show (cfg0.win 2).cut (grid0.coords t) ((dat0 (F := Ideal) V c).after 2 t) = _
  rw [after0_2]
  unfold out0_2
  rw [View.canon_unit_zero zeros2]
  simp only [View.ld_unit_zero (S := S5000x128) zeros2, View.ld_unit_zero (S := S128x128) zeros2]
  obtain ⟨e0, e1, e2, e3, e4, e5⟩ := idx_facts0 t
  funext j
  obtain ⟨p, q, rfl⟩ : ∃ (p : Fin 5000) (q : Fin 128), j = ix2 p q := ⟨j 0, j 1, eq_ix2 j⟩
  show k0_pay1 (iblk0 V c 0 t) (iblk0 V c 1 t) (ix2 p q)
    = Cert.Spec.mm128 (V c main_arg0) (V c main_arg3) (((cfg0.win 2).blk t).view.emb (ix2 p q))
  refine (pay0_apply _ _ p q).trans ?_
  refine Eq.trans ?_ (mm128_apply _ _ _).symm
  refine Finset.sum_congr rfl fun k _ => ?_
  have hp : p.val < 5000 := p.isLt
  have hq : q.val < 128 := q.isLt
  have hk : k.val < 128 := k.isLt
  have h0 : ((cfg0.win 0).blk t).view.emb (ix2 p k)
      = Cert.ReferenceIdeal.Read.lidx_main_v4 (((cfg0.win 2).blk t).view.emb (ix2 p q)) k := by
    funext a; apply Fin.ext
    match a with
    | ⟨0, _⟩ => show win0_0.index t (0 : Fin 2) * 5000 + 1 * p.val = win0_2.index t (0 : Fin 2) * 5000 + 1 * p.val; omega
    | ⟨1, _⟩ => show win0_0.index t (1 : Fin 2) * 128 + 1 * k.val = k.val; omega
  have h1 : ((cfg0.win 1).blk t).view.emb (ix2 k q)
      = Cert.ReferenceIdeal.Read.ridx_main_v4 (((cfg0.win 2).blk t).view.emb (ix2 p q)) k := by
    funext a; apply Fin.ext
    match a with
    | ⟨0, _⟩ => show win0_1.index t (0 : Fin 2) * 128 + 1 * k.val = k.val; omega
    | ⟨1, _⟩ => show win0_1.index t (1 : Fin 2) * 128 + 1 * q.val = win0_2.index t (1 : Fin 2) * 128 + 1 * q.val; omega
  exact mul_congr_idx (V c main_arg0) (V c main_arg3) h0 h1

/-- An index of the array is in point `t`'s block iff each coordinate is in the block's range on its axis. -/
theorem mem_blk0 (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v28).slice (win0_2.rect t)).set ↔ _
  rw [View.set_slice_whole, Rect.mem_set_unit]
  exact Iff.rfl

/-- Row `r` of the array lies in the block of point `r / 5000`: the twenty row blocks tile the rows, and each spans every column. -/
theorem cover0 (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 20 := N_0
  let t : Fin cfg0.N := ⟨(i 0).val / 5000, by omega⟩
  obtain ⟨e0, e1, e2, e3, e4, e5⟩ := idx_facts0 t
  have ht : t.val = (i 0).val / 5000 := rfl
  refine ⟨t, flush0_2 t, ?_⟩
  rw [mem_blk0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- The output array after all twenty points is X·W. -/
theorem final0 (c : Dev nD) :
    (dat0 (F := Ideal) V c).arrAt 2 cfg0.N = Cert.Spec.mm128 (V c main_arg0) (V c main_arg3) :=
  (dat0 (F := Ideal) V c).arrAt_eq_of_cover 2 (Cert.Spec.mm128 (V c main_arg0) (V c main_arg3))
    (fun t _ => flushed0_eq V c t) cover0

end Cert.KernelIdeal.Val

end
-- ==== Proof.Val.Comb1.lean ====
/-
  The value of region 1, the first layer's elementwise combine, at the ideal instance: after the region's run the output
  array holds, at every node i and feature j, max (agg (i, j) + h (i, j) * d (i, 0) + b (0, j)) 0, which is the host's
  combine followed by the positive part, read at (i, j). Both sides are the same expression of the same elements, with
  the same grouping of the two additions.
-/
import proofs.«405960_j60713657696826_2_alg».proof.Proof.KI.Reg1
import proofs.«405960_j60713657696826_2_alg».proof.Proof.Val.Spec
import proofs.«405960_j60713657696826_2_alg».proof.Proof.Gen.KernelIdeal.Skeleton
import Idealize.ShloMosaic.Lib.Pipeline.Value
import Idealize.ShloMosaic.Lib.ValueIdx
import Idealize.ShloMosaic.PureOps.Ideal

noncomputable section

namespace Cert.KernelIdeal.Val

open Cert.KernelIdeal Cert.KernelIdeal.Gen Cert.KernelIdeal.Fr
open Idealize.ShloMosaic Idealize.ShloMosaic.TcCoe Idealize.ShloMosaic.ValueIdx Idealize.SL.Sem
open Idealize.ShloMosaic.Pipeline (Dat)

/-! ## The body's arithmetic at one element of the block -/

/-- Element (p, q) of the body's result: the block of aggregated neighbours plus the block of features times the row's
    factor (the 5000 × 1 column read at row p) plus the bias (the 1 × 128 row read at column q), then the maximum with
    zero. -/
theorem pay1_apply (x0 x1 : Vec Ideal S5000x128 .f32) (x2 : Vec Ideal S5000x1 .f32) (x3 : Vec Ideal S1x128 .f32)
    (p : Fin 5000) (q : Fin 128) :
    k1_pay1 x0 x1 x2 x3 (ix2 p q)
      = max (x0 (ix2 p q) + x1 (ix2 p q) * x2 (ix2 p 0) + x3 (ix2 0 q)) (Ideal.ofBits .f32 0x00000000#32) := by
  unfold k1_pay1
  simp only [shapeCast_self]
  rw [maximumf_apply, addf_apply, addf_apply, mulf_apply, broadcast_apply]
  rw [broadcastTo_apply x2 broadcasts_S5000x1_S5000x128 (ix2 p q) (ix2 p 0) (fun a => by
        match a with
        | ⟨0, _⟩ => show p.val = if (5000 : Nat) = 1 then 0 else p.val; rw [if_neg (by decide)]
        | ⟨1, _⟩ => show 0 = if (1 : Nat) = 1 then 0 else q.val; rw [if_pos rfl]),
      broadcastTo_apply x3 broadcasts_S1x128_S5000x128 (ix2 p q) (ix2 0 q) (fun a => by
        match a with
        | ⟨0, _⟩ => show 0 = if (1 : Nat) = 1 then 0 else p.val; rw [if_pos rfl]
        | ⟨1, _⟩ => show q.val = if (128 : Nat) = 1 then 0 else q.val; rw [if_neg (by decide)])]
  rfl

/-- The same at any index of the block, its row and column named by the index's coordinates. -/
theorem pay1_at (x0 x1 : Vec Ideal S5000x128 .f32) (x2 : Vec Ideal S5000x1 .f32) (x3 : Vec Ideal S1x128 .f32)
    (j : S5000x128.Idx) :
    k1_pay1 x0 x1 x2 x3 j
      = max (x0 j + x1 j * x2 (ix2 (j 0) 0) + x3 (ix2 0 (j 1))) (Ideal.ofBits .f32 0x00000000#32) := by
  obtain ⟨p, q, rfl⟩ : ∃ (p : Fin 5000) (q : Fin 128), j = ix2 p q := ⟨j 0, j 1, eq_ix2 j⟩
  exact pay1_apply x0 x1 x2 x3 p q

/-! ## The host's combine and positive part at one element of the array -/

/-- Element (p, q) of the host's result: the same expression of the whole arrays' elements. -/
theorem ref128_apply (a h : FVec Ideal Cert.ReferenceIdeal.S100000x128 .f32) (d : FVec Ideal Cert.ReferenceIdeal.S100000x1 .f32)
    (b : FVec Ideal Cert.ReferenceIdeal.S1x128 .f32) (p : Fin 100000) (q : Fin 128) :
    Cert.Spec.relu128 (Cert.Spec.comb128 a h d b) (ix2 p q)
      = max (a (ix2 p q) + h (ix2 p q) * d (ix2 p 0) + b (ix2 0 q)) (Ideal.ofBits .f32 0x00000000#32) := by
  unfold Cert.Spec.relu128 Cert.Spec.comb128
  rw [maximumf_apply, addf_apply, addf_apply, mulf_apply]
  rw [broadcastInDim_apply _ Cert.ReferenceIdeal.Facts₀.bcast_S100000x1_S100000x128_0_1 d (ix2 p q) (ix2 p 0) (fun a => by
        match a with
        | ⟨0, _⟩ => show p.val = if (100000 : Nat) = 1 then 0 else p.val; rw [if_neg (by decide)]
        | ⟨1, _⟩ => show 0 = if (1 : Nat) = 1 then 0 else q.val; rw [if_pos rfl]),
      broadcastInDim_apply _ Cert.ReferenceIdeal.Facts₀.bcast_S1x128_S100000x128_0_1 b (ix2 p q) (ix2 0 q) (fun a => by
        match a with
        | ⟨0, _⟩ => show 0 = if (1 : Nat) = 1 then 0 else p.val; rw [if_pos rfl]
        | ⟨1, _⟩ => show q.val = if (128 : Nat) = 1 then 0 else q.val; rw [if_neg (by decide)])]
  rfl

/-- The same at any index of the array. -/
theorem ref128_at (a h : FVec Ideal Cert.ReferenceIdeal.S100000x128 .f32) (d : FVec Ideal Cert.ReferenceIdeal.S100000x1 .f32)
    (b : FVec Ideal Cert.ReferenceIdeal.S1x128 .f32) (i : Cert.ReferenceIdeal.S100000x128.Idx) :
    Cert.Spec.relu128 (Cert.Spec.comb128 a h d b) i
      = max (a i + h i * d (ix2 (i 0) 0) + b (ix2 0 (i 1))) (Ideal.ofBits .f32 0x00000000#32) := by
  obtain ⟨p, q, rfl⟩ : ∃ (p : Fin 100000) (q : Fin 128), i = ix2 p q := ⟨i 0, i 1, eq_ix2 i⟩
  exact ref128_apply a h d b p q

/-! ## From the blocks to the array -/

variable (V : (c : Dev nD) → (b : Ref sig .tc) → Buf (Elt Ideal) ((c : Thread nD τ).loc b))

theorem zero_offsets : (![0, 0] : Fin 2 → Nat) = fun _ => 0 := funext fun a => by fin_cases a <;> rfl

/-- The output array as one function of the four input arrays. -/
abbrev whole1 (c : Dev nD) : FVec Ideal Cert.ReferenceIdeal.S100000x128 .f32 :=
  Cert.Spec.relu128 (Cert.Spec.comb128 (V c main_v41) (V c main_v28) (V c main_v27) (V c main_v42))

/-- The index maps over the 20 grid points: the output's row block is the point's number, the two 5000 × 128 inputs and
    the 5000 × 1 factor move with it, the bias's block is always (0, 0), and no window moves along the columns. -/
theorem index_facts1 : ∀ t : Fin cfg1.N, win1_4.index t (0 : Fin 2) = t.val ∧ win1_4.index t (1 : Fin 2) = 0
    ∧ win1_0.index t (0 : Fin 2) = win1_4.index t (0 : Fin 2) ∧ win1_0.index t (1 : Fin 2) = win1_4.index t (1 : Fin 2)
    ∧ win1_1.index t (0 : Fin 2) = win1_4.index t (0 : Fin 2) ∧ win1_1.index t (1 : Fin 2) = win1_4.index t (1 : Fin 2)
    ∧ win1_2.index t (0 : Fin 2) = win1_4.index t (0 : Fin 2) ∧ win1_2.index t (1 : Fin 2) = 0
    ∧ win1_3.index t (0 : Fin 2) = 0 ∧ win1_3.index t (1 : Fin 2) = 0 :=
  (by decide +kernel : ∀ t : Fin grid1.N, _)

/-- What point t writes back is block t of the whole-array function. -/
theorem flushed1_eq (c : Dev nD) (t : Fin cfg1.N) :
    (dat1 (F := Ideal) V c).flushed 4 t = ((cfg1.win 4).blk t).view.read (Elt Ideal) (whole1 V c) := by
  show (cfg1.win 4).cut (grid1.coords t) ((dat1 (F := Ideal) V c).after 4 t) = _
  rw [after1_4]
  unfold out1_4
  rw [View.canon_unit_zero zero_offsets]
  simp only [View.ld_unit_zero (S := S5000x128) zero_offsets, View.ld_unit_zero (S := S5000x1) zero_offsets,
    View.ld_unit_zero (S := S1x128) zero_offsets]
  obtain ⟨e40, e41, e00, e01, e10, e11, e20, e21, e30, e31⟩ := index_facts1 t
  funext j
  refine (pay1_at _ _ _ _ j).trans ?_
  rw [View.read_apply]
  refine Eq.trans ?_ (ref128_at _ _ _ _ (((cfg1.win 4).blk t).view.emb j)).symm
  have h0 : iblk1 V c 0 t j = V c main_v41 (((cfg1.win 4).blk t).view.emb j) := by
    show V c main_v41 (((cfg1.win 0).blk t).view.emb j) = _
    refine congrArg (V c main_v41) (funext fun a => Fin.ext ?_)
    match a with
    | ⟨0, _⟩ => show win1_0.index t (0 : Fin 2) * 5000 + 1 * (j 0).val = win1_4.index t (0 : Fin 2) * 5000 + 1 * (j 0).val; rw [e00]
    | ⟨1, _⟩ => show win1_0.index t (1 : Fin 2) * 128 + 1 * (j 1).val = win1_4.index t (1 : Fin 2) * 128 + 1 * (j 1).val; rw [e01]
  have h1 : iblk1 V c 1 t j = V c main_v28 (((cfg1.win 4).blk t).view.emb j) := by
    show V c main_v28 (((cfg1.win 1).blk t).view.emb j) = _
    refine congrArg (V c main_v28) (funext fun a => Fin.ext ?_)
    match a with
    | ⟨0, _⟩ => show win1_1.index t (0 : Fin 2) * 5000 + 1 * (j 0).val = win1_4.index t (0 : Fin 2) * 5000 + 1 * (j 0).val; rw [e10]
    | ⟨1, _⟩ => show win1_1.index t (1 : Fin 2) * 128 + 1 * (j 1).val = win1_4.index t (1 : Fin 2) * 128 + 1 * (j 1).val; rw [e11]
  have h2 : iblk1 V c 2 t (ix2 (j 0) 0) = V c main_v27 (ix2 (((cfg1.win 4).blk t).view.emb j 0) 0) := by
    show V c main_v27 (((cfg1.win 2).blk t).view.emb (ix2 (j 0) 0)) = _
    refine congrArg (V c main_v27) (funext fun a => Fin.ext ?_)
    match a with
    | ⟨0, _⟩ => show win1_2.index t (0 : Fin 2) * 5000 + 1 * (j 0).val = win1_4.index t (0 : Fin 2) * 5000 + 1 * (j 0).val; rw [e20]
    | ⟨1, _⟩ => show win1_2.index t (1 : Fin 2) * 1 + 1 * 0 = 0; rw [e21]
  have h3 : iblk1 V c 3 t (ix2 0 (j 1)) = V c main_v42 (ix2 0 (((cfg1.win 4).blk t).view.emb j 1)) := by
    show V c main_v42 (((cfg1.win 3).blk t).view.emb (ix2 0 (j 1))) = _
    refine congrArg (V c main_v42) (funext fun a => Fin.ext ?_)
    match a with
    | ⟨0, _⟩ => show win1_3.index t (0 : Fin 2) * 1 + 1 * 0 = 0; rw [e30]
    | ⟨1, _⟩ => show win1_3.index t (1 : Fin 2) * 128 + 1 * (j 1).val = win1_4.index t (1 : Fin 2) * 128 + 1 * (j 1).val; rw [e31, e41]
  rw [h0, h1, h2, h3]

/-- An index of the output array is in point t's block when each coordinate is in the block's range on its axis. -/
theorem mem_blk1 (t : Fin cfg1.N) (i : S100000x128.Idx) :
    i ∈ ((cfg1.win 4).blk t).view.set ↔ ∀ a : Fin 2, win1_4.index t a * S5000x128.size a ≤ (i a).val ∧ (i a).val < win1_4.index t a * S5000x128.size a + S5000x128.size a := by
  show i ∈ ((View.whole main_v43).slice (win1_4.rect t)).set ↔ _
  rw [View.set_slice_whole, Rect.mem_set_unit]
  exact Iff.rfl

/-- Every index of the output array is in some point's block: row r is in the block of point r / 5000. -/
theorem cover1 (i : S100000x128.Idx) :
    ∃ t : Fin cfg1.N, (cfg1.win 4).flush t = true ∧ i ∈ ((cfg1.win 4).blk t).view.set := by
  have hi0 : (i 0).val < 100000 := (i 0).isLt
  have hi1 : (i 1).val < 128 := (i 1).isLt
  have hN : cfg1.N = 20 := N_1
  refine ⟨⟨(i 0).val / 5000, by rw [hN]; omega⟩, flush1_4 _, ?_⟩
  obtain ⟨e40, e41, -⟩ := index_facts1 ⟨(i 0).val / 5000, by rw [hN]; omega⟩
  rw [mem_blk1]
  intro a
  match a with
  | ⟨0, _⟩ =>
    show win1_4.index _ (0 : Fin 2) * 5000 ≤ (i 0).val ∧ (i 0).val < win1_4.index _ (0 : Fin 2) * 5000 + 5000
    rw [e40]; show (i 0).val / 5000 * 5000 ≤ (i 0).val ∧ (i 0).val < (i 0).val / 5000 * 5000 + 5000; omega
  | ⟨1, _⟩ =>
    show win1_4.index _ (1 : Fin 2) * 128 ≤ (i 1).val ∧ (i 1).val < win1_4.index _ (1 : Fin 2) * 128 + 128
    rw [e41]; omega

/-- After the region's run the output array is the host's combine and positive part of the four input arrays. -/
theorem final1 (c : Dev nD) : (dat1 (F := Ideal) V c).arrAt 4 cfg1.N
    = Cert.Spec.relu128 (Cert.Spec.comb128 (V c main_v41) (V c main_v28) (V c main_v27) (V c main_v42)) :=
  (dat1 (F := Ideal) V c).arrAt_eq_of_cover 4 (whole1 V c) (fun t _ => flushed1_eq V c t) cover1

end Cert.KernelIdeal.Val

end
-- ==== Proof.Val.Layer1.lean ====
/-
  The first layer, read at the ideal instance: after region 0 (the feature transform), the second host stretch (the
  aggregation over the edges and the bias as a row) and region 1 (the combine and positive part), the layer's output
  array holds the reference's first-layer output, stage by stage:
  h = X·W1; agg = the sum into each edge's target of h at the edge's source times the edge's factor; the bias as a
  1 × 128 row (a reshape here, a broadcast along a new unit axis in the reference: the same element at every index);
  out = max (agg + h · dinv² + b) 0.
  Each array a later item reads is carried unchanged across the items that do not write it.
-/
import proofs.«405960_j60713657696826_2_alg».proof.Proof.KI.Keep
import proofs.«405960_j60713657696826_2_alg».proof.Proof.Val.Mm0
import proofs.«405960_j60713657696826_2_alg».proof.Proof.Val.Comb1
import proofs.«405960_j60713657696826_2_alg».proof.Proof.Val.Spec
import proofs.«405960_j60713657696826_2_alg».proof.Proof.Gen.ReferenceIdeal.Read
import Idealize.ShloMosaic.Lib.StableHlo.Run
import Idealize.ShloMosaic.Lib.Pipeline.Value

set_option maxRecDepth 16384

noncomputable section

namespace Cert.KernelIdeal.Val

open Cert.KernelIdeal Cert.KernelIdeal.Gen Cert.KernelIdeal.Fr
open Idealize.ShloMosaic Idealize.ShloMosaic.TcCoe Idealize.SL.Sem

variable (m : (ℓ : Loc nD τ sig) → Buf (Elt Ideal) ℓ) (c : Dev nD)

set_option quotPrecheck false in
local notation "x0" => m ((c.tc : Thread nD τ).loc main_arg0)
set_option quotPrecheck false in
local notation "x1" => m ((c.tc : Thread nD τ).loc main_arg1)
set_option quotPrecheck false in
local notation "x3" => m ((c.tc : Thread nD τ).loc main_arg3)
set_option quotPrecheck false in
local notation "x4" => m ((c.tc : Thread nD τ).loc main_arg4)

/-! ## The arguments as the first items find them -/

theorem l1_arg0 : W1 (F := Ideal) m c (Proc.devRef .tc main_arg0) = x0 := (W1_keep m c main_arg0 (by decide)).trans rfl
theorem l1_arg3 : W1 (F := Ideal) m c (Proc.devRef .tc main_arg3) = x3 := (W1_keep m c main_arg3 (by decide)).trans rfl
theorem l1_arg4 : W2 (F := Ideal) m c (Proc.devRef .tc main_arg4) = x4 :=
  (W2_of_ne m c main_arg4 (by decide)).trans ((W1_keep m c main_arg4 (by decide)).trans rfl)

/-! ## After region 0 -/

/-- The transformed features: X·W1, the reference's contraction. -/
theorem l1_h : W2 (F := Ideal) m c (Proc.devRef .tc main_v28) = Cert.ReferenceIdeal.Read.val_main_v4 x0 x3 := by
  refine (W2_arr m c 2).trans ?_
  refine (final0 (E1 m) c).trans ?_
  show Cert.Spec.mm128 (W1 (F := Ideal) m c (Proc.devRef .tc main_arg0)) (W1 (F := Ideal) m c (Proc.devRef .tc main_arg3)) = _
  rw [l1_arg0, l1_arg3]
  rfl

/-! ## After the second host stretch -/

set_option maxHeartbeats 4000000 in
/-- The aggregation: into each edge's target, the transformed features at the edge's source times the edge's factor. -/
theorem l1_agg (hsrc : W1 (F := Ideal) m c (Proc.devRef .tc main_v1) = Cert.ReferenceIdeal.Read.val_main_v1 x1)
    (hdst : W1 (F := Ideal) m c (Proc.devRef .tc main_v3) = Cert.ReferenceIdeal.Read.val_main_v3 x1)
    (hnorm : W1 (F := Ideal) m c (Proc.devRef .tc main_v25) = Cert.ReferenceIdeal.Read.val_main_v26 x1) :
    W3 (F := Ideal) m c (Proc.devRef .tc main_v41) = Cert.ReferenceIdeal.Read.val_main_v39 x0 x1 x3 := by
  have e1 : W2 (F := Ideal) m c (Proc.devRef .tc main_v1) = Cert.ReferenceIdeal.Read.val_main_v1 x1 :=
    (W2_of_ne m c main_v1 (by decide)).trans hsrc
  have e3 : W2 (F := Ideal) m c (Proc.devRef .tc main_v3) = Cert.ReferenceIdeal.Read.val_main_v3 x1 :=
    (W2_of_ne m c main_v3 (by decide)).trans hdst
  have e25 : W2 (F := Ideal) m c (Proc.devRef .tc main_v25) = Cert.ReferenceIdeal.Read.val_main_v26 x1 :=
    (W2_of_ne m c main_v25 (by decide)).trans hnorm
  have e28 := l1_h m c
  show StableHlo.after hostOps1 (W2 m c) (Proc.devRef .tc main_v41) = _
  after_results_simp
  rw [e1, e3, e25, e28]
  rfl

/-- The bias as a row: the reshape of the 128-vector to 1 × 128 reads, at row 0 and column `q`, the vector at `q`, as the
    broadcast along a new unit axis does. -/
theorem l1_bias : W3 (F := Ideal) m c (Proc.devRef .tc main_v42) = Cert.ReferenceIdeal.Read.val_main_v45 x4 := by
  show StableHlo.after hostOps1 (W2 m c) (Proc.devRef .tc main_v42) = _
  after_results_simp
  rw [l1_arg4]
  funext i
  rw [Cert.ReferenceIdeal.Read.val_main_v45_apply]
  exact shapeCast_apply _ shapeCasts_S128_S1x128 i (Cert.ReferenceIdeal.Read.idx_main_v45 i) (by
    rewrite [Shape.rowMajor_val_one, Shape.rowMajor_val_two]
    have h0 : (i 0).val < 1 := (i 0).isLt
    show (i 1).val = (i 0).val * 128 + (i 1).val
    omega)

/-- The transformed features are carried across the stretch. -/
theorem l1_h3 : W3 (F := Ideal) m c (Proc.devRef .tc main_v28) = Cert.ReferenceIdeal.Read.val_main_v4 x0 x3 :=
  (W3_keep m c main_v28 (by decide)).trans (l1_h m c)

/-- dinv² as a column is carried from the first stretch. -/
theorem l1_d2 (hd2 : W1 (F := Ideal) m c (Proc.devRef .tc main_v27) = Cert.ReferenceIdeal.Read.val_main_v41 x1) :
    W3 (F := Ideal) m c (Proc.devRef .tc main_v27) = Cert.ReferenceIdeal.Read.val_main_v41 x1 :=
  (W3_keep m c main_v27 (by decide)).trans ((W2_of_ne m c main_v27 (by decide)).trans hd2)

/-! ## After region 1 -/

/-- The layer's output: max (agg + h · dinv² + b) 0, the reference's first-layer output. -/
theorem layer1 (hsrc : W1 (F := Ideal) m c (Proc.devRef .tc main_v1) = Cert.ReferenceIdeal.Read.val_main_v1 x1)
    (hdst : W1 (F := Ideal) m c (Proc.devRef .tc main_v3) = Cert.ReferenceIdeal.Read.val_main_v3 x1)
    (hnorm : W1 (F := Ideal) m c (Proc.devRef .tc main_v25) = Cert.ReferenceIdeal.Read.val_main_v26 x1)
    (hd2 : W1 (F := Ideal) m c (Proc.devRef .tc main_v27) = Cert.ReferenceIdeal.Read.val_main_v41 x1) :
    W4 (F := Ideal) m c (Proc.devRef .tc main_v43) = Cert.ReferenceIdeal.Read.val_main_v48 x0 x1 x3 x4 := by
  refine (W4_arr m c 4).trans ?_
  refine (final1 (E3 m) c).trans ?_
  show Cert.Spec.relu128 (Cert.Spec.comb128 (W3 (F := Ideal) m c (Proc.devRef .tc main_v41)) (W3 (F := Ideal) m c (Proc.devRef .tc main_v28))
    (W3 (F := Ideal) m c (Proc.devRef .tc main_v27)) (W3 (F := Ideal) m c (Proc.devRef .tc main_v42))) = _
  rw [l1_agg m c hsrc hdst hnorm, l1_h3, l1_d2 m c hd2, l1_bias]
  rfl

end Cert.KernelIdeal.Val

end
-- ==== Proof.Val.Mm2.lean ====
/-
  The value of region 2, the second feature transform, at the ideal instance: after its twenty grid points the output
  array holds H·W, the 100000 × 128 matrix the region reads times its 128 × 128 weight matrix, in the reference's own
  contraction. The body is region 0's but for a cast of the row block to its own shape, which is the identity, so the
  payload read at an index is the same sum ∑ k, H (i, k) · W (k, j); point t computes rows 5000·t … 5000·t + 4999 and the
  twenty row blocks tile the rows.
-/
import proofs.«405960_j60713657696826_2_alg».proof.Proof.KI.Reg2
import proofs.«405960_j60713657696826_2_alg».proof.Proof.Val.Mm0
import proofs.«405960_j60713657696826_2_alg».proof.Proof.Val.Spec
import proofs.«405960_j60713657696826_2_alg».proof.Proof.Gen.ReferenceIdeal.Read
import Idealize.ShloMosaic.Lib.Pipeline.Value
import Idealize.ShloMosaic.Lib.ValueIdx
import Idealize.ShloMosaic.PureOps.Ideal.Laws

set_option maxRecDepth 16384

noncomputable section

namespace Cert.KernelIdeal.Val

open Cert.KernelIdeal Cert.KernelIdeal.Gen Cert.KernelIdeal.Fr
open Idealize.ShloMosaic Idealize.ShloMosaic.TcCoe Idealize.SL.Sem
open Idealize.ShloMosaic.Pipeline (Dat)
open Idealize.ShloMosaic.ValueIdx (ix2 eq_ix2)

/-! ## The block product read at an index -/

/-- The payload is region 0's: the one extra operation, a cast of the row block to its own shape, is the identity. -/
theorem pay2_eq (x : Vec Ideal S5000x128 .f32) (w : Vec Ideal S128x128 .f32) : k2_pay1 x w = k0_pay1 x w := by
  unfold k2_pay1 k0_pay1
  rw [shapeCast_self]

/-- So at row `p`, column `q` it is the sum over `k` of the row block at `(p, k)` times the weights at `(k, q)`. -/
theorem pay2_apply (x : Vec Ideal S5000x128 .f32) (w : Vec Ideal S128x128 .f32) (p : Fin 5000) (q : Fin 128) :
    k2_pay1 x w (ix2 p q) = ∑ k : Fin 128, x (ix2 p k) * w (ix2 k q) :=
  (congrFun (pay2_eq x w) (ix2 p q)).trans (pay0_apply x w p q)

/-! ## From blocks to the array -/

variable (V : (c : Dev nD) → (b : Ref sig .tc) → Buf (Elt Ideal) ((c : Thread nD τ).loc b))

/-- The index maps over the grid: the row block and the output move together along the rows, one block per point; the
    weights' block and every column block index stay at zero. -/
theorem idx_facts2 : ∀ t : Fin cfg2.N, win2_0.index t (0 : Fin 2) = t.val
    ∧ win2_0.index t (1 : Fin 2) = 0
    ∧ win2_1.index t (0 : Fin 2) = 0
    ∧ win2_1.index t (1 : Fin 2) = 0
    ∧ win2_2.index t (0 : Fin 2) = t.val
    ∧ win2_2.index t (1 : Fin 2) = 0 :=
  (by decide +kernel : ∀ t : Fin grid2.N, _)

/-- What point `t` writes back is block `t` of H·W. -/
theorem flushed2_eq (c : Dev nD) (t : Fin cfg2.N) :
    (dat2 (F := Ideal) V c).flushed 2 t
      = ((cfg2.win 2).blk t).view.read (Elt Ideal) (Cert.Spec.mm128 (V c main_v43) (V c main_arg5)) := by
  show (cfg2.win 2).cut (grid2.coords t) ((dat2 (F := Ideal) V c).after 2 t) = _
  rw [after2_2]
  unfold out2_2
  rw [View.canon_unit_zero zeros2]
  simp only [View.ld_unit_zero (S := S5000x128) zeros2, View.ld_unit_zero (S := S128x128) zeros2]
  obtain ⟨e0, e1, e2, e3, e4, e5⟩ := idx_facts2 t
  funext j
  obtain ⟨p, q, rfl⟩ : ∃ (p : Fin 5000) (q : Fin 128), j = ix2 p q := ⟨j 0, j 1, eq_ix2 j⟩
  show k2_pay1 (iblk2 V c 0 t) (iblk2 V c 1 t) (ix2 p q)
    = Cert.Spec.mm128 (V c main_v43) (V c main_arg5) (((cfg2.win 2).blk t).view.emb (ix2 p q))
  refine (pay2_apply _ _ p q).trans ?_
  refine Eq.trans ?_ (mm128_apply _ _ _).symm
  refine Finset.sum_congr rfl fun k _ => ?_
  have hp : p.val < 5000 := p.isLt
  have hq : q.val < 128 := q.isLt
  have hk : k.val < 128 := k.isLt
  have h0 : ((cfg2.win 0).blk t).view.emb (ix2 p k)
      = Cert.ReferenceIdeal.Read.lidx_main_v4 (((cfg2.win 2).blk t).view.emb (ix2 p q)) k := by
    funext a; apply Fin.ext
    match a with
    | ⟨0, _⟩ => show win2_0.index t (0 : Fin 2) * 5000 + 1 * p.val = win2_2.index t (0 : Fin 2) * 5000 + 1 * p.val; omega
    | ⟨1, _⟩ => show win2_0.index t (1 : Fin 2) * 128 + 1 * k.val = k.val; omega
  have h1 : ((cfg2.win 1).blk t).view.emb (ix2 k q)
      = Cert.ReferenceIdeal.Read.ridx_main_v4 (((cfg2.win 2).blk t).view.emb (ix2 p q)) k := by
    funext a; apply Fin.ext
    match a with
    | ⟨0, _⟩ => show win2_1.index t (0 : Fin 2) * 128 + 1 * k.val = k.val; omega
    | ⟨1, _⟩ => show win2_1.index t (1 : Fin 2) * 128 + 1 * q.val = win2_2.index t (1 : Fin 2) * 128 + 1 * q.val; omega
  exact mul_congr_idx (V c main_v43) (V c main_arg5) h0 h1

/-- An index of the array is in point `t`'s block iff each coordinate is in the block's range on its axis. -/
theorem mem_blk2 (t : Fin cfg2.N) (i : S100000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v44).slice (win2_2.rect t)).set ↔ _
  rw [View.set_slice_whole, Rect.mem_set_unit]
  exact Iff.rfl

/-- Row `r` of the array lies in the block of point `r / 5000`: the twenty row blocks tile the rows, and each spans every column. -/
theorem cover2 (i : S100000x128.Idx) : ∃ t : Fin cfg2.N, (cfg2.win 2).flush t = true ∧ i ∈ ((cfg2.win 2).blk t).view.set := by
  have hi0 : (i 0).val < 100000 := (i 0).isLt
  have hi1 : (i 1).val < 128 := (i 1).isLt
  have hN : cfg2.N = 20 := N_2
  let t : Fin cfg2.N := ⟨(i 0).val / 5000, by omega⟩
  obtain ⟨e0, e1, e2, e3, e4, e5⟩ := idx_facts2 t
  have ht : t.val = (i 0).val / 5000 := rfl
  refine ⟨t, flush2_2 t, ?_⟩
  rw [mem_blk2]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 128 ≤ (i 1).val ∧ (i 1).val < win2_2.index t (1 : Fin 2) * 128 + 128; omega

/-- The output array after all twenty points is H·W. -/
theorem final2 (c : Dev nD) :
    (dat2 (F := Ideal) V c).arrAt 2 cfg2.N = Cert.Spec.mm128 (V c main_v43) (V c main_arg5) :=
  (dat2 (F := Ideal) V c).arrAt_eq_of_cover 2 (Cert.Spec.mm128 (V c main_v43) (V c main_arg5))
    (fun t _ => flushed2_eq V c t) cover2

end Cert.KernelIdeal.Val

end
-- ==== Proof.Val.Comb3.lean ====
/-
  The value of region 3, the second layer's elementwise combine, at the ideal instance: after the region's run the output
  array holds, at every node i and feature j, max (agg (i, j) + h (i, j) * d (i, 0) + b (0, j)) 0, which is the host's
  combine followed by the positive part, read at (i, j). The body's arithmetic and the windows' shapes are the first
  layer's; only the arrays differ.
-/
import proofs.«405960_j60713657696826_2_alg».proof.Proof.KI.Reg3
import proofs.«405960_j60713657696826_2_alg».proof.Proof.Val.Comb1

noncomputable section

namespace Cert.KernelIdeal.Val

open Cert.KernelIdeal Cert.KernelIdeal.Gen Cert.KernelIdeal.Fr
open Idealize.ShloMosaic Idealize.ShloMosaic.TcCoe Idealize.ShloMosaic.ValueIdx Idealize.SL.Sem
open Idealize.ShloMosaic.Pipeline (Dat)

/-! ## The body's arithmetic at one element of the block -/

/-- Element (p, q) of the body's result: aggregated neighbours plus features times the row's factor plus the bias, then
    the maximum with zero. -/
theorem pay3_apply (x0 x1 : Vec Ideal S5000x128 .f32) (x2 : Vec Ideal S5000x1 .f32) (x3 : Vec Ideal S1x128 .f32)
    (p : Fin 5000) (q : Fin 128) :
    k3_pay1 x0 x1 x2 x3 (ix2 p q)
      = max (x0 (ix2 p q) + x1 (ix2 p q) * x2 (ix2 p 0) + x3 (ix2 0 q)) (Ideal.ofBits .f32 0x00000000#32) := by
  unfold k3_pay1
  simp only [shapeCast_self]
  rw [maximumf_apply, addf_apply, addf_apply, mulf_apply, broadcast_apply]
  rw [broadcastTo_apply x2 broadcasts_S5000x1_S5000x128 (ix2 p q) (ix2 p 0) (fun a => by
        match a with
        | ⟨0, _⟩ => show p.val = if (5000 : Nat) = 1 then 0 else p.val; rw [if_neg (by decide)]
        | ⟨1, _⟩ => show 0 = if (1 : Nat) = 1 then 0 else q.val; rw [if_pos rfl]),
      broadcastTo_apply x3 broadcasts_S1x128_S5000x128 (ix2 p q) (ix2 0 q) (fun a => by
        match a with
        | ⟨0, _⟩ => show 0 = if (1 : Nat) = 1 then 0 else p.val; rw [if_pos rfl]
        | ⟨1, _⟩ => show q.val = if (128 : Nat) = 1 then 0 else q.val; rw [if_neg (by decide)])]
  rfl

/-- The same at any index of the block. -/
theorem pay3_at (x0 x1 : Vec Ideal S5000x128 .f32) (x2 : Vec Ideal S5000x1 .f32) (x3 : Vec Ideal S1x128 .f32)
    (j : S5000x128.Idx) :
    k3_pay1 x0 x1 x2 x3 j
      = max (x0 j + x1 j * x2 (ix2 (j 0) 0) + x3 (ix2 0 (j 1))) (Ideal.ofBits .f32 0x00000000#32) := by
  obtain ⟨p, q, rfl⟩ : ∃ (p : Fin 5000) (q : Fin 128), j = ix2 p q := ⟨j 0, j 1, eq_ix2 j⟩
  exact pay3_apply x0 x1 x2 x3 p q

/-! ## From the blocks to the array -/

variable (V : (c : Dev nD) → (b : Ref sig .tc) → Buf (Elt Ideal) ((c : Thread nD τ).loc b))

/-- The output array as one function of the four input arrays. -/
abbrev whole3 (c : Dev nD) : FVec Ideal Cert.ReferenceIdeal.S100000x128 .f32 :=
  Cert.Spec.relu128 (Cert.Spec.comb128 (V c main_v57) (V c main_v44) (V c main_v27) (V c main_v58))

/-- The index maps over the 20 grid points: the output's row block is the point's number, the two 5000 × 128 inputs and
    the 5000 × 1 factor move with it, the bias's block is always (0, 0), and no window moves along the columns. -/
theorem index_facts3 : ∀ t : Fin cfg3.N, win3_4.index t (0 : Fin 2) = t.val ∧ win3_4.index t (1 : Fin 2) = 0
    ∧ win3_0.index t (0 : Fin 2) = win3_4.index t (0 : Fin 2) ∧ win3_0.index t (1 : Fin 2) = win3_4.index t (1 : Fin 2)
    ∧ win3_1.index t (0 : Fin 2) = win3_4.index t (0 : Fin 2) ∧ win3_1.index t (1 : Fin 2) = win3_4.index t (1 : Fin 2)
    ∧ win3_2.index t (0 : Fin 2) = win3_4.index t (0 : Fin 2) ∧ win3_2.index t (1 : Fin 2) = 0
    ∧ win3_3.index t (0 : Fin 2) = 0 ∧ win3_3.index t (1 : Fin 2) = 0 :=
  (by decide +kernel : ∀ t : Fin grid3.N, _)

/-- What point t writes back is block t of the whole-array function. -/
theorem flushed3_eq (c : Dev nD) (t : Fin cfg3.N) :
    (dat3 (F := Ideal) V c).flushed 4 t = ((cfg3.win 4).blk t).view.read (Elt Ideal) (whole3 V c) := by
  show (cfg3.win 4).cut (grid3.coords t) ((dat3 (F := Ideal) V c).after 4 t) = _
  rw [after3_4]
  unfold out3_4
  rw [View.canon_unit_zero zero_offsets]
  simp only [View.ld_unit_zero (S := S5000x128) zero_offsets, View.ld_unit_zero (S := S5000x1) zero_offsets,
    View.ld_unit_zero (S := S1x128) zero_offsets]
  obtain ⟨e40, e41, e00, e01, e10, e11, e20, e21, e30, e31⟩ := index_facts3 t
  funext j
  refine (pay3_at _ _ _ _ j).trans ?_
  rw [View.read_apply]
  refine Eq.trans ?_ (ref128_at _ _ _ _ (((cfg3.win 4).blk t).view.emb j)).symm
  have h0 : iblk3 V c 0 t j = V c main_v57 (((cfg3.win 4).blk t).view.emb j) := by
    show V c main_v57 (((cfg3.win 0).blk t).view.emb j) = _
    refine congrArg (V c main_v57) (funext fun a => Fin.ext ?_)
    match a with
    | ⟨0, _⟩ => show win3_0.index t (0 : Fin 2) * 5000 + 1 * (j 0).val = win3_4.index t (0 : Fin 2) * 5000 + 1 * (j 0).val; rw [e00]
    | ⟨1, _⟩ => show win3_0.index t (1 : Fin 2) * 128 + 1 * (j 1).val = win3_4.index t (1 : Fin 2) * 128 + 1 * (j 1).val; rw [e01]
  have h1 : iblk3 V c 1 t j = V c main_v44 (((cfg3.win 4).blk t).view.emb j) := by
    show V c main_v44 (((cfg3.win 1).blk t).view.emb j) = _
    refine congrArg (V c main_v44) (funext fun a => Fin.ext ?_)
    match a with
    | ⟨0, _⟩ => show win3_1.index t (0 : Fin 2) * 5000 + 1 * (j 0).val = win3_4.index t (0 : Fin 2) * 5000 + 1 * (j 0).val; rw [e10]
    | ⟨1, _⟩ => show win3_1.index t (1 : Fin 2) * 128 + 1 * (j 1).val = win3_4.index t (1 : Fin 2) * 128 + 1 * (j 1).val; rw [e11]
  have h2 : iblk3 V c 2 t (ix2 (j 0) 0) = V c main_v27 (ix2 (((cfg3.win 4).blk t).view.emb j 0) 0) := by
    show V c main_v27 (((cfg3.win 2).blk t).view.emb (ix2 (j 0) 0)) = _
    refine congrArg (V c main_v27) (funext fun a => Fin.ext ?_)
    match a with
    | ⟨0, _⟩ => show win3_2.index t (0 : Fin 2) * 5000 + 1 * (j 0).val = win3_4.index t (0 : Fin 2) * 5000 + 1 * (j 0).val; rw [e20]
    | ⟨1, _⟩ => show win3_2.index t (1 : Fin 2) * 1 + 1 * 0 = 0; rw [e21]
  have h3 : iblk3 V c 3 t (ix2 0 (j 1)) = V c main_v58 (ix2 0 (((cfg3.win 4).blk t).view.emb j 1)) := by
    show V c main_v58 (((cfg3.win 3).blk t).view.emb (ix2 0 (j 1))) = _
    refine congrArg (V c main_v58) (funext fun a => Fin.ext ?_)
    match a with
    | ⟨0, _⟩ => show win3_3.index t (0 : Fin 2) * 1 + 1 * 0 = 0; rw [e30]
    | ⟨1, _⟩ => show win3_3.index t (1 : Fin 2) * 128 + 1 * (j 1).val = win3_4.index t (1 : Fin 2) * 128 + 1 * (j 1).val; rw [e31, e41]
  rw [h0, h1, h2, h3]

/-- An index of the output array is in point t's block when each coordinate is in the block's range on its axis. -/
theorem mem_blk3 (t : Fin cfg3.N) (i : S100000x128.Idx) :
    i ∈ ((cfg3.win 4).blk t).view.set ↔ ∀ a : Fin 2, win3_4.index t a * S5000x128.size a ≤ (i a).val ∧ (i a).val < win3_4.index t a * S5000x128.size a + S5000x128.size a := by
  show i ∈ ((View.whole main_v59).slice (win3_4.rect t)).set ↔ _
  rw [View.set_slice_whole, Rect.mem_set_unit]
  exact Iff.rfl

/-- Every index of the output array is in some point's block: row r is in the block of point r / 5000. -/
theorem cover3 (i : S100000x128.Idx) :
    ∃ t : Fin cfg3.N, (cfg3.win 4).flush t = true ∧ i ∈ ((cfg3.win 4).blk t).view.set := by
  have hi0 : (i 0).val < 100000 := (i 0).isLt
  have hi1 : (i 1).val < 128 := (i 1).isLt
  have hN : cfg3.N = 20 := N_3
  refine ⟨⟨(i 0).val / 5000, by rw [hN]; omega⟩, flush3_4 _, ?_⟩
  obtain ⟨e40, e41, -⟩ := index_facts3 ⟨(i 0).val / 5000, by rw [hN]; omega⟩
  rw [mem_blk3]
  intro a
  match a with
  | ⟨0, _⟩ =>
    show win3_4.index _ (0 : Fin 2) * 5000 ≤ (i 0).val ∧ (i 0).val < win3_4.index _ (0 : Fin 2) * 5000 + 5000
    rw [e40]; show (i 0).val / 5000 * 5000 ≤ (i 0).val ∧ (i 0).val < (i 0).val / 5000 * 5000 + 5000; omega
  | ⟨1, _⟩ =>
    show win3_4.index _ (1 : Fin 2) * 128 ≤ (i 1).val ∧ (i 1).val < win3_4.index _ (1 : Fin 2) * 128 + 128
    rw [e41]; omega

/-- After the region's run the output array is the host's combine and positive part of the four input arrays. -/
theorem final3 (c : Dev nD) : (dat3 (F := Ideal) V c).arrAt 4 cfg3.N
    = Cert.Spec.relu128 (Cert.Spec.comb128 (V c main_v57) (V c main_v44) (V c main_v27) (V c main_v58)) :=
  (dat3 (F := Ideal) V c).arrAt_eq_of_cover 4 (whole3 V c) (fun t _ => flushed3_eq V c t) cover3

end Cert.KernelIdeal.Val

end
-- ==== Proof.Val.Layer2.lean ====
/-
  The second layer of the graph convolution: from the contents the first host stretch leaves (edge sources, edge targets,
  per-edge norms, per-node squared inverse degree) and the first layer's output, the run's buffers after the second
  layer's three items (the feature transform, the host's aggregation, the combine) hold the reference's second-layer
  output. Each kernel item's value is the host operation the reference applies at that stage, on arrays already shown
  equal to the reference's stages; the reference recomputes degree, norm and squared inverse degree in every layer by the
  same operations on the same operands, so those stages are equal to the first layer's by unfolding.
-/
import proofs.«405960_j60713657696826_2_alg».proof.Proof.KI.Run
import proofs.«405960_j60713657696826_2_alg».proof.Proof.KI.Keep
import proofs.«405960_j60713657696826_2_alg».proof.Proof.Val.Spec
import proofs.«405960_j60713657696826_2_alg».proof.Proof.Val.Mm2
import proofs.«405960_j60713657696826_2_alg».proof.Proof.Val.Comb3
import proofs.«405960_j60713657696826_2_alg».proof.Proof.Gen.ReferenceIdeal.Read
import Idealize.ShloMosaic.Lib.StableHlo.Run
import Idealize.ShloMosaic.Lib.Pipeline.Value
import Idealize.ShloMosaic.Lib.ValueIdx
import Idealize.ShloMosaic.PureOps.Ideal

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx Idealize.SL.Sem
open Cert.ReferenceIdeal.Read

/-! ## Stages the reference computes again in the second layer -/

/-- The inverse square root of the degree, recomputed: the same operations on the same operands. -/
theorem dinv_again (x1 : (⟨Cert.ReferenceIdeal.S2x1600000, .i32⟩ : BufTy).Contents (Elt Ideal)) :
    val_main_v56 (F := Ideal) x1 = val_main_v11 (F := Ideal) x1 := rfl

/-- The per-edge norm, recomputed: the product of the two gathers of the inverse square root of the degree. -/
theorem norm_again (x1 : (⟨Cert.ReferenceIdeal.S2x1600000, .i32⟩ : BufTy).Contents (Elt Ideal)) :
    val_main_v71 (F := Ideal) x1 = val_main_v26 (F := Ideal) x1 := rfl

/-- The squared inverse degree as a 100000 × 1 column, recomputed. -/
theorem dinv2_again (x1 : (⟨Cert.ReferenceIdeal.S2x1600000, .i32⟩ : BufTy).Contents (Elt Ideal)) :
    val_main_v86 (F := Ideal) x1 = val_main_v41 (F := Ideal) x1 := rfl

/-! ## The bias as a row -/

/-- A reshape of 128 values to a 1 × 128 row and the host's broadcast of them along a new leading axis read the same
    element at every index. -/
theorem row_of_vec128 (x : FVec Ideal S128 .f32) (h : S128.ShapeCasts S1x128)
    (h' : S128.BroadcastsInDim S1x128 (![1] : Fin 1 → Fin 2)) :
    shapeCast S1x128 x h = broadcastInDim S1x128 ![1] h' x := by
  funext i
  rw [shapeCast_apply x h i (ix1 (i 1)) (by
        rewrite [Shape.rowMajor_val_one, Shape.rowMajor_val_two]
        have h0 : (i 0).val < 1 := (i 0).isLt
        show (i 1).val = (i 0).val * 128 + (i 1).val; omega),
    broadcastInDim_apply _ h' x i (ix1 (i 1)) (fun a => by
        match a with
        | ⟨0, _⟩ => show (i 1).val = if (128 : Nat) = 1 then 0 else (i 1).val; rw [if_neg (by decide)])]

variable (m : (ℓ : Loc nD τ sig) → Buf (Elt Ideal) ℓ) (c : Dev nD)

set_option quotPrecheck false in
local notation "x0" => m ((c.tc : Thread nD τ).loc main_arg0)
set_option quotPrecheck false in
local notation "x1" => m ((c.tc : Thread nD τ).loc main_arg1)
set_option quotPrecheck false in
local notation "x3" => m ((c.tc : Thread nD τ).loc main_arg3)
set_option quotPrecheck false in
local notation "x4" => m ((c.tc : Thread nD τ).loc main_arg4)
set_option quotPrecheck false in
local notation "x5" => m ((c.tc : Thread nD τ).loc main_arg5)
set_option quotPrecheck false in
local notation "x6" => m ((c.tc : Thread nD τ).loc main_arg6)

/-! ## Carried buffers -/

/-- The edge sources are written by the first host stretch only: they reach the second layer's aggregation unchanged. -/
theorem src_at5 (hsrc : W1 (F := Ideal) m c (Proc.devRef .tc main_v1) = val_main_v1 x1) :
    W5 (F := Ideal) m c (Proc.devRef .tc main_v1) = val_main_v1 x1 :=
  (W5_of_ne m c main_v1 (by decide)).trans <| (W4_of_ne m c main_v1 (by decide)).trans <|
  (W3_keep m c main_v1 (by decide)).trans <| (W2_of_ne m c main_v1 (by decide)).trans hsrc

/-- So do the edge targets … -/
theorem dst_at5 (hdst : W1 (F := Ideal) m c (Proc.devRef .tc main_v3) = val_main_v3 x1) :
    W5 (F := Ideal) m c (Proc.devRef .tc main_v3) = val_main_v3 x1 :=
  (W5_of_ne m c main_v3 (by decide)).trans <| (W4_of_ne m c main_v3 (by decide)).trans <|
  (W3_keep m c main_v3 (by decide)).trans <| (W2_of_ne m c main_v3 (by decide)).trans hdst

/-- … and the per-edge norms. -/
theorem norm_at5 (hnorm : W1 (F := Ideal) m c (Proc.devRef .tc main_v25) = val_main_v26 x1) :
    W5 (F := Ideal) m c (Proc.devRef .tc main_v25) = val_main_v26 x1 :=
  (W5_of_ne m c main_v25 (by decide)).trans <| (W4_of_ne m c main_v25 (by decide)).trans <|
  (W3_keep m c main_v25 (by decide)).trans <| (W2_of_ne m c main_v25 (by decide)).trans hnorm

/-- The second layer's weights are as launched when the feature transform reads them. -/
theorem w_at4 : W4 (F := Ideal) m c (Proc.devRef .tc main_arg5) = x5 :=
  (W4_of_ne m c main_arg5 (by decide)).trans <| (W3_keep m c main_arg5 (by decide)).trans <|
  (W2_of_ne m c main_arg5 (by decide)).trans <| (W1_keep m c main_arg5 (by decide)).trans rfl

/-- The second layer's bias is as launched when the host stretch reshapes it. -/
theorem b_at5 : W5 (F := Ideal) m c (Proc.devRef .tc main_arg6) = x6 :=
  (W5_of_ne m c main_arg6 (by decide)).trans <| (W4_of_ne m c main_arg6 (by decide)).trans <| (W3_keep m c main_arg6 (by decide)).trans <|
  (W2_of_ne m c main_arg6 (by decide)).trans <| (W1_keep m c main_arg6 (by decide)).trans rfl

/-- The squared inverse degree, an input of the first layer's combine and written by nothing after the first host
    stretch, reaches the second layer's combine unchanged. -/
theorem d2_at6 (hd2 : W1 (F := Ideal) m c (Proc.devRef .tc main_v27) = val_main_v41 x1) :
    W6 (F := Ideal) m c (Proc.devRef .tc main_v27) = val_main_v41 x1 :=
  (W6_keep m c main_v27 (by decide)).trans <| (W5_of_ne m c main_v27 (by decide)).trans <| (W4_in m c 2 rfl).trans <|
  (W3_keep m c main_v27 (by decide)).trans <| (W2_of_ne m c main_v27 (by decide)).trans hd2

/-- The feature transform of the first layer's output: the region's value is the host's contraction of its two input
    arrays, which are the reference's first-layer output and the launched weights. -/
theorem h_at5 (h1 : W4 (F := Ideal) m c (Proc.devRef .tc main_v43) = val_main_v48 x0 x1 x3 x4) :
    W5 (F := Ideal) m c (Proc.devRef .tc main_v44) = val_main_v49 x0 x1 x3 x4 x5 := by
  refine (W5_arr m c 2).trans ((final2 (E4 m) c).trans ?_)
  show Cert.Spec.mm128 (W4 (F := Ideal) m c (Proc.devRef .tc main_v43)) (W4 (F := Ideal) m c (Proc.devRef .tc main_arg5)) = _
  rw [h1, w_at4]
  rfl

/-- The bias row the host stretch leaves is the reference's broadcast of the launched bias. -/
theorem bias_at6 : W6 (F := Ideal) m c (Proc.devRef .tc main_v58) = val_main_v90 x6 := by
  show StableHlo.after hostOps3 (W5 (F := Ideal) m c) (Proc.devRef .tc main_v58) = _
  after_results
  rw [b_at5]
  exact row_of_vec128 x6 _ _

set_option maxHeartbeats 2000000 in
/-- The aggregation the host stretch leaves: the scatter-add, at the edge targets, of the transformed features gathered at
    the edge sources and scaled by the per-edge norms. It is the reference's aggregation stage once the four arrays it
    reads are the reference's stages (the reference's norm being the recomputed one). -/
theorem agg_at6 (hsrc5 : W5 (F := Ideal) m c (Proc.devRef .tc main_v1) = val_main_v1 x1)
    (hdst5 : W5 (F := Ideal) m c (Proc.devRef .tc main_v3) = val_main_v3 x1)
    (hnorm5 : W5 (F := Ideal) m c (Proc.devRef .tc main_v25) = val_main_v26 x1)
    (hh5 : W5 (F := Ideal) m c (Proc.devRef .tc main_v44) = val_main_v49 x0 x1 x3 x4 x5) :
    W6 (F := Ideal) m c (Proc.devRef .tc main_v57) = val_main_v84 x0 x1 x3 x4 x5 := by
  show StableHlo.after hostOps3 (W5 (F := Ideal) m c) (Proc.devRef .tc main_v57) = _
  after_results_simp
  rw [hsrc5, hdst5, hnorm5, hh5, ← norm_again]
  rfl

/-! ## The second layer -/

/-- After the second layer's combine the output array is the reference's second-layer output: the region's value is the
    host's combine and positive part of the aggregation, the transformed features, the squared inverse degree and the
    bias row, each the reference's stage. -/
theorem layer2 (hsrc : W1 (F := Ideal) m c (Proc.devRef .tc main_v1) = val_main_v1 x1)
    (hdst : W1 (F := Ideal) m c (Proc.devRef .tc main_v3) = val_main_v3 x1)
    (hnorm : W1 (F := Ideal) m c (Proc.devRef .tc main_v25) = val_main_v26 x1)
    (hd2 : W1 (F := Ideal) m c (Proc.devRef .tc main_v27) = val_main_v41 x1)
    (h1 : W4 (F := Ideal) m c (Proc.devRef .tc main_v43) = val_main_v48 x0 x1 x3 x4) :
    W7 (F := Ideal) m c (Proc.devRef .tc main_v59) = val_main_v93 x0 x1 x3 x4 x5 x6 := by
  have hh5 := h_at5 m c h1
  have a57 := agg_at6 m c (src_at5 m c hsrc) (dst_at5 m c hdst) (norm_at5 m c hnorm) hh5
  have a44 : W6 (F := Ideal) m c (Proc.devRef .tc main_v44) = val_main_v49 x0 x1 x3 x4 x5 :=
    (W6_keep m c main_v44 (by decide)).trans hh5
  have a27 := d2_at6 m c hd2
  have a58 := bias_at6 m c
  refine (W7_arr m c 4).trans ((final3 (E6 m) c).trans ?_)
  show Cert.Spec.relu128 (Cert.Spec.comb128 (W6 (F := Ideal) m c (Proc.devRef .tc main_v57))
    (W6 (F := Ideal) m c (Proc.devRef .tc main_v44)) (W6 (F := Ideal) m c (Proc.devRef .tc main_v27))
    (W6 (F := Ideal) m c (Proc.devRef .tc main_v58))) = _
  rw [a57, a44, a27, a58, ← dinv2_again]
  rfl

end Cert.KernelIdeal.Val

end
-- ==== Proof.Val.Mm4.lean ====
/-
  The value of region 4, the third feature transform, at the ideal instance: after its twenty grid points the output
  array holds H·W, the 100000 × 128 matrix the region reads times its 128 × 2 weight matrix, in the reference's own
  contraction. Element (i, j) is ∑ k, H (i, k) · W (k, j) on both sides: point t computes rows 5000·t … 5000·t + 4999 from
  the row block it was given and the whole weight matrix (the cast of the row block to its own shape and the narrowing of
  the operands to the short float format are the identity on extended reals, and the accumulator starts at zero), and the
  twenty row blocks tile the rows.
-/
import proofs.«405960_j60713657696826_2_alg».proof.Proof.KI.Reg4
import proofs.«405960_j60713657696826_2_alg».proof.Proof.Val.Spec
import proofs.«405960_j60713657696826_2_alg».proof.Proof.Gen.ReferenceIdeal.Read
import Idealize.ShloMosaic.Lib.Pipeline.Value
import Idealize.ShloMosaic.Lib.ValueIdx
import Idealize.ShloMosaic.PureOps.Ideal.Laws

set_option maxRecDepth 16384

noncomputable section

namespace Cert.KernelIdeal.Val

open Cert.KernelIdeal Cert.KernelIdeal.Gen Cert.KernelIdeal.Fr
open Idealize.ShloMosaic Idealize.ShloMosaic.TcCoe Idealize.SL.Sem
open Idealize.ShloMosaic.Pipeline (Dat)
open Idealize.ShloMosaic.ValueIdx (ix2 eq_ix2)

/-! ## The block product read at an index -/

/-- The block contraction's left operand index at output index `i` and contraction index `q`: row of `i`. -/
theorem kl4_row (i : S5000x2.Idx) (q : dot_S5000x128_S128x2_S5000x2_1_0_0_1_n_n.contr.Idx) :
    (dot_S5000x128_S128x2_S5000x2_1_0_0_1_n_n.lhsIdx i q 0).val = (i 0).val := by
  unfold DotDims.lhsIdx
  rw [dif_neg (show ¬(0 : Fin S5000x128.rank) ∈ dot_S5000x128_S128x2_S5000x2_1_0_0_1_n_n.lhsBatch by decide),
    dif_pos (show (0 : Fin S5000x128.rank) ∈ dot_S5000x128_S128x2_S5000x2_1_0_0_1_n_n.lhsNonContracting by decide)]
  rfl
/-- … and its column is the contraction index. -/
theorem kl4_col (i : S5000x2.Idx) (q : dot_S5000x128_S128x2_S5000x2_1_0_0_1_n_n.contr.Idx) :
    (dot_S5000x128_S128x2_S5000x2_1_0_0_1_n_n.lhsIdx i q 1).val = (q ⟨0, by decide⟩).val :=
  dot_S5000x128_S128x2_S5000x2_1_0_0_1_n_n.lhsIdx_val_of_single rfl i q
/-- The right operand's row is the contraction index … -/
theorem kr4_row (i : S5000x2.Idx) (q : dot_S5000x128_S128x2_S5000x2_1_0_0_1_n_n.contr.Idx) :
    (dot_S5000x128_S128x2_S5000x2_1_0_0_1_n_n.rhsIdx i q 0).val = (q ⟨0, by decide⟩).val :=
  dot_S5000x128_S128x2_S5000x2_1_0_0_1_n_n.rhsIdx_val_of_single rfl i q
/-- … and its column is the column of `i`. -/
theorem kr4_col (i : S5000x2.Idx) (q : dot_S5000x128_S128x2_S5000x2_1_0_0_1_n_n.contr.Idx) :
    (dot_S5000x128_S128x2_S5000x2_1_0_0_1_n_n.rhsIdx i q 1).val = (i 1).val := by
  unfold DotDims.rhsIdx
  rw [dif_neg (show ¬(1 : Fin S128x2.rank) ∈ dot_S5000x128_S128x2_S5000x2_1_0_0_1_n_n.rhsBatch by decide),
    dif_pos (show (1 : Fin S128x2.rank) ∈ dot_S5000x128_S128x2_S5000x2_1_0_0_1_n_n.rhsNonContracting by decide)]
  rfl

/-- The body's payload at row `p`, column `q`: the sum over `k` of the row block at `(p, k)` times the weights at
    `(k, q)`. The cast of the row block to its own shape and the narrowing to the short float format are the identity on
    extended reals, and the accumulator is zero. -/
theorem pay4_apply (x : Vec Ideal S5000x128 .f32) (w : Vec Ideal S128x2 .f32) (p : Fin 5000) (q : Fin 2) :
    k4_pay1 x w (ix2 p q) = ∑ k : Fin 128, x (ix2 p k) * w (ix2 k q) := by
  unfold k4_pay1
  refine (Ideal.matmul_constant_zero_apply dot_S5000x128_S128x2_S5000x2_1_0_0_1_n_n none _ _ (ix2 p q)).trans ?_
  rw [← Equiv.sum_comp (ValueIdx.contrEquiv1 dot_S5000x128_S128x2_S5000x2_1_0_0_1_n_n 128 rfl rfl).symm]
  refine Finset.sum_congr rfl fun k _ => ?_
  have hk := ValueIdx.contrEquiv1_symm_val dot_S5000x128_S128x2_S5000x2_1_0_0_1_n_n 128 rfl rfl k
  have el : dot_S5000x128_S128x2_S5000x2_1_0_0_1_n_n.lhsIdx (ix2 p q) ((ValueIdx.contrEquiv1 dot_S5000x128_S128x2_S5000x2_1_0_0_1_n_n 128 rfl rfl).symm k) = ix2 p k := funext fun a => Fin.ext (by
    match a with
    | ⟨0, _⟩ => exact kl4_row _ _
    | ⟨1, _⟩ => exact (kl4_col _ _).trans hk)
  have er : dot_S5000x128_S128x2_S5000x2_1_0_0_1_n_n.rhsIdx (ix2 p q) ((ValueIdx.contrEquiv1 dot_S5000x128_S128x2_S5000x2_1_0_0_1_n_n 128 rfl rfl).symm k) = ix2 k q := funext fun a => Fin.ext (by
    match a with
    | ⟨0, _⟩ => exact (kr4_row _ _).trans hk
    | ⟨1, _⟩ => exact kr4_col _ _)
  show (shapeCast S5000x128 x shapeCasts_S5000x128_S5000x128) _ * w _ = _
  rw [el, er, shapeCast_self]

/-! ## The whole product read at an index -/

/-- H·W at row `i 0`, column `i 1`: the sum over `k` of H at `(i 0, k)` times W at `(k, i 1)`. -/
theorem mm2_apply (X : FVec Ideal Cert.ReferenceIdeal.S100000x128 .f32) (W : FVec Ideal Cert.ReferenceIdeal.S128x2 .f32)
    (i : Cert.ReferenceIdeal.S100000x2.Idx) :
    Cert.Spec.mm2 X W i = ∑ k : Fin 128, X (Cert.ReferenceIdeal.Read.lidx_main_v94 i k) * W (Cert.ReferenceIdeal.Read.ridx_main_v94 i k) := by
  unfold Cert.Spec.mm2
  simp only [Host.dotGeneral]
  rw [Ideal.dotGeneral_apply, ← Equiv.sum_comp (ValueIdx.contrEquiv1 Cert.ReferenceIdeal.dot_S100000x128_S128x2_S100000x2_1_0_0_1_n_n 128 rfl rfl).symm]
  refine Finset.sum_congr rfl fun k _ => ?_
  have hk := ValueIdx.contrEquiv1_symm_val Cert.ReferenceIdeal.dot_S100000x128_S128x2_S100000x2_1_0_0_1_n_n 128 rfl rfl k
  have el : Cert.ReferenceIdeal.dot_S100000x128_S128x2_S100000x2_1_0_0_1_n_n.lhsIdx i ((ValueIdx.contrEquiv1 Cert.ReferenceIdeal.dot_S100000x128_S128x2_S100000x2_1_0_0_1_n_n 128 rfl rfl).symm k) = Cert.ReferenceIdeal.Read.lidx_main_v94 i k := funext fun a => Fin.ext (by
    match a with
    | ⟨0, _⟩ => exact Cert.ReferenceIdeal.Read.lhs_main_v94_0 _ _
    | ⟨1, _⟩ => exact (Cert.ReferenceIdeal.Read.lhs_main_v94_1 _ _).trans hk)
  have er : Cert.ReferenceIdeal.dot_S100000x128_S128x2_S100000x2_1_0_0_1_n_n.rhsIdx i ((ValueIdx.contrEquiv1 Cert.ReferenceIdeal.dot_S100000x128_S128x2_S100000x2_1_0_0_1_n_n 128 rfl rfl).symm k) = Cert.ReferenceIdeal.Read.ridx_main_v94 i k := funext fun a => Fin.ext (by
    match a with
    | ⟨0, _⟩ => exact (Cert.ReferenceIdeal.Read.rhs_main_v94_0 _ _).trans hk
    | ⟨1, _⟩ => exact Cert.ReferenceIdeal.Read.rhs_main_v94_1 _ _)
  rw [el, er]

/-! ## From blocks to the array -/

/-- A product of two array reads moves along equal indices. -/
theorem mul_congr_idx4 (X : Vec Ideal S100000x128 .f32) (W : Vec Ideal S128x2 .f32) {a a' : S100000x128.Idx} {b b' : S128x2.Idx}
    (ha : a = a') (hb : b = b') : X a * W b = X a' * W b' := by rw [ha, hb]

variable (V : (c : Dev nD) → (b : Ref sig .tc) → Buf (Elt Ideal) ((c : Thread nD τ).loc b))

theorem zeros2_4 : (![0, 0] : Fin 2 → Nat) = fun _ => 0 := funext fun a => by fin_cases a <;> rfl

/-- The index maps over the grid: the row block and the output move together along the rows, one block per point; the
    weights' block and every column block index stay at zero. -/
theorem idx_facts4 : ∀ t : Fin cfg4.N, win4_0.index t (0 : Fin 2) = t.val
    ∧ win4_0.index t (1 : Fin 2) = 0
    ∧ win4_1.index t (0 : Fin 2) = 0
    ∧ win4_1.index t (1 : Fin 2) = 0
    ∧ win4_2.index t (0 : Fin 2) = t.val
    ∧ win4_2.index t (1 : Fin 2) = 0 :=
  (by decide +kernel : ∀ t : Fin grid4.N, _)

/-- What point `t` writes back is block `t` of H·W. -/
theorem flushed4_eq (c : Dev nD) (t : Fin cfg4.N) :
    (dat4 (F := Ideal) V c).flushed 2 t
      = ((cfg4.win 2).blk t).view.read (Elt Ideal) (Cert.Spec.mm2 (V c main_v59) (V c main_arg7)) := by
  show (cfg4.win 2).cut (grid4.coords t) ((dat4 (F := Ideal) V c).after 2 t) = _
  rw [after4_2]
  unfold out4_2
  rw [View.canon_unit_zero zeros2_4]
  simp only [View.ld_unit_zero (S := S5000x128) zeros2_4, View.ld_unit_zero (S := S128x2) zeros2_4]
  obtain ⟨e0, e1, e2, e3, e4, e5⟩ := idx_facts4 t
  funext j
  obtain ⟨p, q, rfl⟩ : ∃ (p : Fin 5000) (q : Fin 2), j = ix2 p q := ⟨j 0, j 1, eq_ix2 j⟩
  show k4_pay1 (iblk4 V c 0 t) (iblk4 V c 1 t) (ix2 p q)
    = Cert.Spec.mm2 (V c main_v59) (V c main_arg7) (((cfg4.win 2).blk t).view.emb (ix2 p q))
  refine (pay4_apply _ _ p q).trans ?_
  refine Eq.trans ?_ (mm2_apply _ _ _).symm
  refine Finset.sum_congr rfl fun k _ => ?_
  have hp : p.val < 5000 := p.isLt
  have hq : q.val < 2 := q.isLt
  have hk : k.val < 128 := k.isLt
  have h0 : ((cfg4.win 0).blk t).view.emb (ix2 p k)
      = Cert.ReferenceIdeal.Read.lidx_main_v94 (((cfg4.win 2).blk t).view.emb (ix2 p q)) k := by
    funext a; apply Fin.ext
    match a with
    | ⟨0, _⟩ => show win4_0.index t (0 : Fin 2) * 5000 + 1 * p.val = win4_2.index t (0 : Fin 2) * 5000 + 1 * p.val; omega
    | ⟨1, _⟩ => show win4_0.index t (1 : Fin 2) * 128 + 1 * k.val = k.val; omega
  have h1 : ((cfg4.win 1).blk t).view.emb (ix2 k q)
      = Cert.ReferenceIdeal.Read.ridx_main_v94 (((cfg4.win 2).blk t).view.emb (ix2 p q)) k := by
    funext a; apply Fin.ext
    match a with
    | ⟨0, _⟩ => show win4_1.index t (0 : Fin 2) * 128 + 1 * k.val = k.val; omega
    | ⟨1, _⟩ => show win4_1.index t (1 : Fin 2) * 2 + 1 * q.val = win4_2.index t (1 : Fin 2) * 2 + 1 * q.val; omega
  exact mul_congr_idx4 (V c main_v59) (V c main_arg7) h0 h1

/-- An index of the array is in point `t`'s block iff each coordinate is in the block's range on its axis. -/
theorem mem_blk4 (t : Fin cfg4.N) (i : S100000x2.Idx) :
    i ∈ ((cfg4.win 2).blk t).view.set ↔ ∀ a : Fin 2, win4_2.index t a * S5000x2.size a ≤ (i a).val ∧ (i a).val < win4_2.index t a * S5000x2.size a + S5000x2.size a := by
  show i ∈ ((View.whole main_v60).slice (win4_2.rect t)).set ↔ _
  rw [View.set_slice_whole, Rect.mem_set_unit]
  exact Iff.rfl

/-- Row `r` of the array lies in the block of point `r / 5000`: the twenty row blocks tile the rows, and each spans both columns. -/
theorem cover4 (i : S100000x2.Idx) : ∃ t : Fin cfg4.N, (cfg4.win 2).flush t = true ∧ i ∈ ((cfg4.win 2).blk t).view.set := by
  have hi0 : (i 0).val < 100000 := (i 0).isLt
  have hi1 : (i 1).val < 2 := (i 1).isLt
  have hN : cfg4.N = 20 := N_4
  let t : Fin cfg4.N := ⟨(i 0).val / 5000, by omega⟩
  obtain ⟨e0, e1, e2, e3, e4, e5⟩ := idx_facts4 t
  have ht : t.val = (i 0).val / 5000 := rfl
  refine ⟨t, flush4_2 t, ?_⟩
  rw [mem_blk4]
  intro a
  match a with
  | ⟨0, _⟩ => show win4_2.index t (0 : Fin 2) * 5000 ≤ (i 0).val ∧ (i 0).val < win4_2.index t (0 : Fin 2) * 5000 + 5000; omega
  | ⟨1, _⟩ => show win4_2.index t (1 : Fin 2) * 2 ≤ (i 1).val ∧ (i 1).val < win4_2.index t (1 : Fin 2) * 2 + 2; omega

/-- The output array after all twenty points is H·W. -/
theorem final4 (c : Dev nD) :
    (dat4 (F := Ideal) V c).arrAt 2 cfg4.N = Cert.Spec.mm2 (V c main_v59) (V c main_arg7) :=
  (dat4 (F := Ideal) V c).arrAt_eq_of_cover 2 (Cert.Spec.mm2 (V c main_v59) (V c main_arg7))
    (fun t _ => flushed4_eq V c t) cover4

end Cert.KernelIdeal.Val

end
-- ==== Proof.Val.Comb5.lean ====
/-
  The value of region 5, the last layer's elementwise combine, at the ideal instance: after the region's run the output
  array holds, at every node i and class j, agg (i, j) + h (i, j) * d (i, 0) + b (0, j), which is the host's combine read
  at (i, j); this layer takes no positive part. Both sides are the same expression of the same elements, with the same
  grouping of the two additions.
-/
import proofs.«405960_j60713657696826_2_alg».proof.Proof.KI.Reg5
import proofs.«405960_j60713657696826_2_alg».proof.Proof.Val.Spec
import proofs.«405960_j60713657696826_2_alg».proof.Proof.Gen.KernelIdeal.Skeleton
import Idealize.ShloMosaic.Lib.Pipeline.Value
import Idealize.ShloMosaic.Lib.ValueIdx
import Idealize.ShloMosaic.PureOps.Ideal

noncomputable section

namespace Cert.KernelIdeal.Val

open Cert.KernelIdeal Cert.KernelIdeal.Gen Cert.KernelIdeal.Fr
open Idealize.ShloMosaic Idealize.ShloMosaic.TcCoe Idealize.ShloMosaic.ValueIdx Idealize.SL.Sem
open Idealize.ShloMosaic.Pipeline (Dat)

/-! ## The body's arithmetic at one element of the block -/

/-- Element (p, q) of the body's result: the block of aggregated neighbours plus the block of features times the row's
    factor (the 5000 × 1 column read at row p) plus the bias (the 1 × 2 row read at column q). -/
theorem pay5_apply (x0 x1 : Vec Ideal S5000x2 .f32) (x2 : Vec Ideal S5000x1 .f32) (x3 : Vec Ideal S1x2 .f32)
    (p : Fin 5000) (q : Fin 2) :
    k5_pay1 x0 x1 x2 x3 (ix2 p q) = x0 (ix2 p q) + x1 (ix2 p q) * x2 (ix2 p 0) + x3 (ix2 0 q) := by
  unfold k5_pay1
  simp only [shapeCast_self]
  rw [addf_apply, addf_apply, mulf_apply]
  rw [broadcastTo_apply x2 broadcasts_S5000x1_S5000x2 (ix2 p q) (ix2 p 0) (fun a => by
        match a with
        | ⟨0, _⟩ => show p.val = if (5000 : Nat) = 1 then 0 else p.val; rw [if_neg (by decide)]
        | ⟨1, _⟩ => show 0 = if (1 : Nat) = 1 then 0 else q.val; rw [if_pos rfl]),
      broadcastTo_apply x3 broadcasts_S1x2_S5000x2 (ix2 p q) (ix2 0 q) (fun a => by
        match a with
        | ⟨0, _⟩ => show 0 = if (1 : Nat) = 1 then 0 else p.val; rw [if_pos rfl]
        | ⟨1, _⟩ => show q.val = if (2 : Nat) = 1 then 0 else q.val; rw [if_neg (by decide)])]

/-- The same at any index of the block, its row and column named by the index's coordinates. -/
theorem pay5_at (x0 x1 : Vec Ideal S5000x2 .f32) (x2 : Vec Ideal S5000x1 .f32) (x3 : Vec Ideal S1x2 .f32)
    (j : S5000x2.Idx) :
    k5_pay1 x0 x1 x2 x3 j = x0 j + x1 j * x2 (ix2 (j 0) 0) + x3 (ix2 0 (j 1)) := by
  obtain ⟨p, q, rfl⟩ : ∃ (p : Fin 5000) (q : Fin 2), j = ix2 p q := ⟨j 0, j 1, eq_ix2 j⟩
  exact pay5_apply x0 x1 x2 x3 p q

/-! ## The host's combine at one element of the array -/

/-- Element (p, q) of the host's result: the same expression of the whole arrays' elements. -/
theorem ref2_apply (a h : FVec Ideal Cert.ReferenceIdeal.S100000x2 .f32) (d : FVec Ideal Cert.ReferenceIdeal.S100000x1 .f32)
    (b : FVec Ideal Cert.ReferenceIdeal.S1x2 .f32) (p : Fin 100000) (q : Fin 2) :
    Cert.Spec.comb2 a h d b (ix2 p q) = a (ix2 p q) + h (ix2 p q) * d (ix2 p 0) + b (ix2 0 q) := by
  unfold Cert.Spec.comb2
  rw [addf_apply, addf_apply, mulf_apply]
  rw [broadcastInDim_apply _ Cert.ReferenceIdeal.Facts₀.bcast_S100000x1_S100000x2_0_1 d (ix2 p q) (ix2 p 0) (fun a => by
        match a with
        | ⟨0, _⟩ => show p.val = if (100000 : Nat) = 1 then 0 else p.val; rw [if_neg (by decide)]
        | ⟨1, _⟩ => show 0 = if (1 : Nat) = 1 then 0 else q.val; rw [if_pos rfl]),
      broadcastInDim_apply _ Cert.ReferenceIdeal.Facts₀.bcast_S1x2_S100000x2_0_1 b (ix2 p q) (ix2 0 q) (fun a => by
        match a with
        | ⟨0, _⟩ => show 0 = if (1 : Nat) = 1 then 0 else p.val; rw [if_pos rfl]
        | ⟨1, _⟩ => show q.val = if (2 : Nat) = 1 then 0 else q.val; rw [if_neg (by decide)])]

/-- The same at any index of the array. -/
theorem ref2_at (a h : FVec Ideal Cert.ReferenceIdeal.S100000x2 .f32) (d : FVec Ideal Cert.ReferenceIdeal.S100000x1 .f32)
    (b : FVec Ideal Cert.ReferenceIdeal.S1x2 .f32) (i : Cert.ReferenceIdeal.S100000x2.Idx) :
    Cert.Spec.comb2 a h d b i = a i + h i * d (ix2 (i 0) 0) + b (ix2 0 (i 1)) := by
  obtain ⟨p, q, rfl⟩ : ∃ (p : Fin 100000) (q : Fin 2), i = ix2 p q := ⟨i 0, i 1, eq_ix2 i⟩
  exact ref2_apply a h d b p q

/-! ## From the blocks to the array -/

variable (V : (c : Dev nD) → (b : Ref sig .tc) → Buf (Elt Ideal) ((c : Thread nD τ).loc b))

theorem zero_offsets5 : (![0, 0] : Fin 2 → Nat) = fun _ => 0 := funext fun a => by fin_cases a <;> rfl

/-- The output array as one function of the four input arrays. -/
abbrev whole5 (c : Dev nD) : FVec Ideal Cert.ReferenceIdeal.S100000x2 .f32 :=
  Cert.Spec.comb2 (V c main_v73) (V c main_v60) (V c main_v27) (V c main_v74)

/-- The index maps over the 20 grid points: the output's row block is the point's number, the two 5000 × 2 inputs and the
    5000 × 1 factor move with it, the bias's block is always (0, 0), and no window moves along the columns. -/
theorem index_facts5 : ∀ t : Fin cfg5.N, win5_4.index t (0 : Fin 2) = t.val ∧ win5_4.index t (1 : Fin 2) = 0
    ∧ win5_0.index t (0 : Fin 2) = win5_4.index t (0 : Fin 2) ∧ win5_0.index t (1 : Fin 2) = win5_4.index t (1 : Fin 2)
    ∧ win5_1.index t (0 : Fin 2) = win5_4.index t (0 : Fin 2) ∧ win5_1.index t (1 : Fin 2) = win5_4.index t (1 : Fin 2)
    ∧ win5_2.index t (0 : Fin 2) = win5_4.index t (0 : Fin 2) ∧ win5_2.index t (1 : Fin 2) = 0
    ∧ win5_3.index t (0 : Fin 2) = 0 ∧ win5_3.index t (1 : Fin 2) = 0 :=
  (by decide +kernel : ∀ t : Fin grid5.N, _)

/-- What point t writes back is block t of the whole-array function. -/
theorem flushed5_eq (c : Dev nD) (t : Fin cfg5.N) :
    (dat5 (F := Ideal) V c).flushed 4 t = ((cfg5.win 4).blk t).view.read (Elt Ideal) (whole5 V c) := by
  show (cfg5.win 4).cut (grid5.coords t) ((dat5 (F := Ideal) V c).after 4 t) = _
  rw [after5_4]
  unfold out5_4
  rw [View.canon_unit_zero zero_offsets5]
  simp only [View.ld_unit_zero (S := S5000x2) zero_offsets5, View.ld_unit_zero (S := S5000x1) zero_offsets5,
    View.ld_unit_zero (S := S1x2) zero_offsets5]
  obtain ⟨e40, e41, e00, e01, e10, e11, e20, e21, e30, e31⟩ := index_facts5 t
  funext j
  refine (pay5_at _ _ _ _ j).trans ?_
  rw [View.read_apply]
  refine Eq.trans ?_ (ref2_at _ _ _ _ (((cfg5.win 4).blk t).view.emb j)).symm
  have h0 : iblk5 V c 0 t j = V c main_v73 (((cfg5.win 4).blk t).view.emb j) := by
    show V c main_v73 (((cfg5.win 0).blk t).view.emb j) = _
    refine congrArg (V c main_v73) (funext fun a => Fin.ext ?_)
    match a with
    | ⟨0, _⟩ => show win5_0.index t (0 : Fin 2) * 5000 + 1 * (j 0).val = win5_4.index t (0 : Fin 2) * 5000 + 1 * (j 0).val; rw [e00]
    | ⟨1, _⟩ => show win5_0.index t (1 : Fin 2) * 2 + 1 * (j 1).val = win5_4.index t (1 : Fin 2) * 2 + 1 * (j 1).val; rw [e01]
  have h1 : iblk5 V c 1 t j = V c main_v60 (((cfg5.win 4).blk t).view.emb j) := by
    show V c main_v60 (((cfg5.win 1).blk t).view.emb j) = _
    refine congrArg (V c main_v60) (funext fun a => Fin.ext ?_)
    match a with
    | ⟨0, _⟩ => show win5_1.index t (0 : Fin 2) * 5000 + 1 * (j 0).val = win5_4.index t (0 : Fin 2) * 5000 + 1 * (j 0).val; rw [e10]
    | ⟨1, _⟩ => show win5_1.index t (1 : Fin 2) * 2 + 1 * (j 1).val = win5_4.index t (1 : Fin 2) * 2 + 1 * (j 1).val; rw [e11]
  have h2 : iblk5 V c 2 t (ix2 (j 0) 0) = V c main_v27 (ix2 (((cfg5.win 4).blk t).view.emb j 0) 0) := by
    show V c main_v27 (((cfg5.win 2).blk t).view.emb (ix2 (j 0) 0)) = _
    refine congrArg (V c main_v27) (funext fun a => Fin.ext ?_)
    match a with
    | ⟨0, _⟩ => show win5_2.index t (0 : Fin 2) * 5000 + 1 * (j 0).val = win5_4.index t (0 : Fin 2) * 5000 + 1 * (j 0).val; rw [e20]
    | ⟨1, _⟩ => show win5_2.index t (1 : Fin 2) * 1 + 1 * 0 = 0; rw [e21]
  have h3 : iblk5 V c 3 t (ix2 0 (j 1)) = V c main_v74 (ix2 0 (((cfg5.win 4).blk t).view.emb j 1)) := by
    show V c main_v74 (((cfg5.win 3).blk t).view.emb (ix2 0 (j 1))) = _
    refine congrArg (V c main_v74) (funext fun a => Fin.ext ?_)
    match a with
    | ⟨0, _⟩ => show win5_3.index t (0 : Fin 2) * 1 + 1 * 0 = 0; rw [e30]
    | ⟨1, _⟩ => show win5_3.index t (1 : Fin 2) * 2 + 1 * (j 1).val = win5_4.index t (1 : Fin 2) * 2 + 1 * (j 1).val; rw [e31, e41]
  rw [h0, h1, h2, h3]

/-- An index of the output array is in point t's block when each coordinate is in the block's range on its axis. -/
theorem mem_blk5 (t : Fin cfg5.N) (i : S100000x2.Idx) :
    i ∈ ((cfg5.win 4).blk t).view.set ↔ ∀ a : Fin 2, win5_4.index t a * S5000x2.size a ≤ (i a).val ∧ (i a).val < win5_4.index t a * S5000x2.size a + S5000x2.size a := by
  show i ∈ ((View.whole main_v75).slice (win5_4.rect t)).set ↔ _
  rw [View.set_slice_whole, Rect.mem_set_unit]
  exact Iff.rfl

/-- Every index of the output array is in some point's block: row r is in the block of point r / 5000. -/
theorem cover5 (i : S100000x2.Idx) :
    ∃ t : Fin cfg5.N, (cfg5.win 4).flush t = true ∧ i ∈ ((cfg5.win 4).blk t).view.set := by
  have hi0 : (i 0).val < 100000 := (i 0).isLt
  have hi1 : (i 1).val < 2 := (i 1).isLt
  have hN : cfg5.N = 20 := N_5
  refine ⟨⟨(i 0).val / 5000, by rw [hN]; omega⟩, flush5_4 _, ?_⟩
  obtain ⟨e40, e41, -⟩ := index_facts5 ⟨(i 0).val / 5000, by rw [hN]; omega⟩
  rw [mem_blk5]
  intro a
  match a with
  | ⟨0, _⟩ =>
    show win5_4.index _ (0 : Fin 2) * 5000 ≤ (i 0).val ∧ (i 0).val < win5_4.index _ (0 : Fin 2) * 5000 + 5000
    rw [e40]; show (i 0).val / 5000 * 5000 ≤ (i 0).val ∧ (i 0).val < (i 0).val / 5000 * 5000 + 5000; omega
  | ⟨1, _⟩ =>
    show win5_4.index _ (1 : Fin 2) * 2 ≤ (i 1).val ∧ (i 1).val < win5_4.index _ (1 : Fin 2) * 2 + 2
    rw [e41]; omega

/-- After the region's run the output array is the host's combine of the four input arrays. -/
theorem final5 (c : Dev nD) : (dat5 (F := Ideal) V c).arrAt 4 cfg5.N
    = Cert.Spec.comb2 (V c main_v73) (V c main_v60) (V c main_v27) (V c main_v74) :=
  (dat5 (F := Ideal) V c).arrAt_eq_of_cover 4 (whole5 V c) (fun t _ => flushed5_eq V c t) cover5

end Cert.KernelIdeal.Val

end
-- ==== Proof.Val.Layer3.lean ====
/-
  Layer 3 of the program against the reference. The edge sources and targets, the per-edge norm and the squared inverse
  root degree are computed once by the program, before its first region, and read again here; the reference recomputes
  them for each layer by the same operations on the same edge list. The layer: the feature transform h = X·W (a matmul
  region), the aggregation of the gathered, norm-weighted rows of h onto the edge targets (host operations), the bias
  as a row (a reshape in the program, a broadcast in the reference), and the combine agg + h·d + b (a combine region).
  At the ideal instance.
-/
import proofs.«405960_j60713657696826_2_alg».proof.Proof.KI.Keep
import proofs.«405960_j60713657696826_2_alg».proof.Proof.Val.Mm4
import proofs.«405960_j60713657696826_2_alg».proof.Proof.Val.Comb5
import proofs.«405960_j60713657696826_2_alg».proof.Proof.Val.Spec
import proofs.«405960_j60713657696826_2_alg».proof.Proof.Gen.ReferenceIdeal.Read
import proofs.«405960_j60713657696826_2_alg».proof.Proof.Gen.KernelIdeal.Regions
import Idealize.ShloMosaic.Lib.StableHlo.Run
import Idealize.ShloMosaic.Lib.Pipeline.Value
import Idealize.ShloMosaic.PureOps.Ideal

set_option maxRecDepth 16384

noncomputable section

namespace Cert.KernelIdeal.Val

open Cert.KernelIdeal Cert.KernelIdeal.Gen Cert.KernelIdeal.Fr
open Idealize.ShloMosaic Idealize.ShloMosaic.TcCoe Idealize.SL.Sem Idealize.ShloMosaic.StableHlo

variable (m : (ℓ : Loc nD τ sig) → Buf (Elt Ideal) ℓ) (c : Dev nD)

set_option quotPrecheck false in
local notation "x0" => m ((c.tc : Thread nD τ).loc main_arg0)
set_option quotPrecheck false in
local notation "x1" => m ((c.tc : Thread nD τ).loc main_arg1)
set_option quotPrecheck false in
local notation "x2" => m ((c.tc : Thread nD τ).loc main_arg2)
set_option quotPrecheck false in
local notation "x3" => m ((c.tc : Thread nD τ).loc main_arg3)
set_option quotPrecheck false in
local notation "x4" => m ((c.tc : Thread nD τ).loc main_arg4)
set_option quotPrecheck false in
local notation "x5" => m ((c.tc : Thread nD τ).loc main_arg5)
set_option quotPrecheck false in
local notation "x6" => m ((c.tc : Thread nD τ).loc main_arg6)
set_option quotPrecheck false in
local notation "x7" => m ((c.tc : Thread nD τ).loc main_arg7)
set_option quotPrecheck false in
local notation "x8" => m ((c.tc : Thread nD τ).loc main_arg8)

/-! ## Buffers carried unchanged to where layer 3 reads them -/

theorem L3_v1 : W8 (F := Ideal) m c (Proc.devRef .tc main_v1) = W1 m c (Proc.devRef .tc main_v1) :=
  (W8_of_ne m c main_v1 (by decide)).trans <| (W7_of_ne m c main_v1 (by decide)).trans <|
  (W6_keep m c main_v1 (by decide)).trans <| (W5_of_ne m c main_v1 (by decide)).trans <|
  (W4_of_ne m c main_v1 (by decide)).trans <| (W3_keep m c main_v1 (by decide)).trans <|
  (W2_of_ne m c main_v1 (by decide))
theorem L3_v3 : W8 (F := Ideal) m c (Proc.devRef .tc main_v3) = W1 m c (Proc.devRef .tc main_v3) :=
  (W8_of_ne m c main_v3 (by decide)).trans <| (W7_of_ne m c main_v3 (by decide)).trans <|
  (W6_keep m c main_v3 (by decide)).trans <| (W5_of_ne m c main_v3 (by decide)).trans <|
  (W4_of_ne m c main_v3 (by decide)).trans <| (W3_keep m c main_v3 (by decide)).trans <|
  (W2_of_ne m c main_v3 (by decide))
theorem L3_v25 : W8 (F := Ideal) m c (Proc.devRef .tc main_v25) = W1 m c (Proc.devRef .tc main_v25) :=
  (W8_of_ne m c main_v25 (by decide)).trans <| (W7_of_ne m c main_v25 (by decide)).trans <|
  (W6_keep m c main_v25 (by decide)).trans <| (W5_of_ne m c main_v25 (by decide)).trans <|
  (W4_of_ne m c main_v25 (by decide)).trans <| (W3_keep m c main_v25 (by decide)).trans <|
  (W2_of_ne m c main_v25 (by decide))
theorem L3_v27 : W9 (F := Ideal) m c (Proc.devRef .tc main_v27) = W1 m c (Proc.devRef .tc main_v27) :=
  (W9_keep m c main_v27 (by decide)).trans <| (W8_of_ne m c main_v27 (by decide)).trans <|
  (W7_in m c 2 rfl).trans <| (W6_keep m c main_v27 (by decide)).trans <|
  (W5_of_ne m c main_v27 (by decide)).trans <| (W4_in m c 2 rfl).trans <|
  (W3_keep m c main_v27 (by decide)).trans <| (W2_of_ne m c main_v27 (by decide))
theorem L3_arg7 : W7 (F := Ideal) m c (Proc.devRef .tc main_arg7) = x7 :=
  (W7_of_ne m c main_arg7 (by decide)).trans <| (W6_keep m c main_arg7 (by decide)).trans <|
  (W5_of_ne m c main_arg7 (by decide)).trans <| (W4_of_ne m c main_arg7 (by decide)).trans <|
  (W3_keep m c main_arg7 (by decide)).trans <| (W2_of_ne m c main_arg7 (by decide)).trans <|
  (W1_keep m c main_arg7 (by decide)).trans <| rfl
theorem L3_arg8 : W8 (F := Ideal) m c (Proc.devRef .tc main_arg8) = x8 :=
  (W8_of_ne m c main_arg8 (by decide)).trans <| (W7_of_ne m c main_arg8 (by decide)).trans <|
  (W6_keep m c main_arg8 (by decide)).trans <| (W5_of_ne m c main_arg8 (by decide)).trans <|
  (W4_of_ne m c main_arg8 (by decide)).trans <| (W3_keep m c main_arg8 (by decide)).trans <|
  (W2_of_ne m c main_arg8 (by decide)).trans <| (W1_keep m c main_arg8 (by decide)).trans <| rfl

/-! ## The feature transform of layer 3 -/

theorem L3_v60 (h2 : W7 (F := Ideal) m c (Proc.devRef .tc main_v59) = Cert.ReferenceIdeal.Read.val_main_v93 x0 x1 x3 x4 x5 x6) :
    W8 (F := Ideal) m c (Proc.devRef .tc main_v60) = Cert.ReferenceIdeal.Read.val_main_v94 x0 x1 x3 x4 x5 x6 x7 := by
  refine (W8_arr m c 2).trans ?_
  rw [final4 (E7 m) c]
  show Cert.Spec.mm2 (W7 m c (Proc.devRef .tc main_v59)) (W7 m c (Proc.devRef .tc main_arg7)) = _
  rw [h2, L3_arg7 m c]
  rfl

/-! ## The aggregation of layer 3 -/

/-- The reference recomputes the per-edge norm for each layer from the same edge list by the same operations. -/
theorem L3_norm (y1 : (⟨Cert.ReferenceIdeal.S2x1600000, .i32⟩ : BufTy).Contents (Elt Ideal)) :
    Cert.ReferenceIdeal.Read.val_main_v116 y1 = Cert.ReferenceIdeal.Read.val_main_v26 y1 := rfl
/-- Likewise the squared inverse root degree, as a column. -/
theorem L3_d2 (y1 : (⟨Cert.ReferenceIdeal.S2x1600000, .i32⟩ : BufTy).Contents (Elt Ideal)) :
    Cert.ReferenceIdeal.Read.val_main_v131 y1 = Cert.ReferenceIdeal.Read.val_main_v41 y1 := rfl

set_option maxHeartbeats 2000000 in
theorem L3_v73 (hsrc : W1 (F := Ideal) m c (Proc.devRef .tc main_v1) = Cert.ReferenceIdeal.Read.val_main_v1 x1)
    (hdst : W1 (F := Ideal) m c (Proc.devRef .tc main_v3) = Cert.ReferenceIdeal.Read.val_main_v3 x1)
    (hnorm : W1 (F := Ideal) m c (Proc.devRef .tc main_v25) = Cert.ReferenceIdeal.Read.val_main_v26 x1)
    (h60 : W8 (F := Ideal) m c (Proc.devRef .tc main_v60) = Cert.ReferenceIdeal.Read.val_main_v94 x0 x1 x3 x4 x5 x6 x7) :
    W9 (F := Ideal) m c (Proc.devRef .tc main_v73) = Cert.ReferenceIdeal.Read.val_main_v129 x0 x1 x3 x4 x5 x6 x7 := by
  show StableHlo.after hostOps5 (W8 m c) (Proc.devRef .tc main_v73) = _
  after_results_simp
  rw [L3_v1 m c, L3_v3 m c, L3_v25 m c, hsrc, hdst, hnorm, h60, ← L3_norm]
  rfl

set_option maxHeartbeats 2000000 in
theorem L3_v74 : W9 (F := Ideal) m c (Proc.devRef .tc main_v74) = Cert.ReferenceIdeal.Read.val_main_v135 x8 := by
  show StableHlo.after hostOps5 (W8 m c) (Proc.devRef .tc main_v74) = _
  after_results_simp
  rw [L3_arg8 m c]
  refine funext fun (i : S1x2.Idx) => ?_
  rw [Cert.ReferenceIdeal.Read.val_main_v135_apply]
  exact shapeCast_apply _ shapeCasts_S2_S1x2 i (Cert.ReferenceIdeal.Read.idx_main_v135 i)
    (by rewrite [Shape.rowMajor_val_one, Shape.rowMajor_val_two]; have h0 : (i 0).val < 1 := (i 0).isLt
        show (i 1).val = (i 0).val * 2 + (i 1).val; omega)

/-! ## Layer 3 -/

/-- The third layer's output is the reference's: the transform by the matmul region, the aggregation by the host
    operations between, and the combine by the combine region, each on operands that are the reference's stages. -/
theorem layer3 (hsrc : W1 (F := Ideal) m c (Proc.devRef .tc main_v1) = Cert.ReferenceIdeal.Read.val_main_v1 x1)
    (hdst : W1 (F := Ideal) m c (Proc.devRef .tc main_v3) = Cert.ReferenceIdeal.Read.val_main_v3 x1)
    (hnorm : W1 (F := Ideal) m c (Proc.devRef .tc main_v25) = Cert.ReferenceIdeal.Read.val_main_v26 x1)
    (hd2 : W1 (F := Ideal) m c (Proc.devRef .tc main_v27) = Cert.ReferenceIdeal.Read.val_main_v41 x1)
    (h2 : W7 (F := Ideal) m c (Proc.devRef .tc main_v59) = Cert.ReferenceIdeal.Read.val_main_v93 x0 x1 x3 x4 x5 x6) :
    W10 (F := Ideal) m c (Proc.devRef .tc main_v75) = Cert.ReferenceIdeal.Read.val_main_v137 x0 x1 x3 x4 x5 x6 x7 x8 := by
  have h60 := L3_v60 m c h2
  refine (W10_arr m c 4).trans ?_
  rw [final5 (E9 m) c]
  show Cert.Spec.comb2 (W9 m c (Proc.devRef .tc main_v73)) (W9 m c (Proc.devRef .tc main_v60)) (W9 m c (Proc.devRef .tc main_v27))
    (W9 m c (Proc.devRef .tc main_v74)) = _
  rw [L3_v73 m c hsrc hdst hnorm h60, W9_keep m c main_v60 (by decide), h60, L3_v27 m c, hd2, L3_v74 m c, ← L3_d2]
  rfl

end Cert.KernelIdeal.Val

end
-- ==== Proof.Val.PoolEnd.lean ====
/-
  The end of the run: the mean pool. The last host stretch reshapes the graph ids to a 100000 × 1 column, which is the
  reference's broadcast of them along a new trailing axis; the pool region's value is the host's pooling of the third
  layer's output and that column: per-graph sums divided by the per-graph counts raised to at least one. With the third
  layer's output the reference's, the result array is the reference's result.
-/
import proofs.«405960_j60713657696826_2_alg».proof.Proof.KI.Run
import proofs.«405960_j60713657696826_2_alg».proof.Proof.KI.Keep
import proofs.«405960_j60713657696826_2_alg».proof.Proof.Val.Spec
import proofs.«405960_j60713657696826_2_alg».proof.Proof.Gen.ReferenceIdeal.Read
import Idealize.ShloMosaic.Lib.StableHlo.Run
import Idealize.ShloMosaic.Lib.Pipeline.Value
import Idealize.ShloMosaic.Lib.ValueIdx
import Idealize.ShloMosaic.PureOps.Ideal

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx Idealize.SL.Sem
open Cert.ReferenceIdeal.Read

/-! ## The graph ids as a column -/

/-- A reshape of 100000 values to a 100000 × 1 column and the host's broadcast of them along a new trailing axis read the
    same element at every index. -/
theorem col_of_vec100000 {α : Type} (x : S100000.Idx → α) (h : S100000.ShapeCasts S100000x1)
    (h' : S100000.BroadcastsInDim S100000x1 (![0] : Fin 1 → Fin 2)) :
    shapeCast S100000x1 x h = broadcastInDim S100000x1 ![0] h' x := by
  funext i
  rw [shapeCast_apply x h i (ix1 (i 0)) (by
        rewrite [Shape.rowMajor_val_one, Shape.rowMajor_val_two]
        have h1 : (i 1).val < 1 := (i 1).isLt
        show (i 0).val = (i 0).val * 1 + (i 1).val; omega),
    broadcastInDim_apply _ h' x i (ix1 (i 0)) (fun a => by
        match a with
        | ⟨0, _⟩ => show (i 0).val = if (100000 : Nat) = 1 then 0 else (i 0).val; rw [if_neg (by decide)])]

variable (m : (ℓ : Loc nD τ sig) → Buf (Elt Ideal) ℓ) (c : Dev nD)

set_option quotPrecheck false in
local notation "x0" => m ((c.tc : Thread nD τ).loc main_arg0)
set_option quotPrecheck false in
local notation "x1" => m ((c.tc : Thread nD τ).loc main_arg1)
set_option quotPrecheck false in
local notation "x2" => m ((c.tc : Thread nD τ).loc main_arg2)
set_option quotPrecheck false in
local notation "x3" => m ((c.tc : Thread nD τ).loc main_arg3)
set_option quotPrecheck false in
local notation "x4" => m ((c.tc : Thread nD τ).loc main_arg4)
set_option quotPrecheck false in
local notation "x5" => m ((c.tc : Thread nD τ).loc main_arg5)
set_option quotPrecheck false in
local notation "x6" => m ((c.tc : Thread nD τ).loc main_arg6)
set_option quotPrecheck false in
local notation "x7" => m ((c.tc : Thread nD τ).loc main_arg7)
set_option quotPrecheck false in
local notation "x8" => m ((c.tc : Thread nD τ).loc main_arg8)

/-! ## Carried buffers -/

/-- The graph ids are as launched when the last host stretch reads them: no item before it writes them. -/
theorem ids_at10 : W10 (F := Ideal) m c (Proc.devRef .tc main_arg2) = x2 :=
  (W10_of_ne m c main_arg2 (by decide)).trans <| (W9_keep m c main_arg2 (by decide)).trans <|
  (W8_of_ne m c main_arg2 (by decide)).trans <| (W7_of_ne m c main_arg2 (by decide)).trans <|
  (W6_keep m c main_arg2 (by decide)).trans <| (W5_of_ne m c main_arg2 (by decide)).trans <|
  (W4_of_ne m c main_arg2 (by decide)).trans <| (W3_keep m c main_arg2 (by decide)).trans <|
  (W2_of_ne m c main_arg2 (by decide)).trans <| (W1_keep m c main_arg2 (by decide)).trans rfl

/-- The column of graph ids the last host stretch leaves is the reference's broadcast of the launched ids. -/
theorem ids_at11 : W11 (F := Ideal) m c (Proc.devRef .tc main_v76) = val_main_v139 x2 := by
  show StableHlo.after hostOps6 (W10 (F := Ideal) m c) (Proc.devRef .tc main_v76) = _
  after_results
  rw [ids_at10]
  exact col_of_vec100000 x2 _ _

/-! ## The result -/

/-- After the pool region the result array is the reference's result: the region's value is the host's pooling of the
    third layer's output, which is the reference's, and the column of graph ids, which is the reference's broadcast. The
    reference broadcasts the ids twice, once for the sums and once for the counts: the same operation on the same
    operand. -/
theorem pool_end
    (hfin6 : ∀ (V : (c : Dev nD) → (b : Ref sig .tc) → Buf (Elt Ideal) ((c : Thread nD τ).loc b)) (c : Dev nD),
      (dat6 (F := Ideal) V c).arrAt 2 cfg6.N = Cert.Spec.pool (V c main_v75) (V c main_v76))
    (h3 : W10 (F := Ideal) m c (Proc.devRef .tc main_v75) = val_main_v137 x0 x1 x3 x4 x5 x6 x7 x8) :
    W12 (F := Ideal) m c (Proc.devRef .tc main_v77) = val_main_v149 x0 x1 x2 x3 x4 x5 x6 x7 x8 := by
  have a75 : W11 (F := Ideal) m c (Proc.devRef .tc main_v75) = val_main_v137 x0 x1 x3 x4 x5 x6 x7 x8 :=
    (W11_keep m c main_v75 (by decide)).trans h3
  have a76 := ids_at11 m c
  refine (W12_arr m c 2).trans ((hfin6 (E11 m) c).trans ?_)
  show Cert.Spec.pool (W11 (F := Ideal) m c (Proc.devRef .tc main_v75)) (W11 (F := Ideal) m c (Proc.devRef .tc main_v76)) = _
  rw [a75, a76]
  rfl

end Cert.KernelIdeal.Val

end
-- ==== Proof.Val.Pool6a.lean ====
/-
  The mean pool's arithmetic at one point of its grid, read element by element over the extended reals (every operation
  exact). A block of 5000 rows carries a graph id per row (a 32-bit word) and a feature pair per row. The body forms the
  one-hot matrix onehot (r, g) = 1 if row r's id word equals the word of g, else 0 (g = 0 … 63), and contracts it over the
  rows against the features and against a column of ones:
    sums (g, d)  ← sums (g, d)  + ∑ r, onehot (r, g) · h (r, d)
    counts (g)   ← counts (g)   + ∑ r, onehot (r, g) · 1
  both reset to zero before the first block; after the last block the output is sums (g, d) / max (counts g) 1. Here each
  of these values is read at an index, for any block contents.
-/
import proofs.«405960_j60713657696826_2_alg».proof.Proof.Gen.KernelIdeal.Skeleton
import Idealize.ShloMosaic.PureOps.Ideal
import Idealize.ShloMosaic.PureOps.Ideal.Laws
import Idealize.ShloMosaic.Lib.ValueIdx
import Idealize.ShloMosaic.Lib.Pipeline.Value

noncomputable section

namespace Cert.KernelIdeal.Val.Pool6

open Cert.KernelIdeal Cert.KernelIdeal.Gen
open Idealize.ShloMosaic Idealize.ShloMosaic.TcCoe Idealize.ShloMosaic.ValueIdx
open scoped BigOperators

/-- One when the 32-bit word names graph g, else zero. -/
def ind (w : BitVec 32) (g : Fin 64) : EReal := if w = BitVec.ofNat 32 g.val then 1 else 0

/-- The comparison bit widened to a word and read as a signed integer: one on equality, zero otherwise. -/
theorem onehot_word (w v : BitVec 32) :
    FloatOps.sitofp (F := Ideal) .f32 ((IntOp.cmpi .eq w v).setWidth 32) = if w = v then (1 : EReal) else 0 := by
  show (((((IntOp.cmpi .eq w v).setWidth 32).toInt : ℤ) : ℝ) : EReal) = _
  unfold IntOp.cmpi
  by_cases h : w = v
  · subst h
    simp
  · have hb : (w == v) = false := by simpa using h
    simp [hb, h]

/-- The one-hot block at (row r, graph g): the row's id word compared with the column number. -/
theorem pay3_apply (ids : Vec Ideal S5000x1 .i32) (r : Fin 5000) (g : Fin 64) :
    k6_pay3 (F := Ideal) ids (ix2 r g) = ind (ids (ix2 r 0)) g := by
  unfold k6_pay3
  rw [shapeCast_self]
  show FloatOps.sitofp (F := Ideal) .f32 ((IntOp.cmpi .eq (broadcastTo S5000x64 ids broadcasts_S5000x1_S5000x64 (ix2 r g)) (iota .tc S5000x64 32 [1] iota_S5000x64_d1_w32 (ix2 r g))).setWidth 32) = _
  rw [iota_single_apply, broadcastTo_apply ids broadcasts_S5000x1_S5000x64 (ix2 r g) (ix2 r 0) (fun a => by
    match a with
    | ⟨0, _⟩ => rfl
    | ⟨1, _⟩ => rfl)]
  exact onehot_word _ _

/-- The pattern of the float one denotes the extended real one. -/
theorem ofBits_one_f32 : Ideal.ofBits .f32 0x3F800000#32 = 1 := by
  simp [Ideal.ofBits, Ideal.ieee, -EReal.coe_mul]; norm_num

/-! The two contractions run over axis 0 of both operands: at output (g, d) and contraction position q the left operand
is read at (q, g) and the right at (q, d). -/

theorem lhsS_0 (i : S64x2.Idx) (q : dot_S5000x64_S5000x2_S64x2_0_0_1_1_n_n.contr.Idx) :
    (dot_S5000x64_S5000x2_S64x2_0_0_1_1_n_n.lhsIdx i q 0).val = (q ⟨0, by decide⟩).val :=
  dot_S5000x64_S5000x2_S64x2_0_0_1_1_n_n.lhsIdx_val_of_single rfl i q
theorem lhsS_1 (i : S64x2.Idx) (q : dot_S5000x64_S5000x2_S64x2_0_0_1_1_n_n.contr.Idx) :
    (dot_S5000x64_S5000x2_S64x2_0_0_1_1_n_n.lhsIdx i q 1).val = (i 0).val := by
  unfold DotDims.lhsIdx
  rw [dif_neg (show ¬(1 : Fin S5000x64.rank) ∈ dot_S5000x64_S5000x2_S64x2_0_0_1_1_n_n.lhsBatch by decide), dif_pos (show (1 : Fin S5000x64.rank) ∈ dot_S5000x64_S5000x2_S64x2_0_0_1_1_n_n.lhsNonContracting by decide)]
  rfl
theorem rhsS_0 (i : S64x2.Idx) (q : dot_S5000x64_S5000x2_S64x2_0_0_1_1_n_n.contr.Idx) :
    (dot_S5000x64_S5000x2_S64x2_0_0_1_1_n_n.rhsIdx i q 0).val = (q ⟨0, by decide⟩).val :=
  dot_S5000x64_S5000x2_S64x2_0_0_1_1_n_n.rhsIdx_val_of_single rfl i q
theorem rhsS_1 (i : S64x2.Idx) (q : dot_S5000x64_S5000x2_S64x2_0_0_1_1_n_n.contr.Idx) :
    (dot_S5000x64_S5000x2_S64x2_0_0_1_1_n_n.rhsIdx i q 1).val = (i 1).val := by
  unfold DotDims.rhsIdx
  rw [dif_neg (show ¬(1 : Fin S5000x2.rank) ∈ dot_S5000x64_S5000x2_S64x2_0_0_1_1_n_n.rhsBatch by decide), dif_pos (show (1 : Fin S5000x2.rank) ∈ dot_S5000x64_S5000x2_S64x2_0_0_1_1_n_n.rhsNonContracting by decide)]
  rfl

theorem lhsC_0 (i : S64x1.Idx) (q : dot_S5000x64_S5000x1_S64x1_0_0_1_1_n_n.contr.Idx) :
    (dot_S5000x64_S5000x1_S64x1_0_0_1_1_n_n.lhsIdx i q 0).val = (q ⟨0, by decide⟩).val :=
  dot_S5000x64_S5000x1_S64x1_0_0_1_1_n_n.lhsIdx_val_of_single rfl i q
theorem lhsC_1 (i : S64x1.Idx) (q : dot_S5000x64_S5000x1_S64x1_0_0_1_1_n_n.contr.Idx) :
    (dot_S5000x64_S5000x1_S64x1_0_0_1_1_n_n.lhsIdx i q 1).val = (i 0).val := by
  unfold DotDims.lhsIdx
  rw [dif_neg (show ¬(1 : Fin S5000x64.rank) ∈ dot_S5000x64_S5000x1_S64x1_0_0_1_1_n_n.lhsBatch by decide), dif_pos (show (1 : Fin S5000x64.rank) ∈ dot_S5000x64_S5000x1_S64x1_0_0_1_1_n_n.lhsNonContracting by decide)]
  rfl

/-- The sums' update: what was there plus, over the block's rows, the one-hot factor times the feature. -/
theorem pay4_apply (ids : Vec Ideal S5000x1 .i32) (h : Vec Ideal S5000x2 .f32) (s : Vec Ideal S64x2 .f32) (g : Fin 64) (d : Fin 2) :
    k6_pay4 (F := Ideal) ids h s (ix2 g d) = s (ix2 g d) + ∑ r : Fin 5000, ind (ids (ix2 r 0)) g * h (ix2 r d) := by
  unfold k6_pay4
  rw [shapeCast_self, shapeCast_self]
  show s (ix2 g d) + FloatOps.matmul dot_S5000x64_S5000x2_S64x2_0_0_1_1_n_n (some .fp32) (k6_pay3 (F := Ideal) ids) h (constant S64x2 .f32 0x00000000#32) (ix2 g d) = _
  rw [Ideal.matmul_constant_zero_apply, ← Equiv.sum_comp (contrEquiv1 dot_S5000x64_S5000x2_S64x2_0_0_1_1_n_n 5000 rfl rfl).symm]
  refine congrArg (s (ix2 g d) + ·) (Finset.sum_congr rfl fun k _ => ?_)
  have hk := contrEquiv1_symm_val dot_S5000x64_S5000x2_S64x2_0_0_1_1_n_n 5000 rfl rfl k
  have el : dot_S5000x64_S5000x2_S64x2_0_0_1_1_n_n.lhsIdx (ix2 g d) ((contrEquiv1 dot_S5000x64_S5000x2_S64x2_0_0_1_1_n_n 5000 rfl rfl).symm k) = ix2 k g := funext fun a => Fin.ext (by
    match a with
    | ⟨0, _⟩ => exact (lhsS_0 _ _).trans hk
    | ⟨1, _⟩ => exact lhsS_1 _ _)
  have er : dot_S5000x64_S5000x2_S64x2_0_0_1_1_n_n.rhsIdx (ix2 g d) ((contrEquiv1 dot_S5000x64_S5000x2_S64x2_0_0_1_1_n_n 5000 rfl rfl).symm k) = ix2 k d := funext fun a => Fin.ext (by
    match a with
    | ⟨0, _⟩ => exact (rhsS_0 _ _).trans hk
    | ⟨1, _⟩ => exact rhsS_1 _ _)
  rw [el, er, pay3_apply]

/-- The counts' update: what was there plus, over the block's rows, the one-hot factor (times one). -/
theorem pay5_apply (ids : Vec Ideal S5000x1 .i32) (s : Vec Ideal S64x1 .f32) (g : Fin 64) :
    k6_pay5 (F := Ideal) ids s (ix2 g 0) = s (ix2 g 0) + ∑ r : Fin 5000, ind (ids (ix2 r 0)) g * 1 := by
  unfold k6_pay5
  rw [shapeCast_self]
  show s (ix2 g 0) + FloatOps.matmul dot_S5000x64_S5000x1_S64x1_0_0_1_1_n_n (some .fp32) (k6_pay3 (F := Ideal) ids)
    (broadcast S5000x1 (Scalar.ofBits (F := Ideal) .f32 0x3F800000#32)) (constant S64x1 .f32 0x00000000#32) (ix2 g 0) = _
  rw [Ideal.matmul_constant_zero_apply, ← Equiv.sum_comp (contrEquiv1 dot_S5000x64_S5000x1_S64x1_0_0_1_1_n_n 5000 rfl rfl).symm]
  refine congrArg (s (ix2 g 0) + ·) (Finset.sum_congr rfl fun k _ => ?_)
  have hk := contrEquiv1_symm_val dot_S5000x64_S5000x1_S64x1_0_0_1_1_n_n 5000 rfl rfl k
  have el : dot_S5000x64_S5000x1_S64x1_0_0_1_1_n_n.lhsIdx (ix2 g 0) ((contrEquiv1 dot_S5000x64_S5000x1_S64x1_0_0_1_1_n_n 5000 rfl rfl).symm k) = ix2 k g := funext fun a => Fin.ext (by
    match a with
    | ⟨0, _⟩ => exact (lhsC_0 _ _).trans hk
    | ⟨1, _⟩ => exact lhsC_1 _ _)
  rw [el, pay3_apply]
  exact congrArg (ind (ids (ix2 k 0)) g * ·) ofBits_one_f32

/-- The output: the sums over the counts raised to at least one, the count of graph g shared by its two columns. -/
theorem pay6_apply (s : Vec Ideal S64x2 .f32) (n : Vec Ideal S64x1 .f32) (g : Fin 64) (d : Fin 2) :
    k6_pay6 (F := Ideal) s n (ix2 g d) = Ideal.div (s (ix2 g d)) (max (n (ix2 g 0)) 1) := by
  unfold k6_pay6
  show Ideal.div (s (ix2 g d)) (broadcastTo S64x2 (maximumf n (broadcast S64x1 (Scalar.ofBits (F := Ideal) .f32 0x3F800000#32))) broadcasts_S64x1_S64x2 (ix2 g d)) = _
  rw [broadcastTo_apply _ broadcasts_S64x1_S64x2 (ix2 g d) (ix2 g 0) (fun a => by
    match a with
    | ⟨0, _⟩ => rfl
    | ⟨1, _⟩ => rfl)]
  exact congrArg (fun z => Ideal.div (s (ix2 g d)) (max (n (ix2 g 0)) z)) ofBits_one_f32

/-- The reset values: zero everywhere. -/
theorem pay1_apply (j : S64x2.Idx) : k6_pay1 (F := Ideal) j = 0 := by
  unfold k6_pay1
  rw [shapeCast_self]
  exact Ideal.ofBits_zero_f32
theorem pay2_apply (j : S64x1.Idx) : k6_pay2 (F := Ideal) j = 0 := by
  unfold k6_pay2
  rw [shapeCast_self]
  exact Ideal.ofBits_zero_f32

end Cert.KernelIdeal.Val.Pool6

end
-- ==== Proof.Val.Pool6.lean ====
/-
  The value of the mean-pool region at the ideal instance (floats are extended reals, every operation exact): after it,
  the 64 × 2 result array holds the mean pool of the node features by the graph ids, as the reference's host operations
  compute it (per-graph sums of the rows scattered by id, over the per-graph counts raised to at least one).

  The kernel side. The grid walks the 20 row blocks of 5000 rows in order; block t's element (r, d) is the array's element
  (5000 t + r, d). Numbering the rows along the whole array, the carried sums after point n are the contributions
  onehot (id p, g) · h (p, d) of the rows p < 5000 (n + 1) — by induction on n, regrouping the sum block by block (addition
  on the extended reals commutes and associates; no distributivity is used, so nothing is asked of the data) — and the
  carried counts likewise with h replaced by 1. The output block is the whole array and is written back at the last point
  only, so the array ends at sums / max counts 1 over all 100000 rows.

  The reference side. The accumulating scatter adds row p's update to the element its start index names: the id read
  SIGNED, not clamped, plus the window coordinate; an update landing outside the operand contributes nothing. So element
  (g, d) of the sums is zero plus h (p, d) over the rows whose id read signed is g, and the counts likewise with ones.

  The join. The kernel compares 32-bit words with the column numbers 0 … 63; a word equals the word of g < 64 exactly
  when it reads g as a signed integer, so the two conditions agree for EVERY id (one outside 0 … 63, negative included,
  matches no column and lands outside the operand); 1 · x = x and 0 · x = 0 for every extended real x.
-/
import proofs.«405960_j60713657696826_2_alg».proof.Proof.Val.Pool6a
import proofs.«405960_j60713657696826_2_alg».proof.Proof.KI.Reg6Defs
import proofs.«405960_j60713657696826_2_alg».proof.Proof.Val.Spec
import proofs.«405960_j60713657696826_2_alg».proof.Proof.Gen.KernelIdeal.Points
import proofs.«405960_j60713657696826_2_alg».proof.Proof.Gen.KernelIdeal.Skeleton
import Idealize.ShloMosaic.PureOps.Ideal
import Idealize.ShloMosaic.PureOps.Ideal.Laws
import Idealize.ShloMosaic.Lib.ValueIdx
import Idealize.ShloMosaic.Lib.ValueIdxRank1
import Idealize.ShloMosaic.Lib.Pipeline.Value

noncomputable section

namespace Cert.KernelIdeal.Val.Pool6

open Cert.KernelIdeal Cert.KernelIdeal.Gen Cert.KernelIdeal.Fr
open Idealize.ShloMosaic Idealize.ShloMosaic.TcCoe Idealize.ShloMosaic.ValueIdx
open Idealize.ShloMosaic.Pipeline (Dat)
open scoped BigOperators

variable (V : (c : Dev nD) → (b : Ref sig .tc) → Buf (Elt Ideal) ((c : Thread nD τ).loc b))

/-! ## The windows' blocks, read off the arrays

The grid's point t fetches row block t of the features and of the ids: element (r, d) of the block is element
(5000 t + r, d) of the array (block index times block size plus the coordinate inside the block). -/

theorem idx6_0 : ∀ t : Fin grid6.N, win6_0.index t 0 = t.val ∧ win6_0.index t 1 = 0 := by decide +kernel
theorem idx6_1 : ∀ t : Fin grid6.N, win6_1.index t 0 = t.val ∧ win6_1.index t 1 = 0 := by decide +kernel

theorem iblk6_0_apply (c : Dev nD) (t : Fin cfg6.N) (r : Fin 5000) (d : Fin 2) (hp : 5000 * t.val + r.val < 100000) :
    (iblk6 (F := Ideal) V c 0 t : Vec Ideal S5000x2 .f32) (ix2 r d)
      = (V c main_v75 : FVec Ideal S100000x2 .f32) (ix2 ⟨5000 * t.val + r.val, hp⟩ d) := by
  unfold iblk6
  rw [View.read_apply]
  show V c main_v75 _ = V c main_v75 _
  refine congrArg (V c main_v75) (funext fun a => Fin.ext ?_)
  match a with
  | ⟨0, _⟩ => show win6_0.index t 0 * 5000 + 1 * r.val = 5000 * t.val + r.val; rw [(idx6_0 t).1]; omega
  | ⟨1, _⟩ => show win6_0.index t 1 * 2 + 1 * d.val = d.val; rw [(idx6_0 t).2]; omega

theorem iblk6_1_apply (c : Dev nD) (t : Fin cfg6.N) (r : Fin 5000) (hp : 5000 * t.val + r.val < 100000) :
    (iblk6 (F := Ideal) V c 1 t : Vec Ideal S5000x1 .i32) (ix2 r 0)
      = (V c main_v76 : IVec S100000x1 32) (ix2 ⟨5000 * t.val + r.val, hp⟩ 0) := by
  unfold iblk6
  rw [View.read_apply]
  show V c main_v76 _ = V c main_v76 _
  refine congrArg (V c main_v76) (funext fun a => Fin.ext ?_)
  match a with
  | ⟨0, _⟩ => show win6_1.index t 0 * 5000 + 1 * r.val = 5000 * t.val + r.val; rw [(idx6_1 t).1]; omega
  | ⟨1, _⟩ => show win6_1.index t 1 * 1 + 1 * 0 = 0; rw [(idx6_1 t).2]

/-! ## The carried sums and counts in closed form

Rows are numbered along the whole array; the sums after point n are the contributions of the rows below 5000 (n + 1),
added up in any order (the extended reals' addition commutes and associates). -/

/-- Row p's contribution to graph g's sum in column d (nothing past the array's end). -/
def termS (X : FVec Ideal S100000x2 .f32) (I : IVec S100000x1 32) (g : Fin 64) (d : Fin 2) (p : ℕ) : EReal :=
  if h : p < 100000 then ind (I (ix2 ⟨p, h⟩ 0)) g * X (ix2 ⟨p, h⟩ d) else 0

/-- Row p's contribution to graph g's count. -/
def termC (I : IVec S100000x1 32) (g : Fin 64) (p : ℕ) : EReal :=
  if h : p < 100000 then ind (I (ix2 ⟨p, h⟩ 0)) g * 1 else 0

theorem N6 : cfg6.N = 20 := N_6

theorem blockS (c : Dev nD) (t : Fin cfg6.N) (g : Fin 64) (d : Fin 2) :
    ∑ r : Fin 5000, ind ((iblk6 (F := Ideal) V c 1 t : Vec Ideal S5000x1 .i32) (ix2 r 0)) g
        * (iblk6 (F := Ideal) V c 0 t : Vec Ideal S5000x2 .f32) (ix2 r d)
      = ∑ r ∈ Finset.range 5000, termS (V c main_v75) (V c main_v76) g d (5000 * t.val + r) := by
  rw [← Fin.sum_univ_eq_sum_range (fun r => termS (V c main_v75) (V c main_v76) g d (5000 * t.val + r)) 5000]
  refine Finset.sum_congr rfl fun r _ => ?_
  have hp : 5000 * t.val + r.val < 100000 := by have ht : t.val < 20 := lt_of_lt_of_eq t.isLt N6; have := r.isLt; omega
  unfold termS
  rw [dif_pos hp, iblk6_0_apply V c t r d hp, iblk6_1_apply V c t r hp]

theorem blockC (c : Dev nD) (t : Fin cfg6.N) (g : Fin 64) :
    ∑ r : Fin 5000, ind ((iblk6 (F := Ideal) V c 1 t : Vec Ideal S5000x1 .i32) (ix2 r 0)) g * 1
      = ∑ r ∈ Finset.range 5000, termC (V c main_v76) g (5000 * t.val + r) := by
  rw [← Fin.sum_univ_eq_sum_range (fun r => termC (V c main_v76) g (5000 * t.val + r)) 5000]
  refine Finset.sum_congr rfl fun r _ => ?_
  have hp : 5000 * t.val + r.val < 100000 := by have ht : t.val < 20 := lt_of_lt_of_eq t.isLt N6; have := r.isLt; omega
  unfold termC
  rw [dif_pos hp, iblk6_1_apply V c t r hp]

theorem acc6_sums (c : Dev nD) (g : Fin 64) (d : Fin 2) : ∀ (n : ℕ) (hn : n < cfg6.N),
    (acc6 (F := Ideal) V c n hn).1 (ix2 g d) = ∑ p ∈ Finset.range (5000 * (n + 1)), termS (V c main_v75) (V c main_v76) g d p
  | 0, hn => by
    rw [acc6_zero]
    refine (pay4_apply _ _ _ g d).trans ?_
    rw [pay1_apply, zero_add, blockS V c ⟨0, hn⟩ g d]
    simp only [Nat.mul_zero, Nat.zero_add, Nat.mul_one]
  | n + 1, hn => by
    rw [acc6_succ]
    refine (pay4_apply _ _ _ g d).trans ?_
    rw [acc6_sums c g d n (Nat.lt_of_succ_lt hn), blockS V c ⟨n + 1, hn⟩ g d,
      show 5000 * (n + 1 + 1) = 5000 * (n + 1) + 5000 by omega, Finset.sum_range_add]

theorem acc6_counts (c : Dev nD) (g : Fin 64) : ∀ (n : ℕ) (hn : n < cfg6.N),
    (acc6 (F := Ideal) V c n hn).2 (ix2 g 0) = ∑ p ∈ Finset.range (5000 * (n + 1)), termC (V c main_v76) g p
  | 0, hn => by
    rw [acc6_zero]
    refine (pay5_apply _ _ g).trans ?_
    rw [pay2_apply, zero_add, blockC V c ⟨0, hn⟩ g]
    simp only [Nat.mul_zero, Nat.zero_add, Nat.mul_one]
  | n + 1, hn => by
    rw [acc6_succ]
    refine (pay5_apply _ _ g).trans ?_
    rw [acc6_counts c g n (Nat.lt_of_succ_lt hn), blockC V c ⟨n + 1, hn⟩ g,
      show 5000 * (n + 1 + 1) = 5000 * (n + 1) + 5000 by omega, Finset.sum_range_add]

/-! ## The output array

Window 2's block is the whole 64 × 2 array at every point and is written back at the last point only, so the array
after the region is what the body left in the staging buffer there. Stated for any contents G left there. -/

/-- The last point of the grid. -/
abbrev t19 : Fin cfg6.N := ⟨19, by rw [N6]; decide⟩

theorem flush6_2_last (t : Fin cfg6.N) (hf : (cfg6.win 2).flush t = true) : t = t19 := by
  have h := (flush6_2 t).mp hf
  have ht : t.val < 20 := lt_of_lt_of_eq t.isLt N6
  exact Fin.ext (by show t.val = 19; omega)

theorem off6_2 : (fun a => win6_2.index t19 a * main_v77.ty.shape.size a) = fun _ => 0 :=
  funext fun a => by fin_cases a <;> decide +kernel

theorem flushed6_2 (c : Dev nD) (G : Buf (Elt Ideal) ((c : Thread nD τ).loc main_v77))
    (hG : (dat6 (F := Ideal) V c).after 2 t19 = G) (t : Fin cfg6.N) (hf : (cfg6.win 2).flush t = true) :
    (dat6 (F := Ideal) V c).flushed 2 t = ((cfg6.win 2).blk t).view.read (Elt Ideal) G := by
  obtain rfl : t = t19 := flush6_2_last t hf
  show (cfg6.win 2).cut (grid6.coords t19) ((dat6 (F := Ideal) V c).after 2 t19) = _
  rw [hG]
  exact (Memref.read_access_unit_zero (Elt Ideal) main_v77 off6_2 (fun a => by rw [congrFun off6_2 a]; simp) G).symm

/-- Window 2's block at the last point starts at the array's origin and has the array's extents, on each axis. -/
theorem blk6_2 : ∀ a : Fin 2, win6_2.index t19 a * win6_2.size a = 0 ∧ win6_2.xsize (grid6.coords t19) a = S64x2.size a := by
  decide +kernel

/-- So every index of the 64 × 2 array lies in the block of the last point. -/
theorem cover6_2 (i : S64x2.Idx) : i ∈ (win6_2.rect t19).set := by
  rw [Rect.mem_set_unit]
  intro a
  show win6_2.index t19 a * win6_2.size a ≤ (i a : ℕ)
    ∧ (i a : ℕ) < win6_2.index t19 a * win6_2.size a + win6_2.xsize (grid6.coords t19) a
  rw [(blk6_2 a).1, (blk6_2 a).2, Nat.zero_add]
  exact ⟨Nat.zero_le _, (i a).isLt⟩

/-- The array after the region is what the body left in window 2's staging buffer at the last point. -/
theorem arr6_2 (c : Dev nD) (G : Buf (Elt Ideal) ((c : Thread nD τ).loc main_v77))
    (hG : (dat6 (F := Ideal) V c).after 2 t19 = G) : (dat6 (F := Ideal) V c).arrAt 2 cfg6.N = G :=
  (dat6 (F := Ideal) V c).arrAt_eq_of_cover 2 G (flushed6_2 V c G hG) fun i =>
    ⟨t19, (flush6_2 t19).mpr rfl, by
      show i ∈ ((View.whole main_v77).slice (win6_2.rect t19)).set
      rw [View.set_slice_whole]
      exact cover6_2 i⟩

/-- What the body leaves in the output's staging buffer at the last point, element (g, d): every row's contribution to
    graph g's sum in column d, over every row's contribution to its count raised to at least one. -/
theorem out6_apply (c : Dev nD) (g : Fin 64) (d : Fin 2) :
    out6_2 (F := Ideal) V c t19 (ix2 g d)
      = Ideal.div (∑ p ∈ Finset.range 100000, termS (V c main_v75) (V c main_v76) g d p)
          (max (∑ p ∈ Finset.range 100000, termC (V c main_v76) g p) 1) := by
  unfold out6_2
  refine (pay6_apply _ _ g d).trans ?_
  rw [acc6_sums V c g d 19 t19.isLt, acc6_counts V c g 19 t19.isLt]

/-! ## The reference's scatters read at an index -/

/-- The dimension numbers of the sums' scatter and of the counts' scatter. -/
abbrev dS : ScatterDims Cert.ReferenceIdeal.S64x2 Cert.ReferenceIdeal.S100000x1 Cert.ReferenceIdeal.S100000x2 :=
  Cert.ReferenceIdeal.scatter_S64x2_S100000x1_S100000x2_1_0_0_1
abbrev dC : ScatterDims Cert.ReferenceIdeal.S64 Cert.ReferenceIdeal.S100000x1 Cert.ReferenceIdeal.S100000 :=
  Cert.ReferenceIdeal.scatter_S64_S100000x1_S100000_n_0_0_1

theorem siIdxS (p : Fin 100000) (e : Fin 2) (c : Fin dS.scatterDimsToOperandDims.length) :
    dS.siIdx (ix2 p e) c = ix2 p 0 := by
  funext b
  match b with
  | ⟨0, _⟩ => rfl
  | ⟨1, _⟩ => exact Fin.ext (by show c.val = 0; have h : c.val < 1 := c.isLt; omega)

theorem startS_0 (I : IVec Cert.ReferenceIdeal.S100000x1 32) (p : Fin 100000) (e : Fin 2) :
    dS.start (ix2 p e) I 0 = (I (ix2 p 0)).toInt := by
  unfold ScatterDims.start
  rw [dif_pos (show (0 : Fin 2) ∈ dS.scatterDimsToOperandDims from List.mem_singleton.mpr rfl), siIdxS]

theorem startS_1 (I : IVec Cert.ReferenceIdeal.S100000x1 32) (p : Fin 100000) (e : Fin 2) :
    dS.start (ix2 p e) I 1 = 0 := by
  unfold ScatterDims.start
  rw [dif_neg (show ¬ (1 : Fin 2) ∈ dS.scatterDimsToOperandDims by decide)]

theorem windowS_0 (p : Fin 100000) (e : Fin 2) : dS.window (ix2 p e) 0 = 0 := by
  unfold ScatterDims.window
  rw [dif_neg (show ¬ (0 : Fin 2) ∈ dS.sKept by decide)]

theorem windowS_1 (p : Fin 100000) (e : Fin 2) : dS.window (ix2 p e) 1 = e.val := by
  unfold ScatterDims.window
  rw [dif_pos (show (1 : Fin 2) ∈ dS.sKept by decide)]
  rfl

/-- Row p's update in column e lands on element (g, d) of the sums exactly when the row's id, read signed, is g and
    e is d; an id outside 0 … 63 lands nowhere. -/
theorem resS_iff (I : IVec Cert.ReferenceIdeal.S100000x1 32) (p : Fin 100000) (e : Fin 2) (g : Fin 64) (d : Fin 2) :
    dS.resultIdx? (ix2 p e) I = some (ix2 g d) ↔ (I (ix2 p 0)).toInt = (g.val : ℤ) ∧ e = d := by
  have hg : g.val < 64 := g.isLt
  have he : e.val < 2 := e.isLt
  unfold ScatterDims.resultIdx?
  constructor
  · intro h
    split at h
    · rename_i H
      have hf := Option.some.inj h
      have h0 : (dS.start (ix2 p e) I 0 + dS.window (ix2 p e) 0).toNat = g.val := congrArg (fun f => (f 0).val) hf
      have h1 : (dS.start (ix2 p e) I 1 + dS.window (ix2 p e) 1).toNat = d.val := congrArg (fun f => (f 1).val) hf
      have H0 := (H 0).1
      rw [startS_0, windowS_0] at h0 H0
      rw [startS_1, windowS_1] at h1
      exact ⟨by omega, Fin.ext (by omega)⟩
    · exact absurd h (by simp)
  · rintro ⟨hw, rfl⟩
    have H : ∀ a, 0 ≤ dS.start (ix2 p e) I a + (dS.window (ix2 p e) a : ℤ)
        ∧ dS.start (ix2 p e) I a + (dS.window (ix2 p e) a : ℤ) < (Cert.ReferenceIdeal.S64x2.size a : ℤ) := fun a => by
      match a with
      | ⟨0, _⟩ =>
        show 0 ≤ dS.start (ix2 p e) I 0 + (dS.window (ix2 p e) 0 : ℤ) ∧ dS.start (ix2 p e) I 0 + (dS.window (ix2 p e) 0 : ℤ) < ((64 : ℕ) : ℤ)
        rw [startS_0, windowS_0, hw]; omega
      | ⟨1, _⟩ =>
        show 0 ≤ dS.start (ix2 p e) I 1 + (dS.window (ix2 p e) 1 : ℤ) ∧ dS.start (ix2 p e) I 1 + (dS.window (ix2 p e) 1 : ℤ) < ((2 : ℕ) : ℤ)
        rw [startS_1, windowS_1]; omega
    rw [dif_pos H]
    refine congrArg some (funext fun a => Fin.ext ?_)
    match a with
    | ⟨0, _⟩ =>
      show (dS.start (ix2 p e) I 0 + (dS.window (ix2 p e) 0 : ℤ)).toNat = g.val
      rw [startS_0, windowS_0, hw]; omega
    | ⟨1, _⟩ =>
      show (dS.start (ix2 p e) I 1 + (dS.window (ix2 p e) 1 : ℤ)).toNat = e.val
      rw [startS_1, windowS_1]; omega

theorem siIdxC (p : Fin 100000) (c : Fin dC.scatterDimsToOperandDims.length) :
    dC.siIdx (ix1 p) c = ix2 p 0 := by
  funext b
  match b with
  | ⟨0, _⟩ => rfl
  | ⟨1, _⟩ => exact Fin.ext (by show c.val = 0; have h : c.val < 1 := c.isLt; omega)

theorem startC_0 (I : IVec Cert.ReferenceIdeal.S100000x1 32) (p : Fin 100000) :
    dC.start (ix1 p) I 0 = (I (ix2 p 0)).toInt := by
  unfold ScatterDims.start
  rw [dif_pos (show (0 : Fin 1) ∈ dC.scatterDimsToOperandDims from List.mem_singleton.mpr rfl), siIdxC]

theorem windowC_0 (p : Fin 100000) : dC.window (ix1 p) 0 = 0 := by
  unfold ScatterDims.window
  rw [dif_neg (show ¬ (0 : Fin 1) ∈ dC.sKept by decide)]

/-- Row p's unit lands on element g of the counts exactly when the row's id, read signed, is g. -/
theorem resC_iff (I : IVec Cert.ReferenceIdeal.S100000x1 32) (p : Fin 100000) (g : Fin 64) :
    dC.resultIdx? (ix1 p) I = some (ix1 g) ↔ (I (ix2 p 0)).toInt = (g.val : ℤ) := by
  have hg : g.val < 64 := g.isLt
  unfold ScatterDims.resultIdx?
  constructor
  · intro h
    split at h
    · rename_i H
      have hf := Option.some.inj h
      have h0 : (dC.start (ix1 p) I 0 + dC.window (ix1 p) 0).toNat = g.val := congrArg (fun f => (f 0).val) hf
      have H0 := (H 0).1
      rw [startC_0, windowC_0] at h0 H0
      omega
    · exact absurd h (by simp)
  · intro hw
    have H : ∀ a, 0 ≤ dC.start (ix1 p) I a + (dC.window (ix1 p) a : ℤ)
        ∧ dC.start (ix1 p) I a + (dC.window (ix1 p) a : ℤ) < (Cert.ReferenceIdeal.S64.size a : ℤ) := fun a => by
      match a with
      | ⟨0, _⟩ =>
        show 0 ≤ dC.start (ix1 p) I 0 + (dC.window (ix1 p) 0 : ℤ) ∧ dC.start (ix1 p) I 0 + (dC.window (ix1 p) 0 : ℤ) < ((64 : ℕ) : ℤ)
        rw [startC_0, windowC_0, hw]; omega
    rw [dif_pos H]
    refine congrArg some (funext fun a => Fin.ext ?_)
    match a with
    | ⟨0, _⟩ =>
      show (dC.start (ix1 p) I 0 + (dC.window (ix1 p) 0 : ℤ)).toNat = g.val
      rw [startC_0, windowC_0, hw]; omega

/-- A 32-bit word equals the word of a graph number g < 64 exactly when, read signed, it is g: the kernel compares
    words, the reference reads the index signed. -/
theorem word_iff (w : BitVec 32) (g : Fin 64) : w = BitVec.ofNat 32 g.val ↔ w.toInt = (g.val : ℤ) := by
  have hg : g.val < 64 := g.isLt
  have e : (BitVec.ofNat 32 g.val).toInt = (g.val : ℤ) := by
    rw [BitVec.toInt_eq_toNat_cond, BitVec.toNat_ofNat]
    have : g.val % 2 ^ 32 = g.val := Nat.mod_eq_of_lt (by omega)
    rw [this, if_pos (by omega)]
  rw [← BitVec.toInt_inj, e]

/-- The one-hot factor times a value: the value when the id read signed is g, else zero — for every extended real. -/
theorem ind_mul (w : BitVec 32) (g : Fin 64) (x : EReal) : ind w g * x = if w.toInt = (g.val : ℤ) then x else 0 := by
  unfold ind
  by_cases h : w = BitVec.ofNat 32 g.val
  · rw [if_pos h, if_pos ((word_iff w g).mp h), one_mul]
  · rw [if_neg h, if_neg (fun h' => h ((word_iff w g).mpr h')), zero_mul]

/-- The reference's per-graph sums at (g, d): zero plus the features, in column d, of the rows whose id read signed is g. -/
theorem poolSums_apply (X : FVec Ideal Cert.ReferenceIdeal.S100000x2 .f32) (I : IVec Cert.ReferenceIdeal.S100000x1 32) (g : Fin 64) (d : Fin 2) :
    Cert.Spec.poolSums X I (ix2 g d) = ∑ p : Fin 100000, if (I (ix2 p 0)).toInt = (g.val : ℤ) then X (ix2 p d) else 0 := by
  unfold Cert.Spec.poolSums Host.scatterAdd
  rw [Ideal.hostScatterAdd_def]
  unfold Ideal.hostScatterAdd
  refine (congrArg (· + _) (show _ = (0 : EReal) from Ideal.ofBits_zero_f32)).trans ?_
  rw [zero_add, Finset.sum_filter, sum_idx2]
  refine Finset.sum_congr rfl fun p _ => ?_
  have hstep : ∀ e : Fin 2,
      (if dS.resultIdx? (ix2 p e) I = some (ix2 g d) then X (ix2 p e) else 0)
        = if e = d then (if (I (ix2 p 0)).toInt = (g.val : ℤ) then X (ix2 p d) else 0) else 0 := fun e => by
    by_cases he : e = d
    · subst he
      rw [if_pos rfl]
      exact if_congr ((resS_iff I p e g e).trans (and_iff_left rfl)) rfl rfl
    · rw [if_neg he, if_neg (fun h => he ((resS_iff I p e g d).mp h).2)]
  rw [Finset.sum_congr rfl fun e _ => hstep e, Finset.sum_ite_eq' Finset.univ d, if_pos (Finset.mem_univ d)]

/-- The reference's per-graph counts at g: zero plus one for every row whose id read signed is g. -/
theorem poolCounts_apply (I : IVec Cert.ReferenceIdeal.S100000x1 32) (g : Fin 64) :
    Cert.Spec.poolCounts I (ix1 g) = ∑ p : Fin 100000, if (I (ix2 p 0)).toInt = (g.val : ℤ) then (1 : EReal) else 0 := by
  unfold Cert.Spec.poolCounts Host.scatterAdd
  rw [Ideal.hostScatterAdd_def]
  unfold Ideal.hostScatterAdd
  refine (congrArg (· + _) (show _ = (0 : EReal) from Ideal.ofBits_zero_f32)).trans ?_
  rw [zero_add, Finset.sum_filter, ← Equiv.sum_comp (idxEquiv1 (n := 100000)).symm]
  refine Finset.sum_congr rfl fun p _ => ?_
  show (if dC.resultIdx? (ix1 p) I = some (ix1 g) then Ideal.ofBits .f32 0x3F800000#32 else 0) = _
  rw [ofBits_one_f32]
  exact if_congr (resC_iff I p g) rfl rfl

/-- The mean pool at (g, d): the sums over the counts raised to at least one. -/
theorem pool_apply (X : FVec Ideal Cert.ReferenceIdeal.S100000x2 .f32) (I : IVec Cert.ReferenceIdeal.S100000x1 32) (g : Fin 64) (d : Fin 2) :
    Cert.Spec.pool X I (ix2 g d) = Ideal.div (Cert.Spec.poolSums X I (ix2 g d)) (max (Cert.Spec.poolCounts I (ix1 g)) 1) := by
  unfold Cert.Spec.pool Host.divf
  rw [Ideal.hostDivf_def]
  rw [broadcastInDim_apply _ _ _ (ix2 g d) (ix2 g 0) (fun a => by
    match a with
    | ⟨0, _⟩ => rfl
    | ⟨1, _⟩ => rfl)]
  rw [broadcastInDim_apply _ _ _ (ix2 g 0) (ix1 g) (fun a => by
    match a with
    | ⟨0, _⟩ => rfl)]
  exact congrArg (fun z => Ideal.div (Cert.Spec.poolSums X I (ix2 g d)) (max (Cert.Spec.poolCounts I (ix1 g)) z)) ofBits_one_f32

/-! ## The two sides joined -/

/-- The kernel's row contributions, numbered along the array, are the reference's: the one-hot factor times the feature is
    the feature where the id read signed is g and zero elsewhere. -/
theorem sumS_eq (X : FVec Ideal S100000x2 .f32) (I : IVec S100000x1 32) (g : Fin 64) (d : Fin 2) :
    ∑ p ∈ Finset.range 100000, termS X I g d p = ∑ p : Fin 100000, if (I (ix2 p 0)).toInt = (g.val : ℤ) then X (ix2 p d) else 0 := by
  rw [← Fin.sum_univ_eq_sum_range (termS X I g d) 100000]
  refine Finset.sum_congr rfl fun p _ => ?_
  unfold termS
  rw [dif_pos p.isLt]
  exact ind_mul _ g _

theorem sumC_eq (I : IVec S100000x1 32) (g : Fin 64) :
    ∑ p ∈ Finset.range 100000, termC I g p = ∑ p : Fin 100000, if (I (ix2 p 0)).toInt = (g.val : ℤ) then (1 : EReal) else 0 := by
  rw [← Fin.sum_univ_eq_sum_range (termC I g) 100000]
  refine Finset.sum_congr rfl fun p _ => ?_
  unfold termC
  rw [dif_pos p.isLt]
  exact ind_mul _ g _

end Cert.KernelIdeal.Val.Pool6

namespace Cert.KernelIdeal.Val

open Cert.KernelIdeal Cert.KernelIdeal.Gen Cert.KernelIdeal.Fr
open Idealize.ShloMosaic Idealize.ShloMosaic.TcCoe Idealize.ShloMosaic.ValueIdx
open Idealize.ShloMosaic.Pipeline (Dat)
open scoped BigOperators
open Cert.KernelIdeal.Val.Pool6

variable (V : (c : Dev nD) → (b : Ref sig .tc) → Buf (Elt Ideal) ((c : Thread nD τ).loc b))

/-- The value of the mean-pool region: after it, the 64 × 2 result array holds the mean pool of the features by the graph
    ids, as the reference's host operations compute it. -/
theorem final6 (c : Dev nD) : (dat6 (F := Ideal) V c).arrAt 2 cfg6.N = Cert.Spec.pool (V c main_v75) (V c main_v76) := by
  refine arr6_2 V c _ ?_
  rw [after6_2]
  funext j
  obtain ⟨g, d, rfl⟩ : ∃ (g : Fin 64) (d : Fin 2), j = ix2 g d := ⟨j 0, j 1, eq_ix2 j⟩
  rw [out6_apply V c g d, sumS_eq, sumC_eq]
  refine Eq.trans ?_ (pool_apply _ _ g d).symm
  rw [poolSums_apply, poolCounts_apply]

end Cert.KernelIdeal.Val

end
-- ==== Proof.lean ====
/-
  The certificate's claim, assembled.

  The program: three graph-convolution layers and a mean pool over 100000 nodes. Each layer is a feature transform
  h = X·W (a kernel region, one row block of 5000 nodes per grid point), a neighbourhood aggregation by gather and
  scatter-add on the host, and an elementwise combine agg + h·dinv² + b (a kernel region), with the positive part after
  the first two layers; the pool (a kernel region) accumulates per-graph sums and counts over the 20 row blocks as
  products with a one-hot matrix of the graph ids and divides at the last point. The reference computes the same on the
  host with whole-array operations.

  Frames: both forms of the kernel program run as their twelve items in order (five host stretches, seven regions); every
  argument array ends as launched because no item writes one. The reference's frame is its run with the result dropped.

  Equivalence at the ideal instance (floats are extended reals, operations exact): region by region the kernel's output
  array is the reference's stage — a block-wise product with a zero accumulator is the host's contraction; the combine is
  the same expression element by element; the one-hot products summed over the blocks are the scatter-add's per-graph
  sums, since multiplying by 0 or 1 and regrouping a sum hold for every extended real — and the host stretches between
  the regions are the reference's own operations on those arrays. The result is compared with the reference's run term.
-/
import proofs.«405960_j60713657696826_2_alg».proof.Defs
import proofs.«405960_j60713657696826_2_alg».proof.Proof.Gen.Kernel
import proofs.«405960_j60713657696826_2_alg».proof.Proof.Gen.KernelIdeal
import proofs.«405960_j60713657696826_2_alg».proof.Proof.Gen.ReferenceIdeal
import proofs.«405960_j60713657696826_2_alg».proof.Proof.Gen.Pre_finite_inputs
import proofs.«405960_j60713657696826_2_alg».proof.Proof.K.Keep
import proofs.«405960_j60713657696826_2_alg».proof.Proof.KI.Keep
import proofs.«405960_j60713657696826_2_alg».proof.Proof.Ref.Imports
import proofs.«405960_j60713657696826_2_alg».proof.Proof.Val.Edge
import proofs.«405960_j60713657696826_2_alg».proof.Proof.Val.Layer1
import proofs.«405960_j60713657696826_2_alg».proof.Proof.Val.Layer2
import proofs.«405960_j60713657696826_2_alg».proof.Proof.Val.Layer3
import proofs.«405960_j60713657696826_2_alg».proof.Proof.Val.PoolEnd
import proofs.«405960_j60713657696826_2_alg».proof.Proof.Val.Pool6
import Idealize.ShloMosaic.Adequacy
import Idealize.ShloMosaic.Init

set_option maxRecDepth 16384

noncomputable section

namespace Cert.Proof

open Idealize.ShloMosaic Idealize.ShloMosaic.TcCoe Idealize.SL.Sem

/-- The word-level program's frame. -/
theorem frame_k : Cert.frame_Kernel := fun m ρ _ => Cert.Kernel.Fr.frame m ρ

/-- The idealized program's frame. -/
theorem frame_ki : Cert.frame_KernelIdeal := fun m ρ _ => Cert.KernelIdeal.Fr.frame m ρ

/-- The reference's frame: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- At the ideal instance the kernel program's result buffer ends at the reference's last stage of the same arguments:
    the three layers and the pool, one after the other. -/
theorem result_eq (m : (ℓ : Loc Cert.KernelIdeal.nD Cert.KernelIdeal.τ Cert.KernelIdeal.sig) → Buf (Elt Ideal) ℓ) (c : Dev Cert.KernelIdeal.nD) :
    Cert.KernelIdeal.Fr.W12 (F := Ideal) m c (Proc.devRef .tc Cert.KernelIdeal.main_v77)
      = Cert.ReferenceIdeal.Read.val_main_v149 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) :=
  Cert.KernelIdeal.Val.pool_end m c (fun V c => Cert.KernelIdeal.Val.final6 V c)
    (Cert.KernelIdeal.Val.layer3 m c (Cert.KernelIdeal.Val.edge_src m c) (Cert.KernelIdeal.Val.edge_dst m c) (Cert.KernelIdeal.Val.edge_norm m c) (Cert.KernelIdeal.Val.edge_d2 m c)
      (Cert.KernelIdeal.Val.layer2 m c (Cert.KernelIdeal.Val.edge_src m c) (Cert.KernelIdeal.Val.edge_dst m c) (Cert.KernelIdeal.Val.edge_norm m c) (Cert.KernelIdeal.Val.edge_d2 m c)
        (Cert.KernelIdeal.Val.layer1 m c (Cert.KernelIdeal.Val.edge_src m c) (Cert.KernelIdeal.Val.edge_dst m c) (Cert.KernelIdeal.Val.edge_norm m c) (Cert.KernelIdeal.Val.edge_d2 m c))))

/-- The two idealized programs, run from memories agreeing on the arguments, end with equal results. -/
theorem algebraic : Cert.algebraic_KernelIdeal_ReferenceIdeal := by
  intro m ρ m' ρ' _ hagree
  refine ⟨fun c => Cert.KernelIdeal.Fr.W12 (F := Ideal) m c (Proc.devRef .tc Cert.KernelIdeal.main_v77), ?_, ?_⟩
  · exact (θ_run Cert.KernelIdeal.defs _ _).mono (fun r h c =>
      ⟨h c _ (Cert.KernelIdeal.Fr.mem_uc Cert.KernelIdeal.main_v77 (by decide)),
       (h c _ (Cert.KernelIdeal.Fr.mem_uc Cert.KernelIdeal.main_arg0 (by decide))).trans (Cert.KernelIdeal.Fr.W12_main_arg0 m c),
       (h c _ (Cert.KernelIdeal.Fr.mem_uc Cert.KernelIdeal.main_arg1 (by decide))).trans (Cert.KernelIdeal.Fr.W12_main_arg1 m c),
       (h c _ (Cert.KernelIdeal.Fr.mem_uc Cert.KernelIdeal.main_arg2 (by decide))).trans (Cert.KernelIdeal.Fr.W12_main_arg2 m c),
       (h c _ (Cert.KernelIdeal.Fr.mem_uc Cert.KernelIdeal.main_arg3 (by decide))).trans (Cert.KernelIdeal.Fr.W12_main_arg3 m c),
       (h c _ (Cert.KernelIdeal.Fr.mem_uc Cert.KernelIdeal.main_arg4 (by decide))).trans (Cert.KernelIdeal.Fr.W12_main_arg4 m c),
       (h c _ (Cert.KernelIdeal.Fr.mem_uc Cert.KernelIdeal.main_arg5 (by decide))).trans (Cert.KernelIdeal.Fr.W12_main_arg5 m c),
       (h c _ (Cert.KernelIdeal.Fr.mem_uc Cert.KernelIdeal.main_arg6 (by decide))).trans (Cert.KernelIdeal.Fr.W12_main_arg6 m c),
       (h c _ (Cert.KernelIdeal.Fr.mem_uc Cert.KernelIdeal.main_arg7 (by decide))).trans (Cert.KernelIdeal.Fr.W12_main_arg7 m c),
       (h c _ (Cert.KernelIdeal.Fr.mem_uc Cert.KernelIdeal.main_arg8 (by decide))).trans (Cert.KernelIdeal.Fr.W12_main_arg8 m c)⟩)
      (Cert.KernelIdeal.Fr.run_all (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v149_eq, (hagree c).1, (hagree c).2.1, (hagree c).2.2.1, (hagree c).2.2.2.1, (hagree c).2.2.2.2.1,
      (hagree c).2.2.2.2.2.1, (hagree c).2.2.2.2.2.2.1, (hagree c).2.2.2.2.2.2.2.1, (hagree c).2.2.2.2.2.2.2.2]
    exact (result_eq m c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
